-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000 : Shape := ⟨1, ![400000]⟩
abbrev S100000x64 : Shape := ⟨2, ![100000, 64]⟩
abbrev S400000x64 : Shape := ⟨2, ![400000, 64]⟩
abbrev S100000x31 : Shape := ⟨2, ![100000, 31]⟩
abbrev S256x64 : Shape := ⟨2, ![256, 64]⟩
abbrev S64 : Shape := ⟨1, ![64]⟩
abbrev S64x64 : Shape := ⟨2, ![64, 64]⟩
abbrev S31x64 : Shape := ⟨2, ![31, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S100000x31 : S_.BroadcastsInDim S100000x31 (![] : Fin 0 → Fin S100000x31.rank)
  reducesTo_S100000x31_S_d0_1 : S100000x31.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S31x64 : S_.BroadcastsInDim S31x64 (![] : Fin 0 → Fin S31x64.rank)
  reducesTo_S31x64_S_d0_1 : S31x64.ReducesTo [0, 1] S_
  bcast_S_S400000 : S_.BroadcastsInDim S400000 (![] : Fin 0 → Fin S400000.rank)
  reducesTo_S400000_S_d0 : S400000.ReducesTo [0] S_

variable [Facts]

def fn_part5 {F : FTy → Type} [FloatOps F] (main_arg1 : IVec S400000 32) (main_v78 : IVec S_ 1) (main_v84 : IVec S_ 1) : IVec S_ 1 :=
  let main_v85 : IVec S_ 1 := andi main_v78 main_v84
  let main_c_33 : IVec S_ 32 := constantI S_ 32 0#32
  let main_v86 : IVec S400000 32 := broadcastInDim S400000 ![] bcast_S_S400000 main_c_33
  let main_v87 : IVec S400000 1 := cmpi .sge main_arg1 main_v86
  let main_c_34 : IVec S_ 32 := constantI S_ 32 100000#32
  let main_v88 : IVec S400000 32 := broadcastInDim S400000 ![] bcast_S_S400000 main_c_34
  let main_v89 : IVec S400000 1 := cmpi .slt main_arg1 main_v88
  let main_v90 : IVec S400000 1 := andi main_v87 main_v89
  let main_c_35 : IVec S_ 1 := constantI S_ 1 1#1
  let main_v91 : IVec S_ 1 := (fun x v => Host.reduce IntOp.andi x v reducesTo_S400000_S_d0 h_S_) main_v90 main_c_35
  let main_v92 : IVec S_ 1 := andi main_v85 main_v91
  main_v92

def fn_part4 {F : FTy → Type} [FloatOps F] (main_arg0 : IVec S400000 32) (main_arg1 : IVec S400000 32) (main_arg16 : FVec F S256x64 .f32) (main_arg17 : FVec F S64 .f32) (main_v63 : IVec S_ 1) (main_v67 : IVec S_ 1) : IVec S_ 1 :=
  let main_v68 : IVec S_ 1 := andi main_v63 main_v67
  let main_v69 : FVec F S256x64 .f32 := Host.absf main_arg16
  let main_cst_26 : FVec F S_ .f32 := constant S_ .f32 0x7F800000#32
  let main_v70 : FVec F S256x64 .f32 := broadcastInDim S256x64 ![] bcast_S_S256x64 main_cst_26
  let main_v71 : IVec S256x64 1 := cmpf .olt main_v69 main_v70
  let main_c_27 : IVec S_ 1 := constantI S_ 1 1#1
  let main_v72 : IVec S_ 1 := (fun x v => Host.reduce IntOp.andi x v reducesTo_S256x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_c_30 : IVec S_ 32 := constantI S_ 32 0#32
  let main_v79 : IVec S400000 32 := broadcastInDim S400000 ![] bcast_S_S400000 main_c_30
  let main_v80 : IVec S400000 1 := cmpi .sge main_arg0 main_v79
  let main_c_31 : IVec S_ 32 := constantI S_ 32 100000#32
  let main_v81 : IVec S400000 32 := broadcastInDim S400000 ![] bcast_S_S400000 main_c_31
  let main_v82 : IVec S400000 1 := cmpi .slt main_arg0 main_v81
  let main_v83 : IVec S400000 1 := andi main_v80 main_v82
  let main_c_32 : IVec S_ 1 := constantI S_ 1 1#1
  let main_v84 : IVec S_ 1 := (fun x v => Host.reduce IntOp.andi x v reducesTo_S400000_S_d0 h_S_) main_v83 main_c_32
  fn_part5 (F := F) main_arg1 main_v78 main_v84

def fn_part3 {F : FTy → Type} [FloatOps F] (main_arg0 : IVec S400000 32) (main_arg1 : IVec S400000 32) (main_arg13 : FVec F S64 .f32) (main_arg14 : FVec F S256x64 .f32) (main_arg15 : FVec F S64 .f32) (main_arg16 : FVec F S256x64 .f32) (main_arg17 : FVec F S64 .f32) (main_v48 : IVec S_ 1) (main_v49 : FVec F S31x64 .f32) (main_v50 : FVec F S31x64 .f32) : IVec S_ 1 :=
  let main_v51 : IVec S31x64 1 := cmpf .olt main_v49 main_v50
  let main_c_19 : IVec S_ 1 := constantI S_ 1 1#1
  let main_v52 : IVec S_ 1 := (fun x v => Host.reduce IntOp.andi x v reducesTo_S31x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S256x64 .f32 := Host.absf main_arg14
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg0 main_arg1 main_arg16 main_arg17 main_v63 main_v67

def fn_part2 {F : FTy → Type} [FloatOps F] (main_arg0 : IVec S400000 32) (main_arg1 : IVec S400000 32) (main_arg9 : FVec F S256x64 .f32) (main_arg10 : FVec F S64 .f32) (main_arg11 : FVec F S64x64 .f32) (main_arg12 : FVec F S31x64 .f32) (main_arg13 : FVec F S64 .f32) (main_arg14 : FVec F S256x64 .f32) (main_arg15 : FVec F S64 .f32) (main_arg16 : FVec F S256x64 .f32) (main_arg17 : FVec F S64 .f32) (main_v33 : IVec S_ 1) : IVec S_ 1 :=
  let main_v34 : FVec F S256x64 .f32 := Host.absf main_arg9
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S31x64 .f32 := Host.absf main_arg12
  let main_cst_18 : FVec F S_ .f32 := constant S_ .f32 0x7F800000#32
  let main_v50 : FVec F S31x64 .f32 := broadcastInDim S31x64 ![] bcast_S_S31x64 main_cst_18
  fn_part3 (F := F) main_arg0 main_arg1 main_arg13 main_arg14 main_arg15 main_arg16 main_arg17 main_v48 main_v49 main_v50

def fn_part1 {F : FTy → Type} [FloatOps F] (main_arg0 : IVec S400000 32) (main_arg1 : IVec S400000 32) (main_arg6 : FVec F S100000x64 .f32) (main_arg7 : FVec F S256x64 .f32) (main_arg8 : FVec F S64 .f32) (main_arg9 : FVec F S256x64 .f32) (main_arg10 : FVec F S64 .f32) (main_arg11 : FVec F S64x64 .f32) (main_arg12 : FVec F S31x64 .f32) (main_arg13 : FVec F S64 .f32) (main_arg14 : FVec F S256x64 .f32) (main_arg15 : FVec F S64 .f32) (main_arg16 : FVec F S256x64 .f32) (main_arg17 : FVec F S64 .f32) (main_v13 : IVec S_ 1) (main_v16 : IVec S100000x31 1) : IVec S_ 1 :=
  let main_c_5 : IVec S_ 1 := constantI S_ 1 1#1
  let main_v17 : IVec S_ 1 := (fun x v => Host.reduce IntOp.andi x v reducesTo_S100000x31_S_d0_1 h_S_) main_v16 main_c_5
  let main_v18 : IVec S_ 1 := andi main_v13 main_v17
  let main_v19 : FVec F S100000x64 .f32 := Host.absf main_arg6
  let main_cst_6 : FVec F S_ .f32 := constant S_ .f32 0x7F800000#32
  let main_v20 : FVec F S100000x64 .f32 := broadcastInDim S100000x64 ![] bcast_S_S100000x64 main_cst_6
  let main_v21 : IVec S100000x64 1 := cmpf .olt main_v19 main_v20
  let main_c_7 : IVec S_ 1 := constantI S_ 1 1#1
  let main_v22 : IVec S_ 1 := (fun x v => Host.reduce IntOp.andi x v reducesTo_S100000x64_S_d0_1 h_S_) main_v21 main_c_7
  let main_v23 : IVec S_ 1 := andi main_v18 main_v22
  let main_v24 : FVec F S256x64 .f32 := Host.absf main_arg7
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg1 main_arg9 main_arg10 main_arg11 main_arg12 main_arg13 main_arg14 main_arg15 main_arg16 main_arg17 main_v33

def fn {F : FTy → Type} [FloatOps F] (main_arg0 : IVec S400000 32) (main_arg1 : IVec S400000 32) (main_arg2 : FVec F S100000x64 .f32) (main_arg3 : FVec F S400000x64 .f32) (main_arg4 : FVec F S400000x64 .f32) (main_arg5 : FVec F S100000x31 .f32) (main_arg6 : FVec F S100000x64 .f32) (main_arg7 : FVec F S256x64 .f32) (main_arg8 : FVec F S64 .f32) (main_arg9 : FVec F S256x64 .f32) (main_arg10 : FVec F S64 .f32) (main_arg11 : FVec F S64x64 .f32) (main_arg12 : FVec F S31x64 .f32) (main_arg13 : FVec F S64 .f32) (main_arg14 : FVec F S256x64 .f32) (main_arg15 : FVec F S64 .f32) (main_arg16 : FVec F S256x64 .f32) (main_arg17 : FVec F S64 .f32) : IVec S_ 1 :=
  let main_v0 : FVec F S100000x64 .f32 := Host.absf main_arg2
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S400000x64 .f32 := Host.absf main_arg3
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  let main_v9 : FVec F S400000x64 .f32 := Host.absf main_arg4
  let main_cst_2 : FVec F S_ .f32 := constant S_ .f32 0x7F800000#32
  let main_v10 : FVec F S400000x64 .f32 := broadcastInDim S400000x64 ![] bcast_S_S400000x64 main_cst_2
  let main_v11 : IVec S400000x64 1 := cmpf .olt main_v9 main_v10
  let main_c_3 : IVec S_ 1 := constantI S_ 1 1#1
  let main_v12 : IVec S_ 1 := (fun x v => Host.reduce IntOp.andi x v reducesTo_S400000x64_S_d0_1 h_S_) main_v11 main_c_3
  let main_v13 : IVec S_ 1 := andi main_v8 main_v12
  let main_v14 : FVec F S100000x31 .f32 := Host.absf main_arg5
  let main_cst_4 : FVec F S_ .f32 := constant S_ .f32 0x7F800000#32
  let main_v15 : FVec F S100000x31 .f32 := broadcastInDim S100000x31 ![] bcast_S_S100000x31 main_cst_4
  let main_v16 : IVec S100000x31 1 := cmpf .olt main_v14 main_v15
  fn_part1 (F := F) main_arg0 main_arg1 main_arg6 main_arg7 main_arg8 main_arg9 main_arg10 main_arg11 main_arg12 main_arg13 main_arg14 main_arg15 main_arg16 main_arg17 main_v13 main_v16
-- ==== Kernel.lean ====
abbrev S400000 : Shape := ⟨1, ![400000]⟩
abbrev S100000x64 : Shape := ⟨2, ![100000, 64]⟩
abbrev S400000x64 : Shape := ⟨2, ![400000, 64]⟩
abbrev S100000x31 : Shape := ⟨2, ![100000, 31]⟩
abbrev S256x64 : Shape := ⟨2, ![256, 64]⟩
abbrev S64 : Shape := ⟨1, ![64]⟩
abbrev S64x64 : Shape := ⟨2, ![64, 64]⟩
abbrev S31x64 : Shape := ⟨2, ![31, 64]⟩
abbrev S1x64 : Shape := ⟨2, ![1, 64]⟩
abbrev S5000x31 : Shape := ⟨2, ![5000, 31]⟩
abbrev S5000x64 : Shape := ⟨2, ![5000, 64]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S3200x64 : Shape := ⟨2, ![3200, 64]⟩

abbrev nBuf : Space → Nat
  | .hbm => 234
  | .vmem => 55
  | .smem => 0
  | _ => 0

abbrev hbmTy0_0 (i : Nat) : BufTy := match i % 128 with
  | 0 => ⟨S400000, .i32⟩
  | 1 => ⟨S400000, .i32⟩
  | 2 => ⟨S100000x64, .f32⟩
  | 3 => ⟨S400000x64, .f32⟩
  | 4 => ⟨S400000x64, .f32⟩
  | 5 => ⟨S100000x31, .f32⟩
  | 6 => ⟨S100000x64, .f32⟩
  | 7 => ⟨S256x64, .f32⟩
  | 8 => ⟨S64, .f32⟩
  | 9 => ⟨S256x64, .f32⟩
  | 10 => ⟨S64, .f32⟩
  | 11 => ⟨S64x64, .f32⟩
  | 12 => ⟨S31x64, .f32⟩
  | 13 => ⟨S64, .f32⟩
  | 14 => ⟨S256x64, .f32⟩
  | 15 => ⟨S64, .f32⟩
  | 16 => ⟨S256x64, .f32⟩
  | 17 => ⟨S64, .f32⟩
  | 18 => ⟨S1x64, .f32⟩
  | 19 => ⟨S1x64, .f32⟩
  | 20 => ⟨S1x64, .f32⟩
  | 21 => ⟨S1x64, .f32⟩
  | 22 => ⟨S1x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S100000x64, .f32⟩
  | 40 => ⟨S_, .i32⟩
  | 41 => ⟨S400000, .i32⟩
  | 42 => ⟨S400000, .i1⟩
  | 43 => ⟨S_, .i32⟩
  | 44 => ⟨S400000, .i32⟩
  | 45 => ⟨S400000, .i32⟩
  | 46 => ⟨S400000, .i32⟩
  | 47 => ⟨S400000x1, .i32⟩
  | 48 => ⟨S1, .i32⟩
  | 49 => ⟨S_, .i32⟩
  | 50 => ⟨S400000x1, .i32⟩
  | 51 => ⟨S400000x1, .i1⟩
  | 52 => ⟨S1x1, .i32⟩
  | 53 => ⟨S400000x1, .i32⟩
  | 54 => ⟨S400000x1, .i1⟩
  | 55 => ⟨S400000x1, .i1⟩
  | 56 => ⟨S_, .i1⟩
  | 57 => ⟨S400000, .i1⟩
  | 58 => ⟨S400000x64, .f32⟩
  | 59 => ⟨S400000x64, .i1⟩
  | 60 => ⟨S_, .f32⟩
  | 61 => ⟨S400000x64, .f32⟩
  | 62 => ⟨S400000x64, .f32⟩
  | 63 => ⟨S_, .i32⟩
  | 64 => ⟨S400000, .i32⟩
  | 65 => ⟨S400000, .i1⟩
  | 66 => ⟨S_, .i32⟩
  | 67 => ⟨S400000, .i32⟩
  | 68 => ⟨S400000, .i32⟩
  | 69 => ⟨S400000, .i32⟩
  | 70 => ⟨S400000x1, .i32⟩
  | 71 => ⟨S1, .i32⟩
  | 72 => ⟨S_, .i32⟩
  | 73 => ⟨S400000x1, .i32⟩
  | 74 => ⟨S400000x1, .i1⟩
  | 75 => ⟨S1x1, .i32⟩
  | 76 => ⟨S400000x1, .i32⟩
  | 77 => ⟨S400000x1, .i1⟩
  | 78 => ⟨S400000x1, .i1⟩
  | 79 => ⟨S_, .i1⟩
  | 80 => ⟨S400000, .i1⟩
  | 81 => ⟨S400000x64, .f32⟩
  | 82 => ⟨S400000x64, .i1⟩
  | 83 => ⟨S_, .f32⟩
  | 84 => ⟨S400000x64, .f32⟩
  | 85 => ⟨S400000x64, .f32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S1, .i32⟩
  | 95 => ⟨S_, .i32⟩
  | 96 => ⟨S400000x1, .i32⟩
  | 97 => ⟨S400000x1, .i1⟩
  | 98 => ⟨S1x1, .i32⟩
  | 99 => ⟨S400000x1, .i32⟩
  | 100 => ⟨S400000x1, .i1⟩
  | 101 => ⟨S400000x1, .i1⟩
  | 102 => ⟨S_, .i1⟩
  | 103 => ⟨S400000, .i1⟩
  | 104 => ⟨S400000x64, .f32⟩
  | 105 => ⟨S400000x64, .i1⟩
  | 106 => ⟨S_, .f32⟩
  | 107 => ⟨S400000x64, .f32⟩
  | 108 => ⟨S400000x64, .f32⟩
  | 109 => ⟨S_, .i32⟩
  | 110 => ⟨S400000, .i32⟩
  | 111 => ⟨S400000, .i1⟩
  | 112 => ⟨S_, .i32⟩
  | 113 => ⟨S400000, .i32⟩
  | 114 => ⟨S400000, .i32⟩
  | 115 => ⟨S400000, .i32⟩
  | 116 => ⟨S400000x1, .i32⟩
  | 117 => ⟨S1, .i32⟩
  | 118 => ⟨S_, .i32⟩
  | 119 => ⟨S400000x1, .i32⟩
  | 120 => ⟨S400000x1, .i1⟩
  | 121 => ⟨S1x1, .i32⟩
  | 122 => ⟨S400000x1, .i32⟩
  | 123 => ⟨S400000x1, .i1⟩
  | 124 => ⟨S400000x1, .i1⟩
  | 125 => ⟨S_, .i1⟩
  | 126 => ⟨S400000, .i1⟩
  | 127 => ⟨S400000x64, .f32⟩
  | _ => ⟨S400000, .i32⟩

abbrev hbmTy0_1 (i : Nat) : BufTy := match i % 128 with
  | 0 => ⟨S400000x64, .i1⟩
  | 1 => ⟨S_, .f32⟩
  | 2 => ⟨S400000x64, .f32⟩
  | 3 => ⟨S400000x64, .f32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S1, .i32⟩
  | 13 => ⟨S_, .i32⟩
  | 14 => ⟨S400000x1, .i32⟩
  | 15 => ⟨S400000x1, .i1⟩
  | 16 => ⟨S1x1, .i32⟩
  | 17 => ⟨S400000x1, .i32⟩
  | 18 => ⟨S400000x1, .i1⟩
  | 19 => ⟨S400000x1, .i1⟩
  | 20 => ⟨S_, .i1⟩
  | 21 => ⟨S400000, .i1⟩
  | 22 => ⟨S400000x64, .f32⟩
  | 23 => ⟨S400000x64, .i1⟩
  | 24 => ⟨S_, .f32⟩
  | 25 => ⟨S400000x64, .f32⟩
  | 26 => ⟨S400000x64, .f32⟩
  | 27 => ⟨S_, .i32⟩
  | 28 => ⟨S400000, .i32⟩
  | 29 => ⟨S400000, .i1⟩
  | 30 => ⟨S_, .i32⟩
  | 31 => ⟨S400000, .i32⟩
  | 32 => ⟨S400000, .i32⟩
  | 33 => ⟨S400000, .i32⟩
  | 34 => ⟨S400000x1, .i32⟩
  | 35 => ⟨S1, .i32⟩
  | 36 => ⟨S_, .i32⟩
  | 37 => ⟨S400000x1, .i32⟩
  | 38 => ⟨S400000x1, .i1⟩
  | 39 => ⟨S1x1, .i32⟩
  | 40 => ⟨S400000x1, .i32⟩
  | 41 => ⟨S400000x1, .i1⟩
  | 42 => ⟨S400000x1, .i1⟩
  | 43 => ⟨S_, .i1⟩
  | 44 => ⟨S400000, .i1⟩
  | 45 => ⟨S400000x64, .f32⟩
  | 46 => ⟨S400000x64, .i1⟩
  | 47 => ⟨S_, .f32⟩
  | 48 => ⟨S400000x64, .f32⟩
  | 49 => ⟨S400000x64, .f32⟩
  | 50 => ⟨S400000x64, .f32⟩
  | 51 => ⟨S400000x64, .f32⟩
  | 52 => ⟨S400000x64, .f32⟩
  | 53 => ⟨S400000x64, .f32⟩
  | 54 => ⟨S_, .f32⟩
  | 55 => ⟨S100000x64, .f32⟩
  | 56 => ⟨S400000x1, .i32⟩
  | 57 => ⟨S100000x64, .f32⟩
  | 58 => ⟨S100000x64, .f32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S1, .i32⟩
  | 68 => ⟨S_, .i32⟩
  | 69 => ⟨S400000x1, .i32⟩
  | 70 => ⟨S400000x1, .i1⟩
  | 71 => ⟨S1x1, .i32⟩
  | 72 => ⟨S400000x1, .i32⟩
  | 73 => ⟨S400000x1, .i1⟩
  | 74 => ⟨S400000x1, .i1⟩
  | 75 => ⟨S_, .i1⟩
  | 76 => ⟨S400000, .i1⟩
  | 77 => ⟨S400000x64, .f32⟩
  | 78 => ⟨S400000x64, .i1⟩
  | 79 => ⟨S_, .f32⟩
  | 80 => ⟨S400000x64, .f32⟩
  | 81 => ⟨S400000x64, .f32⟩
  | 82 => ⟨S_, .i32⟩
  | 83 => ⟨S400000, .i32⟩
  | 84 => ⟨S400000, .i1⟩
  | 85 => ⟨S_, .i32⟩
  | 86 => ⟨S400000, .i32⟩
  | 87 => ⟨S400000, .i32⟩
  | 88 => ⟨S400000, .i32⟩
  | 89 => ⟨S400000x1, .i32⟩
  | 90 => ⟨S1, .i32⟩
  | 91 => ⟨S_, .i32⟩
  | 92 => ⟨S400000x1, .i32⟩
  | 93 => ⟨S400000x1, .i1⟩
  | 94 => ⟨S1x1, .i32⟩
  | 95 => ⟨S400000x1, .i32⟩
  | 96 => ⟨S400000x1, .i1⟩
  | 97 => ⟨S400000x1, .i1⟩
  | 98 => ⟨S_, .i1⟩
  | 99 => ⟨S400000, .i1⟩
  | 100 => ⟨S400000x64, .f32⟩
  | 101 => ⟨S400000x64, .i1⟩
  | 102 => ⟨S_, .f32⟩
  | 103 => ⟨S400000x64, .f32⟩
  | 104 => ⟨S400000x64, .f32⟩
  | 105 => ⟨S400000x64, .f32⟩
  | _ => ⟨S400000, .i32⟩

abbrev hbmTy (i : Nat) : BufTy := match i / 128 with
  | 0 => hbmTy0_0 i
  | 1 => hbmTy0_1 i
  | _ => ⟨S400000, .i32⟩

abbrev bufTy : (tb : Table) → Fin (tcTables nBuf tb) → BufTy
  | .hbm, ⟨i, _⟩ => hbmTy i
  | .local _ .vmem, ⟨0, _⟩ => ⟨S5000x31, .f32⟩
  | .local _ .vmem, ⟨1, _⟩ => ⟨S5000x31, .f32⟩
  | .local _ .vmem, ⟨2, _⟩ => ⟨S31x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S3200x64, .f32⟩
  | .local _ .vmem, ⟨7, _⟩ => ⟨S3200x64, .f32⟩
  | .local _ .vmem, ⟨8, _⟩ => ⟨S3200x64, .f32⟩
  | .local _ .vmem, ⟨9, _⟩ => ⟨S3200x64, .f32⟩
  | .local _ .vmem, ⟨10, _⟩ => ⟨S3200x64, .f32⟩
  | .local _ .vmem, ⟨11, _⟩ => ⟨S3200x64, .f32⟩
  | .local _ .vmem, ⟨12, _⟩ => ⟨S3200x64, .f32⟩
  | .local _ .vmem, ⟨13, _⟩ => ⟨S3200x64, .f32⟩
  | .local _ .vmem, ⟨14, _⟩ => ⟨S3200x64, .f32⟩
  | .local _ .vmem, ⟨15, _⟩ => ⟨S3200x64, .f32⟩
  | .local _ .vmem, ⟨16, _⟩ => ⟨S64x64, .f32⟩
  | .local _ .vmem, ⟨17, _⟩ => ⟨S64x64, .f32⟩
  | .local _ .vmem, ⟨18, _⟩ => ⟨S64x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S64x64, .f32⟩
  | .local _ .vmem, ⟨23, _⟩ => ⟨S64x64, .f32⟩
  | .local _ .vmem, ⟨24, _⟩ => ⟨S64x64, .f32⟩
  | .local _ .vmem, ⟨25, _⟩ => ⟨S1x64, .f32⟩
  | .local _ .vmem, ⟨26, _⟩ => ⟨S3200x64, .f32⟩
  | .local _ .vmem, ⟨27, _⟩ => ⟨S3200x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S5000x64, .f32⟩
  | .local _ .vmem, ⟨34, _⟩ => ⟨S5000x64, .f32⟩
  | .local _ .vmem, ⟨35, _⟩ => ⟨S3200x64, .f32⟩
  | .local _ .vmem, ⟨36, _⟩ => ⟨S3200x64, .f32⟩
  | .local _ .vmem, ⟨37, _⟩ => ⟨S3200x64, .f32⟩
  | .local _ .vmem, ⟨38, _⟩ => ⟨S3200x64, .f32⟩
  | .local _ .vmem, ⟨39, _⟩ => ⟨S3200x64, .f32⟩
  | .local _ .vmem, ⟨40, _⟩ => ⟨S3200x64, .f32⟩
  | .local _ .vmem, ⟨41, _⟩ => ⟨S3200x64, .f32⟩
  | .local _ .vmem, ⟨42, _⟩ => ⟨S3200x64, .f32⟩
  | .local _ .vmem, ⟨43, _⟩ => ⟨S64x64, .f32⟩
  | .local _ .vmem, ⟨44, _⟩ => ⟨S64x64, .f32⟩
  | .local _ .vmem, ⟨45, _⟩ => ⟨S64x64, .f32⟩
  | .local _ .vmem, ⟨46, _⟩ => ⟨S64x64, .f32⟩
  | .local _ .vmem, ⟨47, _⟩ => ⟨S1x64, .f32⟩
  | .local _ .vmem, ⟨48, _⟩ => ⟨S64x64, .f32⟩
  | .local _ .vmem, ⟨49, _⟩ => ⟨S64x64, .f32⟩
  | .local _ .vmem, ⟨50, _⟩ => ⟨S64x64, .f32⟩
  | .local _ .vmem, ⟨51, _⟩ => ⟨S64x64, .f32⟩
  | .local _ .vmem, ⟨52, _⟩ => ⟨S1x64, .f32⟩
  | .local _ .vmem, ⟨53, _⟩ => ⟨S3200x64, .f32⟩
  | .local _ .vmem, ⟨54, _⟩ => ⟨S3200x64, .f32⟩
  | _, _ => ⟨S400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call0_c : Ref sig .tc := ⟨.hbm, 40, rfl⟩
abbrev main_call0_v0 : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_c_1 : Ref sig .tc := ⟨.hbm, 48, rfl⟩
abbrev main_call0_c_2 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_3 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_call0_cst : Ref sig .tc := ⟨.hbm, 60, rfl⟩
abbrev main_call0_v15 : Ref sig .tc := ⟨.hbm, 61, rfl⟩
abbrev main_v22 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v23 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v24 : Ref sig .tc := ⟨.hbm, 108, rfl⟩
abbrev main_call3_c : Ref sig .tc := ⟨.hbm, 109, rfl⟩
abbrev main_call3_v0 : Ref sig .tc := ⟨.hbm, 110, rfl⟩
abbrev main_call3_v1 : Ref sig .tc := ⟨.hbm, 111, rfl⟩
abbrev main_call3_c_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_c_1 : Ref sig .tc := ⟨.hbm, 117, rfl⟩
abbrev main_call3_c_2 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_call3_c_3 : Ref sig .tc := ⟨.hbm, 125, rfl⟩
abbrev main_call3_v12 : Ref sig .tc := ⟨.hbm, 126, rfl⟩
abbrev main_call3_v13 : Ref sig .tc := ⟨.hbm, 127, rfl⟩
abbrev main_call3_v14 : Ref sig .tc := ⟨.hbm, 128, rfl⟩
abbrev main_call3_cst : Ref sig .tc := ⟨.hbm, 129, rfl⟩
abbrev main_call3_v15 : Ref sig .tc := ⟨.hbm, 130, rfl⟩
abbrev main_v25 : Ref sig .tc := ⟨.hbm, 131, rfl⟩
abbrev main_call4_c : Ref sig .tc := ⟨.hbm, 132, rfl⟩
abbrev main_call4_v0 : Ref sig .tc := ⟨.hbm, 133, rfl⟩
abbrev main_call4_v1 : Ref sig .tc := ⟨.hbm, 134, rfl⟩
abbrev main_call4_c_0 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_v5 : Ref sig .tc := ⟨.hbm, 139, rfl⟩
abbrev main_call4_c_1 : Ref sig .tc := ⟨.hbm, 140, rfl⟩
abbrev main_call4_c_2 : Ref sig .tc := ⟨.hbm, 141, rfl⟩
abbrev main_call4_v6 : Ref sig .tc := ⟨.hbm, 142, rfl⟩
abbrev main_call4_v7 : Ref sig .tc := ⟨.hbm, 143, rfl⟩
abbrev main_call4_v8 : Ref sig .tc := ⟨.hbm, 144, rfl⟩
abbrev main_call4_v9 : Ref sig .tc := ⟨.hbm, 145, rfl⟩
abbrev main_call4_v10 : Ref sig .tc := ⟨.hbm, 146, rfl⟩
abbrev main_call4_v11 : Ref sig .tc := ⟨.hbm, 147, rfl⟩
abbrev main_call4_c_3 : Ref sig .tc := ⟨.hbm, 148, rfl⟩
abbrev main_call4_v12 : Ref sig .tc := ⟨.hbm, 149, rfl⟩
abbrev main_call4_v13 : Ref sig .tc := ⟨.hbm, 150, rfl⟩
abbrev main_call4_v14 : Ref sig .tc := ⟨.hbm, 151, rfl⟩
abbrev main_call4_cst : Ref sig .tc := ⟨.hbm, 152, rfl⟩
abbrev main_call4_v15 : Ref sig .tc := ⟨.hbm, 153, rfl⟩
abbrev main_v26 : Ref sig .tc := ⟨.hbm, 154, rfl⟩
abbrev main_call5_c : Ref sig .tc := ⟨.hbm, 155, rfl⟩
abbrev main_call5_v0 : Ref sig .tc := ⟨.hbm, 156, rfl⟩
abbrev main_call5_v1 : Ref sig .tc := ⟨.hbm, 157, rfl⟩
abbrev main_call5_c_0 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_call5_v5 : Ref sig .tc := ⟨.hbm, 162, rfl⟩
abbrev main_call5_c_1 : Ref sig .tc := ⟨.hbm, 163, rfl⟩
abbrev main_call5_c_2 : Ref sig .tc := ⟨.hbm, 164, rfl⟩
abbrev main_call5_v6 : Ref sig .tc := ⟨.hbm, 165, rfl⟩
abbrev main_call5_v7 : Ref sig .tc := ⟨.hbm, 166, rfl⟩
abbrev main_call5_v8 : Ref sig .tc := ⟨.hbm, 167, rfl⟩
abbrev main_call5_v9 : Ref sig .tc := ⟨.hbm, 168, rfl⟩
abbrev main_call5_v10 : Ref sig .tc := ⟨.hbm, 169, rfl⟩
abbrev main_call5_v11 : Ref sig .tc := ⟨.hbm, 170, rfl⟩
abbrev main_call5_c_3 : Ref sig .tc := ⟨.hbm, 171, rfl⟩
abbrev main_call5_v12 : Ref sig .tc := ⟨.hbm, 172, rfl⟩
abbrev main_call5_v13 : Ref sig .tc := ⟨.hbm, 173, rfl⟩
abbrev main_call5_v14 : Ref sig .tc := ⟨.hbm, 174, rfl⟩
abbrev main_call5_cst : Ref sig .tc := ⟨.hbm, 175, rfl⟩
abbrev main_call5_v15 : Ref sig .tc := ⟨.hbm, 176, rfl⟩
abbrev main_v27 : Ref sig .tc := ⟨.hbm, 177, rfl⟩
abbrev main_v28 : Ref sig .tc := ⟨.hbm, 178, rfl⟩
abbrev main_v29 : Ref sig .tc := ⟨.hbm, 179, rfl⟩
abbrev main_v30 : Ref sig .tc := ⟨.hbm, 180, rfl⟩
abbrev main_v31 : Ref sig .tc := ⟨.hbm, 181, rfl⟩
abbrev main_cst : Ref sig .tc := ⟨.hbm, 182, rfl⟩
abbrev main_v32 : Ref sig .tc := ⟨.hbm, 183, rfl⟩
abbrev main_v33 : Ref sig .tc := ⟨.hbm, 184, rfl⟩
abbrev main_v34 : Ref sig .tc := ⟨.hbm, 185, rfl⟩
abbrev main_v35 : Ref sig .tc := ⟨.hbm, 186, rfl⟩
abbrev main_call6_c : Ref sig .tc := ⟨.hbm, 187, rfl⟩
abbrev main_call6_v0 : Ref sig .tc := ⟨.hbm, 188, rfl⟩
abbrev main_call6_v1 : Ref sig .tc := ⟨.hbm, 189, rfl⟩
abbrev main_call6_c_0 : Ref sig .tc := ⟨.hbm, 190, rfl⟩
abbrev main_call6_v2 : Ref sig .tc := ⟨.hbm, 191, rfl⟩
abbrev main_call6_v3 : Ref sig .tc := ⟨.hbm, 192, rfl⟩
abbrev main_call6_v4 : Ref sig .tc := ⟨.hbm, 193, rfl⟩
abbrev main_call6_v5 : Ref sig .tc := ⟨.hbm, 194, rfl⟩
abbrev main_call6_c_1 : Ref sig .tc := ⟨.hbm, 195, rfl⟩
abbrev main_call6_c_2 : Ref sig .tc := ⟨.hbm, 196, rfl⟩
abbrev main_call6_v6 : Ref sig .tc := ⟨.hbm, 197, rfl⟩
abbrev main_call6_v7 : Ref sig .tc := ⟨.hbm, 198, rfl⟩
abbrev main_call6_v8 : Ref sig .tc := ⟨.hbm, 199, rfl⟩
abbrev main_call6_v9 : Ref sig .tc := ⟨.hbm, 200, rfl⟩
abbrev main_call6_v10 : Ref sig .tc := ⟨.hbm, 201, rfl⟩
abbrev main_call6_v11 : Ref sig .tc := ⟨.hbm, 202, rfl⟩
abbrev main_call6_c_3 : Ref sig .tc := ⟨.hbm, 203, rfl⟩
abbrev main_call6_v12 : Ref sig .tc := ⟨.hbm, 204, rfl⟩
abbrev main_call6_v13 : Ref sig .tc := ⟨.hbm, 205, rfl⟩
abbrev main_call6_v14 : Ref sig .tc := ⟨.hbm, 206, rfl⟩
abbrev main_call6_cst : Ref sig .tc := ⟨.hbm, 207, rfl⟩
abbrev main_call6_v15 : Ref sig .tc := ⟨.hbm, 208, rfl⟩
abbrev main_v36 : Ref sig .tc := ⟨.hbm, 209, rfl⟩
abbrev main_call7_c : Ref sig .tc := ⟨.hbm, 210, rfl⟩
abbrev main_call7_v0 : Ref sig .tc := ⟨.hbm, 211, rfl⟩
abbrev main_call7_v1 : Ref sig .tc := ⟨.hbm, 212, rfl⟩
abbrev main_call7_c_0 : Ref sig .tc := ⟨.hbm, 213, rfl⟩
abbrev main_call7_v2 : Ref sig .tc := ⟨.hbm, 214, rfl⟩
abbrev main_call7_v3 : Ref sig .tc := ⟨.hbm, 215, rfl⟩
abbrev main_call7_v4 : Ref sig .tc := ⟨.hbm, 216, rfl⟩
abbrev main_call7_v5 : Ref sig .tc := ⟨.hbm, 217, rfl⟩
abbrev main_call7_c_1 : Ref sig .tc := ⟨.hbm, 218, rfl⟩
abbrev main_call7_c_2 : Ref sig .tc := ⟨.hbm, 219, rfl⟩
abbrev main_call7_v6 : Ref sig .tc := ⟨.hbm, 220, rfl⟩
abbrev main_call7_v7 : Ref sig .tc := ⟨.hbm, 221, rfl⟩
abbrev main_call7_v8 : Ref sig .tc := ⟨.hbm, 222, rfl⟩
abbrev main_call7_v9 : Ref sig .tc := ⟨.hbm, 223, rfl⟩
abbrev main_call7_v10 : Ref sig .tc := ⟨.hbm, 224, rfl⟩
abbrev main_call7_v11 : Ref sig .tc := ⟨.hbm, 225, rfl⟩
abbrev main_call7_c_3 : Ref sig .tc := ⟨.hbm, 226, rfl⟩
abbrev main_call7_v12 : Ref sig .tc := ⟨.hbm, 227, rfl⟩
abbrev main_call7_v13 : Ref sig .tc := ⟨.hbm, 228, rfl⟩
abbrev main_call7_v14 : Ref sig .tc := ⟨.hbm, 229, rfl⟩
abbrev main_call7_cst : Ref sig .tc := ⟨.hbm, 230, rfl⟩
abbrev main_call7_v15 : Ref sig .tc := ⟨.hbm, 231, rfl⟩
abbrev main_v37 : Ref sig .tc := ⟨.hbm, 232, rfl⟩
abbrev main_v38 : Ref sig .tc := ⟨.hbm, 233, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg13_0 : Ref sig .tc := ⟨.vmem, 24, rfl⟩
abbrev cc1_stg14_0 : Ref sig .tc := ⟨.vmem, 25, rfl⟩
abbrev cc1_stg15_0 : Ref sig .tc := ⟨.vmem, 26, rfl⟩
abbrev cc1_stg15_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg3_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg8_0 : Ref sig .tc := ⟨.vmem, 47, rfl⟩
abbrev cc3_stg9_0 : Ref sig .tc := ⟨.vmem, 48, rfl⟩
abbrev cc3_stg10_0 : Ref sig .tc := ⟨.vmem, 49, rfl⟩
abbrev cc3_stg11_0 : Ref sig .tc := ⟨.vmem, 50, rfl⟩
abbrev cc3_stg12_0 : Ref sig .tc := ⟨.vmem, 51, rfl⟩
abbrev cc3_stg13_0 : Ref sig .tc := ⟨.vmem, 52, rfl⟩
abbrev cc3_stg14_0 : Ref sig .tc := ⟨.vmem, 53, rfl⟩
abbrev cc3_stg14_1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem13_0 : DmaSem sig := 24
abbrev cc1_sem14_0 : DmaSem sig := 25
abbrev cc1_sem15_0 : DmaSem sig := 26
abbrev cc1_sem15_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem3_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem8_0 : DmaSem sig := 47
abbrev cc3_sem9_0 : DmaSem sig := 48
abbrev cc3_sem10_0 : DmaSem sig := 49
abbrev cc3_sem11_0 : DmaSem sig := 50
abbrev cc3_sem12_0 : DmaSem sig := 51
abbrev cc3_sem13_0 : DmaSem sig := 52
abbrev cc3_sem14_0 : DmaSem sig := 53
abbrev cc3_sem14_1 : DmaSem sig := 54

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x31 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S31x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3200x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3200x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S3200x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3200x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3200x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S3200x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S3200x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S64x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S64x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S64x64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x64 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S3200x64 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

class Facts₀ : Prop where
  shapeCasts_S64_S1x64 : S64.ShapeCasts S1x64
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  inb_S5000x31_S5000x31_0_0 : ∀ a, (![0, 0] : Fin 2 → Nat) a + S5000x31.size a ≤ S5000x31.size a
  h_S5000x31 : 0 < S5000x31.numel
  bitsLt_bf16_f32 : FTy.bits .bf16 < FTy.bits .f32
  inb_S31x64_S31x64_0_0 : ∀ a, (![0, 0] : Fin 2 → Nat) a + S31x64.size a ≤ S31x64.size a
  h_S31x64 : 0 < S31x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x64_0 : S400000.BroadcastsInDim S400000x64 (![0] : Fin 1 → Fin S400000x64.rank)
  bcast_S_S400000x64 : S_.BroadcastsInDim S400000x64 (![] : Fin 0 → Fin S400000x64.rank)
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S3200x64 : S1x64.Broadcasts S3200x64
  bcast_S_S100000x64 : S_.BroadcastsInDim S100000x64 (![] : Fin 0 → Fin S100000x64.rank)
  shapeCasts_S5000x64_S5000x64 : S5000x64.ShapeCasts S5000x64
  dot_S5000x31_S31x64_S5000x64_1_0_0_1_n_n_wf : DotDims.WF S5000x31 S31x64 S5000x64 [1] [0] [0] [1] [] []
  gather_S100000x64_S400000x1_S400000x64_1_0_n_n_0_1_164_wf : GatherDims.WF S100000x64 S400000x1 S400000x64 [1] [0] [] [0] [] 1 ![1, 64]
  dot_S3200x64_S64x64_S3200x64_1_0_0_1_n_n_wf : DotDims.WF S3200x64 S64x64 S3200x64 [1] [0] [0] [1] [] []
  scatter_S100000x64_S400000x1_S400000x64_1_0_0_1_wf : ScatterDims.WF S100000x64 S400000x1 S400000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x31.size a ≤ S100000x31.size a
  hwx0_0 : ∀ i : grid0.Coords, EltTy.bits .f32 = 32 ∨ (Rect.block (s := S100000x31) S5000x31.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S31x64.size a ≤ S31x64.size a
  hwx0_1 : ∀ i : grid0.Coords, EltTy.bits .f32 = 32 ∨ (Rect.block (s := S31x64) S31x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x64.size a ≤ S400000x64.size a
  hwx1_0 : ∀ i : grid1.Coords, EltTy.bits .f32 = 32 ∨ (Rect.block (s := S400000x64) S3200x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x64.size a ≤ S400000x64.size a
  hwx1_1 : ∀ i : grid1.Coords, EltTy.bits .f32 = 32 ∨ (Rect.block (s := S400000x64) S3200x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x64.size a ≤ S400000x64.size a
  hwx1_2 : ∀ i : grid1.Coords, EltTy.bits .f32 = 32 ∨ (Rect.block (s := S400000x64) S3200x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3200x64.size a ≤ S400000x64.size a
  hwx1_3 : ∀ i : grid1.Coords, EltTy.bits .f32 = 32 ∨ (Rect.block (s := S400000x64) S3200x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3200x64.size a ≤ S400000x64.size a
  hwx1_4 : ∀ i : grid1.Coords, EltTy.bits .f32 = 32 ∨ (Rect.block (s := S400000x64) S3200x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x64.size a ≤ S64x64.size a
  hwx1_10 : ∀ i : grid1.Coords, EltTy.bits .f32 = 32 ∨ (Rect.block (s := S64x64) S64x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x64.size a ≤ S64x64.size a
  hwx1_11 : ∀ i : grid1.Coords, EltTy.bits .f32 = 32 ∨ (Rect.block (s := S64x64) S64x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64x64.size a ≤ S64x64.size a
  hwx1_12 : ∀ i : grid1.Coords, EltTy.bits .f32 = 32 ∨ (Rect.block (s := S64x64) S64x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S64x64.size a ≤ S64x64.size a
  hwx1_13 : ∀ i : grid1.Coords, EltTy.bits .f32 = 32 ∨ (Rect.block (s := S64x64) S64x64.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x64.size a ≤ S1x64.size a
  hwx1_14 : ∀ i : grid1.Coords, EltTy.bits .f32 = 32 ∨ (Rect.block (s := S1x64) S1x64.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S3200x64.size a ≤ S400000x64.size a
  hwx1_15 : ∀ i : grid1.Coords, EltTy.bits .f32 = 32 ∨ (Rect.block (s := S400000x64) S3200x64.size (cc1_transform_15 i) (hinb1_15 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3200x64.size a ≤ S400000x64.size a
  hwx3_0 : ∀ i : grid3.Coords, EltTy.bits .f32 = 32 ∨ (Rect.block (s := S400000x64) S3200x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3200x64.size a ≤ S400000x64.size a
  hwx3_1 : ∀ i : grid3.Coords, EltTy.bits .f32 = 32 ∨ (Rect.block (s := S400000x64) S3200x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S3200x64.size a ≤ S400000x64.size a
  hwx3_2 : ∀ i : grid3.Coords, EltTy.bits .f32 = 32 ∨ (Rect.block (s := S400000x64) S3200x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S3200x64.size a ≤ S400000x64.size a
  hwx3_3 : ∀ i : grid3.Coords, EltTy.bits .f32 = 32 ∨ (Rect.block (s := S400000x64) S3200x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x64.size a ≤ S64x64.size a
  hwx3_6 : ∀ i : grid3.Coords, EltTy.bits .f32 = 32 ∨ (Rect.block (s := S64x64) S64x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x64.size a ≤ S64x64.size a
  hwx3_9 : ∀ i : grid3.Coords, EltTy.bits .f32 = 32 ∨ (Rect.block (s := S64x64) S64x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S64x64.size a ≤ S64x64.size a
  hwx3_10 : ∀ i : grid3.Coords, EltTy.bits .f32 = 32 ∨ (Rect.block (s := S64x64) S64x64.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S64x64.size a ≤ S64x64.size a
  hwx3_11 : ∀ i : grid3.Coords, EltTy.bits .f32 = 32 ∨ (Rect.block (s := S64x64) S64x64.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S64x64.size a ≤ S64x64.size a
  hwx3_12 : ∀ i : grid3.Coords, EltTy.bits .f32 = 32 ∨ (Rect.block (s := S64x64) S64x64.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x64.size a ≤ S1x64.size a
  hwx3_13 : ∀ i : grid3.Coords, EltTy.bits .f32 = 32 ∨ (Rect.block (s := S1x64) S1x64.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S3200x64.size a ≤ S400000x64.size a
  hwx3_14 : ∀ i : grid3.Coords, EltTy.bits .f32 = 32 ∨ (Rect.block (s := S400000x64) S3200x64.size (cc3_transform_14 i) (hinb3_14 i)).WholeWords (EltTy.packing .f32)

variable [Facts₀]

def dot_S5000x31_S31x64_S5000x64_1_0_0_1_n_n : DotDims S5000x31 S31x64 S5000x64 where
  lhsContracting := [1]
  rhsContracting := [0]
  lhsNonContracting := [0]
  rhsNonContracting := [1]
  lhsBatch := []
  rhsBatch := []
  wf := dot_S5000x31_S31x64_S5000x64_1_0_0_1_n_n_wf
def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf
def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf
def scatter_S100000x64_S400000x1_S400000x64_1_0_0_1 : ScatterDims S100000x64 S400000x1 S400000x64 where
  updateWindowDims := [1]
  insertedWindowDims := [0]
  scatterDimsToOperandDims := [0]
  indexVectorDim := 1
  wf := scatter_S100000x64_S400000x1_S400000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg5) S5000x31.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg12) S31x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S3200x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S3200x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S3200x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S3200x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30) S3200x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v0) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v9) S64x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v10) S64x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v11) S64x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v12) S64x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v1) S1x64.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v31) S3200x64.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

abbrev win2_0 : Pipeline.Window sig grid2 :=
  Pipeline.Window.ofSpec (Memref.whole main_v34) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v36) S3200x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S3200x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S3200x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v37) S3200x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v13) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v14) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v15) S64x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v16) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v3) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v17) S64x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v18) S64x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v19) S64x64.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v20) S64x64.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v4) S1x64.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v38) S3200x64.size cc3_transform_14 reads3_14 true false 2 stage3_14 sem3_14
    hrank3 hreads3_14 hinb3_14 nbuf3_14 (Memref.isWhole_whole _) hwx3_14 hstage3_14

abbrev win3 : Fin 15 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | ⟨_ + 15, h⟩ => absurd h (Nat.not_lt.2 (Nat.le_add_left _ _))
abbrev spec3 : Fin 15 → Pipeline.WinSpec sig grid3.rank := fun w => (win3 w).toWinSpec

class Facts : Prop extends Facts₀ where

variable [Facts]
-- ==== ReferenceIdeal.lean ====
abbrev S400000 : Shape := ⟨1, ![400000]⟩
abbrev S100000x64 : Shape := ⟨2, ![100000, 64]⟩
abbrev S400000x64 : Shape := ⟨2, ![400000, 64]⟩
abbrev S100000x31 : Shape := ⟨2, ![100000, 31]⟩
abbrev S256x64 : Shape := ⟨2, ![256, 64]⟩
abbrev S64 : Shape := ⟨1, ![64]⟩
abbrev S64x64 : Shape := ⟨2, ![64, 64]⟩
abbrev S31x64 : Shape := ⟨2, ![31, 64]⟩
abbrev S_ : Shape := ⟨0, ![]⟩
abbrev S400000x1 : Shape := ⟨2, ![400000, 1]⟩
abbrev S400000x256 : Shape := ⟨2, ![400000, 256]⟩
abbrev S1x64 : Shape := ⟨2, ![1, 64]⟩

abbrev nBuf : Space → Nat
  | .hbm => 175
  | .vmem => 0
  | .smem => 0
  | _ => 0

abbrev hbmTy0_0 (i : Nat) : BufTy := match i % 128 with
  | 0 => ⟨S400000, .i32⟩
  | 1 => ⟨S400000, .i32⟩
  | 2 => ⟨S100000x64, .f32⟩
  | 3 => ⟨S400000x64, .f32⟩
  | 4 => ⟨S400000x64, .f32⟩
  | 5 => ⟨S100000x31, .f32⟩
  | 6 => ⟨S100000x64, .f32⟩
  | 7 => ⟨S256x64, .f32⟩
  | 8 => ⟨S64, .f32⟩
  | 9 => ⟨S256x64, .f32⟩
  | 10 => ⟨S64, .f32⟩
  | 11 => ⟨S64x64, .f32⟩
  | 12 => ⟨S31x64, .f32⟩
  | 13 => ⟨S64, .f32⟩
  | 14 => ⟨S256x64, .f32⟩
  | 15 => ⟨S64, .f32⟩
  | 16 => ⟨S256x64, .f32⟩
  | 17 => ⟨S64, .f32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S400000x64, .f32⟩
  | 27 => ⟨S_, .i32⟩
  | 28 => ⟨S400000, .i32⟩
  | 29 => ⟨S400000, .i1⟩
  | 30 => ⟨S_, .i32⟩
  | 31 => ⟨S400000, .i32⟩
  | 32 => ⟨S400000, .i32⟩
  | 33 => ⟨S400000, .i32⟩
  | 34 => ⟨S400000x1, .i32⟩
  | 35 => ⟨S400000x64, .f32⟩
  | 36 => ⟨S400000x256, .f32⟩
  | 37 => ⟨S400000x64, .f32⟩
  | 38 => ⟨S1x64, .f32⟩
  | 39 => ⟨S400000x64, .f32⟩
  | 40 => ⟨S400000x64, .f32⟩
  | 41 => ⟨S_, .f32⟩
  | 42 => ⟨S400000x64, .f32⟩
  | 43 => ⟨S400000x64, .f32⟩
  | 44 => ⟨S400000x64, .f32⟩
  | 45 => ⟨S400000x64, .f32⟩
  | 46 => ⟨S400000x64, .i1⟩
  | 47 => ⟨S400000x64, .f32⟩
  | 48 => ⟨S400000x64, .f32⟩
  | 49 => ⟨S400000x64, .f32⟩
  | 50 => ⟨S400000x64, .f32⟩
  | 51 => ⟨S400000x64, .f32⟩
  | 52 => ⟨S400000x64, .f32⟩
  | 53 => ⟨S400000x64, .f32⟩
  | 54 => ⟨S400000x64, .f32⟩
  | 55 => ⟨S_, .f32⟩
  | 56 => ⟨S400000x64, .f32⟩
  | 57 => ⟨S400000x64, .f32⟩
  | 58 => ⟨S400000x64, .f32⟩
  | 59 => ⟨S1x64, .f32⟩
  | 60 => ⟨S400000x64, .f32⟩
  | 61 => ⟨S400000x64, .f32⟩
  | 62 => ⟨S400000x64, .f32⟩
  | 63 => ⟨S400000x64, .f32⟩
  | 64 => ⟨S_, .f32⟩
  | 65 => ⟨S400000x64, .f32⟩
  | 66 => ⟨S400000x64, .f32⟩
  | 67 => ⟨S_, .f32⟩
  | 68 => ⟨S400000x64, .f32⟩
  | 69 => ⟨S400000x64, .f32⟩
  | 70 => ⟨S400000x64, .f32⟩
  | 71 => ⟨S100000x64, .f32⟩
  | 72 => ⟨S1x64, .f32⟩
  | 73 => ⟨S100000x64, .f32⟩
  | 74 => ⟨S100000x64, .f32⟩
  | 75 => ⟨S_, .i32⟩
  | 76 => ⟨S400000, .i32⟩
  | 77 => ⟨S400000, .i1⟩
  | 78 => ⟨S_, .i32⟩
  | 79 => ⟨S400000, .i32⟩
  | 80 => ⟨S400000, .i32⟩
  | 81 => ⟨S400000, .i32⟩
  | 82 => ⟨S400000x1, .i32⟩
  | 83 => ⟨S400000x64, .f32⟩
  | 84 => ⟨S400000x64, .f32⟩
  | 85 => ⟨S_, .i32⟩
  | 86 => ⟨S400000, .i32⟩
  | 87 => ⟨S400000, .i1⟩
  | 88 => ⟨S_, .i32⟩
  | 89 => ⟨S400000, .i32⟩
  | 90 => ⟨S400000, .i32⟩
  | 91 => ⟨S400000, .i32⟩
  | 92 => ⟨S400000x1, .i32⟩
  | 93 => ⟨S400000x64, .f32⟩
  | 94 => ⟨S400000x64, .f32⟩
  | 95 => ⟨S_, .i32⟩
  | 96 => ⟨S400000, .i32⟩
  | 97 => ⟨S400000, .i1⟩
  | 98 => ⟨S_, .i32⟩
  | 99 => ⟨S400000, .i32⟩
  | 100 => ⟨S400000, .i32⟩
  | 101 => ⟨S400000, .i32⟩
  | 102 => ⟨S400000x1, .i32⟩
  | 103 => ⟨S400000x64, .f32⟩
  | 104 => ⟨S400000x64, .f32⟩
  | 105 => ⟨S_, .i32⟩
  | 106 => ⟨S400000, .i32⟩
  | 107 => ⟨S400000, .i1⟩
  | 108 => ⟨S_, .i32⟩
  | 109 => ⟨S400000, .i32⟩
  | 110 => ⟨S400000, .i32⟩
  | 111 => ⟨S400000, .i32⟩
  | 112 => ⟨S400000x1, .i32⟩
  | 113 => ⟨S400000x64, .f32⟩
  | 114 => ⟨S400000x64, .f32⟩
  | 115 => ⟨S_, .f32⟩
  | 116 => ⟨S100000x64, .f32⟩
  | 117 => ⟨S400000x1, .i32⟩
  | 118 => ⟨S100000x64, .f32⟩
  | 119 => ⟨S100000x64, .f32⟩
  | 120 => ⟨S100000x64, .f32⟩
  | 121 => ⟨S_, .i32⟩
  | 122 => ⟨S400000, .i32⟩
  | 123 => ⟨S400000, .i1⟩
  | 124 => ⟨S_, .i32⟩
  | 125 => ⟨S400000, .i32⟩
  | 126 => ⟨S400000, .i32⟩
  | 127 => ⟨S400000, .i32⟩
  | _ => ⟨S400000, .i32⟩

abbrev hbmTy0_1 (i : Nat) : BufTy := match i % 128 with
  | 0 => ⟨S400000x1, .i32⟩
  | 1 => ⟨S400000x64, .f32⟩
  | 2 => ⟨S_, .i32⟩
  | 3 => ⟨S400000, .i32⟩
  | 4 => ⟨S400000, .i1⟩
  | 5 => ⟨S_, .i32⟩
  | 6 => ⟨S400000, .i32⟩
  | 7 => ⟨S400000, .i32⟩
  | 8 => ⟨S400000, .i32⟩
  | 9 => ⟨S400000x1, .i32⟩
  | 10 => ⟨S400000x64, .f32⟩
  | 11 => ⟨S400000x256, .f32⟩
  | 12 => ⟨S400000x64, .f32⟩
  | 13 => ⟨S1x64, .f32⟩
  | 14 => ⟨S400000x64, .f32⟩
  | 15 => ⟨S400000x64, .f32⟩
  | 16 => ⟨S_, .f32⟩
  | 17 => ⟨S400000x64, .f32⟩
  | 18 => ⟨S400000x64, .f32⟩
  | 19 => ⟨S400000x64, .f32⟩
  | 20 => ⟨S400000x64, .f32⟩
  | 21 => ⟨S400000x64, .i1⟩
  | 22 => ⟨S400000x64, .f32⟩
  | 23 => ⟨S400000x64, .f32⟩
  | 24 => ⟨S400000x64, .f32⟩
  | 25 => ⟨S400000x64, .f32⟩
  | 26 => ⟨S400000x64, .f32⟩
  | 27 => ⟨S400000x64, .f32⟩
  | 28 => ⟨S400000x64, .f32⟩
  | 29 => ⟨S400000x64, .f32⟩
  | 30 => ⟨S_, .f32⟩
  | 31 => ⟨S400000x64, .f32⟩
  | 32 => ⟨S400000x64, .f32⟩
  | 33 => ⟨S400000x64, .f32⟩
  | 34 => ⟨S1x64, .f32⟩
  | 35 => ⟨S400000x64, .f32⟩
  | 36 => ⟨S400000x64, .f32⟩
  | 37 => ⟨S400000x64, .f32⟩
  | 38 => ⟨S400000x64, .f32⟩
  | 39 => ⟨S_, .f32⟩
  | 40 => ⟨S400000x64, .f32⟩
  | 41 => ⟨S400000x64, .f32⟩
  | 42 => ⟨S_, .f32⟩
  | 43 => ⟨S400000x64, .f32⟩
  | 44 => ⟨S400000x64, .f32⟩
  | 45 => ⟨S400000x64, .f32⟩
  | 46 => ⟨S400000x64, .f32⟩
  | _ => ⟨S400000, .i32⟩

abbrev hbmTy (i : Nat) : BufTy := match i / 128 with
  | 0 => hbmTy0_0 i
  | 1 => hbmTy0_1 i
  | _ => ⟨S400000, .i32⟩

abbrev bufTy : (tb : Table) → Fin (tcTables nBuf tb) → BufTy
  | .hbm, ⟨i, _⟩ => hbmTy i
  | _, _ => ⟨S400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_6 : Ref sig .tc := ⟨.hbm, 75, rfl⟩
abbrev main_v49 : Ref sig .tc := ⟨.hbm, 76, rfl⟩
abbrev main_v50 : Ref sig .tc := ⟨.hbm, 77, rfl⟩
abbrev main_c_7 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_8 : Ref sig .tc := ⟨.hbm, 85, rfl⟩
abbrev main_v57 : Ref sig .tc := ⟨.hbm, 86, rfl⟩
abbrev main_v58 : Ref sig .tc := ⟨.hbm, 87, rfl⟩
abbrev main_c_9 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_10 : Ref sig .tc := ⟨.hbm, 95, rfl⟩
abbrev main_v65 : Ref sig .tc := ⟨.hbm, 96, rfl⟩
abbrev main_v66 : Ref sig .tc := ⟨.hbm, 97, rfl⟩
abbrev main_c_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_12 : Ref sig .tc := ⟨.hbm, 105, rfl⟩
abbrev main_v73 : Ref sig .tc := ⟨.hbm, 106, rfl⟩
abbrev main_v74 : Ref sig .tc := ⟨.hbm, 107, rfl⟩
abbrev main_c_13 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_14 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_15 : Ref sig .tc := ⟨.hbm, 121, rfl⟩
abbrev main_v86 : Ref sig .tc := ⟨.hbm, 122, rfl⟩
abbrev main_v87 : Ref sig .tc := ⟨.hbm, 123, rfl⟩
abbrev main_c_16 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_c_17 : Ref sig .tc := ⟨.hbm, 130, rfl⟩
abbrev main_v93 : Ref sig .tc := ⟨.hbm, 131, rfl⟩
abbrev main_v94 : Ref sig .tc := ⟨.hbm, 132, rfl⟩
abbrev main_c_18 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_19 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_20 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_21 : Ref sig .tc := ⟨.hbm, 167, rfl⟩
abbrev main_v126 : Ref sig .tc := ⟨.hbm, 168, rfl⟩
abbrev main_v127 : Ref sig .tc := ⟨.hbm, 169, rfl⟩
abbrev main_cst_22 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x64_S400000x64_S400000x64_S400000x64_S400000x256_d1 : Shape.Concatenates [S400000x64, S400000x64, S400000x64, S400000x64] S400000x256 1
  bcast_S64_S1x64_1 : S64.BroadcastsInDim S1x64 (![1] : Fin 1 → Fin S1x64.rank)
  bcast_S1x64_S400000x64_0_1 : S1x64.BroadcastsInDim S400000x64 (![0, 1] : Fin 2 → Fin S400000x64.rank)
  bcast_S_S400000x64 : S_.BroadcastsInDim S400000x64 (![] : Fin 0 → Fin S400000x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x64_S400000x1_S400000x64_1_0_n_n_0_1_164_wf : GatherDims.WF S100000x64 S400000x1 S400000x64 [1] [0] [] [0] [] 1 ![1, 64]
  dot_S400000x256_S256x64_S400000x64_1_0_0_1_n_n_wf : DotDims.WF S400000x256 S256x64 S400000x64 [1] [0] [0] [1] [] []
  dot_S100000x31_S31x64_S100000x64_1_0_0_1_n_n_wf : DotDims.WF S100000x31 S31x64 S100000x64 [1] [0] [0] [1] [] []
  scatter_S100000x64_S400000x1_S400000x64_1_0_0_1_wf : ScatterDims.WF S100000x64 S400000x1 S400000x64 [1] [0] [0] 1
  dot_S100000x64_S64x64_S100000x64_1_0_0_1_n_n_wf : DotDims.WF S100000x64 S64x64 S100000x64 [1] [0] [0] [1] [] []

variable [Facts₀]

def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf
def dot_S400000x256_S256x64_S400000x64_1_0_0_1_n_n : DotDims S400000x256 S256x64 S400000x64 where
  lhsContracting := [1]
  rhsContracting := [0]
  lhsNonContracting := [0]
  rhsNonContracting := [1]
  lhsBatch := []
  rhsBatch := []
  wf := dot_S400000x256_S256x64_S400000x64_1_0_0_1_n_n_wf
def dot_S100000x31_S31x64_S100000x64_1_0_0_1_n_n : DotDims S100000x31 S31x64 S100000x64 where
  lhsContracting := [1]
  rhsContracting := [0]
  lhsNonContracting := [0]
  rhsNonContracting := [1]
  lhsBatch := []
  rhsBatch := []
  wf := dot_S100000x31_S31x64_S100000x64_1_0_0_1_n_n_wf
def scatter_S100000x64_S400000x1_S400000x64_1_0_0_1 : ScatterDims S100000x64 S400000x1 S400000x64 where
  updateWindowDims := [1]
  insertedWindowDims := [0]
  scatterDimsToOperandDims := [0]
  indexVectorDim := 1
  wf := scatter_S100000x64_S400000x1_S400000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelHostCarry.lean ====
import proofs.«408984_j66649302499835_1_alg».proof.Proof.Gen.KernelIdeal.Frame

/-!
  What each stretch of host operations and each kernel region leaves alone.

  Between the launch and the return the buffers pass fifteen boundaries. A stretch of host operations rewrites only its
  own result buffers, and a kernel region only its windows' arrays; every other buffer holds after the step what it held
  before. Per stretch the result buffers are listed once, so that "this buffer is not written here" is a membership
  question about a short list of names.
-/

set_option maxRecDepth 16384

noncomputable section

namespace Cert.KernelIdeal.KHost

open Idealize.ShloMosaic Idealize.ShloMosaic.TcCoe
open Cert.KernelIdeal Cert.KernelIdeal.Gen

variable {F : FTy → Type} [FloatOps F]

/-- The buffers `hostOps0` writes: one result per operation. -/
abbrev wr1 : List (Ref sig .tc) :=
  [main_v0, main_v1, main_v2, main_v3, main_v4, main_v5, main_v6, main_v7, main_v8, main_v9, main_v10, main_v11, main_v12, main_v13, main_v14, main_v15, main_v16, main_v17, main_v18, main_v19, main_v20]
theorem wr1_sub : (hostOps0 : List (HloOp τ sig (Elt F))).Forall fun op => op.writes ⊆ (wr1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers `hostOps1` writes: one result per operation. -/
abbrev wr3 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v22]
theorem wr3_sub : (hostOps1 : List (HloOp τ sig (Elt F))).Forall fun op => op.writes ⊆ (wr3.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers `hostOps1_1` writes: one result per operation. -/
abbrev wr4 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v23]
theorem wr4_sub : (hostOps1_1 : List (HloOp τ sig (Elt F))).Forall fun op => op.writes ⊆ (wr4.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers `hostOps1_2` writes: one result per operation. -/
abbrev wr5 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v24]
theorem wr5_sub : (hostOps1_2 : List (HloOp τ sig (Elt F))).Forall fun op => op.writes ⊆ (wr5.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers `hostOps1_3` writes: one result per operation. -/
abbrev wr6 : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v25]
theorem wr6_sub : (hostOps1_3 : List (HloOp τ sig (Elt F))).Forall fun op => op.writes ⊆ (wr6.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers `hostOps1_4` writes: one result per operation. -/
abbrev wr7 : List (Ref sig .tc) :=
  [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v26]
theorem wr7_sub : (hostOps1_4 : List (HloOp τ sig (Elt F))).Forall fun op => op.writes ⊆ (wr7.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers `hostOps1_5` writes: one result per operation. -/
abbrev wr8 : List (Ref sig .tc) :=
  [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v27]
theorem wr8_sub : (hostOps1_5 : List (HloOp τ sig (Elt F))).Forall fun op => op.writes ⊆ (wr8.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers `hostOps1_6` writes: one result per operation. -/
abbrev wr9 : List (Ref sig .tc) :=
  [main_v28, main_v29, main_v30]
theorem wr9_sub : (hostOps1_6 : List (HloOp τ sig (Elt F))).Forall fun op => op.writes ⊆ (wr9.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers `hostOps2` writes: one result per operation. -/
abbrev wr11 : List (Ref sig .tc) :=
  [main_cst, main_v32, main_v33, main_v34]
theorem wr11_sub : (hostOps2 : List (HloOp τ sig (Elt F))).Forall fun op => op.writes ⊆ (wr11.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers `hostOps3` writes: one result per operation. -/
abbrev wr13 : List (Ref sig .tc) :=
  [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v36]
theorem wr13_sub : (hostOps3 : List (HloOp τ sig (Elt F))).Forall fun op => op.writes ⊆ (wr13.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers `hostOps3_1` writes: one result per operation. -/
abbrev wr14 : List (Ref sig .tc) :=
  [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v37]
theorem wr14_sub : (hostOps3_1 : List (HloOp τ sig (Elt F))).Forall fun op => op.writes ⊆ (wr14.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

variable (m : (ℓ : Loc nD τ sig) → Buf (Elt F) ℓ) (ρ : Dev nD → PrngReg) (c : Dev nD)

/-! ## One step back: a buffer the step does not write -/

theorem back1 (b : Ref sig .tc) (h : b ∉ wr1) :
    Gen.W1 m ρ c (Proc.devRef .tc b) = Gen.W0 m ρ c (Proc.devRef .tc b) :=
  StableHlo.after_of_writes_sub hostOps0 _ wr1_sub h
theorem back2 (b : Ref sig .tc) (h : ∀ w, Pipeline.arrRef spec0 w ≠ b) :
    Gen.W2 m ρ c (Proc.devRef .tc b) = Gen.W1 m ρ c (Proc.devRef .tc b) :=
  Gen.W2_of_ne m ρ c b h
theorem back3 (b : Ref sig .tc) (h : b ∉ wr3) :
    Gen.W3 m ρ c (Proc.devRef .tc b) = Gen.W2 m ρ c (Proc.devRef .tc b) :=
  StableHlo.after_of_writes_sub hostOps1 _ wr3_sub h
theorem back4 (b : Ref sig .tc) (h : b ∉ wr4) :
    Gen.W4 m ρ c (Proc.devRef .tc b) = Gen.W3 m ρ c (Proc.devRef .tc b) :=
  StableHlo.after_of_writes_sub hostOps1_1 _ wr4_sub h
theorem back5 (b : Ref sig .tc) (h : b ∉ wr5) :
    Gen.W5 m ρ c (Proc.devRef .tc b) = Gen.W4 m ρ c (Proc.devRef .tc b) :=
  StableHlo.after_of_writes_sub hostOps1_2 _ wr5_sub h
theorem back6 (b : Ref sig .tc) (h : b ∉ wr6) :
    Gen.W6 m ρ c (Proc.devRef .tc b) = Gen.W5 m ρ c (Proc.devRef .tc b) :=
  StableHlo.after_of_writes_sub hostOps1_3 _ wr6_sub h
theorem back7 (b : Ref sig .tc) (h : b ∉ wr7) :
    Gen.W7 m ρ c (Proc.devRef .tc b) = Gen.W6 m ρ c (Proc.devRef .tc b) :=
  StableHlo.after_of_writes_sub hostOps1_4 _ wr7_sub h
theorem back8 (b : Ref sig .tc) (h : b ∉ wr8) :
    Gen.W8 m ρ c (Proc.devRef .tc b) = Gen.W7 m ρ c (Proc.devRef .tc b) :=
  StableHlo.after_of_writes_sub hostOps1_5 _ wr8_sub h
theorem back9 (b : Ref sig .tc) (h : b ∉ wr9) :
    Gen.W9 m ρ c (Proc.devRef .tc b) = Gen.W8 m ρ c (Proc.devRef .tc b) :=
  StableHlo.after_of_writes_sub hostOps1_6 _ wr9_sub h
theorem back10 (b : Ref sig .tc) (h : ∀ w, Pipeline.arrRef spec1 w ≠ b) :
    Gen.W10 m ρ c (Proc.devRef .tc b) = Gen.W9 m ρ c (Proc.devRef .tc b) :=
  Gen.W10_of_ne m ρ c b h
theorem back11 (b : Ref sig .tc) (h : b ∉ wr11) :
    Gen.W11 m ρ c (Proc.devRef .tc b) = Gen.W10 m ρ c (Proc.devRef .tc b) :=
  StableHlo.after_of_writes_sub hostOps2 _ wr11_sub h
theorem back12 (b : Ref sig .tc) (h : ∀ w, Pipeline.arrRef spec2 w ≠ b) :
    Gen.W12 m ρ c (Proc.devRef .tc b) = Gen.W11 m ρ c (Proc.devRef .tc b) :=
  Gen.W12_of_ne m ρ c b h
theorem back13 (b : Ref sig .tc) (h : b ∉ wr13) :
    Gen.W13 m ρ c (Proc.devRef .tc b) = Gen.W12 m ρ c (Proc.devRef .tc b) :=
  StableHlo.after_of_writes_sub hostOps3 _ wr13_sub h
theorem back14 (b : Ref sig .tc) (h : b ∉ wr14) :
    Gen.W14 m ρ c (Proc.devRef .tc b) = Gen.W13 m ρ c (Proc.devRef .tc b) :=
  StableHlo.after_of_writes_sub hostOps3_1 _ wr14_sub h
theorem back15 (b : Ref sig .tc) (h : ∀ w, Pipeline.arrRef spec3 w ≠ b) :
    Gen.W15 m ρ c (Proc.devRef .tc b) = Gen.W14 m ρ c (Proc.devRef .tc b) :=
  Gen.W15_of_ne m ρ c b h

/-! ## One step back through region 1 for an array the region only reads

An input window's array is left as entered: what the pipeline leaves at it is its entry contents. -/

theorem back10_in (w : Fin cfg1.W) (hin : (cfg1.win w).isOut = false) :
    Gen.W10 m ρ c (Proc.devRef .tc (Pipeline.arrRef spec1 w)) = Gen.W9 m ρ c (Proc.devRef .tc (Pipeline.arrRef spec1 w)) :=
  (Gen.W10_arr m ρ c w).trans (((Gen.dat1 (Gen.V9 m ρ) c).arrAt_in w hin _).trans (Gen.A_eq1 (Gen.V9 m ρ) c w))
theorem back10_main_arg3 : Gen.W10 m ρ c (Proc.devRef .tc main_arg3) = Gen.W9 m ρ c (Proc.devRef .tc main_arg3) :=
  back10_in m ρ c 1 rfl
theorem back10_main_arg4 : Gen.W10 m ρ c (Proc.devRef .tc main_arg4) = Gen.W9 m ρ c (Proc.devRef .tc main_arg4) :=
  back10_in m ρ c 2 rfl

end Cert.KernelIdeal.KHost

end
-- ==== Proof.Spec.lean ====
/-
  The mathematics both programs compute, on extended reals, stated once.

  Arrays are functions of a two-coordinate index. A graph layer over N = 100000 nodes and E = 400000 edges of
  width D = 64:
    per-node weights   w   = bond @ Ww + bw                                  (31 terms per entry)
    gate value         g   = a@W[0:64] + b@W[64:128] + c@W[128:192] + d@W[192:256] + bias
                             which is (a|b|c|d) @ W + bias for the row-wise concatenation (256 terms)
    message            msg = (softplus(gl) − log 2) · sigmoid(gg) · cw
    node update        new = nf + agg @ Wo
    edge update        new = ef + (softplus(gl) − log 2) · sigmoid(gg)
  Only associativity and commutativity of + and · on the extended reals are used, so no finiteness is needed.
-/
import Idealize.ShloMosaic.PureOps.Ideal
import Idealize.ShloMosaic.Lib.ValueIdx
import Mathlib.Algebra.BigOperators.Fin

noncomputable section

namespace Gnn

open Idealize.ShloMosaic Idealize.ShloMosaic.ValueIdx
open scoped BigOperators

/-- An r × c array of extended reals. -/
abbrev Arr (r c : Nat) : Type := (⟨2, ![r, c]⟩ : Shape).Idx → EReal

/-- The array whose entry at row p, column q is f p q. -/
def ofAt {r c : Nat} (f : Fin r → Fin c → EReal) : Arr r c := fun i => f (i 0) (i 1)

theorem ofAt_ix2 {r c : Nat} (f : Fin r → Fin c → EReal) (p : Fin r) (q : Fin c) : ofAt f (ix2 p q) = f p q := rfl

theorem ofAt_apply {r c : Nat} (f : Fin r → Fin c → EReal) (i : (⟨2, ![r, c]⟩ : Shape).Idx) : ofAt f i = f (i 0) (i 1) := rfl

/-- Entry (p, q) of the matrix product x @ W: the sum over the shared axis. -/
def mmAt {r n c : Nat} (x : Arr r n) (W : Arr n c) (p : Fin r) (q : Fin c) : EReal :=
  ∑ k : Fin n, x (ix2 p k) * W (ix2 k q)

/-- The float words both programs carry: 0, 1 and the f32 nearest log 2. -/
def c0 : EReal := Ideal.ofBits .f32 0x00000000#32
def c1 : EReal := Ideal.ofBits .f32 0x3F800000#32
def cLog2 : EReal := Ideal.ofBits .f32 0x3F317218#32

/-- softplus(x) − log 2 as the kernel body spells logaddexp(x, 0): the guard compares x − 0 with itself
    (ordered, not equal), the exponent is 0 − |x − 0|. -/
def spK (x : EReal) : EReal :=
  Scalar.select (Ideal.cmp .one (x - c0) (x - c0)) (x + c0)
    (max x c0 + Ideal.log1p (Ideal.exp (c0 - max (x - c0) (-(x - c0))))) - cLog2

/-- The same as the reference spells it: the guard is (unordered or not equal), the exponent −|x − 0|. -/
def spR (x : EReal) : EReal :=
  Scalar.select (Ideal.cmp .une (x - c0) (x - c0)) (x + c0)
    (max x c0 + Ideal.log1p (Ideal.exp (-(max (x - c0) (-(x - c0)))))) - cLog2

/-- The logistic function as the kernel's one operation, and as the reference's quotient 1 / (1 + e^(−x)). -/
def sgK (x : EReal) : EReal := Ideal.logistic x
def sgR (x : EReal) : EReal := Ideal.div c1 (c1 + Ideal.exp (-x))

/-- The gate value with the weight matrix given as its four 64-row pieces and the bias as a 1 × 64 row:
    the four partial products added left to right, then the bias. -/
def gate4 {E : Nat} (a b c d : Arr E 64) (wa wb wc wd : Arr 64 64) (bias : Arr 1 64) (e : Fin E) (j : Fin 64) : EReal :=
  (((mmAt a wa e j + mmAt b wb e j) + mmAt c wc e j) + mmAt d wd e j) + bias (ix2 0 j)

/-- REGION 0: the per-node weights, bond @ Ww + bw (bw as a 1 × 64 row). -/
def nodeWeights (bond : Arr 100000 31) (Ww : Arr 31 64) (bw : Arr 1 64) : Arr 100000 64 :=
  ofAt fun n j => mmAt bond Ww n j + bw (ix2 0 j)

/-- REGION 1: the messages. -/
def messages (a b c d cw : Arr 400000 64) (wla wlb wlc wld : Arr 64 64) (bl : Arr 1 64)
    (wga wgb wgc wgd : Arr 64 64) (bg : Arr 1 64) : Arr 400000 64 :=
  ofAt fun e j => (spK (gate4 a b c d wla wlb wlc wld bl e j) * sgK (gate4 a b c d wga wgb wgc wgd bg e j)) * cw (ix2 e j)

/-- REGION 2: the node update, nf + agg @ Wo. -/
def nodeUpdate (agg nf : Arr 100000 64) (Wo : Arr 64 64) : Arr 100000 64 :=
  ofAt fun n j => nf (ix2 n j) + mmAt agg Wo n j

/-- REGION 3: the edge update, b + gated value (b the edge features themselves). -/
def edgeUpdate (a b c d : Arr 400000 64) (wla wlb wlc wld : Arr 64 64) (bl : Arr 1 64)
    (wga wgb wgc wgd : Arr 64 64) (bg : Arr 1 64) : Arr 400000 64 :=
  ofAt fun e j => b (ix2 e j) + spK (gate4 a b c d wla wlb wlc wld bl e j) * sgK (gate4 a b c d wga wgb wgc wgd bg e j)

/-! ## The whole layer, over an abstract row gather and scatter-sum

  Both programs gather rows of node arrays at the two index arrays (Gs at the source ids, Gd at the destination ids) and
  sum the messages into their destination rows (Sc). Those three are parameters here: nothing below looks inside them. -/

/-- The weight matrices cut into their four 64-row pieces, and the biases as 1 × 64 rows. -/
structure Pieces where
  nla : Arr 64 64
  nlb : Arr 64 64
  nlc : Arr 64 64
  nld : Arr 64 64
  nbl : Arr 1 64
  nga : Arr 64 64
  ngb : Arr 64 64
  ngc : Arr 64 64
  ngd : Arr 64 64
  nbg : Arr 1 64
  ela : Arr 64 64
  elb : Arr 64 64
  elc : Arr 64 64
  eld : Arr 64 64
  ebl : Arr 1 64
  ega : Arr 64 64
  egb : Arr 64 64
  egc : Arr 64 64
  egd : Arr 64 64
  ebg : Arr 1 64
  bw : Arr 1 64

/-- What it means for the pieces to be cut from the full matrices and bias vectors: piece r of a 256 × 64 matrix holds
    its rows 64·r … 64·r + 63, and a bias row holds the bias vector. -/
structure Pieces.CutFrom (P : Pieces) (Wnl Wng Wel Weg : Arr 256 64)
    (bnl bng bel beg bw : (⟨1, ![64]⟩ : Shape).Idx → EReal) : Prop where
  nla : ∀ (k j : Fin 64), P.nla (ix2 k j) = Wnl (ix2 ⟨k.val, by omega⟩ j)
  nlb : ∀ (k j : Fin 64), P.nlb (ix2 k j) = Wnl (ix2 ⟨64 + k.val, by omega⟩ j)
  nlc : ∀ (k j : Fin 64), P.nlc (ix2 k j) = Wnl (ix2 ⟨128 + k.val, by omega⟩ j)
  nld : ∀ (k j : Fin 64), P.nld (ix2 k j) = Wnl (ix2 ⟨192 + k.val, by omega⟩ j)
  nga : ∀ (k j : Fin 64), P.nga (ix2 k j) = Wng (ix2 ⟨k.val, by omega⟩ j)
  ngb : ∀ (k j : Fin 64), P.ngb (ix2 k j) = Wng (ix2 ⟨64 + k.val, by omega⟩ j)
  ngc : ∀ (k j : Fin 64), P.ngc (ix2 k j) = Wng (ix2 ⟨128 + k.val, by omega⟩ j)
  ngd : ∀ (k j : Fin 64), P.ngd (ix2 k j) = Wng (ix2 ⟨192 + k.val, by omega⟩ j)
  ela : ∀ (k j : Fin 64), P.ela (ix2 k j) = Wel (ix2 ⟨k.val, by omega⟩ j)
  elb : ∀ (k j : Fin 64), P.elb (ix2 k j) = Wel (ix2 ⟨64 + k.val, by omega⟩ j)
  elc : ∀ (k j : Fin 64), P.elc (ix2 k j) = Wel (ix2 ⟨128 + k.val, by omega⟩ j)
  eld : ∀ (k j : Fin 64), P.eld (ix2 k j) = Wel (ix2 ⟨192 + k.val, by omega⟩ j)
  ega : ∀ (k j : Fin 64), P.ega (ix2 k j) = Weg (ix2 ⟨k.val, by omega⟩ j)
  egb : ∀ (k j : Fin 64), P.egb (ix2 k j) = Weg (ix2 ⟨64 + k.val, by omega⟩ j)
  egc : ∀ (k j : Fin 64), P.egc (ix2 k j) = Weg (ix2 ⟨128 + k.val, by omega⟩ j)
  egd : ∀ (k j : Fin 64), P.egd (ix2 k j) = Weg (ix2 ⟨192 + k.val, by omega⟩ j)
  nbl : ∀ j : Fin 64, P.nbl (ix2 0 j) = bnl (ix1 j)
  nbg : ∀ j : Fin 64, P.nbg (ix2 0 j) = bng (ix1 j)
  ebl : ∀ j : Fin 64, P.ebl (ix2 0 j) = bel (ix1 j)
  ebg : ∀ j : Fin 64, P.ebg (ix2 0 j) = beg (ix1 j)
  bw : ∀ j : Fin 64, P.bw (ix2 0 j) = bw (ix1 j)

section Layer
variable (Gs Gd : Arr 100000 64 → Arr 400000 64) (Sc : Arr 400000 64 → Arr 100000 64)
variable (nf : Arr 100000 64) (ef aux : Arr 400000 64) (bond : Arr 100000 31) (snw : Arr 100000 64)
variable (Wo : Arr 64 64) (Ww : Arr 31 64) (P : Pieces)

/-- The combined per-edge weight: ((w[src] · w[dst]) · s[src]) · s[dst], entry by entry. -/
def edgeWeight : Arr 400000 64 :=
  fun i => ((Gs (nodeWeights bond Ww P.bw) i * Gd (nodeWeights bond Ww P.bw) i) * Gs snw i) * Gd snw i

/-- The first result: the updated node features. -/
def layerNode : Arr 100000 64 :=
  nodeUpdate
    (Sc (messages (Gs nf) ef aux (Gd nf) (edgeWeight Gs Gd bond snw Ww P)
      P.nla P.nlb P.nlc P.nld P.nbl P.nga P.ngb P.ngc P.ngd P.nbg))
    nf Wo

/-- The second result: the updated edge features, gathered from the UPDATED node features. -/
def layerEdge : Arr 400000 64 :=
  edgeUpdate (Gs (layerNode Gs Gd Sc nf ef aux bond snw Wo Ww P)) ef aux (Gd (layerNode Gs Gd Sc nf ef aux bond snw Wo Ww P))
    P.ela P.elb P.elc P.eld P.ebl P.ega P.egb P.egc P.egd P.ebg

end Layer

end Gnn

end
-- ==== Proof.KernelHostDefs.lean ====
import proofs.«408984_j66649302499835_1_alg».proof.Proof.Gen.KernelIdeal.Frame
import proofs.«408984_j66649302499835_1_alg».proof.Proof.Spec

/-!
  The host-side vocabulary of the kernel program, named once.

  Between its four kernel regions the program runs host operations: a row gather (printed eight times, the same 23
  operations each time), a scatter-sum, three multiplications, and at the start the cutting of the four 256 × 64 weight
  matrices into 64-row pieces and the reshaping of the five bias vectors into rows. Each is given a name here, over
  arrays of literal shape, together with the launched argument arrays and the record of pieces the layer takes.
-/

set_option maxRecDepth 16384

noncomputable section

namespace Cert.KernelIdeal.KHost

open Idealize.ShloMosaic Idealize.ShloMosaic.TcCoe
open Cert.KernelIdeal Cert.KernelIdeal.Gen

/-- An array of 400000 integer ids. -/
abbrev IdxArr : Type := (⟨S400000, .i32⟩ : BufTy).Contents (Elt Ideal)
/-- A vector of 64 extended reals. -/
abbrev Vec64 : Type := (⟨1, ![64]⟩ : Shape).Idx → EReal

/-- The row a gather reads for each id: a negative id is wrapped by the row count 100000; laid out as a column. -/
def takeIdx (idx : IdxArr) : (⟨S400000x1, .i32⟩ : BufTy).Contents (Elt Ideal) :=
  broadcastInDim S400000x1 ![0] bcast_S400000_S400000x1_0
    (select (cmpi .slt idx (broadcastInDim S400000 ![] bcast_S_S400000 (constantI S_ 32 0#32)))
      (addi idx (broadcastInDim S400000 ![] bcast_S_S400000 (constantI S_ 32 100000#32))) idx)

/-- Which ids are in range after wrapping: 0 ≤ row ≤ 99999. -/
def takeMask (idx : IdxArr) : (⟨S400000, .i1⟩ : BufTy).Contents (Elt Ideal) :=
  Host.reduce IntOp.andi
    (andi (cmpi .sge (takeIdx idx) (broadcastInDim S400000x1 ![] bcast_S_S400000x1 (constantI S_ 32 0#32)))
      (cmpi .sle (takeIdx idx) (broadcastInDim S400000x1 ![0, 1] bcast_S1x1_S400000x1_0_1 (broadcastInDim S1x1 ![1] bcast_S1_S1x1_1 (constantI S1 32 99999#32)))))
    (constantI S_ 1 1#1) reducesTo_S400000x1_S400000_d1 h_S_

/-- The row gather: row e of the result is row idx e of x, and a row of NaNs where the id is out of range. -/
def take (idx : IdxArr) (x : Gnn.Arr 100000 64) : Gnn.Arr 400000 64 :=
  select (broadcastInDim S400000x64 ![0] bcast_S400000_S400000x64_0 (takeMask idx))
    (Host.gather gather_S100000x64_S400000x1_S400000x64_1_0_n_n_0_1_164 x (takeIdx idx))
    (broadcastInDim S400000x64 ![] bcast_S_S400000x64 (constant (F := Ideal) S_ .f32 0x7FC00000#32))

/-- The scatter-sum: the rows of u added into the rows dst names, from zero. -/
def scatBy (dst : IdxArr) (u : Gnn.Arr 400000 64) : Gnn.Arr 100000 64 :=
  Host.scatterAdd scatter_S100000x64_S400000x1_S400000x64_1_0_0_1
    (broadcastInDim S100000x64 ![] bcast_S_S100000x64 (constant (F := Ideal) S_ .f32 0x00000000#32))
    (broadcastInDim S400000x1 ![0] bcast_S400000_S400000x1_0 dst) u

/-- A 64-vector as a 1 × 64 row. -/
def rowOf (b : Vec64) : Gnn.Arr 1 64 := shapeCast S1x64 b shapeCasts_S64_S1x64
/-- The four 64-row pieces of a 256 × 64 matrix. -/
def cut0 (W : Gnn.Arr 256 64) : Gnn.Arr 64 64 := extractStridedSlice S64x64 ![0, 0] W slices_S256x64_S64x64_0_0
def cut1 (W : Gnn.Arr 256 64) : Gnn.Arr 64 64 := extractStridedSlice S64x64 ![64, 0] W slices_S256x64_S64x64_64_0
def cut2 (W : Gnn.Arr 256 64) : Gnn.Arr 64 64 := extractStridedSlice S64x64 ![128, 0] W slices_S256x64_S64x64_128_0
def cut3 (W : Gnn.Arr 256 64) : Gnn.Arr 64 64 := extractStridedSlice S64x64 ![192, 0] W slices_S256x64_S64x64_192_0

/-- The product of four edge arrays, taken left to right. -/
def mul4 (p q r s : Gnn.Arr 400000 64) : Gnn.Arr 400000 64 :=
  mulf (F := Ideal) (s := S400000x64) (φ := .f32)
    (mulf (F := Ideal) (s := S400000x64) (φ := .f32) (mulf (F := Ideal) (s := S400000x64) (φ := .f32) p q) r) s

theorem mul4_eq (p q r s : Gnn.Arr 400000 64) : mul4 p q r s = fun i => ((p i * q i) * r i) * s i := rfl

section Launch
variable (m : (ℓ : Loc nD τ sig) → Buf (Elt Ideal) ℓ) (c : Dev nD)

/-! The eighteen argument arrays as launched, each at its literal array type. -/
abbrev A0 : IdxArr := m ((c : Thread nD τ).loc main_arg0)
abbrev A1 : IdxArr := m ((c : Thread nD τ).loc main_arg1)
abbrev A2 : Gnn.Arr 100000 64 := m ((c : Thread nD τ).loc main_arg2)
abbrev A3 : Gnn.Arr 400000 64 := m ((c : Thread nD τ).loc main_arg3)
abbrev A4 : Gnn.Arr 400000 64 := m ((c : Thread nD τ).loc main_arg4)
abbrev A5 : Gnn.Arr 100000 31 := m ((c : Thread nD τ).loc main_arg5)
abbrev A6 : Gnn.Arr 100000 64 := m ((c : Thread nD τ).loc main_arg6)
abbrev A7 : Gnn.Arr 256 64 := m ((c : Thread nD τ).loc main_arg7)
abbrev A8 : Vec64 := m ((c : Thread nD τ).loc main_arg8)
abbrev A9 : Gnn.Arr 256 64 := m ((c : Thread nD τ).loc main_arg9)
abbrev A10 : Vec64 := m ((c : Thread nD τ).loc main_arg10)
abbrev A11 : Gnn.Arr 64 64 := m ((c : Thread nD τ).loc main_arg11)
abbrev A12 : Gnn.Arr 31 64 := m ((c : Thread nD τ).loc main_arg12)
abbrev A13 : Vec64 := m ((c : Thread nD τ).loc main_arg13)
abbrev A14 : Gnn.Arr 256 64 := m ((c : Thread nD τ).loc main_arg14)
abbrev A15 : Vec64 := m ((c : Thread nD τ).loc main_arg15)
abbrev A16 : Gnn.Arr 256 64 := m ((c : Thread nD τ).loc main_arg16)
abbrev A17 : Vec64 := m ((c : Thread nD τ).loc main_arg17)

/-- The scatter-sum at the launched destination ids. -/
abbrev scat : Gnn.Arr 400000 64 → Gnn.Arr 100000 64 := scatBy (A1 m c)

/-- The weight matrices cut into their pieces and the bias vectors as rows, from the launched arguments. -/
def pieces : Gnn.Pieces where
  nla := cut0 (A7 m c)
  nlb := cut1 (A7 m c)
  nlc := cut2 (A7 m c)
  nld := cut3 (A7 m c)
  nbl := rowOf (A8 m c)
  nga := cut0 (A9 m c)
  ngb := cut1 (A9 m c)
  ngc := cut2 (A9 m c)
  ngd := cut3 (A9 m c)
  nbg := rowOf (A10 m c)
  ela := cut0 (A14 m c)
  elb := cut1 (A14 m c)
  elc := cut2 (A14 m c)
  eld := cut3 (A14 m c)
  ebl := rowOf (A15 m c)
  ega := cut0 (A16 m c)
  egb := cut1 (A16 m c)
  egc := cut2 (A16 m c)
  egd := cut3 (A16 m c)
  ebg := rowOf (A17 m c)
  bw := rowOf (A13 m c)

end Launch

end Cert.KernelIdeal.KHost

end
-- ==== Proof.KernelHostStretch.lean ====
import proofs.«408984_j66649302499835_1_alg».proof.Proof.KernelHostDefs

/-!
  What each stretch of host operations leaves in its result buffer, from any buffer contents.

  A stretch is a straight line of operations, each writing its own result buffer from the buffers before it; its last
  result is therefore one composed term over the contents the stretch started from. The eight printed row gathers are
  the same 23 operations at different buffers, so each is the one function `take` of an id array and a node array; the
  operations of the called function carry their operands through a typed view of the buffer, which is the identity.
-/

set_option maxRecDepth 16384

noncomputable section

namespace Cert.KernelIdeal.KHost

open Idealize.ShloMosaic Idealize.ShloMosaic.TcCoe
open Cert.KernelIdeal Cert.KernelIdeal.Gen

/-! ## Moving contents to a typed buffer and back is the identity -/

/-- Contents moved to a typed reference's own buffer type and back are unchanged. -/
theorem ofBuf_toBuf {T : BufTy} (x : StableHlo.TRef sig T) (v : T.Contents (Elt Ideal)) : x.ofBuf (x.toBuf v) = v := by
  obtain ⟨r, h, _, _⟩ := x
  subst h
  rfl

theorem ofBuf_main_arg0 (X : Valuation τ sig (Elt Ideal)) :
    ((.of main_arg0 : StableHlo.TRef sig ⟨S400000, .i32⟩).ofBuf (X (Proc.devRef .tc main_arg0)) : (⟨S400000, .i32⟩ : BufTy).Contents (Elt Ideal)) = X (Proc.devRef .tc main_arg0) := rfl
theorem ofBuf_main_arg1 (X : Valuation τ sig (Elt Ideal)) :
    ((.of main_arg1 : StableHlo.TRef sig ⟨S400000, .i32⟩).ofBuf (X (Proc.devRef .tc main_arg1)) : (⟨S400000, .i32⟩ : BufTy).Contents (Elt Ideal)) = X (Proc.devRef .tc main_arg1) := rfl
theorem ofBuf_main_arg2 (X : Valuation τ sig (Elt Ideal)) :
    ((.of main_arg2 : StableHlo.TRef sig ⟨S100000x64, .f32⟩).ofBuf (X (Proc.devRef .tc main_arg2)) : (⟨S100000x64, .f32⟩ : BufTy).Contents (Elt Ideal)) = X (Proc.devRef .tc main_arg2) := rfl
theorem ofBuf_main_arg6 (X : Valuation τ sig (Elt Ideal)) :
    ((.of main_arg6 : StableHlo.TRef sig ⟨S100000x64, .f32⟩).ofBuf (X (Proc.devRef .tc main_arg6)) : (⟨S100000x64, .f32⟩ : BufTy).Contents (Elt Ideal)) = X (Proc.devRef .tc main_arg6) := rfl
theorem ofBuf_main_v21 (X : Valuation τ sig (Elt Ideal)) :
    ((.of main_v21 : StableHlo.TRef sig ⟨S100000x64, .f32⟩).ofBuf (X (Proc.devRef .tc main_v21)) : (⟨S100000x64, .f32⟩ : BufTy).Contents (Elt Ideal)) = X (Proc.devRef .tc main_v21) := rfl
theorem ofBuf_main_v35 (X : Valuation τ sig (Elt Ideal)) :
    ((.of main_v35 : StableHlo.TRef sig ⟨S100000x64, .f32⟩).ofBuf (X (Proc.devRef .tc main_v35)) : (⟨S100000x64, .f32⟩ : BufTy).Contents (Elt Ideal)) = X (Proc.devRef .tc main_v35) := rfl
theorem toBuf_main_v22 (v : (⟨S400000x64, .f32⟩ : BufTy).Contents (Elt Ideal)) :
    ((.of main_v22 : StableHlo.TRef sig ⟨S400000x64, .f32⟩).toBuf v : (⟨S400000x64, .f32⟩ : BufTy).Contents (Elt Ideal)) = v := rfl
theorem toBuf_main_v23 (v : (⟨S400000x64, .f32⟩ : BufTy).Contents (Elt Ideal)) :
    ((.of main_v23 : StableHlo.TRef sig ⟨S400000x64, .f32⟩).toBuf v : (⟨S400000x64, .f32⟩ : BufTy).Contents (Elt Ideal)) = v := rfl
theorem toBuf_main_v24 (v : (⟨S400000x64, .f32⟩ : BufTy).Contents (Elt Ideal)) :
    ((.of main_v24 : StableHlo.TRef sig ⟨S400000x64, .f32⟩).toBuf v : (⟨S400000x64, .f32⟩ : BufTy).Contents (Elt Ideal)) = v := rfl
theorem toBuf_main_v25 (v : (⟨S400000x64, .f32⟩ : BufTy).Contents (Elt Ideal)) :
    ((.of main_v25 : StableHlo.TRef sig ⟨S400000x64, .f32⟩).toBuf v : (⟨S400000x64, .f32⟩ : BufTy).Contents (Elt Ideal)) = v := rfl
theorem toBuf_main_v26 (v : (⟨S400000x64, .f32⟩ : BufTy).Contents (Elt Ideal)) :
    ((.of main_v26 : StableHlo.TRef sig ⟨S400000x64, .f32⟩).toBuf v : (⟨S400000x64, .f32⟩ : BufTy).Contents (Elt Ideal)) = v := rfl
theorem toBuf_main_v27 (v : (⟨S400000x64, .f32⟩ : BufTy).Contents (Elt Ideal)) :
    ((.of main_v27 : StableHlo.TRef sig ⟨S400000x64, .f32⟩).toBuf v : (⟨S400000x64, .f32⟩ : BufTy).Contents (Elt Ideal)) = v := rfl
theorem toBuf_main_v36 (v : (⟨S400000x64, .f32⟩ : BufTy).Contents (Elt Ideal)) :
    ((.of main_v36 : StableHlo.TRef sig ⟨S400000x64, .f32⟩).toBuf v : (⟨S400000x64, .f32⟩ : BufTy).Contents (Elt Ideal)) = v := rfl
theorem toBuf_main_v37 (v : (⟨S400000x64, .f32⟩ : BufTy).Contents (Elt Ideal)) :
    ((.of main_v37 : StableHlo.TRef sig ⟨S400000x64, .f32⟩).toBuf v : (⟨S400000x64, .f32⟩ : BufTy).Contents (Elt Ideal)) = v := rfl

/-! ## Each stretch of host operations at its result, from any contents `X` -/

variable (X : Valuation τ sig (Elt Ideal))

theorem after0_main_v0 : StableHlo.after (hostOps0 (F := Ideal)) X (Proc.devRef .tc main_v0) = rowOf (X (Proc.devRef .tc main_arg8)) := by
  after_results
  rfl
theorem after0_main_v1 : StableHlo.after (hostOps0 (F := Ideal)) X (Proc.devRef .tc main_v1) = rowOf (X (Proc.devRef .tc main_arg10)) := by
  after_results
  rfl
theorem after0_main_v2 : StableHlo.after (hostOps0 (F := Ideal)) X (Proc.devRef .tc main_v2) = rowOf (X (Proc.devRef .tc main_arg13)) := by
  after_results
  rfl
theorem after0_main_v3 : StableHlo.after (hostOps0 (F := Ideal)) X (Proc.devRef .tc main_v3) = rowOf (X (Proc.devRef .tc main_arg15)) := by
  after_results
  rfl
theorem after0_main_v4 : StableHlo.after (hostOps0 (F := Ideal)) X (Proc.devRef .tc main_v4) = rowOf (X (Proc.devRef .tc main_arg17)) := by
  after_results
  rfl
theorem after0_main_v5 : StableHlo.after (hostOps0 (F := Ideal)) X (Proc.devRef .tc main_v5) = cut0 (X (Proc.devRef .tc main_arg7)) := by
  after_results
  rfl
theorem after0_main_v6 : StableHlo.after (hostOps0 (F := Ideal)) X (Proc.devRef .tc main_v6) = cut1 (X (Proc.devRef .tc main_arg7)) := by
  after_results
  rfl
theorem after0_main_v7 : StableHlo.after (hostOps0 (F := Ideal)) X (Proc.devRef .tc main_v7) = cut2 (X (Proc.devRef .tc main_arg7)) := by
  after_results
  rfl
theorem after0_main_v8 : StableHlo.after (hostOps0 (F := Ideal)) X (Proc.devRef .tc main_v8) = cut3 (X (Proc.devRef .tc main_arg7)) := by
  after_results
  rfl
theorem after0_main_v9 : StableHlo.after (hostOps0 (F := Ideal)) X (Proc.devRef .tc main_v9) = cut0 (X (Proc.devRef .tc main_arg9)) := by
  after_results
  rfl
theorem after0_main_v10 : StableHlo.after (hostOps0 (F := Ideal)) X (Proc.devRef .tc main_v10) = cut1 (X (Proc.devRef .tc main_arg9)) := by
  after_results
  rfl
theorem after0_main_v11 : StableHlo.after (hostOps0 (F := Ideal)) X (Proc.devRef .tc main_v11) = cut2 (X (Proc.devRef .tc main_arg9)) := by
  after_results
  rfl
theorem after0_main_v12 : StableHlo.after (hostOps0 (F := Ideal)) X (Proc.devRef .tc main_v12) = cut3 (X (Proc.devRef .tc main_arg9)) := by
  after_results
  rfl
theorem after0_main_v13 : StableHlo.after (hostOps0 (F := Ideal)) X (Proc.devRef .tc main_v13) = cut0 (X (Proc.devRef .tc main_arg14)) := by
  after_results
  rfl
theorem after0_main_v14 : StableHlo.after (hostOps0 (F := Ideal)) X (Proc.devRef .tc main_v14) = cut1 (X (Proc.devRef .tc main_arg14)) := by
  after_results
  rfl
theorem after0_main_v15 : StableHlo.after (hostOps0 (F := Ideal)) X (Proc.devRef .tc main_v15) = cut2 (X (Proc.devRef .tc main_arg14)) := by
  after_results
  rfl
theorem after0_main_v16 : StableHlo.after (hostOps0 (F := Ideal)) X (Proc.devRef .tc main_v16) = cut3 (X (Proc.devRef .tc main_arg14)) := by
  after_results
  rfl
theorem after0_main_v17 : StableHlo.after (hostOps0 (F := Ideal)) X (Proc.devRef .tc main_v17) = cut0 (X (Proc.devRef .tc main_arg16)) := by
  after_results
  rfl
theorem after0_main_v18 : StableHlo.after (hostOps0 (F := Ideal)) X (Proc.devRef .tc main_v18) = cut1 (X (Proc.devRef .tc main_arg16)) := by
  after_results
  rfl
theorem after0_main_v19 : StableHlo.after (hostOps0 (F := Ideal)) X (Proc.devRef .tc main_v19) = cut2 (X (Proc.devRef .tc main_arg16)) := by
  after_results
  rfl
theorem after0_main_v20 : StableHlo.after (hostOps0 (F := Ideal)) X (Proc.devRef .tc main_v20) = cut3 (X (Proc.devRef .tc main_arg16)) := by
  after_results
  rfl
theorem after3_main_v22 : StableHlo.after (hostOps1 (F := Ideal)) X (Proc.devRef .tc main_v22)
    = take (X (Proc.devRef .tc main_arg0)) (X (Proc.devRef .tc main_arg2)) := by
  after_results_simp
  simp only [ofBuf_toBuf, ofBuf_main_arg0, ofBuf_main_arg2]
  rw [toBuf_main_v22]
  rfl
theorem after4_main_v23 : StableHlo.after (hostOps1_1 (F := Ideal)) X (Proc.devRef .tc main_v23)
    = take (X (Proc.devRef .tc main_arg1)) (X (Proc.devRef .tc main_arg2)) := by
  after_results_simp
  simp only [ofBuf_toBuf, ofBuf_main_arg1, ofBuf_main_arg2]
  rw [toBuf_main_v23]
  rfl
theorem after5_main_v24 : StableHlo.after (hostOps1_2 (F := Ideal)) X (Proc.devRef .tc main_v24)
    = take (X (Proc.devRef .tc main_arg0)) (X (Proc.devRef .tc main_v21)) := by
  after_results_simp
  simp only [ofBuf_toBuf, ofBuf_main_arg0, ofBuf_main_v21]
  rw [toBuf_main_v24]
  rfl
theorem after6_main_v25 : StableHlo.after (hostOps1_3 (F := Ideal)) X (Proc.devRef .tc main_v25)
    = take (X (Proc.devRef .tc main_arg1)) (X (Proc.devRef .tc main_v21)) := by
  after_results_simp
  simp only [ofBuf_toBuf, ofBuf_main_arg1, ofBuf_main_v21]
  rw [toBuf_main_v25]
  rfl
theorem after7_main_v26 : StableHlo.after (hostOps1_4 (F := Ideal)) X (Proc.devRef .tc main_v26)
    = take (X (Proc.devRef .tc main_arg0)) (X (Proc.devRef .tc main_arg6)) := by
  after_results_simp
  simp only [ofBuf_toBuf, ofBuf_main_arg0, ofBuf_main_arg6]
  rw [toBuf_main_v26]
  rfl
theorem after8_main_v27 : StableHlo.after (hostOps1_5 (F := Ideal)) X (Proc.devRef .tc main_v27)
    = take (X (Proc.devRef .tc main_arg1)) (X (Proc.devRef .tc main_arg6)) := by
  after_results_simp
  simp only [ofBuf_toBuf, ofBuf_main_arg1, ofBuf_main_arg6]
  rw [toBuf_main_v27]
  rfl
theorem after13_main_v36 : StableHlo.after (hostOps3 (F := Ideal)) X (Proc.devRef .tc main_v36)
    = take (X (Proc.devRef .tc main_arg0)) (X (Proc.devRef .tc main_v35)) := by
  after_results_simp
  simp only [ofBuf_toBuf, ofBuf_main_arg0, ofBuf_main_v35]
  rw [toBuf_main_v36]
  rfl
theorem after14_main_v37 : StableHlo.after (hostOps3_1 (F := Ideal)) X (Proc.devRef .tc main_v37)
    = take (X (Proc.devRef .tc main_arg1)) (X (Proc.devRef .tc main_v35)) := by
  after_results_simp
  simp only [ofBuf_toBuf, ofBuf_main_arg1, ofBuf_main_v35]
  rw [toBuf_main_v37]
  rfl
theorem after9_main_v30 : StableHlo.after (hostOps1_6 (F := Ideal)) X (Proc.devRef .tc main_v30)
    = mul4 (X (Proc.devRef .tc main_v24)) (X (Proc.devRef .tc main_v25)) (X (Proc.devRef .tc main_v26)) (X (Proc.devRef .tc main_v27)) := by
  after_results
  rfl
theorem after11_main_v34 : StableHlo.after (hostOps2 (F := Ideal)) X (Proc.devRef .tc main_v34)
    = scatBy (X (Proc.devRef .tc main_arg1)) (X (Proc.devRef .tc main_v31)) := by
  after_results
  rfl

end Cert.KernelIdeal.KHost

end
-- ==== Proof.KernelHostCut.lean ====
import proofs.«408984_j66649302499835_1_alg».proof.Proof.KernelHostDefs
import Idealize.ShloMosaic.Lib.ValueLayout

/-!
  The pieces the layer takes are cut from the launched matrices and vectors: piece r of a 256 × 64 weight matrix holds
  its rows 64·r … 64·r + 63 (a slice read at an index is the source at the index shifted by the offset), and a bias row
  holds the bias vector (a reshape read at an index is the source at the same row-major position).
-/

set_option maxRecDepth 16384

noncomputable section

namespace Cert.KernelIdeal.KHost

open Idealize.ShloMosaic Idealize.ShloMosaic.TcCoe
open Cert.KernelIdeal Cert.KernelIdeal.Gen
open Idealize.ShloMosaic.ValueIdx

/-! ## The pieces are cut from the launched matrices and vectors -/

theorem cut0_apply (W : Gnn.Arr 256 64) (k j : Fin 64) : cut0 W (ix2 k j) = W (ix2 ⟨k.val, by omega⟩ j) :=
  slice2_axis0_apply 0 W _ k j _ (Nat.zero_add _).symm
theorem cut1_apply (W : Gnn.Arr 256 64) (k j : Fin 64) : cut1 W (ix2 k j) = W (ix2 ⟨64 + k.val, by omega⟩ j) :=
  slice2_axis0_apply 64 W _ k j _ rfl
theorem cut2_apply (W : Gnn.Arr 256 64) (k j : Fin 64) : cut2 W (ix2 k j) = W (ix2 ⟨128 + k.val, by omega⟩ j) :=
  slice2_axis0_apply 128 W _ k j _ rfl
theorem cut3_apply (W : Gnn.Arr 256 64) (k j : Fin 64) : cut3 W (ix2 k j) = W (ix2 ⟨192 + k.val, by omega⟩ j) :=
  slice2_axis0_apply 192 W _ k j _ rfl
theorem rowOf_apply (b : Vec64) (j : Fin 64) : rowOf b (ix2 0 j) = b (ix1 j) :=
  shapeCast_a_1a_apply b _ 0 j

theorem pieces_cut (m : (ℓ : Loc nD τ sig) → Buf (Elt Ideal) ℓ) (c : Dev nD) :
    (pieces m c).CutFrom (A7 m c) (A9 m c) (A14 m c) (A16 m c) (A8 m c) (A10 m c) (A15 m c) (A17 m c) (A13 m c) where
  nla := cut0_apply (A7 m c)
  nlb := cut1_apply (A7 m c)
  nlc := cut2_apply (A7 m c)
  nld := cut3_apply (A7 m c)
  nga := cut0_apply (A9 m c)
  ngb := cut1_apply (A9 m c)
  ngc := cut2_apply (A9 m c)
  ngd := cut3_apply (A9 m c)
  ela := cut0_apply (A14 m c)
  elb := cut1_apply (A14 m c)
  elc := cut2_apply (A14 m c)
  eld := cut3_apply (A14 m c)
  ega := cut0_apply (A16 m c)
  egb := cut1_apply (A16 m c)
  egc := cut2_apply (A16 m c)
  egd := cut3_apply (A16 m c)
  nbl := rowOf_apply (A8 m c)
  nbg := rowOf_apply (A10 m c)
  ebl := rowOf_apply (A15 m c)
  ebg := rowOf_apply (A17 m c)
  bw := rowOf_apply (A13 m c)

end Cert.KernelIdeal.KHost

end
-- ==== Proof.Region0.lean ====
/-
  REGION 0 of the kernel program, read as mathematics.

  The region walks 20 grid points; point t stages rows 5000·t … 5000·t + 4999 of the [100000, 31] array,
  the whole [31, 64] matrix and the whole [1, 64] bias row, and writes rows 5000·t … 5000·t + 4999 of the
  [100000, 64] result. At the extended reals every float operation is exact and the narrowing to bf16 is the
  identity, so entry (p, q) of the body's value is the sum over the 31 shared coordinates of the products, plus the
  bias at column q. Row r of the result is written by the point r / 5000, so the 20 blocks cover the array and the
  array after the region is one function of the three input arrays: `Gnn.nodeWeights`.
-/
import proofs.«408984_j66649302499835_1_alg».proof.Proof.Gen.KernelIdeal.Frame
import proofs.«408984_j66649302499835_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The body's value at an entry -/

/-- In the [5000, 31] × [31, 64] product the left operand is read at (row of the output, shared coordinate) … -/
theorem lhs0_0 (j : S5000x64.Idx) (k : dot_S5000x31_S31x64_S5000x64_1_0_0_1_n_n.contr.Idx) :
    (dot_S5000x31_S31x64_S5000x64_1_0_0_1_n_n.lhsIdx j k 0 : ℕ) = j 0 := by
  simp [DotDims.lhsIdx, dot_S5000x31_S31x64_S5000x64_1_0_0_1_n_n]; rfl
theorem lhs0_1 (j : S5000x64.Idx) (k : dot_S5000x31_S31x64_S5000x64_1_0_0_1_n_n.contr.Idx) :
    (dot_S5000x31_S31x64_S5000x64_1_0_0_1_n_n.lhsIdx j k 1 : ℕ) = k ⟨0, by decide⟩ :=
  dot_S5000x31_S31x64_S5000x64_1_0_0_1_n_n.lhsIdx_val_of_single rfl j k
/-- … and the right operand at (shared coordinate, column of the output). -/
theorem rhs0_0 (j : S5000x64.Idx) (k : dot_S5000x31_S31x64_S5000x64_1_0_0_1_n_n.contr.Idx) :
    (dot_S5000x31_S31x64_S5000x64_1_0_0_1_n_n.rhsIdx j k 0 : ℕ) = k ⟨0, by decide⟩ :=
  dot_S5000x31_S31x64_S5000x64_1_0_0_1_n_n.rhsIdx_val_of_single rfl j k
theorem rhs0_1 (j : S5000x64.Idx) (k : dot_S5000x31_S31x64_S5000x64_1_0_0_1_n_n.contr.Idx) :
    (dot_S5000x31_S31x64_S5000x64_1_0_0_1_n_n.rhsIdx j k 1 : ℕ) = j 1 := by
  simp [DotDims.rhsIdx, dot_S5000x31_S31x64_S5000x64_1_0_0_1_n_n]; rfl

/-- The product into the zero accumulator, entry (p, q): the sum over the 31 shared coordinates of the products. -/
theorem matmul0_at (a : FVec Ideal S5000x31 .bf16) (b : FVec Ideal S31x64 .bf16) (p : Fin 5000) (q : Fin 64) :
    matmul dot_S5000x31_S31x64_S5000x64_1_0_0_1_n_n none a b (constant S5000x64 .f32 0x00000000#32) (ix2 p q)
      = ∑ k : Fin 31, a (ix2 p k) * b (ix2 k q) := by
  show FloatOps.matmul _ none a b _ (ix2 p q) = _
  rw [Ideal.matmul_constant_zero_apply,
    ← Equiv.sum_comp (contrEquiv1 dot_S5000x31_S31x64_S5000x64_1_0_0_1_n_n 31 rfl rfl).symm]
  refine Finset.sum_congr rfl fun k _ => ?_
  have hk := contrEquiv1_symm_val dot_S5000x31_S31x64_S5000x64_1_0_0_1_n_n 31 rfl rfl k
  have l : dot_S5000x31_S31x64_S5000x64_1_0_0_1_n_n.lhsIdx (ix2 p q) ((contrEquiv1 dot_S5000x31_S31x64_S5000x64_1_0_0_1_n_n 31 rfl rfl).symm k) = ix2 p k := by
    funext ax; apply Fin.ext
    match ax with
    | ⟨0, _⟩ => exact lhs0_0 _ _
    | ⟨1, _⟩ => exact (lhs0_1 _ _).trans hk
  have r : dot_S5000x31_S31x64_S5000x64_1_0_0_1_n_n.rhsIdx (ix2 p q) ((contrEquiv1 dot_S5000x31_S31x64_S5000x64_1_0_0_1_n_n 31 rfl rfl).symm k) = ix2 k q := by
    funext ax; apply Fin.ext
    match ax with
    | ⟨0, _⟩ => exact (rhs0_0 _ _).trans hk
    | ⟨1, _⟩ => exact rhs0_1 _ _
  rw [l, r]

/-- The body's value at entry (p, q): row p of the staged block against column q of the matrix, plus the bias. -/
theorem pay0_at (x0 : Vec Ideal S5000x31 .f32) (x1 : Vec Ideal S31x64 .f32) (x2 : Vec Ideal S1x64 .f32)
    (p : Fin 5000) (q : Fin 64) :
    (Gen.k0_pay1 (F := Ideal) x0 x1 x2) (ix2 p q) = Gnn.mmAt x0 x1 p q + x2 (ix2 0 q) := by
  unfold Gen.k0_pay1
  rw [addf_apply, matmul0_at, shapeCast_self, broadcastTo_1b_ab_apply]
  rfl

/-- The same with the staged blocks named as pieces of whole arrays: when row p of the first block is row r of the
    array and the other two blocks are their arrays, entry (p, q) of the body's value is entry (r, q) of the per-node
    weights. -/
theorem pay0_block (x0 : Vec Ideal S5000x31 .f32) (x1 : Vec Ideal S31x64 .f32) (x2 : Vec Ideal S1x64 .f32)
    (A0 : Gnn.Arr 100000 31) (A1 : Gnn.Arr 31 64) (A2 : Gnn.Arr 1 64) (p : Fin 5000) (q : Fin 64) (r : Fin 100000)
    (h0 : ∀ k : Fin 31, x0 (ix2 p k) = A0 (ix2 r k)) (h1 : x1 = A1) (h2 : x2 = A2) :
    (Gen.k0_pay1 (F := Ideal) x0 x1 x2) (ix2 p q) = Gnn.nodeWeights A0 A1 A2 (ix2 r q) := by
  subst h1 h2
  rw [pay0_at, Gnn.nodeWeights, Gnn.ofAt_ix2]
  unfold Gnn.mmAt
  exact congrArg (· + x2 (ix2 0 q)) (Finset.sum_congr rfl fun k _ => by rw [h0 k])

theorem hz : (![0, 0] : Fin 2 → Nat) = fun _ => 0 := funext fun a => by fin_cases a <;> rfl

/-- What the body leaves in the output's buffer is its one whole-block store: the body's value of the three blocks. -/
theorem out0_eq (x0 : Vec Ideal S5000x31 .f32) (x1 : Vec Ideal S31x64 .f32) (x2 : Vec Ideal S1x64 .f32) :
    Gen.out0_3 (F := Ideal) x0 x1 x2 = Gen.k0_pay1 (F := Ideal) x0 x1 x2 := by
  unfold Gen.out0_3
  rw [View.canon_unit_zero hz]
  simp only [View.ld_unit_zero (S := S5000x31) hz, View.ld_unit_zero (S := S31x64) hz, View.ld_unit_zero (S := S1x64) hz]

/-! ## From the blocks to the array -/

variable (V : (c : Dev nD) → (b : Ref sig .tc) → Buf (Elt Ideal) ((c : Thread nD τ).loc b))

/-- The region's three input arrays, each at its literal type. -/
abbrev bondArr (c : Dev nD) : Gnn.Arr 100000 31 := V c (Pipeline.arrRef spec0 0)
abbrev weightArr (c : Dev nD) : Gnn.Arr 31 64 := V c (Pipeline.arrRef spec0 1)
abbrev biasArr (c : Dev nD) : Gnn.Arr 1 64 := V c (Pipeline.arrRef spec0 2)

/-- The block indices over the grid: point t stages row block t of the first array and of the result, and the matrix
    and the bias row whole. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of the per-node weights of the three arrays as the region finds them. -/
theorem flushed0_eq (c : Dev nD) (t : Fin cfg0.N) :
    (Gen.dat0 (F := Ideal) V c).flushed 3 t
      = ((cfg0.win 3).blk t).view.read (Elt Ideal) (Gnn.nodeWeights (bondArr V c) (weightArr V c) (biasArr V c)) := by
  show (cfg0.win 3).cut (grid0.coords t) ((Gen.dat0 (F := Ideal) V c).after 3 t) = _
  rw [Gen.after0_3]
  obtain ⟨e0, e1, e2, e3, e4, e5, e6, e7⟩ := idx_facts0 t
  have hN : grid0.N = 20 := Gen.N_0
  have ht : t.val < 20 := hN ▸ t.isLt
  funext j
  have hj0 : (j 0).val < 5000 := (j 0).isLt
  have hj : j = ix2 (n0 := 5000) (n1 := 64) (j 0) (j 1) := eq_ix2 j
  have hi : ((cfg0.win 3).blk t).view.emb j
      = ix2 (n0 := 100000) (n1 := 64) ⟨win0_3.index t (0 : Fin 2) * 5000 + (j 0).val, by omega⟩ (j 1) := by
    funext a; apply Fin.ext
    match a with
    | ⟨0, _⟩ => show win0_3.index t (0 : Fin 2) * 5000 + 1 * (j 0).val = win0_3.index t (0 : Fin 2) * 5000 + (j 0).val; omega
    | ⟨1, _⟩ => show win0_3.index t (1 : Fin 2) * 64 + 1 * (j 1).val = (j 1).val; omega
  have h0 : ∀ k : Fin 31, (Gen.iblk0 V c 0 t : Vec Ideal S5000x31 .f32) (ix2 (n0 := 5000) (n1 := 31) (j 0) k)
      = bondArr V c (ix2 (n0 := 100000) (n1 := 31) ⟨win0_3.index t (0 : Fin 2) * 5000 + (j 0).val, by omega⟩ k) := by
    intro k
    show V c (Pipeline.arrRef spec0 0) (((cfg0.win 0).blk t).view.emb (ix2 (n0 := 5000) (n1 := 31) (j 0) k)) = V c (Pipeline.arrRef spec0 0) _
    refine congrArg (V c (Pipeline.arrRef spec0 0)) ?_
    funext a; apply Fin.ext
    match a with
    | ⟨0, _⟩ => show win0_0.index t (0 : Fin 2) * 5000 + 1 * (j 0).val = win0_3.index t (0 : Fin 2) * 5000 + (j 0).val; omega
    | ⟨1, _⟩ => show win0_0.index t (1 : Fin 2) * 31 + 1 * k.val = k.val; omega
  have h1 : (Gen.iblk0 V c 1 t : Vec Ideal S31x64 .f32) = weightArr V c := by
    funext y
    show V c (Pipeline.arrRef spec0 1) (((cfg0.win 1).blk t).view.emb y) = V c (Pipeline.arrRef spec0 1) y
    refine congrArg (V c (Pipeline.arrRef spec0 1)) ?_
    funext a; apply Fin.ext
    match a with
    | ⟨0, _⟩ => show win0_1.index t (0 : Fin 2) * 31 + 1 * (y 0).val = (y 0).val; omega
    | ⟨1, _⟩ => show win0_1.index t (1 : Fin 2) * 64 + 1 * (y 1).val = (y 1).val; omega
  have h2 : (Gen.iblk0 V c 2 t : Vec Ideal S1x64 .f32) = biasArr V c := by
    funext y
    show V c (Pipeline.arrRef spec0 2) (((cfg0.win 2).blk t).view.emb y) = V c (Pipeline.arrRef spec0 2) y
    refine congrArg (V c (Pipeline.arrRef spec0 2)) ?_
    funext a; apply Fin.ext
    match a with
    | ⟨0, _⟩ => show win0_2.index t (0 : Fin 2) * 1 + 1 * (y 0).val = (y 0).val; omega
    | ⟨1, _⟩ => show win0_2.index t (1 : Fin 2) * 64 + 1 * (y 1).val = (y 1).val; omega
  exact (congrFun (out0_eq (Gen.iblk0 V c 0 t) (Gen.iblk0 V c 1 t) (Gen.iblk0 V c 2 t)) j).trans
    ((congrArg (Gen.k0_pay1 (F := Ideal) (Gen.iblk0 V c 0 t) (Gen.iblk0 V c 1 t) (Gen.iblk0 V c 2 t)) hj).trans
      ((pay0_block (Gen.iblk0 V c 0 t) (Gen.iblk0 V c 1 t) (Gen.iblk0 V c 2 t) (bondArr V c) (weightArr V c) (biasArr V c)
          (j 0) (j 1) ⟨win0_3.index t (0 : Fin 2) * 5000 + (j 0).val, by omega⟩ h0 h1 h2).trans
        (congrArg (Gnn.nodeWeights (bondArr V c) (weightArr V c) (biasArr V c)) hi.symm)))

/-- An index of the result array is in point t's block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v21).slice (win0_3.rect t)).set ↔ _
  rw [View.set_slice_whole, Rect.mem_set_unit]
  exact Iff.rfl

/-- Every index of the result array is in some point's block: row r is written by the point r / 5000. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 20 := Gen.N_0
  have hlt : (i 0).val / 5000 < grid0.N := by rw [hN]; omega
  obtain ⟨-, -, -, -, -, -, e6, e7⟩ := idx_facts0 ⟨(i 0).val / 5000, hlt⟩
  have e6' : win0_3.index ⟨(i 0).val / 5000, hlt⟩ (0 : Fin 2) = (i 0).val / 5000 := e6
  refine ⟨⟨(i 0).val / 5000, hlt⟩, Gen.flush0_3 _, ?_⟩
  rw [mem_blk0]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    omega
  | ⟨1, _⟩ =>
    show win0_3.index ⟨(i 0).val / 5000, hlt⟩ (1 : Fin 2) * 64 ≤ (i 1).val
      ∧ (i 1).val < win0_3.index ⟨(i 0).val / 5000, hlt⟩ (1 : Fin 2) * 64 + 64
    omega

/-- THE ARRAY after the region's 20 points: the per-node weights of the three input arrays. -/
theorem region0_arr (c : Dev nD) :
    (Gen.dat0 (F := Ideal) V c).arrAt 3 cfg0.N
      = Gnn.nodeWeights (V c (Pipeline.arrRef spec0 0)) (V c (Pipeline.arrRef spec0 1)) (V c (Pipeline.arrRef spec0 2)) :=
  (Gen.dat0 (F := Ideal) V c).arrAt_eq_of_cover 3 (Gnn.nodeWeights (bondArr V c) (weightArr V c) (biasArr V c))
    (fun t _ => flushed0_eq V c t) cover0

end Cert.KernelIdeal.RegionValue

end
-- ==== Proof.Region1.lean ====
/-
  The message kernel's output array as one function of its input arrays.

  Every grid point t handles rows 3200·t … 3200·t + 3199 of the five edge-indexed arrays; the eight weight pieces and
  the two bias rows are staged whole. At a row p of the block and a column q the body computes
    (softplus(gl) − log 2) · sigmoid(gg) · cw,
  where gl and gg are the two gate values: four 64-term products added left to right, then the bias. The blocks tile
  the 400000 rows, so the output array ends as that function of the whole arrays, entry by entry.
-/
import proofs.«408984_j66649302499835_1_alg».proof.Proof.Gen.KernelIdeal.Frame
import proofs.«408984_j66649302499835_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## A block product at an entry -/

/-- The left operand of the 3200×64 by 64×64 product is read at the output's row … -/
theorem msg_Dot_lhs_0 (i : S3200x64.Idx) (k : dot_S3200x64_S64x64_S3200x64_1_0_0_1_n_n.contr.Idx) :
    (dot_S3200x64_S64x64_S3200x64_1_0_0_1_n_n.lhsIdx i k 0).val = (i 0).val := by
  unfold DotDims.lhsIdx
  rw [dif_neg (show ¬(0 : Fin S3200x64.rank) ∈ dot_S3200x64_S64x64_S3200x64_1_0_0_1_n_n.lhsBatch by decide),
    dif_pos (show (0 : Fin S3200x64.rank) ∈ dot_S3200x64_S64x64_S3200x64_1_0_0_1_n_n.lhsNonContracting by decide)]
  rfl
/-- … and at the summation position as its column; -/
theorem msg_Dot_lhs_1 (i : S3200x64.Idx) (k : dot_S3200x64_S64x64_S3200x64_1_0_0_1_n_n.contr.Idx) :
    (dot_S3200x64_S64x64_S3200x64_1_0_0_1_n_n.lhsIdx i k 1).val = (k ⟨0, by decide⟩).val :=
  dot_S3200x64_S64x64_S3200x64_1_0_0_1_n_n.lhsIdx_val_of_single rfl i k
/-- the right operand at the summation position as its row … -/
theorem msg_Dot_rhs_0 (i : S3200x64.Idx) (k : dot_S3200x64_S64x64_S3200x64_1_0_0_1_n_n.contr.Idx) :
    (dot_S3200x64_S64x64_S3200x64_1_0_0_1_n_n.rhsIdx i k 0).val = (k ⟨0, by decide⟩).val :=
  dot_S3200x64_S64x64_S3200x64_1_0_0_1_n_n.rhsIdx_val_of_single rfl i k
/-- … and at the output's column. -/
theorem msg_Dot_rhs_1 (i : S3200x64.Idx) (k : dot_S3200x64_S64x64_S3200x64_1_0_0_1_n_n.contr.Idx) :
    (dot_S3200x64_S64x64_S3200x64_1_0_0_1_n_n.rhsIdx i k 1).val = (i 1).val := by
  unfold DotDims.rhsIdx
  rw [dif_neg (show ¬(1 : Fin S64x64.rank) ∈ dot_S3200x64_S64x64_S3200x64_1_0_0_1_n_n.rhsBatch by decide),
    dif_pos (show (1 : Fin S64x64.rank) ∈ dot_S3200x64_S64x64_S3200x64_1_0_0_1_n_n.rhsNonContracting by decide)]
  rfl

/-- So the product into the zero accumulator, at (p, q), is the 64-term sum over the shared axis. -/
theorem msg_Dot_apply {φ₁ φ₂ : FTy} (x : FVec Ideal S3200x64 φ₁) (w : FVec Ideal S64x64 φ₂) (p : Fin 3200) (q : Fin 64) :
    matmul dot_S3200x64_S64x64_S3200x64_1_0_0_1_n_n none x w (constant (F := Ideal) S3200x64 .f32 0x00000000#32) (ix2 p q)
      = ∑ k : Fin 64, x (ix2 p k) * w (ix2 k q) := by
  show FloatOps.matmul dot_S3200x64_S64x64_S3200x64_1_0_0_1_n_n none x w (constant (F := Ideal) S3200x64 .f32 0x00000000#32) (ix2 p q) = _
  rw [Ideal.matmul_constant_zero_apply,
    ← Equiv.sum_comp (contrEquiv1 dot_S3200x64_S64x64_S3200x64_1_0_0_1_n_n 64 rfl rfl).symm]
  refine Finset.sum_congr rfl fun k _ => ?_
  have hk := contrEquiv1_symm_val dot_S3200x64_S64x64_S3200x64_1_0_0_1_n_n 64 rfl rfl k
  have el : dot_S3200x64_S64x64_S3200x64_1_0_0_1_n_n.lhsIdx (ix2 p q)
      ((contrEquiv1 dot_S3200x64_S64x64_S3200x64_1_0_0_1_n_n 64 rfl rfl).symm k) = ix2 p k := funext fun a => Fin.ext (by
    match a with
    | ⟨0, _⟩ => exact msg_Dot_lhs_0 _ _
    | ⟨1, _⟩ => exact (msg_Dot_lhs_1 _ _).trans hk)
  have er : dot_S3200x64_S64x64_S3200x64_1_0_0_1_n_n.rhsIdx (ix2 p q)
      ((contrEquiv1 dot_S3200x64_S64x64_S3200x64_1_0_0_1_n_n 64 rfl rfl).symm k) = ix2 k q := funext fun a => Fin.ext (by
    match a with
    | ⟨0, _⟩ => exact (msg_Dot_rhs_0 _ _).trans hk
    | ⟨1, _⟩ => exact msg_Dot_rhs_1 _ _)
  rw [el, er]

/-! ## The body's value at an entry -/

/-- The narrowing of a block to the product's operand format changes no entry (the first and the fourth go through a
    cast to the same shape). -/
theorem msg_Pay1_eq (x : Vec Ideal S3200x64 .f32) : Gen.k1_pay1 (F := Ideal) x = x := by
  unfold Gen.k1_pay1
  rw [shapeCast_self]
  rfl
theorem msg_Pay2_eq (x : Vec Ideal S3200x64 .f32) : Gen.k1_pay2 (F := Ideal) x = x := rfl
theorem msg_Pay3_eq (x : Vec Ideal S3200x64 .f32) : Gen.k1_pay3 (F := Ideal) x = x := rfl
theorem msg_Pay4_eq (x : Vec Ideal S3200x64 .f32) : Gen.k1_pay4 (F := Ideal) x = x := by
  unfold Gen.k1_pay4
  rw [shapeCast_self]
  rfl
/-- The sigmoid gate's first weight piece is carried over through a cast to the same shape. -/
theorem msg_Pay6_eq (x : Vec Ideal S64x64 .f32) : Gen.k1_pay6 (F := Ideal) x = x := by
  unfold Gen.k1_pay6
  rw [shapeCast_self]

/-- The first gate value, computed from the loaded blocks. -/
theorem msg_Pay5_apply (x0 x1 x2 x3 : Vec Ideal S3200x64 .f32) (w0 w1 w2 w3 : Vec Ideal S64x64 .f32) (b : Vec Ideal S1x64 .f32)
    (p : Fin 3200) (q : Fin 64) :
    Gen.k1_pay5 (F := Ideal) x0 x1 x2 x3 w0 w1 w2 w3 b (ix2 p q) = Gnn.gate4 x0 x1 x2 x3 w0 w1 w2 w3 b p q := by
  unfold Gen.k1_pay5
  simp only [shapeCast_self, msg_Pay1_eq, msg_Pay2_eq, msg_Pay3_eq, msg_Pay4_eq]
  simp only [addf_apply, msg_Dot_apply, broadcastTo_1b_ab_apply]
  rfl

/-- The transcendental operations act entry by entry. -/
theorem msg_Logistic_apply {s : Shape} {φ : FTy} (a : FVec Ideal s φ) (i : s.Idx) : logistic a i = Ideal.logistic (a i) := rfl
theorem msg_Exp_apply {s : Shape} {φ : FTy} (a : FVec Ideal s φ) (i : s.Idx) : exp a i = Ideal.exp (a i) := rfl
theorem msg_Log1p_apply {s : Shape} {φ : FTy} (a : FVec Ideal s φ) (i : s.Idx) : log1p a i = Ideal.log1p (a i) := rfl
theorem msg_Absf_apply {s : Shape} {φ : FTy} (a : FVec Ideal s φ) (i : s.Idx) : absf a i = max (a i) (-(a i)) := rfl

/-- The stored value: from the first gate value g (as computed before), the second gate value recomputed from the
    narrowed blocks, and the per-edge weights. -/
theorem msg_Pay7_apply (v2 v4 v6 v9 : FVec Ideal S3200x64 .bf16) (g : FVec Ideal S3200x64 .f32) (w0 : FVec Ideal S64x64 .f32)
    (w1 w2 w3 : Vec Ideal S64x64 .f32) (b : Vec Ideal S1x64 .f32) (cw : Vec Ideal S3200x64 .f32) (p : Fin 3200) (q : Fin 64) :
    Gen.k1_pay7 (F := Ideal) v2 v4 v6 v9 g w0 w1 w2 w3 b cw (ix2 p q)
      = (Gnn.spK (g (ix2 p q)) * Gnn.sgK (Gnn.gate4 v2 v4 v6 v9 w0 w1 w2 w3 b p q)) * cw (ix2 p q) := by
  unfold Gen.k1_pay7
  simp only [shapeCast_self]
  simp only [mulf_apply, subf_apply, addf_apply, maximumf_apply, select_apply, cmpf_apply, broadcast_apply, msg_Dot_apply,
    broadcastTo_1b_ab_apply, msg_Logistic_apply, msg_Exp_apply, msg_Log1p_apply, msg_Absf_apply]
  rfl

/-- The body's stored block at (p, q), from the loaded blocks. -/
theorem msg_Body_apply (x0 x1 x2 x3 x4 : Vec Ideal S3200x64 .f32) (x5 x6 x7 x8 : Vec Ideal S64x64 .f32) (x9 : Vec Ideal S1x64 .f32)
    (x10 x11 x12 x13 : Vec Ideal S64x64 .f32) (x14 : Vec Ideal S1x64 .f32) (p : Fin 3200) (q : Fin 64) :
    Gen.k1_pay7 (F := Ideal) (Gen.k1_pay1 x0) (Gen.k1_pay2 x1) (Gen.k1_pay3 x2) (Gen.k1_pay4 x3)
        (Gen.k1_pay5 x0 x1 x2 x3 x5 x6 x7 x8 x9) (Gen.k1_pay6 x10) x11 x12 x13 x14 x4 (ix2 p q)
      = (Gnn.spK (Gnn.gate4 x0 x1 x2 x3 x5 x6 x7 x8 x9 p q) * Gnn.sgK (Gnn.gate4 x0 x1 x2 x3 x10 x11 x12 x13 x14 p q)) * x4 (ix2 p q) := by
  rw [msg_Pay7_apply, msg_Pay5_apply, msg_Pay1_eq, msg_Pay2_eq, msg_Pay3_eq, msg_Pay4_eq, msg_Pay6_eq]

/-! ## The region's arrays and blocks, each at its literal type -/

section Region

variable (V : (c : Dev nD) → (b : Ref sig .tc) → Buf (Elt Ideal) ((c : Thread nD τ).loc b))

/-- The five edge-indexed input arrays: the source node's features, the edge's, the auxiliary edge features, the
    destination node's features, and the per-edge weights. -/
abbrev msg_Arr0 (c : Dev nD) : Gnn.Arr 400000 64 := V c (Pipeline.arrRef spec1 0)
abbrev msg_Arr1 (c : Dev nD) : Gnn.Arr 400000 64 := V c (Pipeline.arrRef spec1 1)
abbrev msg_Arr2 (c : Dev nD) : Gnn.Arr 400000 64 := V c (Pipeline.arrRef spec1 2)
abbrev msg_Arr3 (c : Dev nD) : Gnn.Arr 400000 64 := V c (Pipeline.arrRef spec1 3)
abbrev msg_Arr4 (c : Dev nD) : Gnn.Arr 400000 64 := V c (Pipeline.arrRef spec1 4)
/-- The softplus gate's four weight pieces and its bias row. -/
abbrev msg_Arr5 (c : Dev nD) : Gnn.Arr 64 64 := V c (Pipeline.arrRef spec1 5)
abbrev msg_Arr6 (c : Dev nD) : Gnn.Arr 64 64 := V c (Pipeline.arrRef spec1 6)
abbrev msg_Arr7 (c : Dev nD) : Gnn.Arr 64 64 := V c (Pipeline.arrRef spec1 7)
abbrev msg_Arr8 (c : Dev nD) : Gnn.Arr 64 64 := V c (Pipeline.arrRef spec1 8)
abbrev msg_Arr9 (c : Dev nD) : Gnn.Arr 1 64 := V c (Pipeline.arrRef spec1 9)
/-- The sigmoid gate's four weight pieces and its bias row. -/
abbrev msg_Arr10 (c : Dev nD) : Gnn.Arr 64 64 := V c (Pipeline.arrRef spec1 10)
abbrev msg_Arr11 (c : Dev nD) : Gnn.Arr 64 64 := V c (Pipeline.arrRef spec1 11)
abbrev msg_Arr12 (c : Dev nD) : Gnn.Arr 64 64 := V c (Pipeline.arrRef spec1 12)
abbrev msg_Arr13 (c : Dev nD) : Gnn.Arr 64 64 := V c (Pipeline.arrRef spec1 13)
abbrev msg_Arr14 (c : Dev nD) : Gnn.Arr 1 64 := V c (Pipeline.arrRef spec1 14)

/-- The messages as one function of the whole arrays. -/
abbrev msg_Whole (c : Dev nD) : Gnn.Arr 400000 64 :=
  Gnn.messages (msg_Arr0 V c) (msg_Arr1 V c) (msg_Arr2 V c) (msg_Arr3 V c) (msg_Arr4 V c)
    (msg_Arr5 V c) (msg_Arr6 V c) (msg_Arr7 V c) (msg_Arr8 V c) (msg_Arr9 V c)
    (msg_Arr10 V c) (msg_Arr11 V c) (msg_Arr12 V c) (msg_Arr13 V c) (msg_Arr14 V c)

/-- Each input array's block at grid point t. -/
abbrev msg_Blk0 (c : Dev nD) (t : Fin cfg1.N) : Vec Ideal S3200x64 .f32 := Gen.iblk1 V c 0 t
abbrev msg_Blk1 (c : Dev nD) (t : Fin cfg1.N) : Vec Ideal S3200x64 .f32 := Gen.iblk1 V c 1 t
abbrev msg_Blk2 (c : Dev nD) (t : Fin cfg1.N) : Vec Ideal S3200x64 .f32 := Gen.iblk1 V c 2 t
abbrev msg_Blk3 (c : Dev nD) (t : Fin cfg1.N) : Vec Ideal S3200x64 .f32 := Gen.iblk1 V c 3 t
abbrev msg_Blk4 (c : Dev nD) (t : Fin cfg1.N) : Vec Ideal S3200x64 .f32 := Gen.iblk1 V c 4 t
abbrev msg_Blk5 (c : Dev nD) (t : Fin cfg1.N) : Vec Ideal S64x64 .f32 := Gen.iblk1 V c 5 t
abbrev msg_Blk6 (c : Dev nD) (t : Fin cfg1.N) : Vec Ideal S64x64 .f32 := Gen.iblk1 V c 6 t
abbrev msg_Blk7 (c : Dev nD) (t : Fin cfg1.N) : Vec Ideal S64x64 .f32 := Gen.iblk1 V c 7 t
abbrev msg_Blk8 (c : Dev nD) (t : Fin cfg1.N) : Vec Ideal S64x64 .f32 := Gen.iblk1 V c 8 t
abbrev msg_Blk9 (c : Dev nD) (t : Fin cfg1.N) : Vec Ideal S1x64 .f32 := Gen.iblk1 V c 9 t
abbrev msg_Blk10 (c : Dev nD) (t : Fin cfg1.N) : Vec Ideal S64x64 .f32 := Gen.iblk1 V c 10 t
abbrev msg_Blk11 (c : Dev nD) (t : Fin cfg1.N) : Vec Ideal S64x64 .f32 := Gen.iblk1 V c 11 t
abbrev msg_Blk12 (c : Dev nD) (t : Fin cfg1.N) : Vec Ideal S64x64 .f32 := Gen.iblk1 V c 12 t
abbrev msg_Blk13 (c : Dev nD) (t : Fin cfg1.N) : Vec Ideal S64x64 .f32 := Gen.iblk1 V c 13 t
abbrev msg_Blk14 (c : Dev nD) (t : Fin cfg1.N) : Vec Ideal S1x64 .f32 := Gen.iblk1 V c 14 t

/-! ## Where the blocks sit -/

theorem msg_Zero : (![0, 0] : Fin 2 → Nat) = fun _ => 0 := funext fun a => by fin_cases a <;> rfl

/-- The five edge-indexed inputs and the output move with the grid point: block (t, 0). -/
theorem msg_IdxRows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_15.index t (0 : Fin 2) = t.val ∧ win1_15.index t (1 : Fin 2) = 0) :=
  (by decide +kernel : ∀ t : Fin grid1.N, _)

/-- The weight pieces and bias rows stay at block (0, 0): each is staged whole. -/
theorem msg_IdxWhole : ∀ t : Fin cfg1.N,
    (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0)
    ∧ (win1_14.index t (0 : Fin 2) = 0 ∧ win1_14.index t (1 : Fin 2) = 0) :=
  (by decide +kernel : ∀ t : Fin grid1.N, _)

/-- Row p of block t of an edge-indexed input is row 3200·t + p of its array: the block's entry sits at block index
    times block size plus its own coordinate, on each axis. One lemma per input, 0 to 4. -/
theorem msg_Blk0_apply (c : Dev nD) (t : Fin cfg1.N) (p : Fin 3200) (k : Fin 64) (e : Fin 400000) (he : e.val = 3200 * t.val + p.val) :
    msg_Blk0 V c t (ix2 p k) = msg_Arr0 V c (ix2 e k) := by
  obtain ⟨h0, h1⟩ := (msg_IdxRows t).1
  show V c (Pipeline.arrRef spec1 0) (((cfg1.win 0).blk t).view.emb (ix2 p k)) = V c (Pipeline.arrRef spec1 0) (ix2 e k)
  refine congrArg _ (funext fun a => Fin.ext ?_)
  match a with
  | ⟨0, _⟩ => show win1_0.index t (0 : Fin 2) * 3200 + 1 * p.val = e.val; omega
  | ⟨1, _⟩ => show win1_0.index t (1 : Fin 2) * 64 + 1 * k.val = k.val; omega
theorem msg_Blk1_apply (c : Dev nD) (t : Fin cfg1.N) (p : Fin 3200) (k : Fin 64) (e : Fin 400000) (he : e.val = 3200 * t.val + p.val) :
    msg_Blk1 V c t (ix2 p k) = msg_Arr1 V c (ix2 e k) := by
  obtain ⟨h0, h1⟩ := (msg_IdxRows t).2.1
  show V c (Pipeline.arrRef spec1 1) (((cfg1.win 1).blk t).view.emb (ix2 p k)) = V c (Pipeline.arrRef spec1 1) (ix2 e k)
  refine congrArg _ (funext fun a => Fin.ext ?_)
  match a with
  | ⟨0, _⟩ => show win1_1.index t (0 : Fin 2) * 3200 + 1 * p.val = e.val; omega
  | ⟨1, _⟩ => show win1_1.index t (1 : Fin 2) * 64 + 1 * k.val = k.val; omega
theorem msg_Blk2_apply (c : Dev nD) (t : Fin cfg1.N) (p : Fin 3200) (k : Fin 64) (e : Fin 400000) (he : e.val = 3200 * t.val + p.val) :
    msg_Blk2 V c t (ix2 p k) = msg_Arr2 V c (ix2 e k) := by
  obtain ⟨h0, h1⟩ := (msg_IdxRows t).2.2.1
  show V c (Pipeline.arrRef spec1 2) (((cfg1.win 2).blk t).view.emb (ix2 p k)) = V c (Pipeline.arrRef spec1 2) (ix2 e k)
  refine congrArg _ (funext fun a => Fin.ext ?_)
  match a with
  | ⟨0, _⟩ => show win1_2.index t (0 : Fin 2) * 3200 + 1 * p.val = e.val; omega
  | ⟨1, _⟩ => show win1_2.index t (1 : Fin 2) * 64 + 1 * k.val = k.val; omega
theorem msg_Blk3_apply (c : Dev nD) (t : Fin cfg1.N) (p : Fin 3200) (k : Fin 64) (e : Fin 400000) (he : e.val = 3200 * t.val + p.val) :
    msg_Blk3 V c t (ix2 p k) = msg_Arr3 V c (ix2 e k) := by
  obtain ⟨h0, h1⟩ := (msg_IdxRows t).2.2.2.1
  show V c (Pipeline.arrRef spec1 3) (((cfg1.win 3).blk t).view.emb (ix2 p k)) = V c (Pipeline.arrRef spec1 3) (ix2 e k)
  refine congrArg _ (funext fun a => Fin.ext ?_)
  match a with
  | ⟨0, _⟩ => show win1_3.index t (0 : Fin 2) * 3200 + 1 * p.val = e.val; omega
  | ⟨1, _⟩ => show win1_3.index t (1 : Fin 2) * 64 + 1 * k.val = k.val; omega
theorem msg_Blk4_apply (c : Dev nD) (t : Fin cfg1.N) (p : Fin 3200) (k : Fin 64) (e : Fin 400000) (he : e.val = 3200 * t.val + p.val) :
    msg_Blk4 V c t (ix2 p k) = msg_Arr4 V c (ix2 e k) := by
  obtain ⟨h0, h1⟩ := (msg_IdxRows t).2.2.2.2.1
  show V c (Pipeline.arrRef spec1 4) (((cfg1.win 4).blk t).view.emb (ix2 p k)) = V c (Pipeline.arrRef spec1 4) (ix2 e k)
  refine congrArg _ (funext fun a => Fin.ext ?_)
  match a with
  | ⟨0, _⟩ => show win1_4.index t (0 : Fin 2) * 3200 + 1 * p.val = e.val; omega
  | ⟨1, _⟩ => show win1_4.index t (1 : Fin 2) * 64 + 1 * k.val = k.val; omega

/-- An input staged whole has the array itself as its block at every point: block index (0, 0), block size the
    array's. One lemma per input, 5 to 14. -/
theorem msg_Blk5_eq (c : Dev nD) (t : Fin cfg1.N) : msg_Blk5 V c t = msg_Arr5 V c := by
  obtain ⟨h0, h1⟩ := (msg_IdxWhole t).1
  refine funext fun (y : S64x64.Idx) => ?_
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 64 + 1 * (y 0).val = (y 0).val; omega
  | ⟨1, _⟩ => show win1_5.index t (1 : Fin 2) * 64 + 1 * (y 1).val = (y 1).val; omega
theorem msg_Blk6_eq (c : Dev nD) (t : Fin cfg1.N) : msg_Blk6 V c t = msg_Arr6 V c := by
  obtain ⟨h0, h1⟩ := (msg_IdxWhole t).2.1
  refine funext fun (y : S64x64.Idx) => ?_
  show V c (Pipeline.arrRef spec1 6) (((cfg1.win 6).blk t).view.emb y) = V c (Pipeline.arrRef spec1 6) y
  refine congrArg _ (funext fun a => Fin.ext ?_)
  match a with
  | ⟨0, _⟩ => show win1_6.index t (0 : Fin 2) * 64 + 1 * (y 0).val = (y 0).val; omega
  | ⟨1, _⟩ => show win1_6.index t (1 : Fin 2) * 64 + 1 * (y 1).val = (y 1).val; omega
theorem msg_Blk7_eq (c : Dev nD) (t : Fin cfg1.N) : msg_Blk7 V c t = msg_Arr7 V c := by
  obtain ⟨h0, h1⟩ := (msg_IdxWhole t).2.2.1
  refine funext fun (y : S64x64.Idx) => ?_
  show V c (Pipeline.arrRef spec1 7) (((cfg1.win 7).blk t).view.emb y) = V c (Pipeline.arrRef spec1 7) y
  refine congrArg _ (funext fun a => Fin.ext ?_)
  match a with
  | ⟨0, _⟩ => show win1_7.index t (0 : Fin 2) * 64 + 1 * (y 0).val = (y 0).val; omega
  | ⟨1, _⟩ => show win1_7.index t (1 : Fin 2) * 64 + 1 * (y 1).val = (y 1).val; omega
theorem msg_Blk8_eq (c : Dev nD) (t : Fin cfg1.N) : msg_Blk8 V c t = msg_Arr8 V c := by
  obtain ⟨h0, h1⟩ := (msg_IdxWhole t).2.2.2.1
  refine funext fun (y : S64x64.Idx) => ?_
  show V c (Pipeline.arrRef spec1 8) (((cfg1.win 8).blk t).view.emb y) = V c (Pipeline.arrRef spec1 8) y
  refine congrArg _ (funext fun a => Fin.ext ?_)
  match a with
  | ⟨0, _⟩ => show win1_8.index t (0 : Fin 2) * 64 + 1 * (y 0).val = (y 0).val; omega
  | ⟨1, _⟩ => show win1_8.index t (1 : Fin 2) * 64 + 1 * (y 1).val = (y 1).val; omega
theorem msg_Blk9_eq (c : Dev nD) (t : Fin cfg1.N) : msg_Blk9 V c t = msg_Arr9 V c := by
  obtain ⟨h0, h1⟩ := (msg_IdxWhole t).2.2.2.2.1
  refine funext fun (y : S1x64.Idx) => ?_
  show V c (Pipeline.arrRef spec1 9) (((cfg1.win 9).blk t).view.emb y) = V c (Pipeline.arrRef spec1 9) y
  refine congrArg _ (funext fun a => Fin.ext ?_)
  match a with
  | ⟨0, _⟩ => show win1_9.index t (0 : Fin 2) * 1 + 1 * (y 0).val = (y 0).val; omega
  | ⟨1, _⟩ => show win1_9.index t (1 : Fin 2) * 64 + 1 * (y 1).val = (y 1).val; omega
theorem msg_Blk10_eq (c : Dev nD) (t : Fin cfg1.N) : msg_Blk10 V c t = msg_Arr10 V c := by
  obtain ⟨h0, h1⟩ := (msg_IdxWhole t).2.2.2.2.2.1
  refine funext fun (y : S64x64.Idx) => ?_
  show V c (Pipeline.arrRef spec1 10) (((cfg1.win 10).blk t).view.emb y) = V c (Pipeline.arrRef spec1 10) y
  refine congrArg _ (funext fun a => Fin.ext ?_)
  match a with
  | ⟨0, _⟩ => show win1_10.index t (0 : Fin 2) * 64 + 1 * (y 0).val = (y 0).val; omega
  | ⟨1, _⟩ => show win1_10.index t (1 : Fin 2) * 64 + 1 * (y 1).val = (y 1).val; omega
theorem msg_Blk11_eq (c : Dev nD) (t : Fin cfg1.N) : msg_Blk11 V c t = msg_Arr11 V c := by
  obtain ⟨h0, h1⟩ := (msg_IdxWhole t).2.2.2.2.2.2.1
  refine funext fun (y : S64x64.Idx) => ?_
  show V c (Pipeline.arrRef spec1 11) (((cfg1.win 11).blk t).view.emb y) = V c (Pipeline.arrRef spec1 11) y
  refine congrArg _ (funext fun a => Fin.ext ?_)
  match a with
  | ⟨0, _⟩ => show win1_11.index t (0 : Fin 2) * 64 + 1 * (y 0).val = (y 0).val; omega
  | ⟨1, _⟩ => show win1_11.index t (1 : Fin 2) * 64 + 1 * (y 1).val = (y 1).val; omega
theorem msg_Blk12_eq (c : Dev nD) (t : Fin cfg1.N) : msg_Blk12 V c t = msg_Arr12 V c := by
  obtain ⟨h0, h1⟩ := (msg_IdxWhole t).2.2.2.2.2.2.2.1
  refine funext fun (y : S64x64.Idx) => ?_
  show V c (Pipeline.arrRef spec1 12) (((cfg1.win 12).blk t).view.emb y) = V c (Pipeline.arrRef spec1 12) y
  refine congrArg _ (funext fun a => Fin.ext ?_)
  match a with
  | ⟨0, _⟩ => show win1_12.index t (0 : Fin 2) * 64 + 1 * (y 0).val = (y 0).val; omega
  | ⟨1, _⟩ => show win1_12.index t (1 : Fin 2) * 64 + 1 * (y 1).val = (y 1).val; omega
theorem msg_Blk13_eq (c : Dev nD) (t : Fin cfg1.N) : msg_Blk13 V c t = msg_Arr13 V c := by
  obtain ⟨h0, h1⟩ := (msg_IdxWhole t).2.2.2.2.2.2.2.2.1
  refine funext fun (y : S64x64.Idx) => ?_
  show V c (Pipeline.arrRef spec1 13) (((cfg1.win 13).blk t).view.emb y) = V c (Pipeline.arrRef spec1 13) y
  refine congrArg _ (funext fun a => Fin.ext ?_)
  match a with
  | ⟨0, _⟩ => show win1_13.index t (0 : Fin 2) * 64 + 1 * (y 0).val = (y 0).val; omega
  | ⟨1, _⟩ => show win1_13.index t (1 : Fin 2) * 64 + 1 * (y 1).val = (y 1).val; omega
theorem msg_Blk14_eq (c : Dev nD) (t : Fin cfg1.N) : msg_Blk14 V c t = msg_Arr14 V c := by
  obtain ⟨h0, h1⟩ := (msg_IdxWhole t).2.2.2.2.2.2.2.2.2
  refine funext fun (y : S1x64.Idx) => ?_
  show V c (Pipeline.arrRef spec1 14) (((cfg1.win 14).blk t).view.emb y) = V c (Pipeline.arrRef spec1 14) y
  refine congrArg _ (funext fun a => Fin.ext ?_)
  match a with
  | ⟨0, _⟩ => show win1_14.index t (0 : Fin 2) * 1 + 1 * (y 0).val = (y 0).val; omega
  | ⟨1, _⟩ => show win1_14.index t (1 : Fin 2) * 64 + 1 * (y 1).val = (y 1).val; omega

/-! ## What a grid point writes back -/

/-- The output block after the body is the body's one stored value, of the blocks as loaded: every load and the
    store go through the whole block at zero offsets. -/
theorem msg_Out_eq (x0 x1 x2 x3 x4 : Vec Ideal S3200x64 .f32) (x5 x6 x7 x8 : Vec Ideal S64x64 .f32) (x9 : Vec Ideal S1x64 .f32)
    (x10 x11 x12 x13 : Vec Ideal S64x64 .f32) (x14 : Vec Ideal S1x64 .f32) :
    Gen.out1_15 (F := Ideal) x0 x1 x2 x3 x4 x5 x6 x7 x8 x9 x10 x11 x12 x13 x14
      = Gen.k1_pay7 (F := Ideal) (Gen.k1_pay1 x0) (Gen.k1_pay2 x1) (Gen.k1_pay3 x2) (Gen.k1_pay4 x3)
          (Gen.k1_pay5 x0 x1 x2 x3 x5 x6 x7 x8 x9) (Gen.k1_pay6 x10) x11 x12 x13 x14 x4 := by
  unfold Gen.out1_15
  rw [View.canon_unit_zero msg_Zero]
  simp only [View.ld_unit_zero (S := S3200x64) msg_Zero, View.ld_unit_zero (S := S64x64) msg_Zero,
    View.ld_unit_zero (S := S1x64) msg_Zero]

/-- At row p of point t's block and column q the body leaves the message of edge 3200·t + p. -/
theorem msg_Out_apply (c : Dev nD) (t : Fin cfg1.N) (p : Fin 3200) (q : Fin 64) (e : Fin 400000) (he : e.val = 3200 * t.val + p.val) :
    Gen.out1_15 (F := Ideal) (msg_Blk0 V c t) (msg_Blk1 V c t) (msg_Blk2 V c t) (msg_Blk3 V c t) (msg_Blk4 V c t)
        (msg_Blk5 V c t) (msg_Blk6 V c t) (msg_Blk7 V c t) (msg_Blk8 V c t) (msg_Blk9 V c t)
        (msg_Blk10 V c t) (msg_Blk11 V c t) (msg_Blk12 V c t) (msg_Blk13 V c t) (msg_Blk14 V c t) (ix2 p q)
      = msg_Whole V c (ix2 e q) := by
  refine (congrFun (msg_Out_eq (msg_Blk0 V c t) (msg_Blk1 V c t) (msg_Blk2 V c t) (msg_Blk3 V c t) (msg_Blk4 V c t)
    (msg_Blk5 V c t) (msg_Blk6 V c t) (msg_Blk7 V c t) (msg_Blk8 V c t) (msg_Blk9 V c t)
    (msg_Blk10 V c t) (msg_Blk11 V c t) (msg_Blk12 V c t) (msg_Blk13 V c t) (msg_Blk14 V c t)) (ix2 p q)).trans ?_
  refine (msg_Body_apply (msg_Blk0 V c t) (msg_Blk1 V c t) (msg_Blk2 V c t) (msg_Blk3 V c t) (msg_Blk4 V c t)
    (msg_Blk5 V c t) (msg_Blk6 V c t) (msg_Blk7 V c t) (msg_Blk8 V c t) (msg_Blk9 V c t)
    (msg_Blk10 V c t) (msg_Blk11 V c t) (msg_Blk12 V c t) (msg_Blk13 V c t) (msg_Blk14 V c t) p q).trans ?_
  rw [msg_Blk5_eq V c t, msg_Blk6_eq V c t, msg_Blk7_eq V c t, msg_Blk8_eq V c t, msg_Blk9_eq V c t,
    msg_Blk10_eq V c t, msg_Blk11_eq V c t, msg_Blk12_eq V c t, msg_Blk13_eq V c t, msg_Blk14_eq V c t]
  show _ = (Gnn.spK (Gnn.gate4 (msg_Arr0 V c) (msg_Arr1 V c) (msg_Arr2 V c) (msg_Arr3 V c)
        (msg_Arr5 V c) (msg_Arr6 V c) (msg_Arr7 V c) (msg_Arr8 V c) (msg_Arr9 V c) e q)
      * Gnn.sgK (Gnn.gate4 (msg_Arr0 V c) (msg_Arr1 V c) (msg_Arr2 V c) (msg_Arr3 V c)
        (msg_Arr10 V c) (msg_Arr11 V c) (msg_Arr12 V c) (msg_Arr13 V c) (msg_Arr14 V c) e q))
      * msg_Arr4 V c (ix2 e q)
  unfold Gnn.gate4 Gnn.mmAt
  simp only [msg_Blk0_apply V c t p _ e he, msg_Blk1_apply V c t p _ e he, msg_Blk2_apply V c t p _ e he,
    msg_Blk3_apply V c t p _ e he, msg_Blk4_apply V c t p _ e he]

/-- WHAT POINT t WRITES BACK is block t of the whole-array function. -/
theorem msg_Flushed_eq (c : Dev nD) (t : Fin cfg1.N) :
    (Gen.dat1 (F := Ideal) V c).flushed 15 t = ((cfg1.win 15).blk t).view.read (Elt Ideal) (msg_Whole V c) := by
  show (cfg1.win 15).cut (grid1.coords t) ((Gen.dat1 (F := Ideal) V c).after 15 t) = _
  rw [Gen.after1_15]
  refine funext fun (j : S3200x64.Idx) => ?_
  obtain ⟨p, q, rfl⟩ : ∃ (p : Fin 3200) (q : Fin 64), j = ix2 p q := ⟨j 0, j 1, eq_ix2 j⟩
  have ht : t.val < 125 := Nat.lt_of_lt_of_eq t.isLt Gen.N_1
  obtain ⟨h0, h1⟩ := (msg_IdxRows t).2.2.2.2.2
  refine (msg_Out_apply V c t p q ⟨3200 * t.val + p.val, by omega⟩ rfl).trans ?_
  show msg_Whole V c (ix2 (⟨3200 * t.val + p.val, by omega⟩ : Fin 400000) q) = msg_Whole V c (((cfg1.win 15).blk t).view.emb (ix2 p q))
  refine congrArg _ (funext fun a => Fin.ext ?_)
  match a with
  | ⟨0, _⟩ => show 3200 * t.val + p.val = win1_15.index t (0 : Fin 2) * 3200 + 1 * p.val; omega
  | ⟨1, _⟩ => show q.val = win1_15.index t (1 : Fin 2) * 64 + 1 * q.val; omega

/-! ## The blocks tile the rows -/

/-- An entry of the array is in point t's block iff each coordinate is in the block's range on its axis. -/
theorem msg_Mem_blk (t : Fin cfg1.N) (i : S400000x64.Idx) :
    i ∈ ((cfg1.win 15).blk t).view.set ↔ ∀ a : Fin 2, win1_15.index t a * S3200x64.size a ≤ (i a).val ∧ (i a).val < win1_15.index t a * S3200x64.size a + S3200x64.size a := by
  show i ∈ ((View.whole main_v31).slice (win1_15.rect t)).set ↔ _
  rw [View.set_slice_whole, Rect.mem_set_unit]
  exact Iff.rfl

/-- Row r is in the block of point r / 3200, and every point writes back. -/
theorem msg_Cover (i : S400000x64.Idx) :
    ∃ t : Fin cfg1.N, (cfg1.win 15).flush t = true ∧ i ∈ ((cfg1.win 15).blk t).view.set := by
  have hi0 : (i 0).val < 400000 := (i 0).isLt
  have hi1 : (i 1).val < 64 := (i 1).isLt
  obtain ⟨t, ht⟩ : ∃ t : Fin cfg1.N, t.val = (i 0).val / 3200 :=
    ⟨⟨(i 0).val / 3200, Nat.lt_of_lt_of_eq (by omega : (i 0).val / 3200 < 125) Gen.N_1.symm⟩, rfl⟩
  obtain ⟨h0, h1⟩ := (msg_IdxRows t).2.2.2.2.2
  refine ⟨t, Gen.flush1_15 t, ?_⟩
  rw [msg_Mem_blk]
  intro a
  match a with
  | ⟨0, _⟩ => show win1_15.index t (0 : Fin 2) * 3200 ≤ (i 0).val ∧ (i 0).val < win1_15.index t (0 : Fin 2) * 3200 + 3200; omega
  | ⟨1, _⟩ => show win1_15.index t (1 : Fin 2) * 64 ≤ (i 1).val ∧ (i 1).val < win1_15.index t (1 : Fin 2) * 64 + 64; omega

/-! ## The array after the region -/

/-- THE OUTPUT ARRAY after all 125 grid points is the messages of the region's input arrays. -/
theorem region1_arr (c : Dev nD) :
    (Gen.dat1 (F := Ideal) V c).arrAt 15 cfg1.N = Gnn.messages (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (V c (Pipeline.arrRef spec1 12)) (V c (Pipeline.arrRef spec1 13)) (V c (Pipeline.arrRef spec1 14)) :=
  (Gen.dat1 (F := Ideal) V c).arrAt_eq_of_cover 15 (msg_Whole V c) (fun t _ => msg_Flushed_eq V c t) msg_Cover

end Region

end Cert.KernelIdeal.RegionValue

end
-- ==== Proof.Region2.lean ====
/-
  The node update, read off the third kernel region.

  The region walks the 100000 rows of the node arrays in 20 blocks of 5000 rows. At one block it adds, to the block
  of node features, the product of the block of aggregated messages with the whole 64 × 64 output matrix. Entry
  (p, q) of that product is the sum over the shared axis of agg(p, k) · Wo(k, q), and row p of block T is row
  T · 5000 + p of the arrays, so every block is the matching rows of ONE function of the three whole arrays,
  nf + agg @ Wo. The 20 blocks tile the rows (row r lies in block r / 5000), hence the output array ends
  holding that function everywhere.
-/
import proofs.«408984_j66649302499835_1_alg».proof.Proof.Gen.KernelIdeal.Frame
import proofs.«408984_j66649302499835_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The product's operand indices -/

/-- The left operand is read at the output's row … -/
theorem nu_lhs_0 (j : S5000x64.Idx) (k : dot_S5000x64_S64x64_S5000x64_1_0_0_1_n_n.contr.Idx) :
    (dot_S5000x64_S64x64_S5000x64_1_0_0_1_n_n.lhsIdx j k 0 : ℕ) = j 0 := by
  simp [DotDims.lhsIdx, dot_S5000x64_S64x64_S5000x64_1_0_0_1_n_n]; rfl
/-- … and at the shared axis' position in its column; -/
theorem nu_lhs_1 (j : S5000x64.Idx) (k : dot_S5000x64_S64x64_S5000x64_1_0_0_1_n_n.contr.Idx) :
    (dot_S5000x64_S64x64_S5000x64_1_0_0_1_n_n.lhsIdx j k 1 : ℕ) = k ⟨0, by decide⟩ :=
  dot_S5000x64_S64x64_S5000x64_1_0_0_1_n_n.lhsIdx_val_of_single (cl := 1) rfl j k
/-- the right operand at the shared axis' position in its row … -/
theorem nu_rhs_0 (j : S5000x64.Idx) (k : dot_S5000x64_S64x64_S5000x64_1_0_0_1_n_n.contr.Idx) :
    (dot_S5000x64_S64x64_S5000x64_1_0_0_1_n_n.rhsIdx j k 0 : ℕ) = k ⟨0, by decide⟩ :=
  dot_S5000x64_S64x64_S5000x64_1_0_0_1_n_n.rhsIdx_val_of_single (cr := 0) rfl j k
/-- … and at the output's column. -/
theorem nu_rhs_1 (j : S5000x64.Idx) (k : dot_S5000x64_S64x64_S5000x64_1_0_0_1_n_n.contr.Idx) :
    (dot_S5000x64_S64x64_S5000x64_1_0_0_1_n_n.rhsIdx j k 1 : ℕ) = j 1 := by
  simp [DotDims.rhsIdx, dot_S5000x64_S64x64_S5000x64_1_0_0_1_n_n]; rfl

/-- At output entry (p, q) and shared position k the left operand is read at (p, k). -/
theorem nu_lhs_at (p : Fin 5000) (q k : Fin 64) :
    dot_S5000x64_S64x64_S5000x64_1_0_0_1_n_n.lhsIdx (ix2 p q)
      ((contrEquiv1 dot_S5000x64_S64x64_S5000x64_1_0_0_1_n_n 64 rfl rfl).symm k) = ix2 p k := by
  funext a; apply Fin.ext
  match a with
  | ⟨0, _⟩ => exact nu_lhs_0 _ _
  | ⟨1, _⟩ => exact (nu_lhs_1 _ _).trans (contrEquiv1_symm_val dot_S5000x64_S64x64_S5000x64_1_0_0_1_n_n 64 rfl rfl k)

/-- … and the right operand at (k, q). -/
theorem nu_rhs_at (p : Fin 5000) (q k : Fin 64) :
    dot_S5000x64_S64x64_S5000x64_1_0_0_1_n_n.rhsIdx (ix2 p q)
      ((contrEquiv1 dot_S5000x64_S64x64_S5000x64_1_0_0_1_n_n 64 rfl rfl).symm k) = ix2 k q := by
  funext a; apply Fin.ext
  match a with
  | ⟨0, _⟩ => exact (nu_rhs_0 _ _).trans (contrEquiv1_symm_val dot_S5000x64_S64x64_S5000x64_1_0_0_1_n_n 64 rfl rfl k)
  | ⟨1, _⟩ => exact nu_rhs_1 _ _

/-! ## The body's arithmetic at an entry -/

/-- Entry (p, q) of what the body stores: the node-feature block's entry plus the entry of the product of the message
    block with the matrix (the format changes are the identity on extended reals, the accumulator is zero). -/
theorem nu_pay_at (xa : Vec Ideal S5000x64 .f32) (xw : Vec Ideal S64x64 .f32) (xn : Vec Ideal S5000x64 .f32)
    (p : Fin 5000) (q : Fin 64) :
    Gen.k2_pay1 (F := Ideal) xa xw xn (ix2 p q)
      = xn (ix2 p q) + Gnn.mmAt (r := 5000) (n := 64) (c := 64) xa xw p q := by
  unfold Gen.k2_pay1
  refine congrArg (xn (ix2 p q) + ·) ?_
  refine (Ideal.matmul_constant_zero_apply dot_S5000x64_S64x64_S5000x64_1_0_0_1_n_n none _ _ (ix2 p q)).trans ?_
  unfold Gnn.mmAt
  rw [← Equiv.sum_comp (contrEquiv1 dot_S5000x64_S64x64_S5000x64_1_0_0_1_n_n 64 rfl rfl).symm]
  refine Finset.sum_congr rfl fun k _ => ?_
  rw [nu_lhs_at, nu_rhs_at, shapeCast_self]
  rfl

/-! ## One block of rows -/

/-- Row p of block T among the array's rows. -/
abbrev nuRow (T : Nat) (hT : T < 20) (p : Fin 5000) : Fin 100000 := ⟨T * 5000 + p.val, by have := p.isLt; omega⟩

/-- When the three loaded blocks are rows T · 5000 … of the message array, the same rows of the node features, and the
    whole matrix, the stored block is the same rows of nf + agg @ Wo. -/
theorem nu_block (xa xn : Vec Ideal S5000x64 .f32) (xw : Vec Ideal S64x64 .f32)
    (agg nf : Gnn.Arr 100000 64) (Wo : Gnn.Arr 64 64) (T : Nat) (hT : T < 20)
    (ha : ∀ (p : Fin 5000) (k : Fin 64), xa (ix2 p k) = agg (ix2 (nuRow T hT p) k))
    (hn : ∀ (p : Fin 5000) (q : Fin 64), xn (ix2 p q) = nf (ix2 (nuRow T hT p) q))
    (hw : ∀ (k q : Fin 64), xw (ix2 k q) = Wo (ix2 k q)) (j : S5000x64.Idx) :
    Gen.k2_pay1 (F := Ideal) xa xw xn j = Gnn.nodeUpdate agg nf Wo (ix2 (nuRow T hT (j 0)) (j 1)) := by
  obtain ⟨p, q, rfl⟩ : ∃ (p : Fin 5000) (q : Fin 64), j = ix2 p q := ⟨j 0, j 1, eq_ix2 j⟩
  refine (nu_pay_at xa xw xn p q).trans ?_
  show xn (ix2 p q) + Gnn.mmAt (r := 5000) (n := 64) (c := 64) xa xw p q
    = nf (ix2 (nuRow T hT p) q) + Gnn.mmAt agg Wo (nuRow T hT p) q
  rw [hn p q]
  refine congrArg (nf (ix2 (nuRow T hT p) q) + ·) ?_
  unfold Gnn.mmAt
  exact Finset.sum_congr rfl fun k _ => by rw [ha p k, hw k q]

/-! ## The region's arrays and blocks -/

section Region
variable (V : (c : Dev nD) → (b : Ref sig .tc) → Buf (Elt Ideal) ((c : Thread nD τ).loc b))

/-- The aggregated messages, the node features and the output matrix as the region finds them. -/
abbrev nuAgg (c : Dev nD) : Gnn.Arr 100000 64 := V c (Pipeline.arrRef spec2 0)
abbrev nuNf (c : Dev nD) : Gnn.Arr 100000 64 := V c (Pipeline.arrRef spec2 1)
abbrev nuWo (c : Dev nD) : Gnn.Arr 64 64 := V c (Pipeline.arrRef spec2 2)

/-- The blocks of the three inputs at a grid point. -/
abbrev nuAggBlk (c : Dev nD) (t : Fin cfg2.N) : Vec Ideal S5000x64 .f32 := Gen.iblk2 (F := Ideal) V c 0 t
abbrev nuNfBlk (c : Dev nD) (t : Fin cfg2.N) : Vec Ideal S5000x64 .f32 := Gen.iblk2 (F := Ideal) V c 1 t
abbrev nuWoBlk (c : Dev nD) (t : Fin cfg2.N) : Vec Ideal S64x64 .f32 := Gen.iblk2 (F := Ideal) V c 2 t

theorem nu_hz : (![0, 0] : Fin 2 → Nat) = fun _ => 0 := funext fun a => by fin_cases a <;> rfl

/-- The printed index maps over the grid: the three row-blocked windows sit at block (t, 0), the matrix at (0, 0). -/
theorem nu_idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ t.val < 20 :=
  (by decide +kernel : ∀ t : Fin grid2.N, _)

/-- The message block at point t is rows t · 5000 … of the message array. -/
theorem nu_agg_blk (c : Dev nD) (t : Fin cfg2.N) (ht : t.val < 20) (p : Fin 5000) (k : Fin 64) :
    nuAggBlk V c t (ix2 p k) = nuAgg V c (ix2 (nuRow t.val ht p) k) := by
  obtain ⟨e0, e1, -⟩ := nu_idx_facts t
  have h : ((cfg2.win 0).blk t).view.emb (ix2 p k) = ix2 (nuRow t.val ht p) k := by
    funext a; apply Fin.ext
    match a with
    | ⟨0, _⟩ => show win2_0.index t (0 : Fin 2) * 5000 + 1 * p.val = t.val * 5000 + p.val; omega
    | ⟨1, _⟩ => show win2_0.index t (1 : Fin 2) * 64 + 1 * k.val = k.val; omega
  show nuAgg V c (((cfg2.win 0).blk t).view.emb (ix2 p k)) = _
  rw [h]

/-- The node-feature block likewise. -/
theorem nu_nf_blk (c : Dev nD) (t : Fin cfg2.N) (ht : t.val < 20) (p : Fin 5000) (q : Fin 64) :
    nuNfBlk V c t (ix2 p q) = nuNf V c (ix2 (nuRow t.val ht p) q) := by
  obtain ⟨-, -, e0, e1, -⟩ := nu_idx_facts t
  have h : ((cfg2.win 1).blk t).view.emb (ix2 p q) = ix2 (nuRow t.val ht p) q := by
    funext a; apply Fin.ext
    match a with
    | ⟨0, _⟩ => show win2_1.index t (0 : Fin 2) * 5000 + 1 * p.val = t.val * 5000 + p.val; omega
    | ⟨1, _⟩ => show win2_1.index t (1 : Fin 2) * 64 + 1 * q.val = q.val; omega
  show nuNf V c (((cfg2.win 1).blk t).view.emb (ix2 p q)) = _
  rw [h]

/-- The matrix is staged whole: its block at every point is the matrix. -/
theorem nu_wo_blk (c : Dev nD) (t : Fin cfg2.N) (k q : Fin 64) :
    nuWoBlk V c t (ix2 k q) = nuWo V c (ix2 k q) := by
  obtain ⟨-, -, -, -, e0, e1, -⟩ := nu_idx_facts t
  have h : ((cfg2.win 2).blk t).view.emb (ix2 k q) = ix2 k q := by
    funext a; apply Fin.ext
    match a with
    | ⟨0, _⟩ => show win2_2.index t (0 : Fin 2) * 64 + 1 * k.val = k.val; omega
    | ⟨1, _⟩ => show win2_2.index t (1 : Fin 2) * 64 + 1 * q.val = q.val; omega
  show nuWo V c (((cfg2.win 2).blk t).view.emb (ix2 k q)) = _
  rw [h]

/-! ## From blocks to the array -/

/-- What grid point t writes back is block t of nf + agg @ Wo of the arrays as the region finds them. -/
theorem nu_flushed_eq (c : Dev nD) (t : Fin cfg2.N) :
    (Gen.dat2 (F := Ideal) V c).flushed 3 t
      = ((cfg2.win 3).blk t).view.read (Elt Ideal) (Gnn.nodeUpdate (nuAgg V c) (nuNf V c) (nuWo V c)) := by
  show (cfg2.win 3).cut (grid2.coords t) ((Gen.dat2 (F := Ideal) V c).after 3 t) = _
  rw [Gen.after2_3]
  unfold Gen.out2_3
  rw [View.canon_unit_zero nu_hz]
  simp only [View.ld_unit_zero (S := S5000x64) nu_hz, View.ld_unit_zero (S := S64x64) nu_hz]
  obtain ⟨-, -, -, -, -, -, e0, e1, ht⟩ := nu_idx_facts t
  funext j
  refine (nu_block (nuAggBlk V c t) (nuNfBlk V c t) (nuWoBlk V c t) (nuAgg V c) (nuNf V c) (nuWo V c) t.val ht
    (nu_agg_blk V c t ht) (nu_nf_blk V c t ht) (nu_wo_blk V c t) j).trans ?_
  show Gnn.nodeUpdate (nuAgg V c) (nuNf V c) (nuWo V c) (ix2 (nuRow t.val ht (j 0)) (j 1))
    = Gnn.nodeUpdate (nuAgg V c) (nuNf V c) (nuWo V c) (((cfg2.win 3).blk t).view.emb j)
  refine congrArg (Gnn.nodeUpdate (nuAgg V c) (nuNf V c) (nuWo V c)) (funext fun a => Fin.ext ?_)
  match a with
  | ⟨0, _⟩ => show t.val * 5000 + (j 0).val = win2_3.index t (0 : Fin 2) * 5000 + 1 * (j 0).val; omega
  | ⟨1, _⟩ => show (j 1).val = win2_3.index t (1 : Fin 2) * 64 + 1 * (j 1).val; omega

/-- An index of the array is in point t's block iff each coordinate is in the block's range on its axis. -/
theorem nu_mem_blk (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v35).slice (win2_3.rect t)).set ↔ _
  rw [View.set_slice_whole, Rect.mem_set_unit]
  exact Iff.rfl

/-- Every index of the array is in some point's block: row r in block r / 5000. -/
theorem nu_cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := Gen.N_2
  let t : Fin cfg2.N := ⟨(i 0).val / 5000, by rw [hN]; omega⟩
  obtain ⟨-, -, -, -, -, -, e0, e1, -⟩ := nu_idx_facts t
  have e0' : win2_3.index t (0 : Fin 2) = (i 0).val / 5000 := e0
  refine ⟨t, Gen.flush2_3 t, ?_⟩
  rw [nu_mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- THE ARRAY after the region's 20 points: nf + agg @ Wo of the arrays as the region finds them. -/
theorem region2_arr (c : Dev nD) :
    (Gen.dat2 (F := Ideal) V c).arrAt 3 cfg2.N
      = Gnn.nodeUpdate (V c (Pipeline.arrRef spec2 0)) (V c (Pipeline.arrRef spec2 1)) (V c (Pipeline.arrRef spec2 2)) :=
  (Gen.dat2 (F := Ideal) V c).arrAt_eq_of_cover 3 (Gnn.nodeUpdate (nuAgg V c) (nuNf V c) (nuWo V c))
    (fun t _ => nu_flushed_eq V c t) nu_cover

end Region

end Cert.KernelIdeal.RegionValue

end
-- ==== Proof.Region3.lean ====
/-
  REGION 3, the edge update, as one whole-array function.

  The region walks 125 grid points; at point t it loads rows 3200 t … 3200 t + 3199 of four 400000 × 64 arrays, eight
  64 × 64 matrices and two 1 × 64 bias rows (all ten staged whole), and stores one 3200 × 64 block. Read at an entry
  (p, q) the stored block is
      b(p, q) + (softplus(gl) − log 2) · sigmoid(gg),
  where gl and gg are the two gate values: four products over the shared axis of 64 added left to right, then the bias.
  A product into the zero accumulator, read at an entry, is a sum over the contraction index, re-indexed here by its one
  coordinate. Row p of the block at point t is row 3200 t + p of the array, the blocks of the output tile its rows, and
  so the array after all points is the edge update of the input arrays, entry by entry.
-/
import proofs.«408984_j66649302499835_1_alg».proof.Proof.Gen.KernelIdeal.Frame
import proofs.«408984_j66649302499835_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## A product of a 3200 × 64 block with a 64 × 64 matrix, read at an index -/

theorem edge_lhs_0 (j : S3200x64.Idx) (k : dot_S3200x64_S64x64_S3200x64_1_0_0_1_n_n.contr.Idx) :
    ((dot_S3200x64_S64x64_S3200x64_1_0_0_1_n_n.lhsIdx j k) 0).val = (j 0).val := by
  unfold DotDims.lhsIdx
  rw [dif_neg (show ¬(0 : Fin S3200x64.rank) ∈ dot_S3200x64_S64x64_S3200x64_1_0_0_1_n_n.lhsBatch by decide),
    dif_pos (show (0 : Fin S3200x64.rank) ∈ dot_S3200x64_S64x64_S3200x64_1_0_0_1_n_n.lhsNonContracting by decide)]
  rfl

theorem edge_lhs_1 (j : S3200x64.Idx) (k : dot_S3200x64_S64x64_S3200x64_1_0_0_1_n_n.contr.Idx) :
    ((dot_S3200x64_S64x64_S3200x64_1_0_0_1_n_n.lhsIdx j k) 1).val = (k ⟨0, by decide⟩).val :=
  dot_S3200x64_S64x64_S3200x64_1_0_0_1_n_n.lhsIdx_val_of_single (cl := 1) rfl j k

theorem edge_rhs_0 (j : S3200x64.Idx) (k : dot_S3200x64_S64x64_S3200x64_1_0_0_1_n_n.contr.Idx) :
    ((dot_S3200x64_S64x64_S3200x64_1_0_0_1_n_n.rhsIdx j k) 0).val = (k ⟨0, by decide⟩).val :=
  dot_S3200x64_S64x64_S3200x64_1_0_0_1_n_n.rhsIdx_val_of_single (cr := 0) rfl j k

theorem edge_rhs_1 (j : S3200x64.Idx) (k : dot_S3200x64_S64x64_S3200x64_1_0_0_1_n_n.contr.Idx) :
    ((dot_S3200x64_S64x64_S3200x64_1_0_0_1_n_n.rhsIdx j k) 1).val = (j 1).val := by
  unfold DotDims.rhsIdx
  rw [dif_neg (show ¬(1 : Fin S64x64.rank) ∈ dot_S3200x64_S64x64_S3200x64_1_0_0_1_n_n.rhsBatch by decide),
    dif_pos (show (1 : Fin S64x64.rank) ∈ dot_S3200x64_S64x64_S3200x64_1_0_0_1_n_n.rhsNonContracting by decide)]
  rfl

/-- Into the zero accumulator, entry (p, q) of the product is the sum over the shared axis. -/
theorem edge_matmul_at (x : FVec Ideal S3200x64 .bf16) (w : FVec Ideal S64x64 .bf16) (p : Fin 3200) (q : Fin 64) :
    matmul dot_S3200x64_S64x64_S3200x64_1_0_0_1_n_n none x w (constant (F := Ideal) S3200x64 .f32 0x00000000#32) (ix2 p q) = ∑ k : Fin 64, x (ix2 p k) * w (ix2 k q) := by
  refine (Ideal.matmul_constant_zero_apply dot_S3200x64_S64x64_S3200x64_1_0_0_1_n_n none x w (ix2 p q)).trans ?_
  rw [← Equiv.sum_comp (contrEquiv1 dot_S3200x64_S64x64_S3200x64_1_0_0_1_n_n 64 rfl rfl).symm]
  refine Finset.sum_congr rfl fun k _ => ?_
  have hl : dot_S3200x64_S64x64_S3200x64_1_0_0_1_n_n.lhsIdx (ix2 p q) ((contrEquiv1 dot_S3200x64_S64x64_S3200x64_1_0_0_1_n_n 64 rfl rfl).symm k) = ix2 p k := by
    funext a; apply Fin.ext
    match a with
    | ⟨0, _⟩ => exact edge_lhs_0 _ _
    | ⟨1, _⟩ => exact (edge_lhs_1 _ _).trans (contrEquiv1_symm_val dot_S3200x64_S64x64_S3200x64_1_0_0_1_n_n 64 rfl rfl k)
  have hr : dot_S3200x64_S64x64_S3200x64_1_0_0_1_n_n.rhsIdx (ix2 p q) ((contrEquiv1 dot_S3200x64_S64x64_S3200x64_1_0_0_1_n_n 64 rfl rfl).symm k) = ix2 k q := by
    funext a; apply Fin.ext
    match a with
    | ⟨0, _⟩ => exact (edge_rhs_0 _ _).trans (contrEquiv1_symm_val dot_S3200x64_S64x64_S3200x64_1_0_0_1_n_n 64 rfl rfl k)
    | ⟨1, _⟩ => exact edge_rhs_1 _ _
  rw [hl, hr]

/-! ## The gate value at an index -/

/-- Four products added left to right, then the bias row broadcast over the rows: at (p, q) the gate value. -/
theorem edge_gate_at (y0 y1 y2 y3 : FVec Ideal S3200x64 .bf16) (w0 w1 w2 w3 : FVec Ideal S64x64 .bf16)
    (b : FVec Ideal S1x64 .f32) (hb : S1x64.Broadcasts S3200x64) (p : Fin 3200) (q : Fin 64) :
    addf (addf (addf (addf (matmul dot_S3200x64_S64x64_S3200x64_1_0_0_1_n_n none y0 w0 (constant (F := Ideal) S3200x64 .f32 0x00000000#32)) (matmul dot_S3200x64_S64x64_S3200x64_1_0_0_1_n_n none y1 w1 (constant (F := Ideal) S3200x64 .f32 0x00000000#32)))
      (matmul dot_S3200x64_S64x64_S3200x64_1_0_0_1_n_n none y2 w2 (constant (F := Ideal) S3200x64 .f32 0x00000000#32))) (matmul dot_S3200x64_S64x64_S3200x64_1_0_0_1_n_n none y3 w3 (constant (F := Ideal) S3200x64 .f32 0x00000000#32))) (broadcastTo S3200x64 b hb) (ix2 p q)
      = Gnn.gate4 y0 y1 y2 y3 w0 w1 w2 w3 b p q := by
  simp only [addf_apply]
  rw [edge_matmul_at, edge_matmul_at, edge_matmul_at, edge_matmul_at, broadcastTo_1b_ab_apply]
  rfl

/-! ## The body's payload at an index -/

/-- One entry of the edge update, from arrays of any number of rows: the row's own entry plus the gated value. -/
def edge_cell {E : Nat} (a b c d : Gnn.Arr E 64) (wla wlb wlc wld : Gnn.Arr 64 64) (bl : Gnn.Arr 1 64)
    (wga wgb wgc wgd : Gnn.Arr 64 64) (bg : Gnn.Arr 1 64) (e : Fin E) (j : Fin 64) : EReal :=
  b (ix2 e j) + Gnn.spK (Gnn.gate4 a b c d wla wlb wlc wld bl e j) * Gnn.sgK (Gnn.gate4 a b c d wga wgb wgc wgd bg e j)

/-- The first gate value of the body, at (p, q). -/
theorem edge_pay5_at (x0 x1 x2 x3 : FVec Ideal S3200x64 .f32) (x4 x5 x6 x7 : FVec Ideal S64x64 .f32)
    (x8 : FVec Ideal S1x64 .f32) (p : Fin 3200) (q : Fin 64) :
    Gen.k3_pay5 (F := Ideal) x0 x1 x2 x3 x4 x5 x6 x7 x8 (ix2 p q) = Gnn.gate4 x0 x1 x2 x3 x4 x5 x6 x7 x8 p q := by
  unfold Gen.k3_pay5 Gen.k3_pay1 Gen.k3_pay2 Gen.k3_pay3 Gen.k3_pay4
  simp only [shapeCast_self]
  exact edge_gate_at _ _ _ _ _ _ _ _ x8 _ p q

/-- The stored value at (p, q), over any first gate vector g1: the re-read block entry plus
    (softplus of g1 minus log 2) times the logistic of the second gate value, which the body computes in place. -/
theorem edge_pay7_core (y0 y1 y2 y3 : FVec Ideal S3200x64 .bf16) (g1 : FVec Ideal S3200x64 .f32)
    (v34 x10 x11 x12 : FVec Ideal S64x64 .f32) (x13 : FVec Ideal S1x64 .f32) (xb : FVec Ideal S3200x64 .f32)
    (ht : FTy.bits .bf16 < FTy.bits .f32) (hb : S1x64.Broadcasts S3200x64) (p : Fin 3200) (q : Fin 64) :
    Gen.k3_pay7 (F := Ideal) y0 y1 y2 y3 g1 v34 x10 x11 x12 x13 xb (ix2 p q)
      = (xb (ix2 p q) : EReal) + Gnn.spK (g1 (ix2 p q)) * Gnn.sgK (Gnn.gate4 y0 y1 y2 y3 (truncf .bf16 v34 ht)
          (truncf .bf16 x10 ht) (truncf .bf16 x11 ht) (truncf .bf16 x12 ht) x13 p q) := by
  unfold Gen.k3_pay7
  simp only [shapeCast_self]
  refine Eq.trans ?_ (congrArg (fun z : EReal => (xb (ix2 p q) : EReal) + Gnn.spK (g1 (ix2 p q)) * Gnn.sgK z)
    (edge_gate_at y0 y1 y2 y3 (truncf .bf16 v34 ht) (truncf .bf16 x10 ht) (truncf .bf16 x11 ht) (truncf .bf16 x12 ht) x13 hb p q))
  rfl

/-- The whole payload of the one store, at (p, q), is the edge-update entry of the loaded blocks. -/
theorem edge_body_at (x0 x1 x2 x3 : FVec Ideal S3200x64 .f32) (x4 x5 x6 x7 : FVec Ideal S64x64 .f32)
    (x8 : FVec Ideal S1x64 .f32) (x9 x10 x11 x12 : FVec Ideal S64x64 .f32) (x13 : FVec Ideal S1x64 .f32)
    (p : Fin 3200) (q : Fin 64) :
    Gen.k3_pay7 (F := Ideal) (Gen.k3_pay1 x0) (Gen.k3_pay2 x1) (Gen.k3_pay3 x2) (Gen.k3_pay4 x3)
        (Gen.k3_pay5 x0 x1 x2 x3 x4 x5 x6 x7 x8) (Gen.k3_pay6 x9) x10 x11 x12 x13 x1 (ix2 p q)
      = edge_cell x0 x1 x2 x3 x4 x5 x6 x7 x8 x9 x10 x11 x12 x13 p q := by
  refine (edge_pay7_core (Gen.k3_pay1 x0) (Gen.k3_pay2 x1) (Gen.k3_pay3 x2) (Gen.k3_pay4 x3)
    (Gen.k3_pay5 x0 x1 x2 x3 x4 x5 x6 x7 x8) (Gen.k3_pay6 x9) x10 x11 x12 x13 x1
    Facts₀.bitsLt_bf16_f32 Facts₀.broadcasts_S1x64_S3200x64 p q).trans ?_
  rw [edge_pay5_at]
  unfold Gen.k3_pay1 Gen.k3_pay2 Gen.k3_pay3 Gen.k3_pay4 Gen.k3_pay6
  simp only [shapeCast_self]
  rfl

/-- The entry depends on the four row-blocked arrays only through the one row it reads. -/
theorem edge_cell_rows {E E' : Nat} (a b c d : Gnn.Arr E 64) (a' b' c' d' : Gnn.Arr E' 64)
    (wla wlb wlc wld : Gnn.Arr 64 64) (bl : Gnn.Arr 1 64) (wga wgb wgc wgd : Gnn.Arr 64 64) (bg : Gnn.Arr 1 64)
    (e : Fin E) (e' : Fin E') (j : Fin 64)
    (ha : ∀ k : Fin 64, a (ix2 e k) = a' (ix2 e' k)) (hb : ∀ k : Fin 64, b (ix2 e k) = b' (ix2 e' k))
    (hc : ∀ k : Fin 64, c (ix2 e k) = c' (ix2 e' k)) (hd : ∀ k : Fin 64, d (ix2 e k) = d' (ix2 e' k)) :
    edge_cell a b c d wla wlb wlc wld bl wga wgb wgc wgd bg e j = edge_cell a' b' c' d' wla wlb wlc wld bl wga wgb wgc wgd bg e' j := by
  unfold edge_cell Gnn.gate4 Gnn.mmAt
  simp only [ha, hb, hc, hd]

/-- The same, with the ten arrays staged whole replaced by equal ones. -/
theorem edge_cell_blocks {E E' : Nat} (a b c d : Gnn.Arr E 64) (a' b' c' d' : Gnn.Arr E' 64)
    (wla wlb wlc wld : Gnn.Arr 64 64) (bl : Gnn.Arr 1 64) (wga wgb wgc wgd : Gnn.Arr 64 64) (bg : Gnn.Arr 1 64)
    (wla' wlb' wlc' wld' : Gnn.Arr 64 64) (bl' : Gnn.Arr 1 64) (wga' wgb' wgc' wgd' : Gnn.Arr 64 64) (bg' : Gnn.Arr 1 64)
    (e : Fin E) (e' : Fin E') (j : Fin 64)
    (ha : ∀ k : Fin 64, a (ix2 e k) = a' (ix2 e' k)) (hb : ∀ k : Fin 64, b (ix2 e k) = b' (ix2 e' k))
    (hc : ∀ k : Fin 64, c (ix2 e k) = c' (ix2 e' k)) (hd : ∀ k : Fin 64, d (ix2 e k) = d' (ix2 e' k))
    (h4 : wla = wla') (h5 : wlb = wlb') (h6 : wlc = wlc') (h7 : wld = wld') (h8 : bl = bl')
    (h9 : wga = wga') (h10 : wgb = wgb') (h11 : wgc = wgc') (h12 : wgd = wgd') (h13 : bg = bg') :
    edge_cell a b c d wla wlb wlc wld bl wga wgb wgc wgd bg e j
      = edge_cell a' b' c' d' wla' wlb' wlc' wld' bl' wga' wgb' wgc' wgd' bg' e' j := by
  subst h4 h5 h6 h7 h8 h9 h10 h11 h12 h13
  exact edge_cell_rows a b c d a' b' c' d' wla wlb wlc wld bl wga wgb wgc wgd bg e e' j ha hb hc hd

/-! ## From blocks to the array -/

variable (V : (c : Dev nD) → (b : Ref sig .tc) → Buf (Elt Ideal) ((c : Thread nD τ).loc b))

/-! The region's fourteen input arrays as it finds them, each named once at its literal type. -/
abbrev edge_in0 (c : Dev nD) : Gnn.Arr 400000 64 := V c (Pipeline.arrRef spec3 0)
abbrev edge_in1 (c : Dev nD) : Gnn.Arr 400000 64 := V c (Pipeline.arrRef spec3 1)
abbrev edge_in2 (c : Dev nD) : Gnn.Arr 400000 64 := V c (Pipeline.arrRef spec3 2)
abbrev edge_in3 (c : Dev nD) : Gnn.Arr 400000 64 := V c (Pipeline.arrRef spec3 3)
abbrev edge_in4 (c : Dev nD) : Gnn.Arr 64 64 := V c (Pipeline.arrRef spec3 4)
abbrev edge_in5 (c : Dev nD) : Gnn.Arr 64 64 := V c (Pipeline.arrRef spec3 5)
abbrev edge_in6 (c : Dev nD) : Gnn.Arr 64 64 := V c (Pipeline.arrRef spec3 6)
abbrev edge_in7 (c : Dev nD) : Gnn.Arr 64 64 := V c (Pipeline.arrRef spec3 7)
abbrev edge_in8 (c : Dev nD) : Gnn.Arr 1 64 := V c (Pipeline.arrRef spec3 8)
abbrev edge_in9 (c : Dev nD) : Gnn.Arr 64 64 := V c (Pipeline.arrRef spec3 9)
abbrev edge_in10 (c : Dev nD) : Gnn.Arr 64 64 := V c (Pipeline.arrRef spec3 10)
abbrev edge_in11 (c : Dev nD) : Gnn.Arr 64 64 := V c (Pipeline.arrRef spec3 11)
abbrev edge_in12 (c : Dev nD) : Gnn.Arr 64 64 := V c (Pipeline.arrRef spec3 12)
abbrev edge_in13 (c : Dev nD) : Gnn.Arr 1 64 := V c (Pipeline.arrRef spec3 13)

/-- The output array as ONE function of the input arrays. -/
abbrev edge_G (c : Dev nD) : Gnn.Arr 400000 64 :=
  Gnn.edgeUpdate (edge_in0 V c) (edge_in1 V c) (edge_in2 V c) (edge_in3 V c) (edge_in4 V c) (edge_in5 V c) (edge_in6 V c) (edge_in7 V c) (edge_in8 V c) (edge_in9 V c) (edge_in10 V c) (edge_in11 V c) (edge_in12 V c) (edge_in13 V c)

theorem edge_G_at (c : Dev nD) (r : Fin 400000) (q : Fin 64) :
    edge_G V c (ix2 r q) = edge_cell (edge_in0 V c) (edge_in1 V c) (edge_in2 V c) (edge_in3 V c) (edge_in4 V c) (edge_in5 V c) (edge_in6 V c) (edge_in7 V c) (edge_in8 V c) (edge_in9 V c) (edge_in10 V c) (edge_in11 V c) (edge_in12 V c) (edge_in13 V c) r q := rfl

theorem edge_hz : (![0, 0] : Fin 2 → Nat) = fun _ => 0 :=
  funext fun a => by match a with | ⟨0, _⟩ => rfl | ⟨1, _⟩ => rfl

/-! The printed index maps, decided over the 125 grid points: the four row-blocked inputs and the output sit at block
    (t, 0); the ten arrays staged whole at block (0, 0). -/
theorem edge_idx0 : ∀ t : Fin cfg3.N, win3_0.index t (0 : Fin 2) = t.val ∧ win3_0.index t (1 : Fin 2) = 0 :=
  (by decide +kernel : ∀ t : Fin grid3.N, _)
theorem edge_idx1 : ∀ t : Fin cfg3.N, win3_1.index t (0 : Fin 2) = t.val ∧ win3_1.index t (1 : Fin 2) = 0 :=
  (by decide +kernel : ∀ t : Fin grid3.N, _)
theorem edge_idx2 : ∀ t : Fin cfg3.N, win3_2.index t (0 : Fin 2) = t.val ∧ win3_2.index t (1 : Fin 2) = 0 :=
  (by decide +kernel : ∀ t : Fin grid3.N, _)
theorem edge_idx3 : ∀ t : Fin cfg3.N, win3_3.index t (0 : Fin 2) = t.val ∧ win3_3.index t (1 : Fin 2) = 0 :=
  (by decide +kernel : ∀ t : Fin grid3.N, _)
theorem edge_idx14 : ∀ t : Fin cfg3.N, win3_14.index t (0 : Fin 2) = t.val ∧ win3_14.index t (1 : Fin 2) = 0 :=
  (by decide +kernel : ∀ t : Fin grid3.N, _)
theorem edge_idx4 : ∀ t : Fin cfg3.N, win3_4.index t (0 : Fin 2) = 0 ∧ win3_4.index t (1 : Fin 2) = 0 :=
  (by decide +kernel : ∀ t : Fin grid3.N, _)
theorem edge_idx5 : ∀ t : Fin cfg3.N, win3_5.index t (0 : Fin 2) = 0 ∧ win3_5.index t (1 : Fin 2) = 0 :=
  (by decide +kernel : ∀ t : Fin grid3.N, _)
theorem edge_idx6 : ∀ t : Fin cfg3.N, win3_6.index t (0 : Fin 2) = 0 ∧ win3_6.index t (1 : Fin 2) = 0 :=
  (by decide +kernel : ∀ t : Fin grid3.N, _)
theorem edge_idx7 : ∀ t : Fin cfg3.N, win3_7.index t (0 : Fin 2) = 0 ∧ win3_7.index t (1 : Fin 2) = 0 :=
  (by decide +kernel : ∀ t : Fin grid3.N, _)
theorem edge_idx8 : ∀ t : Fin cfg3.N, win3_8.index t (0 : Fin 2) = 0 ∧ win3_8.index t (1 : Fin 2) = 0 :=
  (by decide +kernel : ∀ t : Fin grid3.N, _)
theorem edge_idx9 : ∀ t : Fin cfg3.N, win3_9.index t (0 : Fin 2) = 0 ∧ win3_9.index t (1 : Fin 2) = 0 :=
  (by decide +kernel : ∀ t : Fin grid3.N, _)
theorem edge_idx10 : ∀ t : Fin cfg3.N, win3_10.index t (0 : Fin 2) = 0 ∧ win3_10.index t (1 : Fin 2) = 0 :=
  (by decide +kernel : ∀ t : Fin grid3.N, _)
theorem edge_idx11 : ∀ t : Fin cfg3.N, win3_11.index t (0 : Fin 2) = 0 ∧ win3_11.index t (1 : Fin 2) = 0 :=
  (by decide +kernel : ∀ t : Fin grid3.N, _)
theorem edge_idx12 : ∀ t : Fin cfg3.N, win3_12.index t (0 : Fin 2) = 0 ∧ win3_12.index t (1 : Fin 2) = 0 :=
  (by decide +kernel : ∀ t : Fin grid3.N, _)
theorem edge_idx13 : ∀ t : Fin cfg3.N, win3_13.index t (0 : Fin 2) = 0 ∧ win3_13.index t (1 : Fin 2) = 0 :=
  (by decide +kernel : ∀ t : Fin grid3.N, _)

/-- Row p of the block at grid point t is row 3200 t + p of the array. -/
def edge_row (t : Fin cfg3.N) (p : Fin 3200) : Fin 400000 :=
  ⟨3200 * t.val + p.val, by
    have ht : t.val < 125 := Nat.lt_of_lt_of_eq t.isLt Gen.N_3
    have hp := p.isLt
    omega⟩

/-! A row-blocked input's block at point t, at (p, k), is the array at (3200 t + p, k). -/
theorem edge_iblk0 (c : Dev nD) (t : Fin cfg3.N) (p : Fin 3200) (k : Fin 64) :
    (Gen.iblk3 V c 0 t : FVec Ideal S3200x64 .f32) (ix2 p k) = edge_in0 V c (ix2 (edge_row t p) k) := by
  obtain ⟨e0, e1⟩ := edge_idx0 t
  have h : (((cfg3.win 0).blk t).view.emb (ix2 p k) : S400000x64.Idx) = ix2 (edge_row t p) k := by
    funext a; apply Fin.ext
    match a with
    | ⟨0, _⟩ => show win3_0.index t (0 : Fin 2) * 3200 + 1 * p.val = 3200 * t.val + p.val; rw [e0]; omega
    | ⟨1, _⟩ => show win3_0.index t (1 : Fin 2) * 64 + 1 * k.val = k.val; rw [e1]; omega
  show edge_in0 V c (((cfg3.win 0).blk t).view.emb (ix2 p k)) = edge_in0 V c (ix2 (edge_row t p) k)
  exact congrArg (edge_in0 V c) h
theorem edge_iblk1 (c : Dev nD) (t : Fin cfg3.N) (p : Fin 3200) (k : Fin 64) :
    (Gen.iblk3 V c 1 t : FVec Ideal S3200x64 .f32) (ix2 p k) = edge_in1 V c (ix2 (edge_row t p) k) := by
  obtain ⟨e0, e1⟩ := edge_idx1 t
  have h : (((cfg3.win 1).blk t).view.emb (ix2 p k) : S400000x64.Idx) = ix2 (edge_row t p) k := by
    funext a; apply Fin.ext
    match a with
    | ⟨0, _⟩ => show win3_1.index t (0 : Fin 2) * 3200 + 1 * p.val = 3200 * t.val + p.val; rw [e0]; omega
    | ⟨1, _⟩ => show win3_1.index t (1 : Fin 2) * 64 + 1 * k.val = k.val; rw [e1]; omega
  show edge_in1 V c (((cfg3.win 1).blk t).view.emb (ix2 p k)) = edge_in1 V c (ix2 (edge_row t p) k)
  exact congrArg (edge_in1 V c) h
theorem edge_iblk2 (c : Dev nD) (t : Fin cfg3.N) (p : Fin 3200) (k : Fin 64) :
    (Gen.iblk3 V c 2 t : FVec Ideal S3200x64 .f32) (ix2 p k) = edge_in2 V c (ix2 (edge_row t p) k) := by
  obtain ⟨e0, e1⟩ := edge_idx2 t
  have h : (((cfg3.win 2).blk t).view.emb (ix2 p k) : S400000x64.Idx) = ix2 (edge_row t p) k := by
    funext a; apply Fin.ext
    match a with
    | ⟨0, _⟩ => show win3_2.index t (0 : Fin 2) * 3200 + 1 * p.val = 3200 * t.val + p.val; rw [e0]; omega
    | ⟨1, _⟩ => show win3_2.index t (1 : Fin 2) * 64 + 1 * k.val = k.val; rw [e1]; omega
  show edge_in2 V c (((cfg3.win 2).blk t).view.emb (ix2 p k)) = edge_in2 V c (ix2 (edge_row t p) k)
  exact congrArg (edge_in2 V c) h
theorem edge_iblk3 (c : Dev nD) (t : Fin cfg3.N) (p : Fin 3200) (k : Fin 64) :
    (Gen.iblk3 V c 3 t : FVec Ideal S3200x64 .f32) (ix2 p k) = edge_in3 V c (ix2 (edge_row t p) k) := by
  obtain ⟨e0, e1⟩ := edge_idx3 t
  have h : (((cfg3.win 3).blk t).view.emb (ix2 p k) : S400000x64.Idx) = ix2 (edge_row t p) k := by
    funext a; apply Fin.ext
    match a with
    | ⟨0, _⟩ => show win3_3.index t (0 : Fin 2) * 3200 + 1 * p.val = 3200 * t.val + p.val; rw [e0]; omega
    | ⟨1, _⟩ => show win3_3.index t (1 : Fin 2) * 64 + 1 * k.val = k.val; rw [e1]; omega
  show edge_in3 V c (((cfg3.win 3).blk t).view.emb (ix2 p k)) = edge_in3 V c (ix2 (edge_row t p) k)
  exact congrArg (edge_in3 V c) h

/-! An array staged whole: its block at every point is the array itself. -/
theorem edge_iblk4 (c : Dev nD) (t : Fin cfg3.N) : (Gen.iblk3 V c 4 t : FVec Ideal S64x64 .f32) = edge_in4 V c := by
  obtain ⟨e0, e1⟩ := edge_idx4 t
  funext y
  have h : (((cfg3.win 4).blk t).view.emb y : S64x64.Idx) = y := by
    funext a; apply Fin.ext
    match a with
    | ⟨0, _⟩ => show win3_4.index t (0 : Fin 2) * 64 + 1 * (y 0).val = (y 0).val; rw [e0]; omega
    | ⟨1, _⟩ => show win3_4.index t (1 : Fin 2) * 64 + 1 * (y 1).val = (y 1).val; rw [e1]; omega
  show edge_in4 V c (((cfg3.win 4).blk t).view.emb y) = edge_in4 V c y
  exact congrArg (edge_in4 V c) h
theorem edge_iblk5 (c : Dev nD) (t : Fin cfg3.N) : (Gen.iblk3 V c 5 t : FVec Ideal S64x64 .f32) = edge_in5 V c := by
  obtain ⟨e0, e1⟩ := edge_idx5 t
  funext y
  have h : (((cfg3.win 5).blk t).view.emb y : S64x64.Idx) = y := by
    funext a; apply Fin.ext
    match a with
    | ⟨0, _⟩ => show win3_5.index t (0 : Fin 2) * 64 + 1 * (y 0).val = (y 0).val; rw [e0]; omega
    | ⟨1, _⟩ => show win3_5.index t (1 : Fin 2) * 64 + 1 * (y 1).val = (y 1).val; rw [e1]; omega
  show edge_in5 V c (((cfg3.win 5).blk t).view.emb y) = edge_in5 V c y
  exact congrArg (edge_in5 V c) h
theorem edge_iblk6 (c : Dev nD) (t : Fin cfg3.N) : (Gen.iblk3 V c 6 t : FVec Ideal S64x64 .f32) = edge_in6 V c := by
  obtain ⟨e0, e1⟩ := edge_idx6 t
  funext y
  have h : (((cfg3.win 6).blk t).view.emb y : S64x64.Idx) = y := by
    funext a; apply Fin.ext
    match a with
    | ⟨0, _⟩ => show win3_6.index t (0 : Fin 2) * 64 + 1 * (y 0).val = (y 0).val; rw [e0]; omega
    | ⟨1, _⟩ => show win3_6.index t (1 : Fin 2) * 64 + 1 * (y 1).val = (y 1).val; rw [e1]; omega
  show edge_in6 V c (((cfg3.win 6).blk t).view.emb y) = edge_in6 V c y
  exact congrArg (edge_in6 V c) h
theorem edge_iblk7 (c : Dev nD) (t : Fin cfg3.N) : (Gen.iblk3 V c 7 t : FVec Ideal S64x64 .f32) = edge_in7 V c := by
  obtain ⟨e0, e1⟩ := edge_idx7 t
  funext y
  have h : (((cfg3.win 7).blk t).view.emb y : S64x64.Idx) = y := by
    funext a; apply Fin.ext
    match a with
    | ⟨0, _⟩ => show win3_7.index t (0 : Fin 2) * 64 + 1 * (y 0).val = (y 0).val; rw [e0]; omega
    | ⟨1, _⟩ => show win3_7.index t (1 : Fin 2) * 64 + 1 * (y 1).val = (y 1).val; rw [e1]; omega
  show edge_in7 V c (((cfg3.win 7).blk t).view.emb y) = edge_in7 V c y
  exact congrArg (edge_in7 V c) h
theorem edge_iblk8 (c : Dev nD) (t : Fin cfg3.N) : (Gen.iblk3 V c 8 t : FVec Ideal S1x64 .f32) = edge_in8 V c := by
  obtain ⟨e0, e1⟩ := edge_idx8 t
  funext y
  have h : (((cfg3.win 8).blk t).view.emb y : S1x64.Idx) = y := by
    funext a; apply Fin.ext
    match a with
    | ⟨0, _⟩ => show win3_8.index t (0 : Fin 2) * 1 + 1 * (y 0).val = (y 0).val; rw [e0]; omega
    | ⟨1, _⟩ => show win3_8.index t (1 : Fin 2) * 64 + 1 * (y 1).val = (y 1).val; rw [e1]; omega
  show edge_in8 V c (((cfg3.win 8).blk t).view.emb y) = edge_in8 V c y
  exact congrArg (edge_in8 V c) h
theorem edge_iblk9 (c : Dev nD) (t : Fin cfg3.N) : (Gen.iblk3 V c 9 t : FVec Ideal S64x64 .f32) = edge_in9 V c := by
  obtain ⟨e0, e1⟩ := edge_idx9 t
  funext y
  have h : (((cfg3.win 9).blk t).view.emb y : S64x64.Idx) = y := by
    funext a; apply Fin.ext
    match a with
    | ⟨0, _⟩ => show win3_9.index t (0 : Fin 2) * 64 + 1 * (y 0).val = (y 0).val; rw [e0]; omega
    | ⟨1, _⟩ => show win3_9.index t (1 : Fin 2) * 64 + 1 * (y 1).val = (y 1).val; rw [e1]; omega
  show edge_in9 V c (((cfg3.win 9).blk t).view.emb y) = edge_in9 V c y
  exact congrArg (edge_in9 V c) h
theorem edge_iblk10 (c : Dev nD) (t : Fin cfg3.N) : (Gen.iblk3 V c 10 t : FVec Ideal S64x64 .f32) = edge_in10 V c := by
  obtain ⟨e0, e1⟩ := edge_idx10 t
  funext y
  have h : (((cfg3.win 10).blk t).view.emb y : S64x64.Idx) = y := by
    funext a; apply Fin.ext
    match a with
    | ⟨0, _⟩ => show win3_10.index t (0 : Fin 2) * 64 + 1 * (y 0).val = (y 0).val; rw [e0]; omega
    | ⟨1, _⟩ => show win3_10.index t (1 : Fin 2) * 64 + 1 * (y 1).val = (y 1).val; rw [e1]; omega
  show edge_in10 V c (((cfg3.win 10).blk t).view.emb y) = edge_in10 V c y
  exact congrArg (edge_in10 V c) h
theorem edge_iblk11 (c : Dev nD) (t : Fin cfg3.N) : (Gen.iblk3 V c 11 t : FVec Ideal S64x64 .f32) = edge_in11 V c := by
  obtain ⟨e0, e1⟩ := edge_idx11 t
  funext y
  have h : (((cfg3.win 11).blk t).view.emb y : S64x64.Idx) = y := by
    funext a; apply Fin.ext
    match a with
    | ⟨0, _⟩ => show win3_11.index t (0 : Fin 2) * 64 + 1 * (y 0).val = (y 0).val; rw [e0]; omega
    | ⟨1, _⟩ => show win3_11.index t (1 : Fin 2) * 64 + 1 * (y 1).val = (y 1).val; rw [e1]; omega
  show edge_in11 V c (((cfg3.win 11).blk t).view.emb y) = edge_in11 V c y
  exact congrArg (edge_in11 V c) h
theorem edge_iblk12 (c : Dev nD) (t : Fin cfg3.N) : (Gen.iblk3 V c 12 t : FVec Ideal S64x64 .f32) = edge_in12 V c := by
  obtain ⟨e0, e1⟩ := edge_idx12 t
  funext y
  have h : (((cfg3.win 12).blk t).view.emb y : S64x64.Idx) = y := by
    funext a; apply Fin.ext
    match a with
    | ⟨0, _⟩ => show win3_12.index t (0 : Fin 2) * 64 + 1 * (y 0).val = (y 0).val; rw [e0]; omega
    | ⟨1, _⟩ => show win3_12.index t (1 : Fin 2) * 64 + 1 * (y 1).val = (y 1).val; rw [e1]; omega
  show edge_in12 V c (((cfg3.win 12).blk t).view.emb y) = edge_in12 V c y
  exact congrArg (edge_in12 V c) h
theorem edge_iblk13 (c : Dev nD) (t : Fin cfg3.N) : (Gen.iblk3 V c 13 t : FVec Ideal S1x64 .f32) = edge_in13 V c := by
  obtain ⟨e0, e1⟩ := edge_idx13 t
  funext y
  have h : (((cfg3.win 13).blk t).view.emb y : S1x64.Idx) = y := by
    funext a; apply Fin.ext
    match a with
    | ⟨0, _⟩ => show win3_13.index t (0 : Fin 2) * 1 + 1 * (y 0).val = (y 0).val; rw [e0]; omega
    | ⟨1, _⟩ => show win3_13.index t (1 : Fin 2) * 64 + 1 * (y 1).val = (y 1).val; rw [e1]; omega
  show edge_in13 V c (((cfg3.win 13).blk t).view.emb y) = edge_in13 V c y
  exact congrArg (edge_in13 V c) h

/-- An index of the array of window 14's block at point t, coordinate by coordinate. -/
theorem edge_emb_out (t : Fin cfg3.N) (p : Fin 3200) (q : Fin 64) :
    (((cfg3.win 14).blk t).view.emb (ix2 p q) : S400000x64.Idx) = ix2 (edge_row t p) q := by
  obtain ⟨e0, e1⟩ := edge_idx14 t
  funext a; apply Fin.ext
  match a with
  | ⟨0, _⟩ => show win3_14.index t (0 : Fin 2) * 3200 + 1 * p.val = 3200 * t.val + p.val; rw [e0]; omega
  | ⟨1, _⟩ => show win3_14.index t (1 : Fin 2) * 64 + 1 * q.val = q.val; rw [e1]; omega

/-- WHAT POINT t WRITES BACK is block t of the one whole-array function. -/
theorem edge_flushed_eq (c : Dev nD) (t : Fin cfg3.N) :
    (Gen.dat3 (F := Ideal) V c).flushed 14 t = ((cfg3.win 14).blk t).view.read (Elt Ideal) (edge_G V c) := by
  show (cfg3.win 14).cut (grid3.coords t) ((Gen.dat3 (F := Ideal) V c).after 14 t) = _
  rw [Gen.after3_14]
  unfold Gen.out3_14
  rw [View.canon_unit_zero edge_hz]
  simp only [View.ld_unit_zero (S := S3200x64) edge_hz, View.ld_unit_zero (S := S64x64) edge_hz, View.ld_unit_zero (S := S1x64) edge_hz]
  funext j
  obtain ⟨p, q, rfl⟩ : ∃ (p : Fin 3200) (q : Fin 64), j = ix2 p q := ⟨j 0, j 1, eq_ix2 j⟩
  refine (edge_body_at (Gen.iblk3 V c 0 t) (Gen.iblk3 V c 1 t) (Gen.iblk3 V c 2 t) (Gen.iblk3 V c 3 t) (Gen.iblk3 V c 4 t) (Gen.iblk3 V c 5 t) (Gen.iblk3 V c 6 t) (Gen.iblk3 V c 7 t) (Gen.iblk3 V c 8 t) (Gen.iblk3 V c 9 t) (Gen.iblk3 V c 10 t) (Gen.iblk3 V c 11 t) (Gen.iblk3 V c 12 t) (Gen.iblk3 V c 13 t) p q).trans ?_
  refine Eq.trans ?_ ((congrArg (edge_G V c) (edge_emb_out t p q)).trans (edge_G_at V c (edge_row t p) q)).symm
  exact edge_cell_blocks (E := 3200) (E' := 400000) (Gen.iblk3 V c 0 t) (Gen.iblk3 V c 1 t) (Gen.iblk3 V c 2 t) (Gen.iblk3 V c 3 t)
    (edge_in0 V c) (edge_in1 V c) (edge_in2 V c) (edge_in3 V c)
    (Gen.iblk3 V c 4 t) (Gen.iblk3 V c 5 t) (Gen.iblk3 V c 6 t) (Gen.iblk3 V c 7 t) (Gen.iblk3 V c 8 t) (Gen.iblk3 V c 9 t) (Gen.iblk3 V c 10 t) (Gen.iblk3 V c 11 t) (Gen.iblk3 V c 12 t) (Gen.iblk3 V c 13 t)
    (edge_in4 V c) (edge_in5 V c) (edge_in6 V c) (edge_in7 V c) (edge_in8 V c) (edge_in9 V c) (edge_in10 V c) (edge_in11 V c) (edge_in12 V c) (edge_in13 V c)
    p (edge_row t p) q
    (fun k => edge_iblk0 V c t p k) (fun k => edge_iblk1 V c t p k) (fun k => edge_iblk2 V c t p k) (fun k => edge_iblk3 V c t p k)
    (edge_iblk4 V c t) (edge_iblk5 V c t) (edge_iblk6 V c t) (edge_iblk7 V c t) (edge_iblk8 V c t) (edge_iblk9 V c t) (edge_iblk10 V c t) (edge_iblk11 V c t) (edge_iblk12 V c t) (edge_iblk13 V c t)

/-- An index of the array is in point t's block iff each coordinate is in the block's range on its axis. -/
theorem edge_mem_blk (t : Fin cfg3.N) (i : S400000x64.Idx) :
    i ∈ ((cfg3.win 14).blk t).view.set ↔ ∀ a : Fin 2, win3_14.index t a * S3200x64.size a ≤ (i a).val ∧ (i a).val < win3_14.index t a * S3200x64.size a + S3200x64.size a := by
  show i ∈ ((View.whole main_v38).slice (win3_14.rect t)).set ↔ _
  rw [View.set_slice_whole, Rect.mem_set_unit]
  exact Iff.rfl

/-- Every row r is in the block of grid point r / 3200, and every point writes back. -/
theorem edge_cover (i : S400000x64.Idx) :
    ∃ t : Fin cfg3.N, (cfg3.win 14).flush t = true ∧ i ∈ ((cfg3.win 14).blk t).view.set := by
  have hi0 : (i 0).val < 400000 := idx2_lt0 i
  have hi1 : (i 1).val < 64 := idx2_lt1 i
  obtain ⟨t, ht⟩ : ∃ t : Fin cfg3.N, t.val = (i 0).val / 3200 :=
    ⟨⟨(i 0).val / 3200, by rw [show cfg3.N = 125 from Gen.N_3]; omega⟩, rfl⟩
  obtain ⟨e0, e1⟩ := edge_idx14 t
  refine ⟨t, Gen.flush3_14 t, ?_⟩
  rw [edge_mem_blk]
  intro a
  match a with
  | ⟨0, _⟩ =>
    show win3_14.index t (0 : Fin 2) * 3200 ≤ (i 0).val ∧ (i 0).val < win3_14.index t (0 : Fin 2) * 3200 + 3200
    rw [e0, ht]; omega
  | ⟨1, _⟩ =>
    show win3_14.index t (1 : Fin 2) * 64 ≤ (i 1).val ∧ (i 1).val < win3_14.index t (1 : Fin 2) * 64 + 64
    rw [e1]; omega

/-- REGION 3: after all its grid points the output array is the edge update of the region's input arrays. -/
theorem region3_arr (c : Dev nD) :
    (Gen.dat3 (F := Ideal) V c).arrAt 14 cfg3.N = Gnn.edgeUpdate (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (V c (Pipeline.arrRef spec3 11)) (V c (Pipeline.arrRef spec3 12)) (V c (Pipeline.arrRef spec3 13)) :=
  (Gen.dat3 (F := Ideal) V c).arrAt_eq_of_cover 14 (edge_G V c) (fun t _ => edge_flushed_eq V c t) edge_cover

end Cert.KernelIdeal.RegionValue
end
-- ==== Proof.KernelHost.lean ====
import proofs.«408984_j66649302499835_1_alg».proof.Proof.KernelRun
import proofs.«408984_j66649302499835_1_alg».proof.Proof.KernelHostCarry
import proofs.«408984_j66649302499835_1_alg».proof.Proof.KernelHostStretch
import proofs.«408984_j66649302499835_1_alg».proof.Proof.KernelHostCut
import proofs.«408984_j66649302499835_1_alg».proof.Proof.Region0
import proofs.«408984_j66649302499835_1_alg».proof.Proof.Region1
import proofs.«408984_j66649302499835_1_alg».proof.Proof.Region2
import proofs.«408984_j66649302499835_1_alg».proof.Proof.Region3

/-!
  The two result buffers of the kernel program at its last boundary are the two results of the graph layer.

  The buffers pass fifteen boundaries between launch and return. Walking back from the last one: a buffer a step does
  not write holds what it held before the step; a stretch's result is its composed term over the contents before it;
  a region's output array is the region's function of its input arrays as the region found them. Every input is thereby
  traced to the launched arguments, and the composed terms are, by unfolding alone, the layer of the specification over
  the row gathers at the launched source and destination ids and the scatter-sum at the destination ids.
-/

set_option maxRecDepth 16384

noncomputable section

namespace Cert.KernelIdeal.KHost

open Idealize.ShloMosaic Idealize.ShloMosaic.TcCoe
open Cert.KernelIdeal Cert.KernelIdeal.Gen

/-! ## The launched arguments at the boundaries where something reads them -/

section Assembly
variable (m : (ℓ : Loc nD τ sig) → Buf (Elt Ideal) ℓ) (ρ : Dev nD → PrngReg) (c : Dev nD)

theorem arg0_at2 : Gen.W2 m ρ c (Proc.devRef .tc main_arg0) = A0 m c := ((back2 m ρ c main_arg0 (by decide)).trans ((back1 m ρ c main_arg0 (by decide)))).trans rfl
theorem arg0_at4 : Gen.W4 m ρ c (Proc.devRef .tc main_arg0) = A0 m c := ((back4 m ρ c main_arg0 (by decide)).trans ((back3 m ρ c main_arg0 (by decide)).trans ((back2 m ρ c main_arg0 (by decide)).trans ((back1 m ρ c main_arg0 (by decide)))))).trans rfl
theorem arg0_at6 : Gen.W6 m ρ c (Proc.devRef .tc main_arg0) = A0 m c := ((back6 m ρ c main_arg0 (by decide)).trans ((back5 m ρ c main_arg0 (by decide)).trans ((back4 m ρ c main_arg0 (by decide)).trans ((back3 m ρ c main_arg0 (by decide)).trans ((back2 m ρ c main_arg0 (by decide)).trans ((back1 m ρ c main_arg0 (by decide)))))))).trans rfl
theorem arg0_at12 : Gen.W12 m ρ c (Proc.devRef .tc main_arg0) = A0 m c := ((back12 m ρ c main_arg0 (by decide)).trans ((back11 m ρ c main_arg0 (by decide)).trans ((back10 m ρ c main_arg0 (by decide)).trans ((back9 m ρ c main_arg0 (by decide)).trans ((back8 m ρ c main_arg0 (by decide)).trans ((back7 m ρ c main_arg0 (by decide)).trans ((back6 m ρ c main_arg0 (by decide)).trans ((back5 m ρ c main_arg0 (by decide)).trans ((back4 m ρ c main_arg0 (by decide)).trans ((back3 m ρ c main_arg0 (by decide)).trans ((back2 m ρ c main_arg0 (by decide)).trans ((back1 m ρ c main_arg0 (by decide)))))))))))))).trans rfl
theorem arg1_at3 : Gen.W3 m ρ c (Proc.devRef .tc main_arg1) = A1 m c := ((back3 m ρ c main_arg1 (by decide)).trans ((back2 m ρ c main_arg1 (by decide)).trans ((back1 m ρ c main_arg1 (by decide))))).trans rfl
theorem arg1_at5 : Gen.W5 m ρ c (Proc.devRef .tc main_arg1) = A1 m c := ((back5 m ρ c main_arg1 (by decide)).trans ((back4 m ρ c main_arg1 (by decide)).trans ((back3 m ρ c main_arg1 (by decide)).trans ((back2 m ρ c main_arg1 (by decide)).trans ((back1 m ρ c main_arg1 (by decide))))))).trans rfl
theorem arg1_at7 : Gen.W7 m ρ c (Proc.devRef .tc main_arg1) = A1 m c := ((back7 m ρ c main_arg1 (by decide)).trans ((back6 m ρ c main_arg1 (by decide)).trans ((back5 m ρ c main_arg1 (by decide)).trans ((back4 m ρ c main_arg1 (by decide)).trans ((back3 m ρ c main_arg1 (by decide)).trans ((back2 m ρ c main_arg1 (by decide)).trans ((back1 m ρ c main_arg1 (by decide))))))))).trans rfl
theorem arg1_at10 : Gen.W10 m ρ c (Proc.devRef .tc main_arg1) = A1 m c := ((back10 m ρ c main_arg1 (by decide)).trans ((back9 m ρ c main_arg1 (by decide)).trans ((back8 m ρ c main_arg1 (by decide)).trans ((back7 m ρ c main_arg1 (by decide)).trans ((back6 m ρ c main_arg1 (by decide)).trans ((back5 m ρ c main_arg1 (by decide)).trans ((back4 m ρ c main_arg1 (by decide)).trans ((back3 m ρ c main_arg1 (by decide)).trans ((back2 m ρ c main_arg1 (by decide)).trans ((back1 m ρ c main_arg1 (by decide)))))))))))).trans rfl
theorem arg1_at13 : Gen.W13 m ρ c (Proc.devRef .tc main_arg1) = A1 m c := ((back13 m ρ c main_arg1 (by decide)).trans ((back12 m ρ c main_arg1 (by decide)).trans ((back11 m ρ c main_arg1 (by decide)).trans ((back10 m ρ c main_arg1 (by decide)).trans ((back9 m ρ c main_arg1 (by decide)).trans ((back8 m ρ c main_arg1 (by decide)).trans ((back7 m ρ c main_arg1 (by decide)).trans ((back6 m ρ c main_arg1 (by decide)).trans ((back5 m ρ c main_arg1 (by decide)).trans ((back4 m ρ c main_arg1 (by decide)).trans ((back3 m ρ c main_arg1 (by decide)).trans ((back2 m ρ c main_arg1 (by decide)).trans ((back1 m ρ c main_arg1 (by decide))))))))))))))).trans rfl
theorem arg2_at2 : Gen.W2 m ρ c (Proc.devRef .tc main_arg2) = A2 m c := ((back2 m ρ c main_arg2 (by decide)).trans ((back1 m ρ c main_arg2 (by decide)))).trans rfl
theorem arg2_at3 : Gen.W3 m ρ c (Proc.devRef .tc main_arg2) = A2 m c := ((back3 m ρ c main_arg2 (by decide)).trans ((back2 m ρ c main_arg2 (by decide)).trans ((back1 m ρ c main_arg2 (by decide))))).trans rfl
theorem arg2_at11 : Gen.W11 m ρ c (Proc.devRef .tc main_arg2) = A2 m c := ((back11 m ρ c main_arg2 (by decide)).trans ((back10 m ρ c main_arg2 (by decide)).trans ((back9 m ρ c main_arg2 (by decide)).trans ((back8 m ρ c main_arg2 (by decide)).trans ((back7 m ρ c main_arg2 (by decide)).trans ((back6 m ρ c main_arg2 (by decide)).trans ((back5 m ρ c main_arg2 (by decide)).trans ((back4 m ρ c main_arg2 (by decide)).trans ((back3 m ρ c main_arg2 (by decide)).trans ((back2 m ρ c main_arg2 (by decide)).trans ((back1 m ρ c main_arg2 (by decide))))))))))))).trans rfl
theorem arg3_at9 : Gen.W9 m ρ c (Proc.devRef .tc main_arg3) = A3 m c := ((back9 m ρ c main_arg3 (by decide)).trans ((back8 m ρ c main_arg3 (by decide)).trans ((back7 m ρ c main_arg3 (by decide)).trans ((back6 m ρ c main_arg3 (by decide)).trans ((back5 m ρ c main_arg3 (by decide)).trans ((back4 m ρ c main_arg3 (by decide)).trans ((back3 m ρ c main_arg3 (by decide)).trans ((back2 m ρ c main_arg3 (by decide)).trans ((back1 m ρ c main_arg3 (by decide))))))))))).trans rfl
theorem arg3_at14 : Gen.W14 m ρ c (Proc.devRef .tc main_arg3) = A3 m c := ((back14 m ρ c main_arg3 (by decide)).trans ((back13 m ρ c main_arg3 (by decide)).trans ((back12 m ρ c main_arg3 (by decide)).trans ((back11 m ρ c main_arg3 (by decide)).trans ((back10_main_arg3 m ρ c).trans ((back9 m ρ c main_arg3 (by decide)).trans ((back8 m ρ c main_arg3 (by decide)).trans ((back7 m ρ c main_arg3 (by decide)).trans ((back6 m ρ c main_arg3 (by decide)).trans ((back5 m ρ c main_arg3 (by decide)).trans ((back4 m ρ c main_arg3 (by decide)).trans ((back3 m ρ c main_arg3 (by decide)).trans ((back2 m ρ c main_arg3 (by decide)).trans ((back1 m ρ c main_arg3 (by decide)))))))))))))))).trans rfl
theorem arg4_at9 : Gen.W9 m ρ c (Proc.devRef .tc main_arg4) = A4 m c := ((back9 m ρ c main_arg4 (by decide)).trans ((back8 m ρ c main_arg4 (by decide)).trans ((back7 m ρ c main_arg4 (by decide)).trans ((back6 m ρ c main_arg4 (by decide)).trans ((back5 m ρ c main_arg4 (by decide)).trans ((back4 m ρ c main_arg4 (by decide)).trans ((back3 m ρ c main_arg4 (by decide)).trans ((back2 m ρ c main_arg4 (by decide)).trans ((back1 m ρ c main_arg4 (by decide))))))))))).trans rfl
theorem arg4_at14 : Gen.W14 m ρ c (Proc.devRef .tc main_arg4) = A4 m c := ((back14 m ρ c main_arg4 (by decide)).trans ((back13 m ρ c main_arg4 (by decide)).trans ((back12 m ρ c main_arg4 (by decide)).trans ((back11 m ρ c main_arg4 (by decide)).trans ((back10_main_arg4 m ρ c).trans ((back9 m ρ c main_arg4 (by decide)).trans ((back8 m ρ c main_arg4 (by decide)).trans ((back7 m ρ c main_arg4 (by decide)).trans ((back6 m ρ c main_arg4 (by decide)).trans ((back5 m ρ c main_arg4 (by decide)).trans ((back4 m ρ c main_arg4 (by decide)).trans ((back3 m ρ c main_arg4 (by decide)).trans ((back2 m ρ c main_arg4 (by decide)).trans ((back1 m ρ c main_arg4 (by decide)))))))))))))))).trans rfl
theorem arg5_at1 : Gen.W1 m ρ c (Proc.devRef .tc main_arg5) = A5 m c := ((back1 m ρ c main_arg5 (by decide))).trans rfl
theorem arg6_at6 : Gen.W6 m ρ c (Proc.devRef .tc main_arg6) = A6 m c := ((back6 m ρ c main_arg6 (by decide)).trans ((back5 m ρ c main_arg6 (by decide)).trans ((back4 m ρ c main_arg6 (by decide)).trans ((back3 m ρ c main_arg6 (by decide)).trans ((back2 m ρ c main_arg6 (by decide)).trans ((back1 m ρ c main_arg6 (by decide)))))))).trans rfl
theorem arg6_at7 : Gen.W7 m ρ c (Proc.devRef .tc main_arg6) = A6 m c := ((back7 m ρ c main_arg6 (by decide)).trans ((back6 m ρ c main_arg6 (by decide)).trans ((back5 m ρ c main_arg6 (by decide)).trans ((back4 m ρ c main_arg6 (by decide)).trans ((back3 m ρ c main_arg6 (by decide)).trans ((back2 m ρ c main_arg6 (by decide)).trans ((back1 m ρ c main_arg6 (by decide))))))))).trans rfl
theorem arg11_at11 : Gen.W11 m ρ c (Proc.devRef .tc main_arg11) = A11 m c := ((back11 m ρ c main_arg11 (by decide)).trans ((back10 m ρ c main_arg11 (by decide)).trans ((back9 m ρ c main_arg11 (by decide)).trans ((back8 m ρ c main_arg11 (by decide)).trans ((back7 m ρ c main_arg11 (by decide)).trans ((back6 m ρ c main_arg11 (by decide)).trans ((back5 m ρ c main_arg11 (by decide)).trans ((back4 m ρ c main_arg11 (by decide)).trans ((back3 m ρ c main_arg11 (by decide)).trans ((back2 m ρ c main_arg11 (by decide)).trans ((back1 m ρ c main_arg11 (by decide))))))))))))).trans rfl
theorem arg12_at1 : Gen.W1 m ρ c (Proc.devRef .tc main_arg12) = A12 m c := ((back1 m ρ c main_arg12 (by decide))).trans rfl

/-! ## The weight pieces and bias rows: written by the first stretch, read by the regions -/

theorem v0_at1 : Gen.W1 m ρ c (Proc.devRef .tc main_v0) = (pieces m c).nbl := after0_main_v0 (Gen.W0 m ρ c)
theorem v1_at1 : Gen.W1 m ρ c (Proc.devRef .tc main_v1) = (pieces m c).nbg := after0_main_v1 (Gen.W0 m ρ c)
theorem v2_at1 : Gen.W1 m ρ c (Proc.devRef .tc main_v2) = (pieces m c).bw := after0_main_v2 (Gen.W0 m ρ c)
theorem v3_at1 : Gen.W1 m ρ c (Proc.devRef .tc main_v3) = (pieces m c).ebl := after0_main_v3 (Gen.W0 m ρ c)
theorem v4_at1 : Gen.W1 m ρ c (Proc.devRef .tc main_v4) = (pieces m c).ebg := after0_main_v4 (Gen.W0 m ρ c)
theorem v5_at1 : Gen.W1 m ρ c (Proc.devRef .tc main_v5) = (pieces m c).nla := after0_main_v5 (Gen.W0 m ρ c)
theorem v6_at1 : Gen.W1 m ρ c (Proc.devRef .tc main_v6) = (pieces m c).nlb := after0_main_v6 (Gen.W0 m ρ c)
theorem v7_at1 : Gen.W1 m ρ c (Proc.devRef .tc main_v7) = (pieces m c).nlc := after0_main_v7 (Gen.W0 m ρ c)
theorem v8_at1 : Gen.W1 m ρ c (Proc.devRef .tc main_v8) = (pieces m c).nld := after0_main_v8 (Gen.W0 m ρ c)
theorem v9_at1 : Gen.W1 m ρ c (Proc.devRef .tc main_v9) = (pieces m c).nga := after0_main_v9 (Gen.W0 m ρ c)
theorem v10_at1 : Gen.W1 m ρ c (Proc.devRef .tc main_v10) = (pieces m c).ngb := after0_main_v10 (Gen.W0 m ρ c)
theorem v11_at1 : Gen.W1 m ρ c (Proc.devRef .tc main_v11) = (pieces m c).ngc := after0_main_v11 (Gen.W0 m ρ c)
theorem v12_at1 : Gen.W1 m ρ c (Proc.devRef .tc main_v12) = (pieces m c).ngd := after0_main_v12 (Gen.W0 m ρ c)
theorem v13_at1 : Gen.W1 m ρ c (Proc.devRef .tc main_v13) = (pieces m c).ela := after0_main_v13 (Gen.W0 m ρ c)
theorem v14_at1 : Gen.W1 m ρ c (Proc.devRef .tc main_v14) = (pieces m c).elb := after0_main_v14 (Gen.W0 m ρ c)
theorem v15_at1 : Gen.W1 m ρ c (Proc.devRef .tc main_v15) = (pieces m c).elc := after0_main_v15 (Gen.W0 m ρ c)
theorem v16_at1 : Gen.W1 m ρ c (Proc.devRef .tc main_v16) = (pieces m c).eld := after0_main_v16 (Gen.W0 m ρ c)
theorem v17_at1 : Gen.W1 m ρ c (Proc.devRef .tc main_v17) = (pieces m c).ega := after0_main_v17 (Gen.W0 m ρ c)
theorem v18_at1 : Gen.W1 m ρ c (Proc.devRef .tc main_v18) = (pieces m c).egb := after0_main_v18 (Gen.W0 m ρ c)
theorem v19_at1 : Gen.W1 m ρ c (Proc.devRef .tc main_v19) = (pieces m c).egc := after0_main_v19 (Gen.W0 m ρ c)
theorem v20_at1 : Gen.W1 m ρ c (Proc.devRef .tc main_v20) = (pieces m c).egd := after0_main_v20 (Gen.W0 m ρ c)
theorem v0_at9 : Gen.W9 m ρ c (Proc.devRef .tc main_v0) = (pieces m c).nbl := ((back9 m ρ c main_v0 (by decide)).trans ((back8 m ρ c main_v0 (by decide)).trans ((back7 m ρ c main_v0 (by decide)).trans ((back6 m ρ c main_v0 (by decide)).trans ((back5 m ρ c main_v0 (by decide)).trans ((back4 m ρ c main_v0 (by decide)).trans ((back3 m ρ c main_v0 (by decide)).trans ((back2 m ρ c main_v0 (by decide)))))))))).trans (v0_at1 m ρ c)
theorem v1_at9 : Gen.W9 m ρ c (Proc.devRef .tc main_v1) = (pieces m c).nbg := ((back9 m ρ c main_v1 (by decide)).trans ((back8 m ρ c main_v1 (by decide)).trans ((back7 m ρ c main_v1 (by decide)).trans ((back6 m ρ c main_v1 (by decide)).trans ((back5 m ρ c main_v1 (by decide)).trans ((back4 m ρ c main_v1 (by decide)).trans ((back3 m ρ c main_v1 (by decide)).trans ((back2 m ρ c main_v1 (by decide)))))))))).trans (v1_at1 m ρ c)
theorem v5_at9 : Gen.W9 m ρ c (Proc.devRef .tc main_v5) = (pieces m c).nla := ((back9 m ρ c main_v5 (by decide)).trans ((back8 m ρ c main_v5 (by decide)).trans ((back7 m ρ c main_v5 (by decide)).trans ((back6 m ρ c main_v5 (by decide)).trans ((back5 m ρ c main_v5 (by decide)).trans ((back4 m ρ c main_v5 (by decide)).trans ((back3 m ρ c main_v5 (by decide)).trans ((back2 m ρ c main_v5 (by decide)))))))))).trans (v5_at1 m ρ c)
theorem v6_at9 : Gen.W9 m ρ c (Proc.devRef .tc main_v6) = (pieces m c).nlb := ((back9 m ρ c main_v6 (by decide)).trans ((back8 m ρ c main_v6 (by decide)).trans ((back7 m ρ c main_v6 (by decide)).trans ((back6 m ρ c main_v6 (by decide)).trans ((back5 m ρ c main_v6 (by decide)).trans ((back4 m ρ c main_v6 (by decide)).trans ((back3 m ρ c main_v6 (by decide)).trans ((back2 m ρ c main_v6 (by decide)))))))))).trans (v6_at1 m ρ c)
theorem v7_at9 : Gen.W9 m ρ c (Proc.devRef .tc main_v7) = (pieces m c).nlc := ((back9 m ρ c main_v7 (by decide)).trans ((back8 m ρ c main_v7 (by decide)).trans ((back7 m ρ c main_v7 (by decide)).trans ((back6 m ρ c main_v7 (by decide)).trans ((back5 m ρ c main_v7 (by decide)).trans ((back4 m ρ c main_v7 (by decide)).trans ((back3 m ρ c main_v7 (by decide)).trans ((back2 m ρ c main_v7 (by decide)))))))))).trans (v7_at1 m ρ c)
theorem v8_at9 : Gen.W9 m ρ c (Proc.devRef .tc main_v8) = (pieces m c).nld := ((back9 m ρ c main_v8 (by decide)).trans ((back8 m ρ c main_v8 (by decide)).trans ((back7 m ρ c main_v8 (by decide)).trans ((back6 m ρ c main_v8 (by decide)).trans ((back5 m ρ c main_v8 (by decide)).trans ((back4 m ρ c main_v8 (by decide)).trans ((back3 m ρ c main_v8 (by decide)).trans ((back2 m ρ c main_v8 (by decide)))))))))).trans (v8_at1 m ρ c)
theorem v9_at9 : Gen.W9 m ρ c (Proc.devRef .tc main_v9) = (pieces m c).nga := ((back9 m ρ c main_v9 (by decide)).trans ((back8 m ρ c main_v9 (by decide)).trans ((back7 m ρ c main_v9 (by decide)).trans ((back6 m ρ c main_v9 (by decide)).trans ((back5 m ρ c main_v9 (by decide)).trans ((back4 m ρ c main_v9 (by decide)).trans ((back3 m ρ c main_v9 (by decide)).trans ((back2 m ρ c main_v9 (by decide)))))))))).trans (v9_at1 m ρ c)
theorem v10_at9 : Gen.W9 m ρ c (Proc.devRef .tc main_v10) = (pieces m c).ngb := ((back9 m ρ c main_v10 (by decide)).trans ((back8 m ρ c main_v10 (by decide)).trans ((back7 m ρ c main_v10 (by decide)).trans ((back6 m ρ c main_v10 (by decide)).trans ((back5 m ρ c main_v10 (by decide)).trans ((back4 m ρ c main_v10 (by decide)).trans ((back3 m ρ c main_v10 (by decide)).trans ((back2 m ρ c main_v10 (by decide)))))))))).trans (v10_at1 m ρ c)
theorem v11_at9 : Gen.W9 m ρ c (Proc.devRef .tc main_v11) = (pieces m c).ngc := ((back9 m ρ c main_v11 (by decide)).trans ((back8 m ρ c main_v11 (by decide)).trans ((back7 m ρ c main_v11 (by decide)).trans ((back6 m ρ c main_v11 (by decide)).trans ((back5 m ρ c main_v11 (by decide)).trans ((back4 m ρ c main_v11 (by decide)).trans ((back3 m ρ c main_v11 (by decide)).trans ((back2 m ρ c main_v11 (by decide)))))))))).trans (v11_at1 m ρ c)
theorem v12_at9 : Gen.W9 m ρ c (Proc.devRef .tc main_v12) = (pieces m c).ngd := ((back9 m ρ c main_v12 (by decide)).trans ((back8 m ρ c main_v12 (by decide)).trans ((back7 m ρ c main_v12 (by decide)).trans ((back6 m ρ c main_v12 (by decide)).trans ((back5 m ρ c main_v12 (by decide)).trans ((back4 m ρ c main_v12 (by decide)).trans ((back3 m ρ c main_v12 (by decide)).trans ((back2 m ρ c main_v12 (by decide)))))))))).trans (v12_at1 m ρ c)
theorem v3_at14 : Gen.W14 m ρ c (Proc.devRef .tc main_v3) = (pieces m c).ebl := ((back14 m ρ c main_v3 (by decide)).trans ((back13 m ρ c main_v3 (by decide)).trans ((back12 m ρ c main_v3 (by decide)).trans ((back11 m ρ c main_v3 (by decide)).trans ((back10 m ρ c main_v3 (by decide)).trans ((back9 m ρ c main_v3 (by decide)).trans ((back8 m ρ c main_v3 (by decide)).trans ((back7 m ρ c main_v3 (by decide)).trans ((back6 m ρ c main_v3 (by decide)).trans ((back5 m ρ c main_v3 (by decide)).trans ((back4 m ρ c main_v3 (by decide)).trans ((back3 m ρ c main_v3 (by decide)).trans ((back2 m ρ c main_v3 (by decide))))))))))))))).trans (v3_at1 m ρ c)
theorem v4_at14 : Gen.W14 m ρ c (Proc.devRef .tc main_v4) = (pieces m c).ebg := ((back14 m ρ c main_v4 (by decide)).trans ((back13 m ρ c main_v4 (by decide)).trans ((back12 m ρ c main_v4 (by decide)).trans ((back11 m ρ c main_v4 (by decide)).trans ((back10 m ρ c main_v4 (by decide)).trans ((back9 m ρ c main_v4 (by decide)).trans ((back8 m ρ c main_v4 (by decide)).trans ((back7 m ρ c main_v4 (by decide)).trans ((back6 m ρ c main_v4 (by decide)).trans ((back5 m ρ c main_v4 (by decide)).trans ((back4 m ρ c main_v4 (by decide)).trans ((back3 m ρ c main_v4 (by decide)).trans ((back2 m ρ c main_v4 (by decide))))))))))))))).trans (v4_at1 m ρ c)
theorem v13_at14 : Gen.W14 m ρ c (Proc.devRef .tc main_v13) = (pieces m c).ela := ((back14 m ρ c main_v13 (by decide)).trans ((back13 m ρ c main_v13 (by decide)).trans ((back12 m ρ c main_v13 (by decide)).trans ((back11 m ρ c main_v13 (by decide)).trans ((back10 m ρ c main_v13 (by decide)).trans ((back9 m ρ c main_v13 (by decide)).trans ((back8 m ρ c main_v13 (by decide)).trans ((back7 m ρ c main_v13 (by decide)).trans ((back6 m ρ c main_v13 (by decide)).trans ((back5 m ρ c main_v13 (by decide)).trans ((back4 m ρ c main_v13 (by decide)).trans ((back3 m ρ c main_v13 (by decide)).trans ((back2 m ρ c main_v13 (by decide))))))))))))))).trans (v13_at1 m ρ c)
theorem v14_at14 : Gen.W14 m ρ c (Proc.devRef .tc main_v14) = (pieces m c).elb := ((back14 m ρ c main_v14 (by decide)).trans ((back13 m ρ c main_v14 (by decide)).trans ((back12 m ρ c main_v14 (by decide)).trans ((back11 m ρ c main_v14 (by decide)).trans ((back10 m ρ c main_v14 (by decide)).trans ((back9 m ρ c main_v14 (by decide)).trans ((back8 m ρ c main_v14 (by decide)).trans ((back7 m ρ c main_v14 (by decide)).trans ((back6 m ρ c main_v14 (by decide)).trans ((back5 m ρ c main_v14 (by decide)).trans ((back4 m ρ c main_v14 (by decide)).trans ((back3 m ρ c main_v14 (by decide)).trans ((back2 m ρ c main_v14 (by decide))))))))))))))).trans (v14_at1 m ρ c)
theorem v15_at14 : Gen.W14 m ρ c (Proc.devRef .tc main_v15) = (pieces m c).elc := ((back14 m ρ c main_v15 (by decide)).trans ((back13 m ρ c main_v15 (by decide)).trans ((back12 m ρ c main_v15 (by decide)).trans ((back11 m ρ c main_v15 (by decide)).trans ((back10 m ρ c main_v15 (by decide)).trans ((back9 m ρ c main_v15 (by decide)).trans ((back8 m ρ c main_v15 (by decide)).trans ((back7 m ρ c main_v15 (by decide)).trans ((back6 m ρ c main_v15 (by decide)).trans ((back5 m ρ c main_v15 (by decide)).trans ((back4 m ρ c main_v15 (by decide)).trans ((back3 m ρ c main_v15 (by decide)).trans ((back2 m ρ c main_v15 (by decide))))))))))))))).trans (v15_at1 m ρ c)
theorem v16_at14 : Gen.W14 m ρ c (Proc.devRef .tc main_v16) = (pieces m c).eld := ((back14 m ρ c main_v16 (by decide)).trans ((back13 m ρ c main_v16 (by decide)).trans ((back12 m ρ c main_v16 (by decide)).trans ((back11 m ρ c main_v16 (by decide)).trans ((back10 m ρ c main_v16 (by decide)).trans ((back9 m ρ c main_v16 (by decide)).trans ((back8 m ρ c main_v16 (by decide)).trans ((back7 m ρ c main_v16 (by decide)).trans ((back6 m ρ c main_v16 (by decide)).trans ((back5 m ρ c main_v16 (by decide)).trans ((back4 m ρ c main_v16 (by decide)).trans ((back3 m ρ c main_v16 (by decide)).trans ((back2 m ρ c main_v16 (by decide))))))))))))))).trans (v16_at1 m ρ c)
theorem v17_at14 : Gen.W14 m ρ c (Proc.devRef .tc main_v17) = (pieces m c).ega := ((back14 m ρ c main_v17 (by decide)).trans ((back13 m ρ c main_v17 (by decide)).trans ((back12 m ρ c main_v17 (by decide)).trans ((back11 m ρ c main_v17 (by decide)).trans ((back10 m ρ c main_v17 (by decide)).trans ((back9 m ρ c main_v17 (by decide)).trans ((back8 m ρ c main_v17 (by decide)).trans ((back7 m ρ c main_v17 (by decide)).trans ((back6 m ρ c main_v17 (by decide)).trans ((back5 m ρ c main_v17 (by decide)).trans ((back4 m ρ c main_v17 (by decide)).trans ((back3 m ρ c main_v17 (by decide)).trans ((back2 m ρ c main_v17 (by decide))))))))))))))).trans (v17_at1 m ρ c)
theorem v18_at14 : Gen.W14 m ρ c (Proc.devRef .tc main_v18) = (pieces m c).egb := ((back14 m ρ c main_v18 (by decide)).trans ((back13 m ρ c main_v18 (by decide)).trans ((back12 m ρ c main_v18 (by decide)).trans ((back11 m ρ c main_v18 (by decide)).trans ((back10 m ρ c main_v18 (by decide)).trans ((back9 m ρ c main_v18 (by decide)).trans ((back8 m ρ c main_v18 (by decide)).trans ((back7 m ρ c main_v18 (by decide)).trans ((back6 m ρ c main_v18 (by decide)).trans ((back5 m ρ c main_v18 (by decide)).trans ((back4 m ρ c main_v18 (by decide)).trans ((back3 m ρ c main_v18 (by decide)).trans ((back2 m ρ c main_v18 (by decide))))))))))))))).trans (v18_at1 m ρ c)
theorem v19_at14 : Gen.W14 m ρ c (Proc.devRef .tc main_v19) = (pieces m c).egc := ((back14 m ρ c main_v19 (by decide)).trans ((back13 m ρ c main_v19 (by decide)).trans ((back12 m ρ c main_v19 (by decide)).trans ((back11 m ρ c main_v19 (by decide)).trans ((back10 m ρ c main_v19 (by decide)).trans ((back9 m ρ c main_v19 (by decide)).trans ((back8 m ρ c main_v19 (by decide)).trans ((back7 m ρ c main_v19 (by decide)).trans ((back6 m ρ c main_v19 (by decide)).trans ((back5 m ρ c main_v19 (by decide)).trans ((back4 m ρ c main_v19 (by decide)).trans ((back3 m ρ c main_v19 (by decide)).trans ((back2 m ρ c main_v19 (by decide))))))))))))))).trans (v19_at1 m ρ c)
theorem v20_at14 : Gen.W14 m ρ c (Proc.devRef .tc main_v20) = (pieces m c).egd := ((back14 m ρ c main_v20 (by decide)).trans ((back13 m ρ c main_v20 (by decide)).trans ((back12 m ρ c main_v20 (by decide)).trans ((back11 m ρ c main_v20 (by decide)).trans ((back10 m ρ c main_v20 (by decide)).trans ((back9 m ρ c main_v20 (by decide)).trans ((back8 m ρ c main_v20 (by decide)).trans ((back7 m ρ c main_v20 (by decide)).trans ((back6 m ρ c main_v20 (by decide)).trans ((back5 m ρ c main_v20 (by decide)).trans ((back4 m ρ c main_v20 (by decide)).trans ((back3 m ρ c main_v20 (by decide)).trans ((back2 m ρ c main_v20 (by decide))))))))))))))).trans (v20_at1 m ρ c)

/-! ## The chain: each computed array at the boundary where it is read -/

/-- Region 0's result: the per-node weights. -/
theorem v21_at2 : Gen.W2 m ρ c (Proc.devRef .tc main_v21) = (Gnn.nodeWeights (A5 m c) (A12 m c) (pieces m c).bw) := by
  have h : Gen.W2 m ρ c (Proc.devRef .tc main_v21) = Gnn.nodeWeights (Gen.W1 m ρ c (Proc.devRef .tc main_arg5)) (Gen.W1 m ρ c (Proc.devRef .tc main_arg12)) (Gen.W1 m ρ c (Proc.devRef .tc main_v2)) :=
    (Gen.W2_arr m ρ c 3).trans (RegionValue.region0_arr (Gen.V1 m ρ) c)
  rw [h, arg5_at1 m ρ c, arg12_at1 m ρ c, v2_at1 m ρ c]

/-- The node features gathered at the source and at the destination ids. -/
theorem v22_at9 : Gen.W9 m ρ c (Proc.devRef .tc main_v22) = take (A0 m c) (A2 m c) := by
  refine ((back9 m ρ c main_v22 (by decide)).trans ((back8 m ρ c main_v22 (by decide)).trans ((back7 m ρ c main_v22 (by decide)).trans ((back6 m ρ c main_v22 (by decide)).trans ((back5 m ρ c main_v22 (by decide)).trans ((back4 m ρ c main_v22 (by decide)))))))).trans ?_
  refine (after3_main_v22 (Gen.W2 m ρ c)).trans ?_
  rw [arg0_at2 m ρ c, arg2_at2 m ρ c]
theorem v23_at9 : Gen.W9 m ρ c (Proc.devRef .tc main_v23) = take (A1 m c) (A2 m c) := by
  refine ((back9 m ρ c main_v23 (by decide)).trans ((back8 m ρ c main_v23 (by decide)).trans ((back7 m ρ c main_v23 (by decide)).trans ((back6 m ρ c main_v23 (by decide)).trans ((back5 m ρ c main_v23 (by decide))))))).trans ?_
  refine (after4_main_v23 (Gen.W3 m ρ c)).trans ?_
  rw [arg1_at3 m ρ c, arg2_at3 m ρ c]

/-- The four gathered factors of the edge weight. -/
theorem v24_at8 : Gen.W8 m ρ c (Proc.devRef .tc main_v24) = take (A0 m c) (Gnn.nodeWeights (A5 m c) (A12 m c) (pieces m c).bw) := by
  refine ((back8 m ρ c main_v24 (by decide)).trans ((back7 m ρ c main_v24 (by decide)).trans ((back6 m ρ c main_v24 (by decide))))).trans ?_
  refine (after5_main_v24 (Gen.W4 m ρ c)).trans ?_
  rw [arg0_at4 m ρ c, ((back4 m ρ c main_v21 (by decide)).trans ((back3 m ρ c main_v21 (by decide)))), v21_at2 m ρ c]
theorem v25_at8 : Gen.W8 m ρ c (Proc.devRef .tc main_v25) = take (A1 m c) (Gnn.nodeWeights (A5 m c) (A12 m c) (pieces m c).bw) := by
  refine ((back8 m ρ c main_v25 (by decide)).trans ((back7 m ρ c main_v25 (by decide)))).trans ?_
  refine (after6_main_v25 (Gen.W5 m ρ c)).trans ?_
  rw [arg1_at5 m ρ c, ((back5 m ρ c main_v21 (by decide)).trans ((back4 m ρ c main_v21 (by decide)).trans ((back3 m ρ c main_v21 (by decide))))), v21_at2 m ρ c]
theorem v26_at8 : Gen.W8 m ρ c (Proc.devRef .tc main_v26) = take (A0 m c) (A6 m c) := by
  refine ((back8 m ρ c main_v26 (by decide))).trans ?_
  refine (after7_main_v26 (Gen.W6 m ρ c)).trans ?_
  rw [arg0_at6 m ρ c, arg6_at6 m ρ c]
theorem v27_at8 : Gen.W8 m ρ c (Proc.devRef .tc main_v27) = take (A1 m c) (A6 m c) := by
  refine (after8_main_v27 (Gen.W7 m ρ c)).trans ?_
  rw [arg1_at7 m ρ c, arg6_at7 m ρ c]

/-- Their product is the combined edge weight. -/
theorem v30_at9 : Gen.W9 m ρ c (Proc.devRef .tc main_v30) = (Gnn.edgeWeight (take (A0 m c)) (take (A1 m c)) (A5 m c) (A6 m c) (A12 m c) (pieces m c)) := by
  refine (after9_main_v30 (Gen.W8 m ρ c)).trans ?_
  rw [v24_at8 m ρ c, v25_at8 m ρ c, v26_at8 m ρ c, v27_at8 m ρ c, mul4_eq]
  rfl

/-- Region 1's result: the messages. -/
theorem v31_at10 : Gen.W10 m ρ c (Proc.devRef .tc main_v31) = (Gnn.messages (take (A0 m c) (A2 m c)) (A3 m c) (A4 m c) (take (A1 m c) (A2 m c)) (Gnn.edgeWeight (take (A0 m c)) (take (A1 m c)) (A5 m c) (A6 m c) (A12 m c) (pieces m c)) (pieces m c).nla (pieces m c).nlb (pieces m c).nlc (pieces m c).nld (pieces m c).nbl (pieces m c).nga (pieces m c).ngb (pieces m c).ngc (pieces m c).ngd (pieces m c).nbg) := by
  have h : Gen.W10 m ρ c (Proc.devRef .tc main_v31) = Gnn.messages (Gen.W9 m ρ c (Proc.devRef .tc main_v22)) (Gen.W9 m ρ c (Proc.devRef .tc main_arg3)) (Gen.W9 m ρ c (Proc.devRef .tc main_arg4)) (Gen.W9 m ρ c (Proc.devRef .tc main_v23)) (Gen.W9 m ρ c (Proc.devRef .tc main_v30))
      (Gen.W9 m ρ c (Proc.devRef .tc main_v5)) (Gen.W9 m ρ c (Proc.devRef .tc main_v6)) (Gen.W9 m ρ c (Proc.devRef .tc main_v7)) (Gen.W9 m ρ c (Proc.devRef .tc main_v8)) (Gen.W9 m ρ c (Proc.devRef .tc main_v0))
      (Gen.W9 m ρ c (Proc.devRef .tc main_v9)) (Gen.W9 m ρ c (Proc.devRef .tc main_v10)) (Gen.W9 m ρ c (Proc.devRef .tc main_v11)) (Gen.W9 m ρ c (Proc.devRef .tc main_v12)) (Gen.W9 m ρ c (Proc.devRef .tc main_v1)) :=
    (Gen.W10_arr m ρ c 15).trans (RegionValue.region1_arr (Gen.V9 m ρ) c)
  rw [h, v22_at9 m ρ c, arg3_at9 m ρ c, arg4_at9 m ρ c, v23_at9 m ρ c, v30_at9 m ρ c, v5_at9 m ρ c, v6_at9 m ρ c, v7_at9 m ρ c, v8_at9 m ρ c,
    v0_at9 m ρ c, v9_at9 m ρ c, v10_at9 m ρ c, v11_at9 m ρ c, v12_at9 m ρ c, v1_at9 m ρ c]

/-- The messages summed into their destination rows. -/
theorem v34_at11 : Gen.W11 m ρ c (Proc.devRef .tc main_v34) = scat m c (Gnn.messages (take (A0 m c) (A2 m c)) (A3 m c) (A4 m c) (take (A1 m c) (A2 m c)) (Gnn.edgeWeight (take (A0 m c)) (take (A1 m c)) (A5 m c) (A6 m c) (A12 m c) (pieces m c)) (pieces m c).nla (pieces m c).nlb (pieces m c).nlc (pieces m c).nld (pieces m c).nbl (pieces m c).nga (pieces m c).ngb (pieces m c).ngc (pieces m c).ngd (pieces m c).nbg) := by
  refine (after11_main_v34 (Gen.W10 m ρ c)).trans ?_
  rw [arg1_at10 m ρ c, v31_at10 m ρ c]

/-- Region 2's result: the updated node features, the layer's first result. -/
theorem v35_at12 : Gen.W12 m ρ c (Proc.devRef .tc main_v35) = (Gnn.layerNode (take (A0 m c)) (take (A1 m c)) (scat m c) (A2 m c) (A3 m c) (A4 m c) (A5 m c) (A6 m c) (A11 m c) (A12 m c) (pieces m c)) := by
  have h : Gen.W12 m ρ c (Proc.devRef .tc main_v35) = Gnn.nodeUpdate (Gen.W11 m ρ c (Proc.devRef .tc main_v34)) (Gen.W11 m ρ c (Proc.devRef .tc main_arg2)) (Gen.W11 m ρ c (Proc.devRef .tc main_arg11)) :=
    (Gen.W12_arr m ρ c 3).trans (RegionValue.region2_arr (Gen.V11 m ρ) c)
  rw [h, v34_at11 m ρ c, arg2_at11 m ρ c, arg11_at11 m ρ c]
  rfl
theorem v35_at13 : Gen.W13 m ρ c (Proc.devRef .tc main_v35) = (Gnn.layerNode (take (A0 m c)) (take (A1 m c)) (scat m c) (A2 m c) (A3 m c) (A4 m c) (A5 m c) (A6 m c) (A11 m c) (A12 m c) (pieces m c)) := ((back13 m ρ c main_v35 (by decide))).trans (v35_at12 m ρ c)
theorem v35_at15 : Gen.W15 m ρ c (Proc.devRef .tc main_v35) = (Gnn.layerNode (take (A0 m c)) (take (A1 m c)) (scat m c) (A2 m c) (A3 m c) (A4 m c) (A5 m c) (A6 m c) (A11 m c) (A12 m c) (pieces m c)) := ((back15 m ρ c main_v35 (by decide)).trans ((back14 m ρ c main_v35 (by decide)).trans ((back13 m ρ c main_v35 (by decide))))).trans (v35_at12 m ρ c)

/-- The updated node features gathered at the source and at the destination ids. -/
theorem v36_at14 : Gen.W14 m ρ c (Proc.devRef .tc main_v36) = take (A0 m c) (Gnn.layerNode (take (A0 m c)) (take (A1 m c)) (scat m c) (A2 m c) (A3 m c) (A4 m c) (A5 m c) (A6 m c) (A11 m c) (A12 m c) (pieces m c)) := by
  refine ((back14 m ρ c main_v36 (by decide))).trans ?_
  refine (after13_main_v36 (Gen.W12 m ρ c)).trans ?_
  rw [arg0_at12 m ρ c, v35_at12 m ρ c]
theorem v37_at14 : Gen.W14 m ρ c (Proc.devRef .tc main_v37) = take (A1 m c) (Gnn.layerNode (take (A0 m c)) (take (A1 m c)) (scat m c) (A2 m c) (A3 m c) (A4 m c) (A5 m c) (A6 m c) (A11 m c) (A12 m c) (pieces m c)) := by
  refine (after14_main_v37 (Gen.W13 m ρ c)).trans ?_
  rw [arg1_at13 m ρ c, v35_at13 m ρ c]

/-- Region 3's result: the updated edge features, the layer's second result. -/
theorem v38_at15 : Gen.W15 m ρ c (Proc.devRef .tc main_v38) = (Gnn.layerEdge (take (A0 m c)) (take (A1 m c)) (scat m c) (A2 m c) (A3 m c) (A4 m c) (A5 m c) (A6 m c) (A11 m c) (A12 m c) (pieces m c)) := by
  have h : Gen.W15 m ρ c (Proc.devRef .tc main_v38) = Gnn.edgeUpdate (Gen.W14 m ρ c (Proc.devRef .tc main_v36)) (Gen.W14 m ρ c (Proc.devRef .tc main_arg3)) (Gen.W14 m ρ c (Proc.devRef .tc main_arg4)) (Gen.W14 m ρ c (Proc.devRef .tc main_v37))
      (Gen.W14 m ρ c (Proc.devRef .tc main_v13)) (Gen.W14 m ρ c (Proc.devRef .tc main_v14)) (Gen.W14 m ρ c (Proc.devRef .tc main_v15)) (Gen.W14 m ρ c (Proc.devRef .tc main_v16)) (Gen.W14 m ρ c (Proc.devRef .tc main_v3))
      (Gen.W14 m ρ c (Proc.devRef .tc main_v17)) (Gen.W14 m ρ c (Proc.devRef .tc main_v18)) (Gen.W14 m ρ c (Proc.devRef .tc main_v19)) (Gen.W14 m ρ c (Proc.devRef .tc main_v20)) (Gen.W14 m ρ c (Proc.devRef .tc main_v4)) :=
    (Gen.W15_arr m ρ c 14).trans (RegionValue.region3_arr (Gen.V14 m ρ) c)
  rw [h, v36_at14 m ρ c, arg3_at14 m ρ c, arg4_at14 m ρ c, v37_at14 m ρ c, v13_at14 m ρ c, v14_at14 m ρ c, v15_at14 m ρ c, v16_at14 m ρ c,
    v3_at14 m ρ c, v17_at14 m ρ c, v18_at14 m ρ c, v19_at14 m ρ c, v20_at14 m ρ c, v4_at14 m ρ c]
  rfl

/-- The two result buffers at the last boundary are the two results of the layer, over the row gathers at the launched
    source and destination ids and the scatter-sum at the destination ids. -/
theorem results : Gen.W15 m ρ c (Proc.devRef .tc main_v35) = (Gnn.layerNode (take (A0 m c)) (take (A1 m c)) (scat m c) (A2 m c) (A3 m c) (A4 m c) (A5 m c) (A6 m c) (A11 m c) (A12 m c) (pieces m c))
    ∧ Gen.W15 m ρ c (Proc.devRef .tc main_v38) = (Gnn.layerEdge (take (A0 m c)) (take (A1 m c)) (scat m c) (A2 m c) (A3 m c) (A4 m c) (A5 m c) (A6 m c) (A11 m c) (A12 m c) (pieces m c)) :=
  ⟨v35_at15 m ρ c, v38_at15 m ρ c⟩

end Assembly

end Cert.KernelIdeal.KHost

end
-- ==== Proof.Pre.lean ====
/-
  What the two index-range conjuncts of the precondition say, and what they do to the index preparation both programs
  perform before they gather rows.

  The precondition is a conjunction of eighteen one-bit facts; the last two say, for the source and the destination index
  array, that every entry e satisfies 0 ≤ e < 100000 as a signed 32-bit word. Under that range

    * wrapping a negative index round (e < 0 ? e + 100000 : e) changes nothing, since no entry is negative;
    * the in-bounds test 0 ≤ e ≤ 99999 holds at every entry, so the mask built from it is all ones;
    * a row gather guarded by an all-ones mask never takes the fill value.

  Only integer facts are used; the sixteen conjuncts on the float inputs are carried along as opaque bits.
-/
import proofs.«408984_j66649302499835_1_alg».proof.Pre_finite_inputs
import Idealize.ShloMosaic.Lib.StableHlo.Predicate
import Idealize.ShloMosaic.Lib.ReduceAll
import Idealize.ShloMosaic.Lib.ValueIdx
import Idealize.ShloMosaic.Lib.Pipeline.Value

noncomputable section

namespace Cert.PreFacts

open Idealize.ShloMosaic Idealize.ShloMosaic.ValueIdx

abbrev S_ : Shape := ⟨0, ![]⟩
abbrev S1 : Shape := ⟨1, ![1]⟩
abbrev S1x1 : Shape := ⟨2, ![1, 1]⟩
abbrev S64 : Shape := ⟨1, ![64]⟩
abbrev S400000 : Shape := ⟨1, ![400000]⟩
abbrev S400000x1 : Shape := ⟨2, ![400000, 1]⟩
abbrev S400000x64 : Shape := ⟨2, ![400000, 64]⟩
abbrev S100000x64 : Shape := ⟨2, ![100000, 64]⟩
abbrev S100000x31 : Shape := ⟨2, ![100000, 31]⟩
abbrev S256x64 : Shape := ⟨2, ![256, 64]⟩
abbrev S64x64 : Shape := ⟨2, ![64, 64]⟩
abbrev S31x64 : Shape := ⟨2, ![31, 64]⟩

/-- Every entry of an index array names a node: 0 ≤ e < 100000, read signed. -/
def InRange (idx : IVec S400000 32) : Prop := ∀ e, 0 ≤ (idx e).toInt ∧ (idx e).toInt < 100000

/-! ## Signed comparisons of a word with the three constants -/

theorem toInt_zero : (0#32 : BitVec 32).toInt = 0 := by decide
theorem toInt_n : (100000#32 : BitVec 32).toInt = 100000 := by decide
theorem toInt_n1 : (99999#32 : BitVec 32).toInt = 99999 := by decide

/-- w ≥ 0 signed. -/
theorem sge_zero_iff (w : BitVec 32) : IntOp.cmpi .sge w 0#32 = 1#1 ↔ 0 ≤ w.toInt := by
  show BitVec.ofBool ((0#32 : BitVec 32).sle w) = 1#1 ↔ _
  rw [StableHlo.Predicate.ofBool_eq_one_iff, BitVec.sle, decide_eq_true_eq, toInt_zero]

/-- w < 0 signed. -/
theorem slt_zero_iff (w : BitVec 32) : IntOp.cmpi .slt w 0#32 = 1#1 ↔ w.toInt < 0 := by
  show BitVec.ofBool (w.slt (0#32 : BitVec 32)) = 1#1 ↔ _
  rw [StableHlo.Predicate.ofBool_eq_one_iff, BitVec.slt, decide_eq_true_eq, toInt_zero]

/-- w < 100000 signed. -/
theorem slt_n_iff (w : BitVec 32) : IntOp.cmpi .slt w 100000#32 = 1#1 ↔ w.toInt < 100000 := by
  show BitVec.ofBool (w.slt (100000#32 : BitVec 32)) = 1#1 ↔ _
  rw [StableHlo.Predicate.ofBool_eq_one_iff, BitVec.slt, decide_eq_true_eq, toInt_n]

/-- w ≤ 99999 signed. -/
theorem sle_n1_iff (w : BitVec 32) : IntOp.cmpi .sle w 99999#32 = 1#1 ↔ w.toInt ≤ 99999 := by
  show BitVec.ofBool (w.sle (99999#32 : BitVec 32)) = 1#1 ↔ _
  rw [StableHlo.Predicate.ofBool_eq_one_iff, BitVec.sle, decide_eq_true_eq, toInt_n1]

/-- The two-sided test the precondition makes at one entry. -/
theorem range_of_bits (w : BitVec 32) (h : IntOp.andi (IntOp.cmpi .sge w 0#32) (IntOp.cmpi .slt w 100000#32) = 1#1) :
    0 ≤ w.toInt ∧ w.toInt < 100000 := by
  obtain ⟨h0, h1⟩ := IntOp.andi_eq_one.1 h
  exact ⟨(sge_zero_iff w).1 h0, (slt_n_iff w).1 h1⟩

/-- The in-bounds test 0 ≤ w ≤ 99999 at an entry in range. -/
theorem bits_of_range (w : BitVec 32) (h0 : 0 ≤ w.toInt) (h1 : w.toInt < 100000) :
    IntOp.andi (IntOp.cmpi .sge w 0#32) (IntOp.cmpi .sle w 99999#32) = 1#1 :=
  IntOp.andi_eq_one.2 ⟨(sge_zero_iff w).2 h0, (sle_n1_iff w).2 (by omega)⟩

/-! ## Reading one index-range conjunct -/

/-- "all (0 ≤ idx and idx < 100000)" being 1 puts every entry in range. -/
theorem inRange_of_all (idx : IVec S400000 32) (hb : S_.BroadcastsInDim S400000 (![] : Fin 0 → Fin S400000.rank))
    (hr : S400000.ReducesTo [0] S_) (hS : 0 < S_.numel) (i : S_.Idx)
    (h : Host.reduce IntOp.andi
        (andi (cmpi .sge idx (broadcastInDim S400000 ![] hb (constantI S_ 32 0#32)))
          (cmpi .slt idx (broadcastInDim S400000 ![] hb (constantI S_ 32 100000#32))))
        (constantI S_ 1 1#1) hr hS i = 1#1) : InRange idx := by
  haveI : Subsingleton S_.Idx := ⟨fun a b => funext fun d => d.elim0⟩
  intro e
  have he := Host.reduce_andi_all _ _ hr hS i h e
  exact range_of_bits (idx e) he

/-! ## The precondition's last two conjuncts -/

section Pre
variable {F : FTy → Type} [FloatOps F] [Cert.Pre_finite_inputs.Facts]
open Cert.Pre_finite_inputs (fn fn_part1 fn_part2 fn_part3 fn_part4 fn_part5)
open Cert.Pre_finite_inputs.Facts

/-- The last link of the chain: the conjunct on the destination indices, and the bit handed in for the source's. -/
theorem of_part5 (a1 : IVec S400000 32) (v78 v84 : IVec S_ 1) (i : S_.Idx)
    (h : fn_part5 (F := F) a1 v78 v84 i = 1#1) : v84 i = 1#1 ∧ InRange a1 := by
  have h' : IntOp.andi (IntOp.andi (v78 i) (v84 i))
      (Host.reduce IntOp.andi
        (andi (cmpi .sge a1 (broadcastInDim S400000 ![] bcast_S_S400000 (constantI S_ 32 0#32)))
          (cmpi .slt a1 (broadcastInDim S400000 ![] bcast_S_S400000 (constantI S_ 32 100000#32))))
        (constantI S_ 1 1#1) reducesTo_S400000_S_d0 h_S_ i) = 1#1 := h
  obtain ⟨h1, h2⟩ := IntOp.andi_eq_one.1 h'
  exact ⟨(IntOp.andi_eq_one.1 h1).2, inRange_of_all a1 _ _ _ i h2⟩

/-- The link before it: it forms the source conjunct and hands it on. -/
theorem of_part4 (a0 a1 : IVec S400000 32) (a16 : FVec F S256x64 .f32) (a17 : FVec F S64 .f32) (v63 v67 : IVec S_ 1) (i : S_.Idx)
    (h : fn_part4 (F := F) a0 a1 a16 a17 v63 v67 i = 1#1) : InRange a0 ∧ InRange a1 := by
  unfold fn_part4 at h
  obtain ⟨h84, hd⟩ := of_part5 _ _ _ i h
  exact ⟨inRange_of_all a0 _ _ _ i h84, hd⟩

/-- THE PRECONDITION, as far as the index arrays go: both lie in [0, 100000). -/
theorem inRange_of_pre (a0 a1 : IVec S400000 32) (a2 : FVec F S100000x64 .f32) (a3 a4 : FVec F S400000x64 .f32)
    (a5 : FVec F S100000x31 .f32) (a6 : FVec F S100000x64 .f32) (a7 : FVec F S256x64 .f32) (a8 : FVec F S64 .f32)
    (a9 : FVec F S256x64 .f32) (a10 : FVec F S64 .f32) (a11 : FVec F S64x64 .f32) (a12 : FVec F S31x64 .f32)
    (a13 : FVec F S64 .f32) (a14 : FVec F S256x64 .f32) (a15 : FVec F S64 .f32) (a16 : FVec F S256x64 .f32)
    (a17 : FVec F S64 .f32)
    (h : fn (F := F) a0 a1 a2 a3 a4 a5 a6 a7 a8 a9 a10 a11 a12 a13 a14 a15 a16 a17 = fun _ => 1#1) :
    InRange a0 ∧ InRange a1 := by
  have e := congrFun h ix0
  unfold fn fn_part1 fn_part2 fn_part3 at e
  exact of_part4 _ _ _ _ _ _ ix0 e

end Pre

/-! ## The wrap of negative indices is the identity -/

theorem wrap_eq (idx : IVec S400000 32) (h : InRange idx) (hb : S_.BroadcastsInDim S400000 (![] : Fin 0 → Fin S400000.rank)) :
    select (cmpi .slt idx (broadcastInDim S400000 ![] hb (constantI S_ 32 0#32)))
      (addi idx (broadcastInDim S400000 ![] hb (constantI S_ 32 100000#32))) idx = idx := by
  funext e
  show Scalar.select (IntOp.cmpi .slt (idx e) 0#32) (IntOp.addi (idx e) 100000#32) (idx e) = idx e
  have hc : IntOp.cmpi .slt (idx e) 0#32 = 0#1 :=
    eq_zero_of_ne_one fun hc => by have := (slt_zero_iff (idx e)).1 hc; have := (h e).1; omega
  rw [hc, select_zero]

/-! ## The in-bounds mask is all ones -/

/-- A left fold by "and" from 1 over entries that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

theorem take_mask_one (idx : IVec S400000 32) (h : InRange idx)
    (hb0 : S400000.BroadcastsInDim S400000x1 (![0] : Fin 1 → Fin S400000x1.rank))
    (hz : S_.BroadcastsInDim S400000x1 (![] : Fin 0 → Fin S400000x1.rank))
    (h1 : S1.BroadcastsInDim S1x1 (![1] : Fin 1 → Fin S1x1.rank))
    (h11 : S1x1.BroadcastsInDim S400000x1 (![0, 1] : Fin 2 → Fin S400000x1.rank))
    (hred : S400000x1.ReducesTo [1] S400000) (hS : 0 < S_.numel) :
    Host.reduce IntOp.andi
      (andi (cmpi .sge (broadcastInDim S400000x1 ![0] hb0 idx) (broadcastInDim S400000x1 ![] hz (constantI S_ 32 0#32)))
        (cmpi .sle (broadcastInDim S400000x1 ![0] hb0 idx)
          (broadcastInDim S400000x1 ![0, 1] h11 (broadcastInDim S1x1 ![1] h1 (constantI S1 32 99999#32)))))
      (constantI S_ 1 1#1) hred hS = fun _ => 1#1 := by
  funext j
  rw [Host.reduce_eq_foldl]
  refine foldl_andi_ones _ (fun i => ?_) _
  exact bits_of_range _ (h _).1 (h _).2

/-! ## A gather guarded by an all-ones mask -/

theorem take_eq {α : Type} (g fill : S400000x64.Idx → α) (mask : IVec S400000 1) (hm : mask = fun _ => 1#1)
    (hbm : S400000.BroadcastsInDim S400000x64 (![0] : Fin 1 → Fin S400000x64.rank)) :
    select (broadcastInDim S400000x64 ![0] hbm mask) g fill = g := by
  subst hm
  funext i
  show Scalar.select 1#1 (g i) (fill i) = g i
  exact select_one _ _

/-- The guarded gather of rows at the wrapped indices is the plain gather at the indices themselves. -/
theorem take_eq_gather {α : Type} (G : IVec S400000x1 32 → S400000x64.Idx → α) (fill : S400000x64.Idx → α)
    (idx : IVec S400000 32) (h : InRange idx)
    (hb : S_.BroadcastsInDim S400000 (![] : Fin 0 → Fin S400000.rank))
    (hb0 : S400000.BroadcastsInDim S400000x1 (![0] : Fin 1 → Fin S400000x1.rank))
    (hz : S_.BroadcastsInDim S400000x1 (![] : Fin 0 → Fin S400000x1.rank))
    (h1 : S1.BroadcastsInDim S1x1 (![1] : Fin 1 → Fin S1x1.rank))
    (h11 : S1x1.BroadcastsInDim S400000x1 (![0, 1] : Fin 2 → Fin S400000x1.rank))
    (hred : S400000x1.ReducesTo [1] S400000) (hS : 0 < S_.numel)
    (hbm : S400000.BroadcastsInDim S400000x64 (![0] : Fin 1 → Fin S400000x64.rank)) :
    select
      (broadcastInDim S400000x64 ![0] hbm
        (Host.reduce IntOp.andi
          (andi
            (cmpi .sge
              (broadcastInDim S400000x1 ![0] hb0
                (select (cmpi .slt idx (broadcastInDim S400000 ![] hb (constantI S_ 32 0#32)))
                  (addi idx (broadcastInDim S400000 ![] hb (constantI S_ 32 100000#32))) idx))
              (broadcastInDim S400000x1 ![] hz (constantI S_ 32 0#32)))
            (cmpi .sle
              (broadcastInDim S400000x1 ![0] hb0
                (select (cmpi .slt idx (broadcastInDim S400000 ![] hb (constantI S_ 32 0#32)))
                  (addi idx (broadcastInDim S400000 ![] hb (constantI S_ 32 100000#32))) idx))
              (broadcastInDim S400000x1 ![0, 1] h11 (broadcastInDim S1x1 ![1] h1 (constantI S1 32 99999#32)))))
          (constantI S_ 1 1#1) hred hS))
      (G (broadcastInDim S400000x1 ![0] hb0
        (select (cmpi .slt idx (broadcastInDim S400000 ![] hb (constantI S_ 32 0#32)))
          (addi idx (broadcastInDim S400000 ![] hb (constantI S_ 32 100000#32))) idx)))
      fill
      = G (broadcastInDim S400000x1 ![0] hb0 idx) := by
  rw [wrap_eq idx h hb]
  exact take_eq _ _ _ (take_mask_one idx h hb0 hz h1 h11 hred hS) hbm

end Cert.PreFacts

end
-- ==== Proof.Bridge.lean ====
/-
  The kernel program's row gather, when every id is in range.

  It wraps a negative id by the row count, gathers, and replaces the rows whose wrapped id is outside 0 … 99999 by a
  fill value. When every id already lies in [0, 100000) the wrap is the identity and no row is replaced, so it is the
  plain row gather at the ids themselves.
-/
import proofs.«408984_j66649302499835_1_alg».proof.Proof.KernelHostDefs
import proofs.«408984_j66649302499835_1_alg».proof.Proof.Pre

noncomputable section

namespace Cert.KernelIdeal.KHost

open Idealize.ShloMosaic Idealize.ShloMosaic.TcCoe
open Cert.KernelIdeal Cert.KernelIdeal.Gen

/-- The plain row gather: row e of the result is row idx e of x. -/
def gatherAt (idx : IdxArr) (x : Gnn.Arr 100000 64) : Gnn.Arr 400000 64 :=
  Host.gather gather_S100000x64_S400000x1_S400000x64_1_0_n_n_0_1_164 x
    (broadcastInDim S400000x1 ![0] bcast_S400000_S400000x1_0 idx)

/-- With every id in [0, 100000) the masked, wrapped gather is the plain row gather at the ids themselves. -/
theorem take_of_inRange (idx : IdxArr) (h : Cert.PreFacts.InRange idx) : take idx = gatherAt idx := by
  funext x
  unfold take takeMask takeIdx gatherAt
  exact Cert.PreFacts.take_eq_gather
    (fun I => Host.gather gather_S100000x64_S400000x1_S400000x64_1_0_n_n_0_1_164 x I) _ idx h
    bcast_S_S400000 bcast_S400000_S400000x1_0 bcast_S_S400000x1 bcast_S1_S1x1_1 bcast_S1x1_S400000x1_0_1
    reducesTo_S400000x1_S400000_d1 h_S_ bcast_S400000_S400000x64_0

end Cert.KernelIdeal.KHost

end
-- ==== Proof.Algebra.lean ====
/-
  Algebra on the extended reals that the four regions share.

  Two spellings of softplus(x) − log 2 and of the logistic function agree: a comparison of a value with itself for
  "not equal" is false whichever way the unordered case is read (there is no unordered case on the extended reals),
  the float word of zero is 0 and 0 − t = −t, and the float word of one is 1.

  A sum over 256 indices is the sum of its four consecutive 64-index pieces added left to right, so a product with a
  256-row matrix is the four products with its 64-row pieces added left to right when the left operand is the row-wise
  concatenation of four arrays. Only associativity and commutativity of + and associativity of · are used; nothing
  here needs an entry to be finite.
-/
import proofs.«408984_j66649302499835_1_alg».proof.Proof.Spec
import Idealize.ShloMosaic.Lib.IdealHost
import Mathlib.Algebra.BigOperators.Fin

noncomputable section

namespace Gnn

open Idealize.ShloMosaic Idealize.ShloMosaic.ValueIdx

/-! ## The two spellings of softplus and of the logistic function -/

/-- "Ordered and not equal" of a value with itself is false. -/
theorem cmp_one_self (y : EReal) : Ideal.cmp .one y y = 0#1 := by
  simp [Ideal.cmp]

/-- "Unordered or not equal" of a value with itself is false: no extended real is unordered. -/
theorem cmp_une_self (y : EReal) : Ideal.cmp .une y y = 0#1 := by
  simp [Ideal.cmp]

/-- The float word of zero is the extended real 0. -/
theorem c0_eq : c0 = 0 := Ideal.ofBits_zero_f32

/-- The float word 0x3F800000 is the extended real 1. -/
theorem c1_eq : c1 = 1 := Ideal.ofBits_one_f32

/-- Both guards are false, so both select the second branch; there the exponents 0 − t and −t agree. -/
theorem spK_eq_spR (x : EReal) : spK x = spR x := by
  unfold spK spR
  rw [cmp_one_self, cmp_une_self, ValueIdx.select_zero, ValueIdx.select_zero, c0_eq, zero_sub]

/-- The logistic function is by definition 1 / (1 + e^(−x)) with the same division and exponential. -/
theorem sgK_eq_sgR (x : EReal) : sgK x = sgR x := by
  unfold sgK sgR Ideal.logistic
  rw [c1_eq]

/-! ## A 256-term sum as four 64-term sums -/

/-- A sum over m + n indices is the sum over the first m plus the sum over the last n. -/
theorem sum_split {M : Type*} [AddCommMonoid M] (m n : Nat) (f : Fin (m + n) → M) :
    ∑ k : Fin (m + n), f k
      = ∑ k : Fin m, f ⟨k.val, by omega⟩ + ∑ k : Fin n, f ⟨m + k.val, by omega⟩ :=
  Fin.sum_univ_add f

theorem sum256_split {M : Type*} [AddCommMonoid M] (f : Fin 256 → M) :
    ∑ k : Fin 256, f k = ((∑ k : Fin 64, f ⟨k.val, by omega⟩ + ∑ k : Fin 64, f ⟨64 + k.val, by omega⟩) + ∑ k : Fin 64, f ⟨128 + k.val, by omega⟩) + ∑ k : Fin 64, f ⟨192 + k.val, by omega⟩ := by
  have h1 := sum_split 192 64 f
  have h2 := sum_split 128 64 (fun k : Fin (128 + 64) => f ⟨k.val, by omega⟩)
  have h3 := sum_split 64 64 (fun k : Fin (64 + 64) => f ⟨k.val, by omega⟩)
  exact h1.trans (congrArg (· + _) (h2.trans (congrArg (· + _) h3)))

/-! ## The product with a row-wise concatenation -/

theorem mm_concat4 {E : Nat} (cat : Arr E 256) (W : Arr 256 64) (a b c d : Arr E 64) (wa wb wc wd : Arr 64 64)
    (ha : ∀ (e : Fin E) (k : Fin 64), cat (ix2 e ⟨k.val, by omega⟩) = a (ix2 e k))
    (hb : ∀ (e : Fin E) (k : Fin 64), cat (ix2 e ⟨64 + k.val, by omega⟩) = b (ix2 e k))
    (hc : ∀ (e : Fin E) (k : Fin 64), cat (ix2 e ⟨128 + k.val, by omega⟩) = c (ix2 e k))
    (hd : ∀ (e : Fin E) (k : Fin 64), cat (ix2 e ⟨192 + k.val, by omega⟩) = d (ix2 e k))
    (hwa : ∀ (k j : Fin 64), wa (ix2 k j) = W (ix2 ⟨k.val, by omega⟩ j))
    (hwb : ∀ (k j : Fin 64), wb (ix2 k j) = W (ix2 ⟨64 + k.val, by omega⟩ j))
    (hwc : ∀ (k j : Fin 64), wc (ix2 k j) = W (ix2 ⟨128 + k.val, by omega⟩ j))
    (hwd : ∀ (k j : Fin 64), wd (ix2 k j) = W (ix2 ⟨192 + k.val, by omega⟩ j))
    (e : Fin E) (j : Fin 64) :
    mmAt cat W e j = ((mmAt a wa e j + mmAt b wb e j) + mmAt c wc e j) + mmAt d wd e j := by
  refine (sum256_split fun k : Fin 256 => cat (ix2 e k) * W (ix2 k j)).trans ?_
  refine congrArg₂ (· + ·) (congrArg₂ (· + ·) (congrArg₂ (· + ·) ?_ ?_) ?_) ?_
  · exact Finset.sum_congr rfl fun k _ => congrArg₂ (· * ·) (ha e k) (hwa k j).symm
  · exact Finset.sum_congr rfl fun k _ => congrArg₂ (· * ·) (hb e k) (hwb k j).symm
  · exact Finset.sum_congr rfl fun k _ => congrArg₂ (· * ·) (hc e k) (hwc k j).symm
  · exact Finset.sum_congr rfl fun k _ => congrArg₂ (· * ·) (hd e k) (hwd k j).symm

theorem gate4_of_concat {E : Nat} (cat : Arr E 256) (W : Arr 256 64) (a b c d : Arr E 64) (wa wb wc wd : Arr 64 64)
    (ha : ∀ (e : Fin E) (k : Fin 64), cat (ix2 e ⟨k.val, by omega⟩) = a (ix2 e k))
    (hb : ∀ (e : Fin E) (k : Fin 64), cat (ix2 e ⟨64 + k.val, by omega⟩) = b (ix2 e k))
    (hc : ∀ (e : Fin E) (k : Fin 64), cat (ix2 e ⟨128 + k.val, by omega⟩) = c (ix2 e k))
    (hd : ∀ (e : Fin E) (k : Fin 64), cat (ix2 e ⟨192 + k.val, by omega⟩) = d (ix2 e k))
    (hwa : ∀ (k j : Fin 64), wa (ix2 k j) = W (ix2 ⟨k.val, by omega⟩ j))
    (hwb : ∀ (k j : Fin 64), wb (ix2 k j) = W (ix2 ⟨64 + k.val, by omega⟩ j))
    (hwc : ∀ (k j : Fin 64), wc (ix2 k j) = W (ix2 ⟨128 + k.val, by omega⟩ j))
    (hwd : ∀ (k j : Fin 64), wd (ix2 k j) = W (ix2 ⟨192 + k.val, by omega⟩ j))
    (bias : Arr 1 64) (e : Fin E) (j : Fin 64) :
    mmAt cat W e j + bias (ix2 0 j) = gate4 a b c d wa wb wc wd bias e j :=
  congrArg (· + bias (ix2 0 j)) (mm_concat4 cat W a b c d wa wb wc wd ha hb hc hd hwa hwb hwc hwd e j)

/-! ## Regrouping the five factors of a message -/

theorem mul_regroup (m w1 w2 s1 s2 : EReal) : (((m * w1) * w2) * s1) * s2 = m * (((w1 * w2) * s1) * s2) := by
  simp only [mul_assoc]

end Gnn

end
-- ==== Proof.RefRead.lean ====
/-
  The reference program's operations read at an entry: the three matrix products as sums over the shared axis,
  the bias rows broadcast down the rows, the four-piece concatenation along the columns, and the splat constants.
  Everything is stated over variables of the literal shapes.
-/
import proofs.«408984_j66649302499835_1_alg».proof.Proof.Gen.ReferenceIdeal
import proofs.«408984_j66649302499835_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The three matrix products at an entry -/

theorem lhs_e256_0 (i : S400000x64.Idx) (q : dot_S400000x256_S256x64_S400000x64_1_0_0_1_n_n.contr.Idx) :
    (dot_S400000x256_S256x64_S400000x64_1_0_0_1_n_n.lhsIdx i q 0).val = (i 0).val := by
  unfold DotDims.lhsIdx
  rw [dif_neg (show ¬(0 : Fin S400000x256.rank) ∈ dot_S400000x256_S256x64_S400000x64_1_0_0_1_n_n.lhsBatch by decide), dif_pos (show (0 : Fin S400000x256.rank) ∈ dot_S400000x256_S256x64_S400000x64_1_0_0_1_n_n.lhsNonContracting by decide)]
  rfl
theorem lhs_e256_1 (i : S400000x64.Idx) (q : dot_S400000x256_S256x64_S400000x64_1_0_0_1_n_n.contr.Idx) :
    (dot_S400000x256_S256x64_S400000x64_1_0_0_1_n_n.lhsIdx i q 1).val = (q ⟨0, by decide⟩).val :=
  dot_S400000x256_S256x64_S400000x64_1_0_0_1_n_n.lhsIdx_val_of_single rfl i q
theorem rhs_e256_0 (i : S400000x64.Idx) (q : dot_S400000x256_S256x64_S400000x64_1_0_0_1_n_n.contr.Idx) :
    (dot_S400000x256_S256x64_S400000x64_1_0_0_1_n_n.rhsIdx i q 0).val = (q ⟨0, by decide⟩).val :=
  dot_S400000x256_S256x64_S400000x64_1_0_0_1_n_n.rhsIdx_val_of_single rfl i q
theorem rhs_e256_1 (i : S400000x64.Idx) (q : dot_S400000x256_S256x64_S400000x64_1_0_0_1_n_n.contr.Idx) :
    (dot_S400000x256_S256x64_S400000x64_1_0_0_1_n_n.rhsIdx i q 1).val = (i 1).val := by
  unfold DotDims.rhsIdx
  rw [dif_neg (show ¬(1 : Fin S256x64.rank) ∈ dot_S400000x256_S256x64_S400000x64_1_0_0_1_n_n.rhsBatch by decide), dif_pos (show (1 : Fin S256x64.rank) ∈ dot_S400000x256_S256x64_S400000x64_1_0_0_1_n_n.rhsNonContracting by decide)]
  rfl

/-- The 400000 × 256 by 256 × 64 product at entry (p, q) is the sum over the 256 shared coordinates. -/
theorem dot_e256_at (l : FVec Ideal S400000x256 .f32) (r : FVec Ideal S256x64 .f32) (p : Fin 400000) (q : Fin 64) :
    Host.dotGeneral (F := Ideal) dot_S400000x256_S256x64_S400000x64_1_0_0_1_n_n none l r (ix2 p q) = Gnn.mmAt l r p q := by
  unfold Gnn.mmAt
  simp only [Host.dotGeneral]
  rw [Ideal.dotGeneral_apply, ← Equiv.sum_comp (contrEquiv1 dot_S400000x256_S256x64_S400000x64_1_0_0_1_n_n 256 rfl rfl).symm]
  refine Finset.sum_congr rfl fun k _ => ?_
  have hk := contrEquiv1_symm_val dot_S400000x256_S256x64_S400000x64_1_0_0_1_n_n 256 rfl rfl k
  have el : dot_S400000x256_S256x64_S400000x64_1_0_0_1_n_n.lhsIdx (ix2 p q) ((contrEquiv1 dot_S400000x256_S256x64_S400000x64_1_0_0_1_n_n 256 rfl rfl).symm k) = ix2 p k := funext fun a => Fin.ext (by
    match a with
    | ⟨0, _⟩ => exact lhs_e256_0 _ _
    | ⟨1, _⟩ => exact (lhs_e256_1 _ _).trans hk)
  have er : dot_S400000x256_S256x64_S400000x64_1_0_0_1_n_n.rhsIdx (ix2 p q) ((contrEquiv1 dot_S400000x256_S256x64_S400000x64_1_0_0_1_n_n 256 rfl rfl).symm k) = ix2 k q := funext fun a => Fin.ext (by
    match a with
    | ⟨0, _⟩ => exact (rhs_e256_0 _ _).trans hk
    | ⟨1, _⟩ => exact rhs_e256_1 _ _)
  rw [el, er]

theorem lhs_n31_0 (i : S100000x64.Idx) (q : dot_S100000x31_S31x64_S100000x64_1_0_0_1_n_n.contr.Idx) :
    (dot_S100000x31_S31x64_S100000x64_1_0_0_1_n_n.lhsIdx i q 0).val = (i 0).val := by
  unfold DotDims.lhsIdx
  rw [dif_neg (show ¬(0 : Fin S100000x31.rank) ∈ dot_S100000x31_S31x64_S100000x64_1_0_0_1_n_n.lhsBatch by decide), dif_pos (show (0 : Fin S100000x31.rank) ∈ dot_S100000x31_S31x64_S100000x64_1_0_0_1_n_n.lhsNonContracting by decide)]
  rfl
theorem lhs_n31_1 (i : S100000x64.Idx) (q : dot_S100000x31_S31x64_S100000x64_1_0_0_1_n_n.contr.Idx) :
    (dot_S100000x31_S31x64_S100000x64_1_0_0_1_n_n.lhsIdx i q 1).val = (q ⟨0, by decide⟩).val :=
  dot_S100000x31_S31x64_S100000x64_1_0_0_1_n_n.lhsIdx_val_of_single rfl i q
theorem rhs_n31_0 (i : S100000x64.Idx) (q : dot_S100000x31_S31x64_S100000x64_1_0_0_1_n_n.contr.Idx) :
    (dot_S100000x31_S31x64_S100000x64_1_0_0_1_n_n.rhsIdx i q 0).val = (q ⟨0, by decide⟩).val :=
  dot_S100000x31_S31x64_S100000x64_1_0_0_1_n_n.rhsIdx_val_of_single rfl i q
theorem rhs_n31_1 (i : S100000x64.Idx) (q : dot_S100000x31_S31x64_S100000x64_1_0_0_1_n_n.contr.Idx) :
    (dot_S100000x31_S31x64_S100000x64_1_0_0_1_n_n.rhsIdx i q 1).val = (i 1).val := by
  unfold DotDims.rhsIdx
  rw [dif_neg (show ¬(1 : Fin S31x64.rank) ∈ dot_S100000x31_S31x64_S100000x64_1_0_0_1_n_n.rhsBatch by decide), dif_pos (show (1 : Fin S31x64.rank) ∈ dot_S100000x31_S31x64_S100000x64_1_0_0_1_n_n.rhsNonContracting by decide)]
  rfl

/-- The 100000 × 31 by 31 × 64 product at entry (p, q) is the sum over the 31 shared coordinates. -/
theorem dot_n31_at (l : FVec Ideal S100000x31 .f32) (r : FVec Ideal S31x64 .f32) (p : Fin 100000) (q : Fin 64) :
    Host.dotGeneral (F := Ideal) dot_S100000x31_S31x64_S100000x64_1_0_0_1_n_n none l r (ix2 p q) = Gnn.mmAt l r p q := by
  unfold Gnn.mmAt
  simp only [Host.dotGeneral]
  rw [Ideal.dotGeneral_apply, ← Equiv.sum_comp (contrEquiv1 dot_S100000x31_S31x64_S100000x64_1_0_0_1_n_n 31 rfl rfl).symm]
  refine Finset.sum_congr rfl fun k _ => ?_
  have hk := contrEquiv1_symm_val dot_S100000x31_S31x64_S100000x64_1_0_0_1_n_n 31 rfl rfl k
  have el : dot_S100000x31_S31x64_S100000x64_1_0_0_1_n_n.lhsIdx (ix2 p q) ((contrEquiv1 dot_S100000x31_S31x64_S100000x64_1_0_0_1_n_n 31 rfl rfl).symm k) = ix2 p k := funext fun a => Fin.ext (by
    match a with
    | ⟨0, _⟩ => exact lhs_n31_0 _ _
    | ⟨1, _⟩ => exact (lhs_n31_1 _ _).trans hk)
  have er : dot_S100000x31_S31x64_S100000x64_1_0_0_1_n_n.rhsIdx (ix2 p q) ((contrEquiv1 dot_S100000x31_S31x64_S100000x64_1_0_0_1_n_n 31 rfl rfl).symm k) = ix2 k q := funext fun a => Fin.ext (by
    match a with
    | ⟨0, _⟩ => exact (rhs_n31_0 _ _).trans hk
    | ⟨1, _⟩ => exact rhs_n31_1 _ _)
  rw [el, er]

theorem lhs_n64_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs_n64_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs_n64_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs_n64_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The 100000 × 64 by 64 × 64 product at entry (p, q) is the sum over the 64 shared coordinates. -/
theorem dot_n64_at (l : FVec Ideal S100000x64 .f32) (r : FVec Ideal S64x64 .f32) (p : Fin 100000) (q : Fin 64) :
    Host.dotGeneral (F := Ideal) dot_S100000x64_S64x64_S100000x64_1_0_0_1_n_n none l r (ix2 p q) = Gnn.mmAt l r p q := by
  unfold Gnn.mmAt
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 p q) ((contrEquiv1 dot_S100000x64_S64x64_S100000x64_1_0_0_1_n_n 64 rfl rfl).symm k) = ix2 p k := funext fun a => Fin.ext (by
    match a with
    | ⟨0, _⟩ => exact lhs_n64_0 _ _
    | ⟨1, _⟩ => exact (lhs_n64_1 _ _).trans hk)
  have er : dot_S100000x64_S64x64_S100000x64_1_0_0_1_n_n.rhsIdx (ix2 p q) ((contrEquiv1 dot_S100000x64_S64x64_S100000x64_1_0_0_1_n_n 64 rfl rfl).symm k) = ix2 k q := funext fun a => Fin.ext (by
    match a with
    | ⟨0, _⟩ => exact (rhs_n64_0 _ _).trans hk
    | ⟨1, _⟩ => exact rhs_n64_1 _ _)
  rw [el, er]

/-! ## The bias vector broadcast to a row and then down the rows -/

/-- The bias at entry (e, j) of the edge-sized array is the bias vector's entry j. -/
theorem bias_e_at (b : FVec Ideal S64 .f32) (e : Fin 400000) (j : Fin 64) :
    broadcastInDim S400000x64 ![0, 1] bcast_S1x64_S400000x64_0_1 (broadcastInDim S1x64 ![1] bcast_S64_S1x64_1 b) (ix2 e j) = b (ix1 j) := by
  refine (broadcastInDim_apply _ _ _ (ix2 e j) (ix2 (0 : Fin 1) j) (fun a => ?_)).trans ?_
  · match a with
    | ⟨0, _⟩ => rfl
    | ⟨1, _⟩ => rfl
  · refine broadcastInDim_apply _ _ _ (ix2 (0 : Fin 1) j) (ix1 j) (fun a => ?_)
    match a with
    | ⟨0, _⟩ => rfl

/-- The same for the node-sized array. -/
theorem bias_n_at (b : FVec Ideal S64 .f32) (n : Fin 100000) (j : Fin 64) :
    broadcastInDim S100000x64 ![0, 1] bcast_S1x64_S100000x64_0_1 (broadcastInDim S1x64 ![1] bcast_S64_S1x64_1 b) (ix2 n j) = b (ix1 j) := by
  refine (broadcastInDim_apply _ _ _ (ix2 n j) (ix2 (0 : Fin 1) j) (fun a => ?_)).trans ?_
  · match a with
    | ⟨0, _⟩ => rfl
    | ⟨1, _⟩ => rfl
  · refine broadcastInDim_apply _ _ _ (ix2 (0 : Fin 1) j) (ix1 j) (fun a => ?_)
    match a with
    | ⟨0, _⟩ => rfl

/-! ## The concatenation of four 64-column pieces along the columns -/

section Cat
variable (a b c d : FVec Ideal S400000x64 .f32)

/-- The four pieces side by side. -/
abbrev cat4 : FVec Ideal S400000x256 .f32 :=
  concatenate S400000x256 1 [⟨S400000x64, a⟩, ⟨S400000x64, b⟩, ⟨S400000x64, c⟩, ⟨S400000x64, d⟩]
    concatenates_S400000x64_S400000x64_S400000x64_S400000x64_S400000x256_d1

theorem cat4_at0 (e : Fin 400000) (k : Fin 64) : cat4 a b c d (ix2 e ⟨k.val, by omega⟩) = a (ix2 e k) := by
  refine concatenate_apply_piece (1 : Fin S400000x256.rank) [⟨S400000x64, a⟩, ⟨S400000x64, b⟩, ⟨S400000x64, c⟩, ⟨S400000x64, d⟩] concatenates_S400000x64_S400000x64_S400000x64_S400000x64_S400000x256_d1
    (ix2 e ⟨k.val, by omega⟩) 0 (by simp) S400000x64 a rfl rfl 0 rfl (ix2 e k) (fun x hx => ?_) ?_
  · match x with
    | ⟨0, _⟩ => rfl
    | ⟨1, _⟩ => exact absurd rfl hx
  · show 0 + k.val = k.val
    omega
theorem cat4_at1 (e : Fin 400000) (k : Fin 64) : cat4 a b c d (ix2 e ⟨64 + k.val, by omega⟩) = b (ix2 e k) := by
  refine concatenate_apply_piece (1 : Fin S400000x256.rank) [⟨S400000x64, a⟩, ⟨S400000x64, b⟩, ⟨S400000x64, c⟩, ⟨S400000x64, d⟩] concatenates_S400000x64_S400000x64_S400000x64_S400000x64_S400000x256_d1
    (ix2 e ⟨64 + k.val, by omega⟩) 1 (by simp) S400000x64 b rfl rfl 64 rfl (ix2 e k) (fun x hx => ?_) ?_
  · match x with
    | ⟨0, _⟩ => rfl
    | ⟨1, _⟩ => exact absurd rfl hx
  · rfl
theorem cat4_at2 (e : Fin 400000) (k : Fin 64) : cat4 a b c d (ix2 e ⟨128 + k.val, by omega⟩) = c (ix2 e k) := by
  refine concatenate_apply_piece (1 : Fin S400000x256.rank) [⟨S400000x64, a⟩, ⟨S400000x64, b⟩, ⟨S400000x64, c⟩, ⟨S400000x64, d⟩] concatenates_S400000x64_S400000x64_S400000x64_S400000x64_S400000x256_d1
    (ix2 e ⟨128 + k.val, by omega⟩) 2 (by simp) S400000x64 c rfl rfl 128 rfl (ix2 e k) (fun x hx => ?_) ?_
  · match x with
    | ⟨0, _⟩ => rfl
    | ⟨1, _⟩ => exact absurd rfl hx
  · rfl
theorem cat4_at3 (e : Fin 400000) (k : Fin 64) : cat4 a b c d (ix2 e ⟨192 + k.val, by omega⟩) = d (ix2 e k) := by
  refine concatenate_apply_piece (1 : Fin S400000x256.rank) [⟨S400000x64, a⟩, ⟨S400000x64, b⟩, ⟨S400000x64, c⟩, ⟨S400000x64, d⟩] concatenates_S400000x64_S400000x64_S400000x64_S400000x64_S400000x256_d1
    (ix2 e ⟨192 + k.val, by omega⟩) 3 (by simp) S400000x64 d rfl rfl 192 rfl (ix2 e k) (fun x hx => ?_) ?_
  · match x with
    | ⟨0, _⟩ => rfl
    | ⟨1, _⟩ => exact absurd rfl hx
  · rfl

end Cat

/-! ## Splat constants -/

/-- A scalar constant broadcast over the edge-sized array reads the constant's value everywhere. -/
theorem splat_e_at (w : BitVec 32) (i : S400000x64.Idx) :
    broadcastInDim S400000x64 ![] bcast_S_S400000x64 (constant (F := Ideal) S_ .f32 w) i = Ideal.ofBits .f32 w := rfl

end Cert.ReferenceIdeal.RefValue

end
-- ==== Proof.RefValue.lean ====
/-
  The reference program's two results, read index by index, are the graph layer.

  With both id arrays in range the wrapped ids are the ids themselves, so every gather is the row gather at the source
  or destination ids; the gathers and the scatter-sum stay opaque. Each gate value is a 256-term product plus a bias,
  which splits into the four 64-term partial products of the concatenated pieces; the softplus and the logistic
  quotient are the pointwise functions of the specification; the five-factor message is regrouped by associativity.
-/
import proofs.«408984_j66649302499835_1_alg».proof.Proof.RefTerms
import proofs.«408984_j66649302499835_1_alg».proof.Proof.Spec
import proofs.«408984_j66649302499835_1_alg».proof.Proof.Algebra
import proofs.«408984_j66649302499835_1_alg».proof.Proof.Pre
import proofs.«408984_j66649302499835_1_alg».proof.Proof.RefRead

noncomputable section

namespace Cert.ReferenceIdeal.RefValue

open Cert.ReferenceIdeal Cert.ReferenceIdeal.Gen Cert.ReferenceIdeal.RefTerms Idealize.ShloMosaic Idealize.ShloMosaic.TcCoe Idealize.SL.Sem Idealize.ShloMosaic.StableHlo Idealize.ShloMosaic.ValueIdx

/-! ## The pointwise tail at an entry: softplus − log 2, the logistic quotient, and the products -/

/-- The zero and one splats of the edge-sized array. -/
abbrev zeroE : FVec Ideal S400000x64 .f32 :=
  broadcastInDim S400000x64 ![] bcast_S_S400000x64 (constant (F := Ideal) S_ .f32 0x00000000#32)
abbrev oneE : FVec Ideal S400000x64 .f32 :=
  broadcastInDim S400000x64 ![] bcast_S_S400000x64 (constant (F := Ideal) S_ .f32 0x3F800000#32)

/-- softplus(x) − log 2 over a whole array, operation by operation as the reference spells it. -/
abbrev spArr (x : FVec Ideal S400000x64 .f32) : FVec Ideal S400000x64 .f32 :=
  subf (select (cmpf .une (subf x zeroE) (subf x zeroE)) (addf x zeroE)
      (addf (maximumf x zeroE) (Host.log1p (Host.exp (Host.negf (Host.absf (subf x zeroE)))))))
    (broadcastInDim S400000x64 ![] bcast_S_S400000x64 (constant (F := Ideal) S_ .f32 0x3F317218#32))

/-- 1 / (1 + e^(−y)) over a whole array. -/
abbrev sgArr (y : FVec Ideal S400000x64 .f32) : FVec Ideal S400000x64 .f32 :=
  Host.divf oneE (addf oneE (Host.exp (Host.negf y)))

theorem spArr_at (x : FVec Ideal S400000x64 .f32) (i : S400000x64.Idx) : spArr x i = Gnn.spR (x i) := rfl
theorem sgArr_at (y : FVec Ideal S400000x64 .f32) (i : S400000x64.Idx) : sgArr y i = Gnn.sgR (y i) := rfl

/-- The message before aggregation: the gated value times the four gathered weights, regrouped so that the
    four weights form one factor. Only associativity of the product is used. -/
theorem msg_at (x y w1 w2 s1 s2 : FVec Ideal S400000x64 .f32) (i : S400000x64.Idx) :
    mulf (mulf (mulf (mulf (mulf (spArr x) (sgArr y)) w1) w2) s1) s2 i
      = (Gnn.spK (x i) * Gnn.sgK (y i)) * (((w1 i * w2 i) * s1 i) * s2 i) := by
  show ((((Gnn.spR (x i) * Gnn.sgR (y i)) * w1 i) * w2 i) * s1 i) * s2 i = _
  rw [Gnn.mul_regroup, Gnn.spK_eq_spR, Gnn.sgK_eq_sgR]

/-- The edge update at an entry. -/
theorem edge_at (b x y : FVec Ideal S400000x64 .f32) (i : S400000x64.Idx) :
    addf b (mulf (spArr x) (sgArr y)) i = b i + Gnn.spK (x i) * Gnn.sgK (y i) := by
  show b i + Gnn.spR (x i) * Gnn.sgR (y i) = _
  rw [Gnn.spK_eq_spR, Gnn.sgK_eq_sgR]

/-! ## A gate value at an entry -/

/-- (a|b|c|d) @ W + bias at entry (e, j) is the four partial products and the bias row, when the 64-row pieces
    are cut from W and the row holds the bias vector. -/
theorem gate_e_at (a b c d : FVec Ideal S400000x64 .f32) (W : FVec Ideal S256x64 .f32) (bias : FVec Ideal S64 .f32)
    (wa wb wc wd : Gnn.Arr 64 64) (br : Gnn.Arr 1 64)
    (hwa : ∀ k j : Fin 64, wa (ix2 k j) = W (ix2 ⟨k.val, by omega⟩ j))
    (hwb : ∀ k j : Fin 64, wb (ix2 k j) = W (ix2 ⟨64 + k.val, by omega⟩ j))
    (hwc : ∀ k j : Fin 64, wc (ix2 k j) = W (ix2 ⟨128 + k.val, by omega⟩ j))
    (hwd : ∀ k j : Fin 64, wd (ix2 k j) = W (ix2 ⟨192 + k.val, by omega⟩ j))
    (hbr : ∀ j : Fin 64, br (ix2 0 j) = bias (ix1 j)) (e : Fin 400000) (j : Fin 64) :
    addf (Host.dotGeneral (F := Ideal) dot_S400000x256_S256x64_S400000x64_1_0_0_1_n_n none (cat4 a b c d) W)
        (broadcastInDim S400000x64 ![0, 1] bcast_S1x64_S400000x64_0_1 (broadcastInDim S1x64 ![1] bcast_S64_S1x64_1 bias)) (ix2 e j)
      = Gnn.gate4 a b c d wa wb wc wd br e j := by
  rw [addf_apply, dot_e256_at, bias_e_at, ← hbr j]
  exact Gnn.gate4_of_concat (cat4 a b c d) W a b c d wa wb wc wd (cat4_at0 a b c d) (cat4_at1 a b c d) (cat4_at2 a b c d)
    (cat4_at3 a b c d) hwa hwb hwc hwd br e j

/-! ## The reference's named terms -/

section Results
variable (V0 : Valuation τ sig (Elt Ideal))

/-- The argument arrays at their literal shapes. -/
abbrev nf : Gnn.Arr 100000 64 := V0 (Proc.devRef .tc main_arg2)
abbrev ef : Gnn.Arr 400000 64 := V0 (Proc.devRef .tc main_arg3)
abbrev aux : Gnn.Arr 400000 64 := V0 (Proc.devRef .tc main_arg4)
abbrev bond : Gnn.Arr 100000 31 := V0 (Proc.devRef .tc main_arg5)
abbrev snw : Gnn.Arr 100000 64 := V0 (Proc.devRef .tc main_arg6)
abbrev Wo : Gnn.Arr 64 64 := V0 (Proc.devRef .tc main_arg11)
abbrev Ww : Gnn.Arr 31 64 := V0 (Proc.devRef .tc main_arg12)

/-- Rows gathered at the source ids, at the destination ids, and the sum of edge rows into their destination rows. -/
abbrev Gs (x : Gnn.Arr 100000 64) : Gnn.Arr 400000 64 :=
  Host.gather gather_S100000x64_S400000x1_S400000x64_1_0_n_n_0_1_164 x (broadcastInDim S400000x1 ![0] bcast_S400000_S400000x1_0 (V0 (Proc.devRef .tc main_arg0)))
abbrev Gd (x : Gnn.Arr 100000 64) : Gnn.Arr 400000 64 :=
  Host.gather gather_S100000x64_S400000x1_S400000x64_1_0_n_n_0_1_164 x (broadcastInDim S400000x1 ![0] bcast_S400000_S400000x1_0 (V0 (Proc.devRef .tc main_arg1)))
abbrev Sc (u : Gnn.Arr 400000 64) : Gnn.Arr 100000 64 :=
  Host.scatterAdd (F := Ideal) (φ := .f32) scatter_S100000x64_S400000x1_S400000x64_1_0_0_1 (broadcastInDim S100000x64 ![] bcast_S_S100000x64 (constant S_ .f32 0x00000000#32)) (broadcastInDim S400000x1 ![0] bcast_S400000_S400000x1_0 (V0 (Proc.devRef .tc main_arg1))) u

variable (hs : Cert.PreFacts.InRange (V0 (Proc.devRef .tc main_arg0))) (hd : Cert.PreFacts.InRange (V0 (Proc.devRef .tc main_arg1)))
variable (P : Gnn.Pieces)
variable (hP : P.CutFrom (V0 (Proc.devRef .tc main_arg7)) (V0 (Proc.devRef .tc main_arg9)) (V0 (Proc.devRef .tc main_arg14)) (V0 (Proc.devRef .tc main_arg16))
  (V0 (Proc.devRef .tc main_arg8)) (V0 (Proc.devRef .tc main_arg10)) (V0 (Proc.devRef .tc main_arg15)) (V0 (Proc.devRef .tc main_arg17)) (V0 (Proc.devRef .tc main_arg13)))

include hs hd in
/-- The first concatenation: with the ids in range the wrapped ids are the ids, so its outer pieces are the two gathers of the node features. -/
theorem v14_eq : res_main_v14 V0 = cat4 (Gs V0 (nf V0)) (ef V0) (aux V0) (Gd V0 (nf V0)) := by
  unfold res_main_v14
  rw [Cert.PreFacts.wrap_eq _ hs bcast_S_S400000, Cert.PreFacts.wrap_eq _ hd bcast_S_S400000]

include hs hd hP in
/-- The first gate value of the node layer. -/
theorem v18_at (e : Fin 400000) (j : Fin 64) :
    res_main_v18 V0 (ix2 e j) = Gnn.gate4 (Gs V0 (nf V0)) (ef V0) (aux V0) (Gd V0 (nf V0)) P.nla P.nlb P.nlc P.nld P.nbl e j := by
  unfold res_main_v18
  rw [v14_eq V0 hs hd]
  exact gate_e_at _ _ _ _ _ _ P.nla P.nlb P.nlc P.nld P.nbl hP.nla hP.nlb hP.nlc hP.nld hP.nbl e j

include hP in
/-- The per-node weights. -/
theorem v48_eq : res_main_v48 V0 = Gnn.nodeWeights (bond V0) (Ww V0) P.bw := by
  funext i
  obtain ⟨n, j, rfl⟩ : ∃ (n : Fin 100000) (j : Fin 64), i = ix2 n j := ⟨i 0, i 1, eq_ix2 i⟩
  unfold res_main_v48 Gnn.nodeWeights
  rw [addf_apply, dot_n31_at, bias_n_at, Gnn.ofAt_ix2, hP.bw j]

include hs hd hP in
/-- The first result is the layer's node update. -/
theorem out0_eq : res_out0 V0 = Gnn.layerNode (Gs V0) (Gd V0) (Sc V0) (nf V0) (ef V0) (aux V0) (bond V0) (snw V0) (Wo V0) (Ww V0) P := by
  show res_main_v85 V0 = _
  unfold res_main_v85 res_main_v22 res_main_cst
  rw [Cert.PreFacts.wrap_eq _ hs bcast_S_S400000, Cert.PreFacts.wrap_eq _ hd bcast_S_S400000, v48_eq V0 P hP, v14_eq V0 hs hd]
  funext i
  obtain ⟨n, q, rfl⟩ : ∃ (n : Fin 100000) (q : Fin 64), i = ix2 n q := ⟨i 0, i 1, eq_ix2 i⟩
  unfold Gnn.layerNode Gnn.nodeUpdate
  rw [addf_apply, dot_n64_at, Gnn.ofAt_ix2]
  refine congrArg (fun M => nf V0 (ix2 n q) + Gnn.mmAt (Sc V0 M) (Wo V0) n q) ?_
  funext i
  obtain ⟨e, j, rfl⟩ : ∃ (e : Fin 400000) (j : Fin 64), i = ix2 e j := ⟨i 0, i 1, eq_ix2 i⟩
  refine (msg_at _ _ _ _ _ _ (ix2 e j)).trans ?_
  unfold Gnn.messages Gnn.edgeWeight
  rw [Gnn.ofAt_ix2, v18_at V0 hs hd P hP,
    gate_e_at _ _ _ _ _ _ P.nga P.ngb P.ngc P.ngd P.nbg hP.nga hP.ngb hP.ngc hP.ngd hP.nbg e j]

include hs hd hP in
/-- The second concatenation: the outer pieces are the gathers of the updated node features. -/
theorem v100_eq : res_main_v100 V0 = cat4 (Gs V0 (res_out0 V0)) (ef V0) (aux V0) (Gd V0 (res_out0 V0)) := by
  unfold res_main_v100
  rw [Cert.PreFacts.wrap_eq _ hs bcast_S_S400000, Cert.PreFacts.wrap_eq _ hd bcast_S_S400000]

include hs hd hP in
/-- The second result is the layer's edge update. -/
theorem out1_eq : res_out1 V0 = Gnn.layerEdge (Gs V0) (Gd V0) (Sc V0) (nf V0) (ef V0) (aux V0) (bond V0) (snw V0) (Wo V0) (Ww V0) P := by
  unfold res_out1 res_main_v108 res_main_cst_19 res_main_v104
  rw [v100_eq V0 hs hd P hP, out0_eq V0 hs hd P hP]
  funext i
  obtain ⟨e, j, rfl⟩ : ∃ (e : Fin 400000) (j : Fin 64), i = ix2 e j := ⟨i 0, i 1, eq_ix2 i⟩
  refine (edge_at _ _ _ (ix2 e j)).trans ?_
  unfold Gnn.layerEdge Gnn.edgeUpdate
  rw [Gnn.ofAt_ix2,
    gate_e_at _ _ _ _ _ _ P.ela P.elb P.elc P.eld P.ebl hP.ela hP.elb hP.elc hP.eld hP.ebl e j,
    gate_e_at _ _ _ _ _ _ P.ega P.egb P.egc P.egd P.ebg hP.ega hP.egb hP.egc hP.egd hP.ebg e j]

include hs hd hP in
/-- Both results of the reference program, read index by index, are the layer. -/
theorem ref_results :
    res_out0 V0 = Gnn.layerNode (Gs V0) (Gd V0) (Sc V0) (nf V0) (ef V0) (aux V0) (bond V0) (snw V0) (Wo V0) (Ww V0) P
    ∧ res_out1 V0
      = Gnn.layerEdge (Gs V0) (Gd V0) (Sc V0) (nf V0) (ef V0) (aux V0) (bond V0) (snw V0) (Wo V0) (Ww V0) P :=
  ⟨out0_eq V0 hs hd P hP, out1_eq V0 hs hd P hP⟩

end Results

end Cert.ReferenceIdeal.RefValue

end
-- ==== Proof.RefRun.lean ====
import proofs.«408984_j66649302499835_1_alg».proof.Proof.RefTerms
import Idealize.ShloMosaic.Lib.Pipeline.Frame
import Idealize.ShloMosaic.Lib.Pipeline.Regions

/-!
  The run of the reference program, read chunk by chunk.

  The reference's @main is a straight line of 157 host operations. Cut into five consecutive pieces, the line is their
  concatenation, and what the buffers hold after the whole line is what they hold after the last piece, started from
  what the piece before left, and so on back to the launch contents. Each piece's results are composed terms of the
  contents the piece starts from; a buffer a piece does not write is unchanged by it. Composing the five readings gives
  each result buffer as one term of the launched arguments, and every argument as launched.
-/

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in five consecutive pieces -/

/-- Operations 0 to 17 of @main. -/
abbrev opsA : List (HloOp τ sig (Elt F)) :=
  [
    nullary main_c (constantI S_ 32 0#32),
    unary main_c main_v0 (broadcastInDim S400000 ![] bcast_S_S400000 : (⟨S_, .i32⟩ : BufTy).Contents (Elt F) → (⟨S400000, .i32⟩ : BufTy).Contents (Elt F)),
    binary main_arg0 main_v0 main_v1 (cmpi .slt : (⟨S400000, .i32⟩ : BufTy).Contents (Elt F) → (⟨S400000, .i32⟩ : BufTy).Contents (Elt F) → (⟨S400000, .i1⟩ : BufTy).Contents (Elt F)),
    nullary main_c_0 (constantI S_ 32 100000#32),
    unary main_c_0 main_v2 (broadcastInDim S400000 ![] bcast_S_S400000 : (⟨S_, .i32⟩ : BufTy).Contents (Elt F) → (⟨S400000, .i32⟩ : BufTy).Contents (Elt F)),
    binary main_arg0 main_v2 main_v3 (addi : (⟨S400000, .i32⟩ : BufTy).Contents (Elt F) → (⟨S400000, .i32⟩ : BufTy).Contents (Elt F) → (⟨S400000, .i32⟩ : BufTy).Contents (Elt F)),
    ternary main_v1 main_v3 main_arg0 main_v4 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v4 main_v5 (broadcastInDim S400000x1 ![0] bcast_S400000_S400000x1_0 : (⟨S400000, .i32⟩ : BufTy).Contents (Elt F) → (⟨S400000x1, .i32⟩ : BufTy).Contents (Elt F)),
    binary main_arg2 main_v5 main_v6 ((fun x i => Host.gather gather_S100000x64_S400000x1_S400000x64_1_0_n_n_0_1_164 x i) : (⟨S100000x64, .f32⟩ : BufTy).Contents (Elt F) → (⟨S400000x1, .i32⟩ : BufTy).Contents (Elt F) → (⟨S400000x64, .f32⟩ : BufTy).Contents (Elt F)),
    nullary main_c_1 (constantI S_ 32 0#32),
    unary main_c_1 main_v7 (broadcastInDim S400000 ![] bcast_S_S400000 : (⟨S_, .i32⟩ : BufTy).Contents (Elt F) → (⟨S400000, .i32⟩ : BufTy).Contents (Elt F)),
    binary main_arg1 main_v7 main_v8 (cmpi .slt : (⟨S400000, .i32⟩ : BufTy).Contents (Elt F) → (⟨S400000, .i32⟩ : BufTy).Contents (Elt F) → (⟨S400000, .i1⟩ : BufTy).Contents (Elt F)),
    nullary main_c_2 (constantI S_ 32 100000#32),
    unary main_c_2 main_v9 (broadcastInDim S400000 ![] bcast_S_S400000 : (⟨S_, .i32⟩ : BufTy).Contents (Elt F) → (⟨S400000, .i32⟩ : BufTy).Contents (Elt F)),
    binary main_arg1 main_v9 main_v10 (addi : (⟨S400000, .i32⟩ : BufTy).Contents (Elt F) → (⟨S400000, .i32⟩ : BufTy).Contents (Elt F) → (⟨S400000, .i32⟩ : BufTy).Contents (Elt F)),
    ternary main_v8 main_v10 main_arg1 main_v11 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v11 main_v12 (broadcastInDim S400000x1 ![0] bcast_S400000_S400000x1_0 : (⟨S400000, .i32⟩ : BufTy).Contents (Elt F) → (⟨S400000x1, .i32⟩ : BufTy).Contents (Elt F)),
    binary main_arg2 main_v12 main_v13 ((fun x i => Host.gather gather_S100000x64_S400000x1_S400000x64_1_0_n_n_0_1_164 x i) : (⟨S100000x64, .f32⟩ : BufTy).Contents (Elt F) → (⟨S400000x1, .i32⟩ : BufTy).Contents (Elt F) → (⟨S400000x64, .f32⟩ : BufTy).Contents (Elt F)) ]

/-- Operations 18 to 56 of @main. -/
abbrev opsB : List (HloOp τ sig (Elt F)) :=
  [
    nary ![main_v6, main_arg3, main_arg4, main_v13] main_v14 (fun u => concatenate S400000x256 1 [⟨S400000x64, u 0⟩, ⟨S400000x64, u 1⟩, ⟨S400000x64, u 2⟩, ⟨S400000x64, u 3⟩] concatenates_S400000x64_S400000x64_S400000x64_S400000x64_S400000x256_d1),
    binary main_v14 main_arg7 main_v15 ((fun l r => Host.dotGeneral dot_S400000x256_S256x64_S400000x64_1_0_0_1_n_n none l r) : (⟨S400000x256, .f32⟩ : BufTy).Contents (Elt F) → (⟨S256x64, .f32⟩ : BufTy).Contents (Elt F) → (⟨S400000x64, .f32⟩ : BufTy).Contents (Elt F)),
    unary main_arg8 main_v16 (broadcastInDim S1x64 ![1] bcast_S64_S1x64_1 : (⟨S64, .f32⟩ : BufTy).Contents (Elt F) → (⟨S1x64, .f32⟩ : BufTy).Contents (Elt F)),
    unary main_v16 main_v17 (broadcastInDim S400000x64 ![0, 1] bcast_S1x64_S400000x64_0_1 : (⟨S1x64, .f32⟩ : BufTy).Contents (Elt F) → (⟨S400000x64, .f32⟩ : BufTy).Contents (Elt F)),
    binary main_v15 main_v17 main_v18 (addf : (⟨S400000x64, .f32⟩ : BufTy).Contents (Elt F) → (⟨S400000x64, .f32⟩ : BufTy).Contents (Elt F) → (⟨S400000x64, .f32⟩ : BufTy).Contents (Elt F)),
    nullary main_cst (constant S_ .f32 0x00000000#32),
    unary main_cst main_v19 (broadcastInDim S400000x64 ![] bcast_S_S400000x64 : (⟨S_, .f32⟩ : BufTy).Contents (Elt F) → (⟨S400000x64, .f32⟩ : BufTy).Contents (Elt F)),
    binary main_v18 main_v19 main_v20 (maximumf : (⟨S400000x64, .f32⟩ : BufTy).Contents (Elt F) → (⟨S400000x64, .f32⟩ : BufTy).Contents (Elt F) → (⟨S400000x64, .f32⟩ : BufTy).Contents (Elt F)),
    unary main_cst main_v21 (broadcastInDim S400000x64 ![] bcast_S_S400000x64 : (⟨S_, .f32⟩ : BufTy).Contents (Elt F) → (⟨S400000x64, .f32⟩ : BufTy).Contents (Elt F)),
    binary main_v18 main_v21 main_v22 (subf : (⟨S400000x64, .f32⟩ : BufTy).Contents (Elt F) → (⟨S400000x64, .f32⟩ : BufTy).Contents (Elt F) → (⟨S400000x64, .f32⟩ : BufTy).Contents (Elt F)),
    binary main_v22 main_v22 main_v23 (cmpf .une : (⟨S400000x64, .f32⟩ : BufTy).Contents (Elt F) → (⟨S400000x64, .f32⟩ : BufTy).Contents (Elt F) → (⟨S400000x64, .i1⟩ : BufTy).Contents (Elt F)),
    unary main_cst main_v24 (broadcastInDim S400000x64 ![] bcast_S_S400000x64 : (⟨S_, .f32⟩ : BufTy).Contents (Elt F) → (⟨S400000x64, .f32⟩ : BufTy).Contents (Elt F)),
    binary main_v18 main_v24 main_v25 (addf : (⟨S400000x64, .f32⟩ : BufTy).Contents (Elt F) → (⟨S400000x64, .f32⟩ : BufTy).Contents (Elt F) → (⟨S400000x64, .f32⟩ : BufTy).Contents (Elt F)),
    unary main_v22 main_v26 (Host.absf : (⟨S400000x64, .f32⟩ : BufTy).Contents (Elt F) → (⟨S400000x64, .f32⟩ : BufTy).Contents (Elt F)),
    unary main_v26 main_v27 (Host.negf : (⟨S400000x64, .f32⟩ : BufTy).Contents (Elt F) → (⟨S400000x64, .f32⟩ : BufTy).Contents (Elt F)),
    unary main_v27 main_v28 (Host.exp : (⟨S400000x64, .f32⟩ : BufTy).Contents (Elt F) → (⟨S400000x64, .f32⟩ : BufTy).Contents (Elt F)),
    unary main_v28 main_v29 (Host.log1p : (⟨S400000x64, .f32⟩ : BufTy).Contents (Elt F) → (⟨S400000x64, .f32⟩ : BufTy).Contents (Elt F)),
    binary main_v20 main_v29 main_v30 (addf : (⟨S400000x64, .f32⟩ : BufTy).Contents (Elt F) → (⟨S400000x64, .f32⟩ : BufTy).Contents (Elt F) → (⟨S400000x64, .f32⟩ : BufTy).Contents (Elt F)),
    ternary main_v23 main_v25 main_v30 main_v31 (select : (⟨S400000x64, .i1⟩ : BufTy).Contents (Elt F) → (⟨S400000x64, .f32⟩ : BufTy).Contents (Elt F) → (⟨S400000x64, .f32⟩ : BufTy).Contents (Elt F) → (⟨S400000x64, .f32⟩ : BufTy).Contents (Elt F)),
    nullary main_cst_3 (constant S_ .f32 0x3F317218#32),
    unary main_cst_3 main_v32 (broadcastInDim S400000x64 ![] bcast_S_S400000x64 : (⟨S_, .f32⟩ : BufTy).Contents (Elt F) → (⟨S400000x64, .f32⟩ : BufTy).Contents (Elt F)),
    binary main_v31 main_v32 main_v33 (subf : (⟨S400000x64, .f32⟩ : BufTy).Contents (Elt F) → (⟨S400000x64, .f32⟩ : BufTy).Contents (Elt F) → (⟨S400000x64, .f32⟩ : BufTy).Contents (Elt F)),
    binary main_v14 main_arg9 main_v34 ((fun l r => Host.dotGeneral dot_S400000x256_S256x64_S400000x64_1_0_0_1_n_n none l r) : (⟨S400000x256, .f32⟩ : BufTy).Contents (Elt F) → (⟨S256x64, .f32⟩ : BufTy).Contents (Elt F) → (⟨S400000x64, .f32⟩ : BufTy).Contents (Elt F)),
    unary main_arg10 main_v35 (broadcastInDim S1x64 ![1] bcast_S64_S1x64_1 : (⟨S64, .f32⟩ : BufTy).Contents (Elt F) → (⟨S1x64, .f32⟩ : BufTy).Contents (Elt F)),
    unary main_v35 main_v36 (broadcastInDim S400000x64 ![0, 1] bcast_S1x64_S400000x64_0_1 : (⟨S1x64, .f32⟩ : BufTy).Contents (Elt F) → (⟨S400000x64, .f32⟩ : BufTy).Contents (Elt F)),
    binary main_v34 main_v36 main_v37 (addf : (⟨S400000x64, .f32⟩ : BufTy).Contents (Elt F) → (⟨S400000x64, .f32⟩ : BufTy).Contents (Elt F) → (⟨S400000x64, .f32⟩ : BufTy).Contents (Elt F)),
    unary main_v37 main_v38 (Host.negf : (⟨S400000x64, .f32⟩ : BufTy).Contents (Elt F) → (⟨S400000x64, .f32⟩ : BufTy).Contents (Elt F)),
    unary main_v38 main_v39 (Host.exp : (⟨S400000x64, .f32⟩ : BufTy).Contents (Elt F) → (⟨S400000x64, .f32⟩ : BufTy).Contents (Elt F)),
    nullary main_cst_4 (constant S_ .f32 0x3F800000#32),
    unary main_cst_4 main_v40 (broadcastInDim S400000x64 ![] bcast_S_S400000x64 : (⟨S_, .f32⟩ : BufTy).Contents (Elt F) → (⟨S400000x64, .f32⟩ : BufTy).Contents (Elt F)),
    binary main_v40 main_v39 main_v41 (addf : (⟨S400000x64, .f32⟩ : BufTy).Contents (Elt F) → (⟨S400000x64, .f32⟩ : BufTy).Contents (Elt F) → (⟨S400000x64, .f32⟩ : BufTy).Contents (Elt F)),
    nullary main_cst_5 (constant S_ .f32 0x3F800000#32),
    unary main_cst_5 main_v42 (broadcastInDim S400000x64 ![] bcast_S_S400000x64 : (⟨S_, .f32⟩ : BufTy).Contents (Elt F) → (⟨S400000x64, .f32⟩ : BufTy).Contents (Elt F)),
    binary main_v42 main_v41 main_v43 (Host.divf : (⟨S400000x64, .f32⟩ : BufTy).Contents (Elt F) → (⟨S400000x64, .f32⟩ : BufTy).Contents (Elt F) → (⟨S400000x64, .f32⟩ : BufTy).Contents (Elt F)),
    binary main_v33 main_v43 main_v44 (mulf : (⟨S400000x64, .f32⟩ : BufTy).Contents (Elt F) → (⟨S400000x64, .f32⟩ : BufTy).Contents (Elt F) → (⟨S400000x64, .f32⟩ : BufTy).Contents (Elt F)),
    binary main_arg5 main_arg12 main_v45 ((fun l r => Host.dotGeneral dot_S100000x31_S31x64_S100000x64_1_0_0_1_n_n none l r) : (⟨S100000x31, .f32⟩ : BufTy).Contents (Elt F) → (⟨S31x64, .f32⟩ : BufTy).Contents (Elt F) → (⟨S100000x64, .f32⟩ : BufTy).Contents (Elt F)),
    unary main_arg13 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)) ]

/-- Operations 57 to 102 of @main. -/
abbrev opsC : List (HloOp τ sig (Elt F)) :=
  [
    nullary main_c_6 (constantI S_ 32 0#32),
    unary main_c_6 main_v49 (broadcastInDim S400000 ![] bcast_S_S400000 : (⟨S_, .i32⟩ : BufTy).Contents (Elt F) → (⟨S400000, .i32⟩ : BufTy).Contents (Elt F)),
    binary main_arg0 main_v49 main_v50 (cmpi .slt : (⟨S400000, .i32⟩ : BufTy).Contents (Elt F) → (⟨S400000, .i32⟩ : BufTy).Contents (Elt F) → (⟨S400000, .i1⟩ : BufTy).Contents (Elt F)),
    nullary main_c_7 (constantI S_ 32 100000#32),
    unary main_c_7 main_v51 (broadcastInDim S400000 ![] bcast_S_S400000 : (⟨S_, .i32⟩ : BufTy).Contents (Elt F) → (⟨S400000, .i32⟩ : BufTy).Contents (Elt F)),
    binary main_arg0 main_v51 main_v52 (addi : (⟨S400000, .i32⟩ : BufTy).Contents (Elt F) → (⟨S400000, .i32⟩ : BufTy).Contents (Elt F) → (⟨S400000, .i32⟩ : BufTy).Contents (Elt F)),
    ternary main_v50 main_v52 main_arg0 main_v53 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v53 main_v54 (broadcastInDim S400000x1 ![0] bcast_S400000_S400000x1_0 : (⟨S400000, .i32⟩ : BufTy).Contents (Elt F) → (⟨S400000x1, .i32⟩ : BufTy).Contents (Elt F)),
    binary main_v48 main_v54 main_v55 ((fun x i => Host.gather gather_S100000x64_S400000x1_S400000x64_1_0_n_n_0_1_164 x i) : (⟨S100000x64, .f32⟩ : BufTy).Contents (Elt F) → (⟨S400000x1, .i32⟩ : BufTy).Contents (Elt F) → (⟨S400000x64, .f32⟩ : BufTy).Contents (Elt F)),
    binary main_v44 main_v55 main_v56 (mulf : (⟨S400000x64, .f32⟩ : BufTy).Contents (Elt F) → (⟨S400000x64, .f32⟩ : BufTy).Contents (Elt F) → (⟨S400000x64, .f32⟩ : BufTy).Contents (Elt F)),
    nullary main_c_8 (constantI S_ 32 0#32),
    unary main_c_8 main_v57 (broadcastInDim S400000 ![] bcast_S_S400000 : (⟨S_, .i32⟩ : BufTy).Contents (Elt F) → (⟨S400000, .i32⟩ : BufTy).Contents (Elt F)),
    binary main_arg1 main_v57 main_v58 (cmpi .slt : (⟨S400000, .i32⟩ : BufTy).Contents (Elt F) → (⟨S400000, .i32⟩ : BufTy).Contents (Elt F) → (⟨S400000, .i1⟩ : BufTy).Contents (Elt F)),
    nullary main_c_9 (constantI S_ 32 100000#32),
    unary main_c_9 main_v59 (broadcastInDim S400000 ![] bcast_S_S400000 : (⟨S_, .i32⟩ : BufTy).Contents (Elt F) → (⟨S400000, .i32⟩ : BufTy).Contents (Elt F)),
    binary main_arg1 main_v59 main_v60 (addi : (⟨S400000, .i32⟩ : BufTy).Contents (Elt F) → (⟨S400000, .i32⟩ : BufTy).Contents (Elt F) → (⟨S400000, .i32⟩ : BufTy).Contents (Elt F)),
    ternary main_v58 main_v60 main_arg1 main_v61 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v61 main_v62 (broadcastInDim S400000x1 ![0] bcast_S400000_S400000x1_0 : (⟨S400000, .i32⟩ : BufTy).Contents (Elt F) → (⟨S400000x1, .i32⟩ : BufTy).Contents (Elt F)),
    binary main_v48 main_v62 main_v63 ((fun x i => Host.gather gather_S100000x64_S400000x1_S400000x64_1_0_n_n_0_1_164 x i) : (⟨S100000x64, .f32⟩ : BufTy).Contents (Elt F) → (⟨S400000x1, .i32⟩ : BufTy).Contents (Elt F) → (⟨S400000x64, .f32⟩ : BufTy).Contents (Elt F)),
    binary main_v56 main_v63 main_v64 (mulf : (⟨S400000x64, .f32⟩ : BufTy).Contents (Elt F) → (⟨S400000x64, .f32⟩ : BufTy).Contents (Elt F) → (⟨S400000x64, .f32⟩ : BufTy).Contents (Elt F)),
    nullary main_c_10 (constantI S_ 32 0#32),
    unary main_c_10 main_v65 (broadcastInDim S400000 ![] bcast_S_S400000 : (⟨S_, .i32⟩ : BufTy).Contents (Elt F) → (⟨S400000, .i32⟩ : BufTy).Contents (Elt F)),
    binary main_arg0 main_v65 main_v66 (cmpi .slt : (⟨S400000, .i32⟩ : BufTy).Contents (Elt F) → (⟨S400000, .i32⟩ : BufTy).Contents (Elt F) → (⟨S400000, .i1⟩ : BufTy).Contents (Elt F)),
    nullary main_c_11 (constantI S_ 32 100000#32),
    unary main_c_11 main_v67 (broadcastInDim S400000 ![] bcast_S_S400000 : (⟨S_, .i32⟩ : BufTy).Contents (Elt F) → (⟨S400000, .i32⟩ : BufTy).Contents (Elt F)),
    binary main_arg0 main_v67 main_v68 (addi : (⟨S400000, .i32⟩ : BufTy).Contents (Elt F) → (⟨S400000, .i32⟩ : BufTy).Contents (Elt F) → (⟨S400000, .i32⟩ : BufTy).Contents (Elt F)),
    ternary main_v66 main_v68 main_arg0 main_v69 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v69 main_v70 (broadcastInDim S400000x1 ![0] bcast_S400000_S400000x1_0 : (⟨S400000, .i32⟩ : BufTy).Contents (Elt F) → (⟨S400000x1, .i32⟩ : BufTy).Contents (Elt F)),
    binary main_arg6 main_v70 main_v71 ((fun x i => Host.gather gather_S100000x64_S400000x1_S400000x64_1_0_n_n_0_1_164 x i) : (⟨S100000x64, .f32⟩ : BufTy).Contents (Elt F) → (⟨S400000x1, .i32⟩ : BufTy).Contents (Elt F) → (⟨S400000x64, .f32⟩ : BufTy).Contents (Elt F)),
    binary main_v64 main_v71 main_v72 (mulf : (⟨S400000x64, .f32⟩ : BufTy).Contents (Elt F) → (⟨S400000x64, .f32⟩ : BufTy).Contents (Elt F) → (⟨S400000x64, .f32⟩ : BufTy).Contents (Elt F)),
    nullary main_c_12 (constantI S_ 32 0#32),
    unary main_c_12 main_v73 (broadcastInDim S400000 ![] bcast_S_S400000 : (⟨S_, .i32⟩ : BufTy).Contents (Elt F) → (⟨S400000, .i32⟩ : BufTy).Contents (Elt F)),
    binary main_arg1 main_v73 main_v74 (cmpi .slt : (⟨S400000, .i32⟩ : BufTy).Contents (Elt F) → (⟨S400000, .i32⟩ : BufTy).Contents (Elt F) → (⟨S400000, .i1⟩ : BufTy).Contents (Elt F)),
    nullary main_c_13 (constantI S_ 32 100000#32),
    unary main_c_13 main_v75 (broadcastInDim S400000 ![] bcast_S_S400000 : (⟨S_, .i32⟩ : BufTy).Contents (Elt F) → (⟨S400000, .i32⟩ : BufTy).Contents (Elt F)),
    binary main_arg1 main_v75 main_v76 (addi : (⟨S400000, .i32⟩ : BufTy).Contents (Elt F) → (⟨S400000, .i32⟩ : BufTy).Contents (Elt F) → (⟨S400000, .i32⟩ : BufTy).Contents (Elt F)),
    ternary main_v74 main_v76 main_arg1 main_v77 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v77 main_v78 (broadcastInDim S400000x1 ![0] bcast_S400000_S400000x1_0 : (⟨S400000, .i32⟩ : BufTy).Contents (Elt F) → (⟨S400000x1, .i32⟩ : BufTy).Contents (Elt F)),
    binary main_arg6 main_v78 main_v79 ((fun x i => Host.gather gather_S100000x64_S400000x1_S400000x64_1_0_n_n_0_1_164 x i) : (⟨S100000x64, .f32⟩ : BufTy).Contents (Elt F) → (⟨S400000x1, .i32⟩ : BufTy).Contents (Elt F) → (⟨S400000x64, .f32⟩ : BufTy).Contents (Elt F)),
    binary main_v72 main_v79 main_v80 (mulf : (⟨S400000x64, .f32⟩ : BufTy).Contents (Elt F) → (⟨S400000x64, .f32⟩ : BufTy).Contents (Elt F) → (⟨S400000x64, .f32⟩ : BufTy).Contents (Elt F)),
    nullary main_cst_14 (constant S_ .f32 0x00000000#32),
    unary main_cst_14 main_v81 (broadcastInDim S100000x64 ![] bcast_S_S100000x64 : (⟨S_, .f32⟩ : BufTy).Contents (Elt F) → (⟨S100000x64, .f32⟩ : BufTy).Contents (Elt F)),
    unary main_arg1 main_v82 (broadcastInDim S400000x1 ![0] bcast_S400000_S400000x1_0 : (⟨S400000, .i32⟩ : BufTy).Contents (Elt F) → (⟨S400000x1, .i32⟩ : BufTy).Contents (Elt F)),
    ternary main_v81 main_v82 main_v80 main_v83 ((fun x i u => Host.scatterAdd scatter_S100000x64_S400000x1_S400000x64_1_0_0_1 x i u) : (⟨S100000x64, .f32⟩ : BufTy).Contents (Elt F) → (⟨S400000x1, .i32⟩ : BufTy).Contents (Elt F) → (⟨S400000x64, .f32⟩ : BufTy).Contents (Elt F) → (⟨S100000x64, .f32⟩ : BufTy).Contents (Elt F)),
    binary main_v83 main_arg11 main_v84 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_arg2 main_v84 main_v85 (addf : (⟨S100000x64, .f32⟩ : BufTy).Contents (Elt F) → (⟨S100000x64, .f32⟩ : BufTy).Contents (Elt F) → (⟨S100000x64, .f32⟩ : BufTy).Contents (Elt F)) ]

/-- Operations 103 to 120 of @main. -/
abbrev opsD : List (HloOp τ sig (Elt F)) :=
  [
    nullary main_c_15 (constantI S_ 32 0#32),
    unary main_c_15 main_v86 (broadcastInDim S400000 ![] bcast_S_S400000 : (⟨S_, .i32⟩ : BufTy).Contents (Elt F) → (⟨S400000, .i32⟩ : BufTy).Contents (Elt F)),
    binary main_arg0 main_v86 main_v87 (cmpi .slt : (⟨S400000, .i32⟩ : BufTy).Contents (Elt F) → (⟨S400000, .i32⟩ : BufTy).Contents (Elt F) → (⟨S400000, .i1⟩ : BufTy).Contents (Elt F)),
    nullary main_c_16 (constantI S_ 32 100000#32),
    unary main_c_16 main_v88 (broadcastInDim S400000 ![] bcast_S_S400000 : (⟨S_, .i32⟩ : BufTy).Contents (Elt F) → (⟨S400000, .i32⟩ : BufTy).Contents (Elt F)),
    binary main_arg0 main_v88 main_v89 (addi : (⟨S400000, .i32⟩ : BufTy).Contents (Elt F) → (⟨S400000, .i32⟩ : BufTy).Contents (Elt F) → (⟨S400000, .i32⟩ : BufTy).Contents (Elt F)),
    ternary main_v87 main_v89 main_arg0 main_v90 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v90 main_v91 (broadcastInDim S400000x1 ![0] bcast_S400000_S400000x1_0 : (⟨S400000, .i32⟩ : BufTy).Contents (Elt F) → (⟨S400000x1, .i32⟩ : BufTy).Contents (Elt F)),
    binary main_v85 main_v91 main_v92 ((fun x i => Host.gather gather_S100000x64_S400000x1_S400000x64_1_0_n_n_0_1_164 x i) : (⟨S100000x64, .f32⟩ : BufTy).Contents (Elt F) → (⟨S400000x1, .i32⟩ : BufTy).Contents (Elt F) → (⟨S400000x64, .f32⟩ : BufTy).Contents (Elt F)),
    nullary main_c_17 (constantI S_ 32 0#32),
    unary main_c_17 main_v93 (broadcastInDim S400000 ![] bcast_S_S400000 : (⟨S_, .i32⟩ : BufTy).Contents (Elt F) → (⟨S400000, .i32⟩ : BufTy).Contents (Elt F)),
    binary main_arg1 main_v93 main_v94 (cmpi .slt : (⟨S400000, .i32⟩ : BufTy).Contents (Elt F) → (⟨S400000, .i32⟩ : BufTy).Contents (Elt F) → (⟨S400000, .i1⟩ : BufTy).Contents (Elt F)),
    nullary main_c_18 (constantI S_ 32 100000#32),
    unary main_c_18 main_v95 (broadcastInDim S400000 ![] bcast_S_S400000 : (⟨S_, .i32⟩ : BufTy).Contents (Elt F) → (⟨S400000, .i32⟩ : BufTy).Contents (Elt F)),
    binary main_arg1 main_v95 main_v96 (addi : (⟨S400000, .i32⟩ : BufTy).Contents (Elt F) → (⟨S400000, .i32⟩ : BufTy).Contents (Elt F) → (⟨S400000, .i32⟩ : BufTy).Contents (Elt F)),
    ternary main_v94 main_v96 main_arg1 main_v97 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v97 main_v98 (broadcastInDim S400000x1 ![0] bcast_S400000_S400000x1_0 : (⟨S400000, .i32⟩ : BufTy).Contents (Elt F) → (⟨S400000x1, .i32⟩ : BufTy).Contents (Elt F)),
    binary main_v85 main_v98 main_v99 ((fun x i => Host.gather gather_S100000x64_S400000x1_S400000x64_1_0_n_n_0_1_164 x i) : (⟨S100000x64, .f32⟩ : BufTy).Contents (Elt F) → (⟨S400000x1, .i32⟩ : BufTy).Contents (Elt F) → (⟨S400000x64, .f32⟩ : BufTy).Contents (Elt F)) ]

/-- Operations 121 to 156 of @main. -/
abbrev opsE : List (HloOp τ sig (Elt F)) :=
  [
    nary ![main_v92, main_arg3, main_arg4, main_v99] main_v100 (fun u => concatenate S400000x256 1 [⟨S400000x64, u 0⟩, ⟨S400000x64, u 1⟩, ⟨S400000x64, u 2⟩, ⟨S400000x64, u 3⟩] concatenates_S400000x64_S400000x64_S400000x64_S400000x64_S400000x256_d1),
    binary main_v100 main_arg14 main_v101 ((fun l r => Host.dotGeneral dot_S400000x256_S256x64_S400000x64_1_0_0_1_n_n none l r) : (⟨S400000x256, .f32⟩ : BufTy).Contents (Elt F) → (⟨S256x64, .f32⟩ : BufTy).Contents (Elt F) → (⟨S400000x64, .f32⟩ : BufTy).Contents (Elt F)),
    unary main_arg15 main_v102 (broadcastInDim S1x64 ![1] bcast_S64_S1x64_1 : (⟨S64, .f32⟩ : BufTy).Contents (Elt F) → (⟨S1x64, .f32⟩ : BufTy).Contents (Elt F)),
    unary main_v102 main_v103 (broadcastInDim S400000x64 ![0, 1] bcast_S1x64_S400000x64_0_1 : (⟨S1x64, .f32⟩ : BufTy).Contents (Elt F) → (⟨S400000x64, .f32⟩ : BufTy).Contents (Elt F)),
    binary main_v101 main_v103 main_v104 (addf : (⟨S400000x64, .f32⟩ : BufTy).Contents (Elt F) → (⟨S400000x64, .f32⟩ : BufTy).Contents (Elt F) → (⟨S400000x64, .f32⟩ : BufTy).Contents (Elt F)),
    nullary main_cst_19 (constant S_ .f32 0x00000000#32),
    unary main_cst_19 main_v105 (broadcastInDim S400000x64 ![] bcast_S_S400000x64 : (⟨S_, .f32⟩ : BufTy).Contents (Elt F) → (⟨S400000x64, .f32⟩ : BufTy).Contents (Elt F)),
    binary main_v104 main_v105 main_v106 (maximumf : (⟨S400000x64, .f32⟩ : BufTy).Contents (Elt F) → (⟨S400000x64, .f32⟩ : BufTy).Contents (Elt F) → (⟨S400000x64, .f32⟩ : BufTy).Contents (Elt F)),
    unary main_cst_19 main_v107 (broadcastInDim S400000x64 ![] bcast_S_S400000x64 : (⟨S_, .f32⟩ : BufTy).Contents (Elt F) → (⟨S400000x64, .f32⟩ : BufTy).Contents (Elt F)),
    binary main_v104 main_v107 main_v108 (subf : (⟨S400000x64, .f32⟩ : BufTy).Contents (Elt F) → (⟨S400000x64, .f32⟩ : BufTy).Contents (Elt F) → (⟨S400000x64, .f32⟩ : BufTy).Contents (Elt F)),
    binary main_v108 main_v108 main_v109 (cmpf .une : (⟨S400000x64, .f32⟩ : BufTy).Contents (Elt F) → (⟨S400000x64, .f32⟩ : BufTy).Contents (Elt F) → (⟨S400000x64, .i1⟩ : BufTy).Contents (Elt F)),
    unary main_cst_19 main_v110 (broadcastInDim S400000x64 ![] bcast_S_S400000x64 : (⟨S_, .f32⟩ : BufTy).Contents (Elt F) → (⟨S400000x64, .f32⟩ : BufTy).Contents (Elt F)),
    binary main_v104 main_v110 main_v111 (addf : (⟨S400000x64, .f32⟩ : BufTy).Contents (Elt F) → (⟨S400000x64, .f32⟩ : BufTy).Contents (Elt F) → (⟨S400000x64, .f32⟩ : BufTy).Contents (Elt F)),
    unary main_v108 main_v112 (Host.absf : (⟨S400000x64, .f32⟩ : BufTy).Contents (Elt F) → (⟨S400000x64, .f32⟩ : BufTy).Contents (Elt F)),
    unary main_v112 main_v113 (Host.negf : (⟨S400000x64, .f32⟩ : BufTy).Contents (Elt F) → (⟨S400000x64, .f32⟩ : BufTy).Contents (Elt F)),
    unary main_v113 main_v114 (Host.exp : (⟨S400000x64, .f32⟩ : BufTy).Contents (Elt F) → (⟨S400000x64, .f32⟩ : BufTy).Contents (Elt F)),
    unary main_v114 main_v115 (Host.log1p : (⟨S400000x64, .f32⟩ : BufTy).Contents (Elt F) → (⟨S400000x64, .f32⟩ : BufTy).Contents (Elt F)),
    binary main_v106 main_v115 main_v116 (addf : (⟨S400000x64, .f32⟩ : BufTy).Contents (Elt F) → (⟨S400000x64, .f32⟩ : BufTy).Contents (Elt F) → (⟨S400000x64, .f32⟩ : BufTy).Contents (Elt F)),
    ternary main_v109 main_v111 main_v116 main_v117 (select : (⟨S400000x64, .i1⟩ : BufTy).Contents (Elt F) → (⟨S400000x64, .f32⟩ : BufTy).Contents (Elt F) → (⟨S400000x64, .f32⟩ : BufTy).Contents (Elt F) → (⟨S400000x64, .f32⟩ : BufTy).Contents (Elt F)),
    nullary main_cst_20 (constant S_ .f32 0x3F317218#32),
    unary main_cst_20 main_v118 (broadcastInDim S400000x64 ![] bcast_S_S400000x64 : (⟨S_, .f32⟩ : BufTy).Contents (Elt F) → (⟨S400000x64, .f32⟩ : BufTy).Contents (Elt F)),
    binary main_v117 main_v118 main_v119 (subf : (⟨S400000x64, .f32⟩ : BufTy).Contents (Elt F) → (⟨S400000x64, .f32⟩ : BufTy).Contents (Elt F) → (⟨S400000x64, .f32⟩ : BufTy).Contents (Elt F)),
    binary main_v100 main_arg16 main_v120 ((fun l r => Host.dotGeneral dot_S400000x256_S256x64_S400000x64_1_0_0_1_n_n none l r) : (⟨S400000x256, .f32⟩ : BufTy).Contents (Elt F) → (⟨S256x64, .f32⟩ : BufTy).Contents (Elt F) → (⟨S400000x64, .f32⟩ : BufTy).Contents (Elt F)),
    unary main_arg17 main_v121 (broadcastInDim S1x64 ![1] bcast_S64_S1x64_1 : (⟨S64, .f32⟩ : BufTy).Contents (Elt F) → (⟨S1x64, .f32⟩ : BufTy).Contents (Elt F)),
    unary main_v121 main_v122 (broadcastInDim S400000x64 ![0, 1] bcast_S1x64_S400000x64_0_1 : (⟨S1x64, .f32⟩ : BufTy).Contents (Elt F) → (⟨S400000x64, .f32⟩ : BufTy).Contents (Elt F)),
    binary main_v120 main_v122 main_v123 (addf : (⟨S400000x64, .f32⟩ : BufTy).Contents (Elt F) → (⟨S400000x64, .f32⟩ : BufTy).Contents (Elt F) → (⟨S400000x64, .f32⟩ : BufTy).Contents (Elt F)),
    unary main_v123 main_v124 (Host.negf : (⟨S400000x64, .f32⟩ : BufTy).Contents (Elt F) → (⟨S400000x64, .f32⟩ : BufTy).Contents (Elt F)),
    unary main_v124 main_v125 (Host.exp : (⟨S400000x64, .f32⟩ : BufTy).Contents (Elt F) → (⟨S400000x64, .f32⟩ : BufTy).Contents (Elt F)),
    nullary main_cst_21 (constant S_ .f32 0x3F800000#32),
    unary main_cst_21 main_v126 (broadcastInDim S400000x64 ![] bcast_S_S400000x64 : (⟨S_, .f32⟩ : BufTy).Contents (Elt F) → (⟨S400000x64, .f32⟩ : BufTy).Contents (Elt F)),
    binary main_v126 main_v125 main_v127 (addf : (⟨S400000x64, .f32⟩ : BufTy).Contents (Elt F) → (⟨S400000x64, .f32⟩ : BufTy).Contents (Elt F) → (⟨S400000x64, .f32⟩ : BufTy).Contents (Elt F)),
    nullary main_cst_22 (constant S_ .f32 0x3F800000#32),
    unary main_cst_22 main_v128 (broadcastInDim S400000x64 ![] bcast_S_S400000x64 : (⟨S_, .f32⟩ : BufTy).Contents (Elt F) → (⟨S400000x64, .f32⟩ : BufTy).Contents (Elt F)),
    binary main_v128 main_v127 main_v129 (Host.divf : (⟨S400000x64, .f32⟩ : BufTy).Contents (Elt F) → (⟨S400000x64, .f32⟩ : BufTy).Contents (Elt F) → (⟨S400000x64, .f32⟩ : BufTy).Contents (Elt F)),
    binary main_v119 main_v129 main_v130 (mulf : (⟨S400000x64, .f32⟩ : BufTy).Contents (Elt F) → (⟨S400000x64, .f32⟩ : BufTy).Contents (Elt F) → (⟨S400000x64, .f32⟩ : BufTy).Contents (Elt F)),
    binary main_arg3 main_v130 main_v131 (addf : (⟨S400000x64, .f32⟩ : BufTy).Contents (Elt F) → (⟨S400000x64, .f32⟩ : BufTy).Contents (Elt F) → (⟨S400000x64, .f32⟩ : BufTy).Contents (Elt F)) ]

/-- @main's 157 operations, in order. -/
abbrev ops : List (HloOp τ sig (Elt F)) := opsA ++ opsB ++ opsC ++ opsD ++ opsE

set_option maxHeartbeats 4000000 in
theorem main_eq (c : Dev nD) : main (F := F) c = seq ops := by chain_rfl
theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and allocates nothing -/

theorem subA : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem freshA : (opsA : List (HloOp τ sig (Elt F))).Forall fun op => op.fresh = ∅ := by
  simp only [List.Forall]; repeat' constructor
theorem subB : (opsB : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub ..⟩
theorem freshB : (opsB : List (HloOp τ sig (Elt F))).Forall fun op => op.fresh = ∅ := by
  simp only [List.Forall]; repeat' constructor
theorem subC : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., binary_bufs_sub ..⟩
theorem freshC : (opsC : List (HloOp τ sig (Elt F))).Forall fun op => op.fresh = ∅ := by
  simp only [List.Forall]; repeat' constructor
theorem subD : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem freshD : (opsD : List (HloOp τ sig (Elt F))).Forall fun op => op.fresh = ∅ := by
  simp only [List.Forall]; repeat' constructor
theorem subE : (opsE : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩
theorem freshE : (opsE : List (HloOp τ sig (Elt F))).Forall fun op => op.fresh = ∅ := by
  simp only [List.Forall]; repeat' constructor
theorem ops_sub : (ops : List (HloOp τ sig (Elt F))).Forall fun op => op.bufs ⊆ tcRefs τ sig :=
  List.forall_append.mpr ⟨List.forall_append.mpr ⟨List.forall_append.mpr ⟨List.forall_append.mpr ⟨subA, subB⟩, subC⟩, subD⟩, subE⟩
theorem ops_fresh : (ops : List (HloOp τ sig (Elt F))).Forall fun op => op.fresh = ∅ :=
  List.forall_append.mpr ⟨List.forall_append.mpr ⟨List.forall_append.mpr ⟨List.forall_append.mpr ⟨freshA, freshB⟩, freshC⟩, freshD⟩, freshE⟩

/-! ## What each piece writes: one result buffer per operation -/

abbrev wrA : List (Ref sig .tc) :=
  [main_c, main_v0, main_v1, main_c_0, main_v2, main_v3, main_v4, main_v5, main_v6, main_c_1, main_v7, main_v8, main_c_2, main_v9, main_v10, main_v11, main_v12, main_v13]
theorem wrA_sub : (opsA : List (HloOp τ sig (Elt F))).Forall fun op => op.writes ⊆ (wrA.map (Proc.devRef (τ := τ) .tc)).toFinset := by
  simp only [List.Forall, nullary_writes, unary_writes, binary_writes, ternary_writes, nary_writes, Finset.singleton_subset_iff, List.mem_toFinset]
  repeat' apply And.intro
  all_goals exact List.mem_map_of_mem (by decide)
abbrev wrB : List (Ref sig .tc) :=
  [main_v14, main_v15, main_v16, main_v17, main_v18, main_cst, main_v19, main_v20, main_v21, main_v22, main_v23, main_v24, main_v25, main_v26, main_v27, main_v28, main_v29, main_v30, main_v31, main_cst_3, main_v32, main_v33, main_v34, main_v35, main_v36, main_v37, main_v38, main_v39, main_cst_4, main_v40, main_v41, main_cst_5, main_v42, main_v43, main_v44, main_v45, main_v46, main_v47, main_v48]
theorem wrB_sub : (opsB : List (HloOp τ sig (Elt F))).Forall fun op => op.writes ⊆ (wrB.map (Proc.devRef (τ := τ) .tc)).toFinset := by
  simp only [List.Forall, nullary_writes, unary_writes, binary_writes, ternary_writes, nary_writes, Finset.singleton_subset_iff, List.mem_toFinset]
  repeat' apply And.intro
  all_goals exact List.mem_map_of_mem (by decide)
abbrev wrC : List (Ref sig .tc) :=
  [main_c_6, main_v49, main_v50, main_c_7, main_v51, main_v52, main_v53, main_v54, main_v55, main_v56, main_c_8, main_v57, main_v58, main_c_9, main_v59, main_v60, main_v61, main_v62, main_v63, main_v64, main_c_10, main_v65, main_v66, main_c_11, main_v67, main_v68, main_v69, main_v70, main_v71, main_v72, main_c_12, main_v73, main_v74, main_c_13, main_v75, main_v76, main_v77, main_v78, main_v79, main_v80, main_cst_14, main_v81, main_v82, main_v83, main_v84, main_v85]
theorem wrC_sub : (opsC : List (HloOp τ sig (Elt F))).Forall fun op => op.writes ⊆ (wrC.map (Proc.devRef (τ := τ) .tc)).toFinset := by
  simp only [List.Forall, nullary_writes, unary_writes, binary_writes, ternary_writes, nary_writes, Finset.singleton_subset_iff, List.mem_toFinset]
  repeat' apply And.intro
  all_goals exact List.mem_map_of_mem (by decide)
abbrev wrD : List (Ref sig .tc) :=
  [main_c_15, main_v86, main_v87, main_c_16, main_v88, main_v89, main_v90, main_v91, main_v92, main_c_17, main_v93, main_v94, main_c_18, main_v95, main_v96, main_v97, main_v98, main_v99]
theorem wrD_sub : (opsD : List (HloOp τ sig (Elt F))).Forall fun op => op.writes ⊆ (wrD.map (Proc.devRef (τ := τ) .tc)).toFinset := by
  simp only [List.Forall, nullary_writes, unary_writes, binary_writes, ternary_writes, nary_writes, Finset.singleton_subset_iff, List.mem_toFinset]
  repeat' apply And.intro
  all_goals exact List.mem_map_of_mem (by decide)
abbrev wrE : List (Ref sig .tc) :=
  [main_v100, main_v101, main_v102, main_v103, main_v104, main_cst_19, main_v105, main_v106, main_v107, main_v108, main_v109, main_v110, main_v111, main_v112, main_v113, main_v114, main_v115, main_v116, main_v117, main_cst_20, main_v118, main_v119, main_v120, main_v121, main_v122, main_v123, main_v124, main_v125, main_cst_21, main_v126, main_v127, main_cst_22, main_v128, main_v129, main_v130, main_v131]
theorem wrE_sub : (opsE : List (HloOp τ sig (Elt F))).Forall fun op => op.writes ⊆ (wrE.map (Proc.devRef (τ := τ) .tc)).toFinset := by
  simp only [List.Forall, nullary_writes, unary_writes, binary_writes, ternary_writes, nary_writes, Finset.singleton_subset_iff, List.mem_toFinset]
  repeat' apply And.intro
  all_goals exact List.mem_map_of_mem (by decide)

/-! ## Each piece's results, as composed terms of what the piece reads from before it -/

/-- `main_v6` from the contents piece A starts at. -/
def tv6 (a_arg2 : (Proc.devRef .tc main_arg2 : DevRef τ sig).ty.Contents (Elt F)) (a_arg0 : (Proc.devRef .tc main_arg0 : DevRef τ sig).ty.Contents (Elt F)) : (Proc.devRef .tc main_v6 : DevRef τ sig).ty.Contents (Elt F) :=
  (Host.gather gather_S100000x64_S400000x1_S400000x64_1_0_n_n_0_1_164 a_arg2 (broadcastInDim S400000x1 ![0] bcast_S400000_S400000x1_0 (select (cmpi .slt a_arg0 (broadcastInDim S400000 ![] bcast_S_S400000 (constantI S_ 32 0#32))) (addi a_arg0 (broadcastInDim S400000 ![] bcast_S_S400000 (constantI S_ 32 100000#32))) a_arg0)))

/-- `main_v13` from the contents piece A starts at. -/
def tv13 (a_arg2 : (Proc.devRef .tc main_arg2 : DevRef τ sig).ty.Contents (Elt F)) (a_arg1 : (Proc.devRef .tc main_arg1 : DevRef τ sig).ty.Contents (Elt F)) : (Proc.devRef .tc main_v13 : DevRef τ sig).ty.Contents (Elt F) :=
  (Host.gather gather_S100000x64_S400000x1_S400000x64_1_0_n_n_0_1_164 a_arg2 (broadcastInDim S400000x1 ![0] bcast_S400000_S400000x1_0 (select (cmpi .slt a_arg1 (broadcastInDim S400000 ![] bcast_S_S400000 (constantI S_ 32 0#32))) (addi a_arg1 (broadcastInDim S400000 ![] bcast_S_S400000 (constantI S_ 32 100000#32))) a_arg1)))

/-- `main_v44` from the contents piece B starts at. -/
def tv44 (a_v6 : (Proc.devRef .tc main_v6 : DevRef τ sig).ty.Contents (Elt F)) (a_arg3 : (Proc.devRef .tc main_arg3 : DevRef τ sig).ty.Contents (Elt F)) (a_arg4 : (Proc.devRef .tc main_arg4 : DevRef τ sig).ty.Contents (Elt F)) (a_v13 : (Proc.devRef .tc main_v13 : DevRef τ sig).ty.Contents (Elt F)) (a_arg7 : (Proc.devRef .tc main_arg7 : DevRef τ sig).ty.Contents (Elt F)) (a_arg8 : (Proc.devRef .tc main_arg8 : DevRef τ sig).ty.Contents (Elt F)) (a_arg9 : (Proc.devRef .tc main_arg9 : DevRef τ sig).ty.Contents (Elt F)) (a_arg10 : (Proc.devRef .tc main_arg10 : DevRef τ sig).ty.Contents (Elt F)) : (Proc.devRef .tc main_v44 : DevRef τ sig).ty.Contents (Elt F) :=
  (mulf (subf (select (cmpf .une (subf (addf (Host.dotGeneral dot_S400000x256_S256x64_S400000x64_1_0_0_1_n_n none (concatenate S400000x256 1 [⟨S400000x64, a_v6⟩, ⟨S400000x64, a_arg3⟩, ⟨S400000x64, a_arg4⟩, ⟨S400000x64, a_v13⟩] concatenates_S400000x64_S400000x64_S400000x64_S400000x64_S400000x256_d1) a_arg7) (broadcastInDim S400000x64 ![0, 1] bcast_S1x64_S400000x64_0_1 (broadcastInDim S1x64 ![1] bcast_S64_S1x64_1 a_arg8))) (broadcastInDim S400000x64 ![] bcast_S_S400000x64 (constant S_ .f32 0x00000000#32))) (subf (addf (Host.dotGeneral dot_S400000x256_S256x64_S400000x64_1_0_0_1_n_n none (concatenate S400000x256 1 [⟨S400000x64, a_v6⟩, ⟨S400000x64, a_arg3⟩, ⟨S400000x64, a_arg4⟩, ⟨S400000x64, a_v13⟩] concatenates_S400000x64_S400000x64_S400000x64_S400000x64_S400000x256_d1) a_arg7) (broadcastInDim S400000x64 ![0, 1] bcast_S1x64_S400000x64_0_1 (broadcastInDim S1x64 ![1] bcast_S64_S1x64_1 a_arg8))) (broadcastInDim S400000x64 ![] bcast_S_S400000x64 (constant S_ .f32 0x00000000#32)))) (addf (addf (Host.dotGeneral dot_S400000x256_S256x64_S400000x64_1_0_0_1_n_n none (concatenate S400000x256 1 [⟨S400000x64, a_v6⟩, ⟨S400000x64, a_arg3⟩, ⟨S400000x64, a_arg4⟩, ⟨S400000x64, a_v13⟩] concatenates_S400000x64_S400000x64_S400000x64_S400000x64_S400000x256_d1) a_arg7) (broadcastInDim S400000x64 ![0, 1] bcast_S1x64_S400000x64_0_1 (broadcastInDim S1x64 ![1] bcast_S64_S1x64_1 a_arg8))) (broadcastInDim S400000x64 ![] bcast_S_S400000x64 (constant S_ .f32 0x00000000#32))) (addf (maximumf (addf (Host.dotGeneral dot_S400000x256_S256x64_S400000x64_1_0_0_1_n_n none (concatenate S400000x256 1 [⟨S400000x64, a_v6⟩, ⟨S400000x64, a_arg3⟩, ⟨S400000x64, a_arg4⟩, ⟨S400000x64, a_v13⟩] concatenates_S400000x64_S400000x64_S400000x64_S400000x64_S400000x256_d1) a_arg7) (broadcastInDim S400000x64 ![0, 1] bcast_S1x64_S400000x64_0_1 (broadcastInDim S1x64 ![1] bcast_S64_S1x64_1 a_arg8))) (broadcastInDim S400000x64 ![] bcast_S_S400000x64 (constant S_ .f32 0x00000000#32))) (Host.log1p (Host.exp (Host.negf (Host.absf (subf (addf (Host.dotGeneral dot_S400000x256_S256x64_S400000x64_1_0_0_1_n_n none (concatenate S400000x256 1 [⟨S400000x64, a_v6⟩, ⟨S400000x64, a_arg3⟩, ⟨S400000x64, a_arg4⟩, ⟨S400000x64, a_v13⟩] concatenates_S400000x64_S400000x64_S400000x64_S400000x64_S400000x256_d1) a_arg7) (broadcastInDim S400000x64 ![0, 1] bcast_S1x64_S400000x64_0_1 (broadcastInDim S1x64 ![1] bcast_S64_S1x64_1 a_arg8))) (broadcastInDim S400000x64 ![] bcast_S_S400000x64 (constant S_ .f32 0x00000000#32))))))))) (broadcastInDim S400000x64 ![] bcast_S_S400000x64 (constant S_ .f32 0x3F317218#32))) (Host.divf (broadcastInDim S400000x64 ![] bcast_S_S400000x64 (constant S_ .f32 0x3F800000#32)) (addf (broadcastInDim S400000x64 ![] bcast_S_S400000x64 (constant S_ .f32 0x3F800000#32)) (Host.exp (Host.negf (addf (Host.dotGeneral dot_S400000x256_S256x64_S400000x64_1_0_0_1_n_n none (concatenate S400000x256 1 [⟨S400000x64, a_v6⟩, ⟨S400000x64, a_arg3⟩, ⟨S400000x64, a_arg4⟩, ⟨S400000x64, a_v13⟩] concatenates_S400000x64_S400000x64_S400000x64_S400000x64_S400000x256_d1) a_arg9) (broadcastInDim S400000x64 ![0, 1] bcast_S1x64_S400000x64_0_1 (broadcastInDim S1x64 ![1] bcast_S64_S1x64_1 a_arg10))))))))

/-- `main_v48` from the contents piece B starts at. -/
def tv48 (a_arg5 : (Proc.devRef .tc main_arg5 : DevRef τ sig).ty.Contents (Elt F)) (a_arg12 : (Proc.devRef .tc main_arg12 : DevRef τ sig).ty.Contents (Elt F)) (a_arg13 : (Proc.devRef .tc main_arg13 : DevRef τ sig).ty.Contents (Elt F)) : (Proc.devRef .tc main_v48 : DevRef τ sig).ty.Contents (Elt F) :=
  (addf (Host.dotGeneral dot_S100000x31_S31x64_S100000x64_1_0_0_1_n_n none a_arg5 a_arg12) (broadcastInDim S100000x64 ![0, 1] bcast_S1x64_S100000x64_0_1 (broadcastInDim S1x64 ![1] bcast_S64_S1x64_1 a_arg13)))

/-- `main_v85` from the contents piece C starts at. -/
def tv85 (a_arg2 : (Proc.devRef .tc main_arg2 : DevRef τ sig).ty.Contents (Elt F)) (a_arg1 : (Proc.devRef .tc main_arg1 : DevRef τ sig).ty.Contents (Elt F)) (a_v44 : (Proc.devRef .tc main_v44 : DevRef τ sig).ty.Contents (Elt F)) (a_v48 : (Proc.devRef .tc main_v48 : DevRef τ sig).ty.Contents (Elt F)) (a_arg0 : (Proc.devRef .tc main_arg0 : DevRef τ sig).ty.Contents (Elt F)) (a_arg6 : (Proc.devRef .tc main_arg6 : DevRef τ sig).ty.Contents (Elt F)) (a_arg11 : (Proc.devRef .tc main_arg11 : DevRef τ sig).ty.Contents (Elt F)) : (Proc.devRef .tc main_v85 : DevRef τ sig).ty.Contents (Elt F) :=
  (addf a_arg2 (Host.dotGeneral dot_S100000x64_S64x64_S100000x64_1_0_0_1_n_n none (Host.scatterAdd scatter_S100000x64_S400000x1_S400000x64_1_0_0_1 (broadcastInDim S100000x64 ![] bcast_S_S100000x64 (constant S_ .f32 0x00000000#32)) (broadcastInDim S400000x1 ![0] bcast_S400000_S400000x1_0 a_arg1) (mulf (mulf (mulf (mulf a_v44 (Host.gather gather_S100000x64_S400000x1_S400000x64_1_0_n_n_0_1_164 a_v48 (broadcastInDim S400000x1 ![0] bcast_S400000_S400000x1_0 (select (cmpi .slt a_arg0 (broadcastInDim S400000 ![] bcast_S_S400000 (constantI S_ 32 0#32))) (addi a_arg0 (broadcastInDim S400000 ![] bcast_S_S400000 (constantI S_ 32 100000#32))) a_arg0)))) (Host.gather gather_S100000x64_S400000x1_S400000x64_1_0_n_n_0_1_164 a_v48 (broadcastInDim S400000x1 ![0] bcast_S400000_S400000x1_0 (select (cmpi .slt a_arg1 (broadcastInDim S400000 ![] bcast_S_S400000 (constantI S_ 32 0#32))) (addi a_arg1 (broadcastInDim S400000 ![] bcast_S_S400000 (constantI S_ 32 100000#32))) a_arg1)))) (Host.gather gather_S100000x64_S400000x1_S400000x64_1_0_n_n_0_1_164 a_arg6 (broadcastInDim S400000x1 ![0] bcast_S400000_S400000x1_0 (select (cmpi .slt a_arg0 (broadcastInDim S400000 ![] bcast_S_S400000 (constantI S_ 32 0#32))) (addi a_arg0 (broadcastInDim S400000 ![] bcast_S_S400000 (constantI S_ 32 100000#32))) a_arg0)))) (Host.gather gather_S100000x64_S400000x1_S400000x64_1_0_n_n_0_1_164 a_arg6 (broadcastInDim S400000x1 ![0] bcast_S400000_S400000x1_0 (select (cmpi .slt a_arg1 (broadcastInDim S400000 ![] bcast_S_S400000 (constantI S_ 32 0#32))) (addi a_arg1 (broadcastInDim S400000 ![] bcast_S_S400000 (constantI S_ 32 100000#32))) a_arg1))))) a_arg11))

/-- `main_v92` from the contents piece D starts at. -/
def tv92 (a_v85 : (Proc.devRef .tc main_v85 : DevRef τ sig).ty.Contents (Elt F)) (a_arg0 : (Proc.devRef .tc main_arg0 : DevRef τ sig).ty.Contents (Elt F)) : (Proc.devRef .tc main_v92 : DevRef τ sig).ty.Contents (Elt F) :=
  (Host.gather gather_S100000x64_S400000x1_S400000x64_1_0_n_n_0_1_164 a_v85 (broadcastInDim S400000x1 ![0] bcast_S400000_S400000x1_0 (select (cmpi .slt a_arg0 (broadcastInDim S400000 ![] bcast_S_S400000 (constantI S_ 32 0#32))) (addi a_arg0 (broadcastInDim S400000 ![] bcast_S_S400000 (constantI S_ 32 100000#32))) a_arg0)))

/-- `main_v99` from the contents piece D starts at. -/
def tv99 (a_v85 : (Proc.devRef .tc main_v85 : DevRef τ sig).ty.Contents (Elt F)) (a_arg1 : (Proc.devRef .tc main_arg1 : DevRef τ sig).ty.Contents (Elt F)) : (Proc.devRef .tc main_v99 : DevRef τ sig).ty.Contents (Elt F) :=
  (Host.gather gather_S100000x64_S400000x1_S400000x64_1_0_n_n_0_1_164 a_v85 (broadcastInDim S400000x1 ![0] bcast_S400000_S400000x1_0 (select (cmpi .slt a_arg1 (broadcastInDim S400000 ![] bcast_S_S400000 (constantI S_ 32 0#32))) (addi a_arg1 (broadcastInDim S400000 ![] bcast_S_S400000 (constantI S_ 32 100000#32))) a_arg1)))

/-- `main_v131` from the contents piece E starts at. -/
def tv131 (a_arg3 : (Proc.devRef .tc main_arg3 : DevRef τ sig).ty.Contents (Elt F)) (a_v92 : (Proc.devRef .tc main_v92 : DevRef τ sig).ty.Contents (Elt F)) (a_arg4 : (Proc.devRef .tc main_arg4 : DevRef τ sig).ty.Contents (Elt F)) (a_v99 : (Proc.devRef .tc main_v99 : DevRef τ sig).ty.Contents (Elt F)) (a_arg14 : (Proc.devRef .tc main_arg14 : DevRef τ sig).ty.Contents (Elt F)) (a_arg15 : (Proc.devRef .tc main_arg15 : DevRef τ sig).ty.Contents (Elt F)) (a_arg16 : (Proc.devRef .tc main_arg16 : DevRef τ sig).ty.Contents (Elt F)) (a_arg17 : (Proc.devRef .tc main_arg17 : DevRef τ sig).ty.Contents (Elt F)) : (Proc.devRef .tc main_v131 : DevRef τ sig).ty.Contents (Elt F) :=
  (addf a_arg3 (mulf (subf (select (cmpf .une (subf (addf (Host.dotGeneral dot_S400000x256_S256x64_S400000x64_1_0_0_1_n_n none (concatenate S400000x256 1 [⟨S400000x64, a_v92⟩, ⟨S400000x64, a_arg3⟩, ⟨S400000x64, a_arg4⟩, ⟨S400000x64, a_v99⟩] concatenates_S400000x64_S400000x64_S400000x64_S400000x64_S400000x256_d1) a_arg14) (broadcastInDim S400000x64 ![0, 1] bcast_S1x64_S400000x64_0_1 (broadcastInDim S1x64 ![1] bcast_S64_S1x64_1 a_arg15))) (broadcastInDim S400000x64 ![] bcast_S_S400000x64 (constant S_ .f32 0x00000000#32))) (subf (addf (Host.dotGeneral dot_S400000x256_S256x64_S400000x64_1_0_0_1_n_n none (concatenate S400000x256 1 [⟨S400000x64, a_v92⟩, ⟨S400000x64, a_arg3⟩, ⟨S400000x64, a_arg4⟩, ⟨S400000x64, a_v99⟩] concatenates_S400000x64_S400000x64_S400000x64_S400000x64_S400000x256_d1) a_arg14) (broadcastInDim S400000x64 ![0, 1] bcast_S1x64_S400000x64_0_1 (broadcastInDim S1x64 ![1] bcast_S64_S1x64_1 a_arg15))) (broadcastInDim S400000x64 ![] bcast_S_S400000x64 (constant S_ .f32 0x00000000#32)))) (addf (addf (Host.dotGeneral dot_S400000x256_S256x64_S400000x64_1_0_0_1_n_n none (concatenate S400000x256 1 [⟨S400000x64, a_v92⟩, ⟨S400000x64, a_arg3⟩, ⟨S400000x64, a_arg4⟩, ⟨S400000x64, a_v99⟩] concatenates_S400000x64_S400000x64_S400000x64_S400000x64_S400000x256_d1) a_arg14) (broadcastInDim S400000x64 ![0, 1] bcast_S1x64_S400000x64_0_1 (broadcastInDim S1x64 ![1] bcast_S64_S1x64_1 a_arg15))) (broadcastInDim S400000x64 ![] bcast_S_S400000x64 (constant S_ .f32 0x00000000#32))) (addf (maximumf (addf (Host.dotGeneral dot_S400000x256_S256x64_S400000x64_1_0_0_1_n_n none (concatenate S400000x256 1 [⟨S400000x64, a_v92⟩, ⟨S400000x64, a_arg3⟩, ⟨S400000x64, a_arg4⟩, ⟨S400000x64, a_v99⟩] concatenates_S400000x64_S400000x64_S400000x64_S400000x64_S400000x256_d1) a_arg14) (broadcastInDim S400000x64 ![0, 1] bcast_S1x64_S400000x64_0_1 (broadcastInDim S1x64 ![1] bcast_S64_S1x64_1 a_arg15))) (broadcastInDim S400000x64 ![] bcast_S_S400000x64 (constant S_ .f32 0x00000000#32))) (Host.log1p (Host.exp (Host.negf (Host.absf (subf (addf (Host.dotGeneral dot_S400000x256_S256x64_S400000x64_1_0_0_1_n_n none (concatenate S400000x256 1 [⟨S400000x64, a_v92⟩, ⟨S400000x64, a_arg3⟩, ⟨S400000x64, a_arg4⟩, ⟨S400000x64, a_v99⟩] concatenates_S400000x64_S400000x64_S400000x64_S400000x64_S400000x256_d1) a_arg14) (broadcastInDim S400000x64 ![0, 1] bcast_S1x64_S400000x64_0_1 (broadcastInDim S1x64 ![1] bcast_S64_S1x64_1 a_arg15))) (broadcastInDim S400000x64 ![] bcast_S_S400000x64 (constant S_ .f32 0x00000000#32))))))))) (broadcastInDim S400000x64 ![] bcast_S_S400000x64 (constant S_ .f32 0x3F317218#32))) (Host.divf (broadcastInDim S400000x64 ![] bcast_S_S400000x64 (constant S_ .f32 0x3F800000#32)) (addf (broadcastInDim S400000x64 ![] bcast_S_S400000x64 (constant S_ .f32 0x3F800000#32)) (Host.exp (Host.negf (addf (Host.dotGeneral dot_S400000x256_S256x64_S400000x64_1_0_0_1_n_n none (concatenate S400000x256 1 [⟨S400000x64, a_v92⟩, ⟨S400000x64, a_arg3⟩, ⟨S400000x64, a_arg4⟩, ⟨S400000x64, a_v99⟩] concatenates_S400000x64_S400000x64_S400000x64_S400000x64_S400000x256_d1) a_arg16) (broadcastInDim S400000x64 ![0, 1] bcast_S1x64_S400000x64_0_1 (broadcastInDim S1x64 ![1] bcast_S64_S1x64_1 a_arg17)))))))))

variable (X : Valuation τ sig (Elt F))

theorem afterA_v6 : after (opsA (F := F)) X (Proc.devRef .tc main_v6) = tv6 (X (Proc.devRef .tc main_arg2)) (X (Proc.devRef .tc main_arg0)) := by
  after_results_simp
  rfl
theorem afterA_v13 : after (opsA (F := F)) X (Proc.devRef .tc main_v13) = tv13 (X (Proc.devRef .tc main_arg2)) (X (Proc.devRef .tc main_arg1)) := by
  after_results_simp
  rfl
theorem afterB_v44 : after (opsB (F := F)) X (Proc.devRef .tc main_v44) = tv44 (X (Proc.devRef .tc main_v6)) (X (Proc.devRef .tc main_arg3)) (X (Proc.devRef .tc main_arg4)) (X (Proc.devRef .tc main_v13)) (X (Proc.devRef .tc main_arg7)) (X (Proc.devRef .tc main_arg8)) (X (Proc.devRef .tc main_arg9)) (X (Proc.devRef .tc main_arg10)) := by
  after_results_simp
  rfl
theorem afterB_v48 : after (opsB (F := F)) X (Proc.devRef .tc main_v48) = tv48 (X (Proc.devRef .tc main_arg5)) (X (Proc.devRef .tc main_arg12)) (X (Proc.devRef .tc main_arg13)) := by
  after_results_simp
  rfl
theorem afterC_v85 : after (opsC (F := F)) X (Proc.devRef .tc main_v85) = tv85 (X (Proc.devRef .tc main_arg2)) (X (Proc.devRef .tc main_arg1)) (X (Proc.devRef .tc main_v44)) (X (Proc.devRef .tc main_v48)) (X (Proc.devRef .tc main_arg0)) (X (Proc.devRef .tc main_arg6)) (X (Proc.devRef .tc main_arg11)) := by
  after_results_simp
  rfl
theorem afterD_v92 : after (opsD (F := F)) X (Proc.devRef .tc main_v92) = tv92 (X (Proc.devRef .tc main_v85)) (X (Proc.devRef .tc main_arg0)) := by
  after_results_simp
  rfl
theorem afterD_v99 : after (opsD (F := F)) X (Proc.devRef .tc main_v99) = tv99 (X (Proc.devRef .tc main_v85)) (X (Proc.devRef .tc main_arg1)) := by
  after_results_simp
  rfl
theorem afterE_v131 : after (opsE (F := F)) X (Proc.devRef .tc main_v131) = tv131 (X (Proc.devRef .tc main_arg3)) (X (Proc.devRef .tc main_v92)) (X (Proc.devRef .tc main_arg4)) (X (Proc.devRef .tc main_v99)) (X (Proc.devRef .tc main_arg14)) (X (Proc.devRef .tc main_arg15)) (X (Proc.devRef .tc main_arg16)) (X (Proc.devRef .tc main_arg17)) := by
  after_results_simp
  rfl

/-! ## The contents after each piece, and the whole line as the five in a row -/

variable (V : Valuation τ sig (Elt F))

abbrev V1 : Valuation τ sig (Elt F) := after opsA V
abbrev V2 : Valuation τ sig (Elt F) := after opsB (V1 V)
abbrev V3 : Valuation τ sig (Elt F) := after opsC (V2 V)
abbrev V4 : Valuation τ sig (Elt F) := after opsD (V3 V)
abbrev V5 : Valuation τ sig (Elt F) := after opsE (V4 V)

theorem after_ops : after (ops (F := F)) V = V5 V := by
  simp only [ops, StableHlo.after_append]

/-! ## One piece back: a buffer the piece does not write -/

theorem back1 (b : Ref sig .tc) (h : b ∉ wrA) : V1 V (Proc.devRef .tc b) = V (Proc.devRef .tc b) := after_of_writes_sub opsA _ wrA_sub h
theorem back2 (b : Ref sig .tc) (h : b ∉ wrB) : V2 V (Proc.devRef .tc b) = V1 V (Proc.devRef .tc b) := after_of_writes_sub opsB _ wrB_sub h
theorem back3 (b : Ref sig .tc) (h : b ∉ wrC) : V3 V (Proc.devRef .tc b) = V2 V (Proc.devRef .tc b) := after_of_writes_sub opsC _ wrC_sub h
theorem back4 (b : Ref sig .tc) (h : b ∉ wrD) : V4 V (Proc.devRef .tc b) = V3 V (Proc.devRef .tc b) := after_of_writes_sub opsD _ wrD_sub h
theorem back5 (b : Ref sig .tc) (h : b ∉ wrE) : V5 V (Proc.devRef .tc b) = V4 V (Proc.devRef .tc b) := after_of_writes_sub opsE _ wrE_sub h

/-- An argument is as launched at the end: no piece writes it. -/
theorem arg_kept (b : Ref sig .tc) (h1 : b ∉ wrA) (h2 : b ∉ wrB) (h3 : b ∉ wrC) (h4 : b ∉ wrD) (h5 : b ∉ wrE) :
    after (ops (F := F)) V (Proc.devRef .tc b) = V (Proc.devRef .tc b) := by
  rw [after_ops]
  exact (back5 V b h5).trans ((back4 V b h4).trans ((back3 V b h3).trans ((back2 V b h2).trans (back1 V b h1))))

/-! ## The results, traced back to the launch contents -/

theorem v6_at1 : V1 V (Proc.devRef .tc main_v6) = (tv6 (V (Proc.devRef .tc main_arg2)) (V (Proc.devRef .tc main_arg0))) := by
  refine (afterA_v6 V).trans ?_
  rfl
theorem v13_at1 : V1 V (Proc.devRef .tc main_v13) = (tv13 (V (Proc.devRef .tc main_arg2)) (V (Proc.devRef .tc main_arg1))) := by
  refine (afterA_v13 V).trans ?_
  rfl
theorem v44_at2 : V2 V (Proc.devRef .tc main_v44) = (tv44 (tv6 (V (Proc.devRef .tc main_arg2)) (V (Proc.devRef .tc main_arg0))) (V (Proc.devRef .tc main_arg3)) (V (Proc.devRef .tc main_arg4)) (tv13 (V (Proc.devRef .tc main_arg2)) (V (Proc.devRef .tc main_arg1))) (V (Proc.devRef .tc main_arg7)) (V (Proc.devRef .tc main_arg8)) (V (Proc.devRef .tc main_arg9)) (V (Proc.devRef .tc main_arg10))) := by
  refine (afterB_v44 (V1 V)).trans ?_
  rw [v6_at1 V, ((back1 V main_arg3 (by decide))), ((back1 V main_arg4 (by decide))), v13_at1 V, ((back1 V main_arg7 (by decide))), ((back1 V main_arg8 (by decide))), ((back1 V main_arg9 (by decide))), ((back1 V main_arg10 (by decide)))]
theorem v48_at2 : V2 V (Proc.devRef .tc main_v48) = (tv48 (V (Proc.devRef .tc main_arg5)) (V (Proc.devRef .tc main_arg12)) (V (Proc.devRef .tc main_arg13))) := by
  refine (afterB_v48 (V1 V)).trans ?_
  rw [((back1 V main_arg5 (by decide))), ((back1 V main_arg12 (by decide))), ((back1 V main_arg13 (by decide)))]
theorem v85_at3 : V3 V (Proc.devRef .tc main_v85) = (tv85 (V (Proc.devRef .tc main_arg2)) (V (Proc.devRef .tc main_arg1)) (tv44 (tv6 (V (Proc.devRef .tc main_arg2)) (V (Proc.devRef .tc main_arg0))) (V (Proc.devRef .tc main_arg3)) (V (Proc.devRef .tc main_arg4)) (tv13 (V (Proc.devRef .tc main_arg2)) (V (Proc.devRef .tc main_arg1))) (V (Proc.devRef .tc main_arg7)) (V (Proc.devRef .tc main_arg8)) (V (Proc.devRef .tc main_arg9)) (V (Proc.devRef .tc main_arg10))) (tv48 (V (Proc.devRef .tc main_arg5)) (V (Proc.devRef .tc main_arg12)) (V (Proc.devRef .tc main_arg13))) (V (Proc.devRef .tc main_arg0)) (V (Proc.devRef .tc main_arg6)) (V (Proc.devRef .tc main_arg11))) := by
  refine (afterC_v85 (V2 V)).trans ?_
  rw [((back2 V main_arg2 (by decide)).trans ((back1 V main_arg2 (by decide)))), ((back2 V main_arg1 (by decide)).trans ((back1 V main_arg1 (by decide)))), v44_at2 V, v48_at2 V, ((back2 V main_arg0 (by decide)).trans ((back1 V main_arg0 (by decide)))), ((back2 V main_arg6 (by decide)).trans ((back1 V main_arg6 (by decide)))), ((back2 V main_arg11 (by decide)).trans ((back1 V main_arg11 (by decide))))]
/-- The first result is the reference's first composed term. -/
theorem v85_eq : V3 V (Proc.devRef .tc main_v85) = RefTerms.res_main_v85 V :=
  (v85_at3 V).trans (by
    simp only [RefTerms.res_main_v85, RefTerms.res_main_v22, RefTerms.res_main_v18, RefTerms.res_main_cst, RefTerms.res_main_v14,
      RefTerms.res_main_v48, tv85, tv44, tv48, tv6, tv13] <;> rfl)
theorem v92_at4 : V4 V (Proc.devRef .tc main_v92) = (tv92 (RefTerms.res_main_v85 V) (V (Proc.devRef .tc main_arg0))) := by
  refine (afterD_v92 (V3 V)).trans ?_
  rw [v85_eq V, ((back3 V main_arg0 (by decide)).trans ((back2 V main_arg0 (by decide)).trans ((back1 V main_arg0 (by decide)))))]
theorem v99_at4 : V4 V (Proc.devRef .tc main_v99) = (tv99 (RefTerms.res_main_v85 V) (V (Proc.devRef .tc main_arg1))) := by
  refine (afterD_v99 (V3 V)).trans ?_
  rw [v85_eq V, ((back3 V main_arg1 (by decide)).trans ((back2 V main_arg1 (by decide)).trans ((back1 V main_arg1 (by decide)))))]
theorem v131_at5 : V5 V (Proc.devRef .tc main_v131) = (tv131 (V (Proc.devRef .tc main_arg3)) (tv92 (RefTerms.res_main_v85 V) (V (Proc.devRef .tc main_arg0))) (V (Proc.devRef .tc main_arg4)) (tv99 (RefTerms.res_main_v85 V) (V (Proc.devRef .tc main_arg1))) (V (Proc.devRef .tc main_arg14)) (V (Proc.devRef .tc main_arg15)) (V (Proc.devRef .tc main_arg16)) (V (Proc.devRef .tc main_arg17))) := by
  refine (afterE_v131 (V4 V)).trans ?_
  rw [((back4 V main_arg3 (by decide)).trans ((back3 V main_arg3 (by decide)).trans ((back2 V main_arg3 (by decide)).trans ((back1 V main_arg3 (by decide)))))), v92_at4 V, ((back4 V main_arg4 (by decide)).trans ((back3 V main_arg4 (by decide)).trans ((back2 V main_arg4 (by decide)).trans ((back1 V main_arg4 (by decide)))))), v99_at4 V, ((back4 V main_arg14 (by decide)).trans ((back3 V main_arg14 (by decide)).trans ((back2 V main_arg14 (by decide)).trans ((back1 V main_arg14 (by decide)))))), ((back4 V main_arg15 (by decide)).trans ((back3 V main_arg15 (by decide)).trans ((back2 V main_arg15 (by decide)).trans ((back1 V main_arg15 (by decide)))))), ((back4 V main_arg16 (by decide)).trans ((back3 V main_arg16 (by decide)).trans ((back2 V main_arg16 (by decide)).trans ((back1 V main_arg16 (by decide)))))), ((back4 V main_arg17 (by decide)).trans ((back3 V main_arg17 (by decide)).trans ((back2 V main_arg17 (by decide)).trans ((back1 V main_arg17 (by decide))))))]

/-- The two results of the whole line. -/
theorem res0 : after (ops (F := F)) V (Proc.devRef .tc main_v85) = RefTerms.res_out0 V := by
  rw [after_ops]
  exact ((back5 V main_v85 (by decide)).trans ((back4 V main_v85 (by decide)))).trans (v85_eq V)
theorem res1 : after (ops (F := F)) V (Proc.devRef .tc main_v131) = RefTerms.res_out1 V := by
  rw [after_ops]
  exact (v131_at5 V).trans (by
    simp only [RefTerms.res_out1, RefTerms.res_main_v108, RefTerms.res_main_v104, RefTerms.res_main_cst_19, RefTerms.res_main_v100,
      tv131, tv92, tv99] <;> rfl)

/-! ## The run -/

/-- On every device, for any float values, from any memory with zero counters: every weakly fair execution of @main
    terminates with each result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85) = RefTerms.res_out0 (launchContents m c)
      ∧ r.2.mem ((c.tc : Thread nD τ).loc main_v131) = RefTerms.res_out1 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v85).trans (res0 (launchContents m c)),
      (h c main_v131).trans (res1 (launchContents m c)),
      (h c main_arg0).trans ((arg_kept (launchContents m c) main_arg0 (by decide) (by decide) (by decide) (by decide) (by decide)).trans rfl),
      (h c main_arg1).trans ((arg_kept (launchContents m c) main_arg1 (by decide) (by decide) (by decide) (by decide) (by decide)).trans rfl),
      (h c main_arg2).trans ((arg_kept (launchContents m c) main_arg2 (by decide) (by decide) (by decide) (by decide) (by decide)).trans rfl),
      (h c main_arg3).trans ((arg_kept (launchContents m c) main_arg3 (by decide) (by decide) (by decide) (by decide) (by decide)).trans rfl),
      (h c main_arg4).trans ((arg_kept (launchContents m c) main_arg4 (by decide) (by decide) (by decide) (by decide) (by decide)).trans rfl),
      (h c main_arg5).trans ((arg_kept (launchContents m c) main_arg5 (by decide) (by decide) (by decide) (by decide) (by decide)).trans rfl),
      (h c main_arg6).trans ((arg_kept (launchContents m c) main_arg6 (by decide) (by decide) (by decide) (by decide) (by decide)).trans rfl),
      (h c main_arg7).trans ((arg_kept (launchContents m c) main_arg7 (by decide) (by decide) (by decide) (by decide) (by decide)).trans rfl),
      (h c main_arg8).trans ((arg_kept (launchContents m c) main_arg8 (by decide) (by decide) (by decide) (by decide) (by decide)).trans rfl),
      (h c main_arg9).trans ((arg_kept (launchContents m c) main_arg9 (by decide) (by decide) (by decide) (by decide) (by decide)).trans rfl),
      (h c main_arg10).trans ((arg_kept (launchContents m c) main_arg10 (by decide) (by decide) (by decide) (by decide) (by decide)).trans rfl),
      (h c main_arg11).trans ((arg_kept (launchContents m c) main_arg11 (by decide) (by decide) (by decide) (by decide) (by decide)).trans rfl),
      (h c main_arg12).trans ((arg_kept (launchContents m c) main_arg12 (by decide) (by decide) (by decide) (by decide) (by decide)).trans rfl),
      (h c main_arg13).trans ((arg_kept (launchContents m c) main_arg13 (by decide) (by decide) (by decide) (by decide) (by decide)).trans rfl),
      (h c main_arg14).trans ((arg_kept (launchContents m c) main_arg14 (by decide) (by decide) (by decide) (by decide) (by decide)).trans rfl),
      (h c main_arg15).trans ((arg_kept (launchContents m c) main_arg15 (by decide) (by decide) (by decide) (by decide) (by decide)).trans rfl),
      (h c main_arg16).trans ((arg_kept (launchContents m c) main_arg16 (by decide) (by decide) (by decide) (by decide) (by decide)).trans rfl),
      (h c main_arg17).trans ((arg_kept (launchContents m c) main_arg17 (by decide) (by decide) (by decide) (by decide) (by decide)).trans rfl)⟩)
    (run_seq scopedRefs_eq scopedSems_eq defs main (fun _ => ops) main_eq (fun _ => ops_sub) m ρ
      (fun _ => List.forall_iff_forall_mem.mp ops_fresh))

end Cert.ReferenceIdeal.RefRun

end
-- ==== Proof.lean ====
/-
  The claim for a graph layer over 100000 nodes and 400000 edges of width 64.

  Both programs compute, on the extended reals,
      w    = bond @ Ww + bw                                   per-node weights
      msg  = (softplus(g_l) − log 2) · sigmoid(g_g) · (w[src] · w[dst] · s[src] · s[dst])
             with gate values g = (nf[src] | ef | aux | nf[dst]) @ W + b
      new  = nf + segment_sum(msg, dst) @ Wo                  first result
      edge = ef + (softplus(g'_l) − log 2) · sigmoid(g'_g)    second result, gates over new[src], new[dst]
  The kernel cuts each 256-row weight matrix into four 64-row pieces and adds the four partial products, groups the five
  factors of a message differently, and runs the dense stages block by block; none of that changes an extended real,
  because + and · are associative and commutative there (no distributivity, so no finiteness, is needed).
  The one place the programs differ is outside the index range: the kernel's row gather fills rows whose index is
  out of range, the reference clamps the index. The precondition keeps every source and destination id in
  [0, 100000), where the fill mask is all ones and the wrap of negative ids is the identity, so both gathers are
  the same function.
  The frames of the two kernel programs are the generated ones; the reference's frame is its run with the
  results dropped; the idealization rewrote nothing, so its conjunct is trivial.
-/
import proofs.«408984_j66649302499835_1_alg».proof.Defs
import proofs.«408984_j66649302499835_1_alg».proof.Proof.Gen.Kernel.Frame
import proofs.«408984_j66649302499835_1_alg».proof.Proof.Gen.KernelIdeal.Frame
import proofs.«408984_j66649302499835_1_alg».proof.Proof.Gen.ReferenceIdeal
import proofs.«408984_j66649302499835_1_alg».proof.Proof.Gen.Pre_finite_inputs
import proofs.«408984_j66649302499835_1_alg».proof.Proof.KernelHost
import proofs.«408984_j66649302499835_1_alg».proof.Proof.Bridge
import proofs.«408984_j66649302499835_1_alg».proof.Proof.RefValue
import proofs.«408984_j66649302499835_1_alg».proof.Proof.RefRun
import Idealize.ShloMosaic.Adequacy
import Idealize.ShloMosaic.Init

noncomputable section

namespace Cert.Proof

open Idealize.ShloMosaic Idealize.SL.Sem

/-- The layer is a function of its three gather / scatter parameters and its arrays: equal parameters, equal layers. -/
theorem layerNode_congr {Gs Gs' Gd Gd' : Gnn.Arr 100000 64 → Gnn.Arr 400000 64} {Sc Sc' : Gnn.Arr 400000 64 → Gnn.Arr 100000 64}
    {nf nf' : Gnn.Arr 100000 64} {ef ef' aux aux' : Gnn.Arr 400000 64} {bond bond' : Gnn.Arr 100000 31}
    {snw snw' : Gnn.Arr 100000 64} {Wo Wo' : Gnn.Arr 64 64} {Ww Ww' : Gnn.Arr 31 64} (P : Gnn.Pieces)
    (h1 : Gs = Gs') (h2 : Gd = Gd') (h3 : Sc = Sc') (h4 : nf = nf') (h5 : ef = ef') (h6 : aux = aux')
    (h7 : bond = bond') (h8 : snw = snw') (h9 : Wo = Wo') (h10 : Ww = Ww') :
    Gnn.layerNode Gs Gd Sc nf ef aux bond snw Wo Ww P = Gnn.layerNode Gs' Gd' Sc' nf' ef' aux' bond' snw' Wo' Ww' P := by
  subst h1 h2 h3 h4 h5 h6 h7 h8 h9 h10; rfl

theorem layerEdge_congr {Gs Gs' Gd Gd' : Gnn.Arr 100000 64 → Gnn.Arr 400000 64} {Sc Sc' : Gnn.Arr 400000 64 → Gnn.Arr 100000 64}
    {nf nf' : Gnn.Arr 100000 64} {ef ef' aux aux' : Gnn.Arr 400000 64} {bond bond' : Gnn.Arr 100000 31}
    {snw snw' : Gnn.Arr 100000 64} {Wo Wo' : Gnn.Arr 64 64} {Ww Ww' : Gnn.Arr 31 64} (P : Gnn.Pieces)
    (h1 : Gs = Gs') (h2 : Gd = Gd') (h3 : Sc = Sc') (h4 : nf = nf') (h5 : ef = ef') (h6 : aux = aux')
    (h7 : bond = bond') (h8 : snw = snw') (h9 : Wo = Wo') (h10 : Ww = Ww') :
    Gnn.layerEdge Gs Gd Sc nf ef aux bond snw Wo Ww P = Gnn.layerEdge Gs' Gd' Sc' nf' ef' aux' bond' snw' Wo' Ww' P := by
  subst h1 h2 h3 h4 h5 h6 h7 h8 h9 h10; rfl

/-- The two kernel programs' frames are the generated ones. -/
theorem frame_kernel : Cert.frame_Kernel := fun m ρ _ => Cert.Kernel.Gen.frame m ρ
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.RefRun.run (F := Ideal) m ρ)

/-- The idealization rewrote no operation. -/
theorem preserves : Cert.preserves_Kernel_KernelIdeal := trivial

section Layer
open Cert.KernelIdeal.KHost

/-- The kernel program ends with the layer's two arrays, in its own arrangement: its regions and host stretches
    composed, the arguments unchanged. -/
theorem kernel_layer (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v35) = Gnn.layerNode (take (A0 m c)) (take (A1 m c)) (scat m c) (A2 m c) (A3 m c) (A4 m c) (A5 m c) (A6 m c) (A11 m c) (A12 m c) (pieces m c)
      ∧ r.2.mem ((c.tc : Thread Cert.KernelIdeal.nD Cert.KernelIdeal.τ).loc Cert.KernelIdeal.main_v38) = Gnn.layerEdge (take (A0 m c)) (take (A1 m c)) (scat m c) (A2 m c) (A3 m c) (A4 m c) (A5 m c) (A6 m c) (A11 m c) (A12 m c) (pieces m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)) :=
  (θ_run _ _ _).mono (fun _ h c => ⟨(h c).1.trans (results m ρ c).1, (h c).2.1.trans (results m ρ c).2, (h c).2.2⟩)
    (Cert.KernelIdeal.KRun.run_values (F := Ideal) m ρ)

/-- On a device whose two id arrays are in range and whose argument arrays agree, the reference's two result terms are
    the kernel program's layer: the masked gather is the plain gather there, and the two programs' gathers and
    scatter-sum are the same functions of the same arrays. -/
theorem reference_layer (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hs : Cert.PreFacts.InRange (A0 m c)) (hd : Cert.PreFacts.InRange (A1 m c))
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.RefTerms.res_out0 (StableHlo.launchContents m' c) = Gnn.layerNode (take (A0 m c)) (take (A1 m c)) (scat m c) (A2 m c) (A3 m c) (A4 m c) (A5 m c) (A6 m c) (A11 m c) (A12 m c) (pieces m c)
    ∧ Cert.ReferenceIdeal.RefTerms.res_out1 (StableHlo.launchContents m' c) = Gnn.layerEdge (take (A0 m c)) (take (A1 m c)) (scat m c) (A2 m c) (A3 m c) (A4 m c) (A5 m c) (A6 m c) (A11 m c) (A12 m c) (pieces m c) := by
  have hs' : Cert.PreFacts.InRange (StableHlo.launchContents m' c (Proc.devRef .tc Cert.ReferenceIdeal.main_arg0)) := by
    rw [show StableHlo.launchContents m' c (Proc.devRef .tc Cert.ReferenceIdeal.main_arg0) = A0 m c from e0]; exact hs
  have hd' : Cert.PreFacts.InRange (StableHlo.launchContents m' c (Proc.devRef .tc Cert.ReferenceIdeal.main_arg1)) := by
    rw [show StableHlo.launchContents m' c (Proc.devRef .tc Cert.ReferenceIdeal.main_arg1) = A1 m c from e1]; exact hd
  have hP : (pieces m c).CutFrom
      (StableHlo.launchContents m' c (Proc.devRef .tc Cert.ReferenceIdeal.main_arg7))
      (StableHlo.launchContents m' c (Proc.devRef .tc Cert.ReferenceIdeal.main_arg9))
      (StableHlo.launchContents m' c (Proc.devRef .tc Cert.ReferenceIdeal.main_arg14))
      (StableHlo.launchContents m' c (Proc.devRef .tc Cert.ReferenceIdeal.main_arg16))
      (StableHlo.launchContents m' c (Proc.devRef .tc Cert.ReferenceIdeal.main_arg8))
      (StableHlo.launchContents m' c (Proc.devRef .tc Cert.ReferenceIdeal.main_arg10))
      (StableHlo.launchContents m' c (Proc.devRef .tc Cert.ReferenceIdeal.main_arg15))
      (StableHlo.launchContents m' c (Proc.devRef .tc Cert.ReferenceIdeal.main_arg17))
      (StableHlo.launchContents m' c (Proc.devRef .tc Cert.ReferenceIdeal.main_arg13)) := by
    rw [show StableHlo.launchContents m' c (Proc.devRef .tc Cert.ReferenceIdeal.main_arg7) = A7 m c from e7,
      show StableHlo.launchContents m' c (Proc.devRef .tc Cert.ReferenceIdeal.main_arg9) = A9 m c from e9,
      show StableHlo.launchContents m' c (Proc.devRef .tc Cert.ReferenceIdeal.main_arg14) = A14 m c from e14,
      show StableHlo.launchContents m' c (Proc.devRef .tc Cert.ReferenceIdeal.main_arg16) = A16 m c from e16,
      show StableHlo.launchContents m' c (Proc.devRef .tc Cert.ReferenceIdeal.main_arg8) = A8 m c from e8,
      show StableHlo.launchContents m' c (Proc.devRef .tc Cert.ReferenceIdeal.main_arg10) = A10 m c from e10,
      show StableHlo.launchContents m' c (Proc.devRef .tc Cert.ReferenceIdeal.main_arg15) = A15 m c from e15,
      show StableHlo.launchContents m' c (Proc.devRef .tc Cert.ReferenceIdeal.main_arg17) = A17 m c from e17,
      show StableHlo.launchContents m' c (Proc.devRef .tc Cert.ReferenceIdeal.main_arg13) = A13 m c from e13]
    exact pieces_cut m c
  have hr := Cert.ReferenceIdeal.RefValue.ref_results (StableHlo.launchContents m' c) hs' hd' (pieces m c) hP
  have hGs : Cert.ReferenceIdeal.RefValue.Gs (StableHlo.launchContents m' c) = take (A0 m c) := by
    rw [take_of_inRange (A0 m c) hs]
    funext x
    exact congrArg (fun I => gatherAt I x) e0
  have hGd : Cert.ReferenceIdeal.RefValue.Gd (StableHlo.launchContents m' c) = take (A1 m c) := by
    rw [take_of_inRange (A1 m c) hd]
    funext x
    exact congrArg (fun I => gatherAt I x) e1
  have hSc : Cert.ReferenceIdeal.RefValue.Sc (StableHlo.launchContents m' c) = scat m c := by
    funext u
    exact congrArg (fun I => scatBy I u) e1
  exact ⟨hr.1.trans (layerNode_congr _ hGs hGd hSc e2 e3 e4 e5 e6 e11 e12),
    hr.2.trans (layerEdge_congr _ hGs hGd hSc e2 e3 e4 e5 e6 e11 e12)⟩

end Layer

/-- Both programs end with the layer's two arrays: under the precondition every id is in range, and the arguments agree. -/
theorem algebraic : Cert.algebraic_KernelIdeal_ReferenceIdeal := by
  intro m ρ m' ρ' hpre hagree
  refine ⟨_, _, kernel_layer m ρ, ?_⟩
  refine (θ_run Cert.ReferenceIdeal.defs _ _).mono (fun _ h c => ?_) (Cert.ReferenceIdeal.RefRun.run (F := Ideal) m' ρ')
  obtain ⟨hs, hd⟩ := Cert.PreFacts.inRange_of_pre (F := Ideal) _ _ _ _ _ _ _ _ _ _ _ _ _ _ _ _ _ _ (hpre c)
  obtain ⟨e0, e1, e2, e3, e4, e5, e6, e7, e8, e9, e10, e11, e12, e13, e14, e15, e16, e17⟩ := hagree c
  have hr := reference_layer m m' c hs hd e0 e1 e2 e3 e4 e5 e6 e7 e8 e9 e10 e11 e12 e13 e14 e15 e16 e17
  exact ⟨(h c).1.trans hr.1, (h c).2.1.trans hr.2, (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
